-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![32768, 1024]⟩ ⟨2, ![65536, 1024]⟩ (Layout.meshBlock [2, 2] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S32768x1024 : Shape := ⟨2, ![32768, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel

variable [Facts]

def fn {F : FTy → Type} [FloatOps F] (main_arg0 : FVec F S32768x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  main_v3
-- ==== Pre_finite_inputs_ReferenceIdeal.lean ====
abbrev S65536x1024 : Shape := ⟨2, ![65536, 1024]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel

variable [Facts]

def fn {F : FTy → Type} [FloatOps F] (main_arg0 : FVec F S65536x1024 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  main_v3
-- ==== Kernel.lean ====
abbrev S32768x1024 : Shape := ⟨2, ![32768, 1024]⟩
abbrev S64 : Shape := ⟨1, ![64]⟩
abbrev S2x256x1024 : Shape := ⟨3, ![2, 256, 1024]⟩
abbrev S2 : Shape := ⟨1, ![2]⟩
abbrev S_ : Shape := ⟨0, ![]⟩
abbrev S1 : Shape := ⟨1, ![1]⟩
abbrev S256x1024 : Shape := ⟨2, ![256, 1024]⟩
abbrev S1x256x1024 : Shape := ⟨3, ![1, 256, 1024]⟩

abbrev nBuf : Space → Nat
  | .hbm => 2
  | .vmem => 3
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .local _ .vmem, ⟨0, _⟩ => ⟨S2x256x1024, .f32⟩
  | .local _ .vmem, ⟨1, _⟩ => ⟨S2x256x1024, .f32⟩
  | .local _ .vmem, ⟨2, _⟩ => ⟨S2x256x1024, .f32⟩
  | _, _ => ⟨S32768x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 262 → Bool
  | ⟨i, _⟩ => dmaSemScopedAt i

abbrev sig : RefSig :=
  (ofTc nBuf bufTy 1 262 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch4 : Ref sig .tc := ⟨.vmem, 0, rfl⟩
abbrev cc0_scratch5 : Ref sig .tc := ⟨.vmem, 1, rfl⟩
abbrev cc0_scratch6 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_5 : BitVec 32 := 2#32
  let v10 : BitVec 32 := Scalar.muli v2 c2_i32_5
  let v11 : BitVec 32 := Scalar.addi c0_i32 v10
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_6 : BitVec 32 := 1#32
  let v12 : BitVec 32 := Scalar.muli v6 c1_i32_6
  let v13 : BitVec 32 := Scalar.addi v11 v12
  v13.toNat
def k0_dev2 (d0 : Dev nD) : Nat :=
  let c0_i32_9 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_8 : BitVec 32 := 2#32
  let v14 : BitVec 32 := Scalar.muli v7 c2_i32_8
  let v15 : BitVec 32 := Scalar.addi c0_i32_9 v14
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_10 : BitVec 32 := 1#32
  let v16 : BitVec 32 := Scalar.muli v5 c1_i32_10
  let v17 : BitVec 32 := Scalar.addi v15 v16
  v17.toNat
def k0_off1 (d0 : Dev nD) (c0_i32_12 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c16384_i32 : BitVec 32 := 16384#32
  let v8 : BitVec 32 := Scalar.muli v2 c16384_i32
  let v18 : BitVec 32 := Scalar.addi v8 c0_i32_12
  let c0_i32_18 : BitVec 32 := 0#32
  ![v18.toNat, 0]
def k0_dev3 (d0 : Dev nD) : Nat :=
  let c0_i32_16 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_15 : BitVec 32 := 2#32
  let v19 : BitVec 32 := Scalar.muli v2 c2_i32_15
  let v20 : BitVec 32 := Scalar.addi c0_i32_16 v19
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_17 : BitVec 32 := 1#32
  let v21 : BitVec 32 := Scalar.muli v6 c1_i32_17
  let v22 : BitVec 32 := Scalar.addi v20 v21
  v22.toNat
def k0_dev4 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v30 : BitVec 32 := Scalar.muli v2 c2_i32_22
  let v31 : BitVec 32 := Scalar.addi c0_i32_23 v30
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_24 : BitVec 32 := 1#32
  let v32 : BitVec 32 := Scalar.muli v6 c1_i32_24
  let v33 : BitVec 32 := Scalar.addi v31 v32
  v33.toNat
def k0_dev5 (d0 : Dev nD) : Nat :=
  let c0_i32_30 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_29 : BitVec 32 := 2#32
  let v41 : BitVec 32 := Scalar.muli v2 c2_i32_29
  let v42 : BitVec 32 := Scalar.addi c0_i32_30 v41
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_31 : BitVec 32 := 1#32
  let v43 : BitVec 32 := Scalar.muli v6 c1_i32_31
  let v44 : BitVec 32 := Scalar.addi v42 v43
  v44.toNat
def k0_dev6 (d0 : Dev nD) : Nat :=
  let c0_i32_36 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_35 : BitVec 32 := 2#32
  let v52 : BitVec 32 := Scalar.muli v2 c2_i32_35
  let v53 : BitVec 32 := Scalar.addi c0_i32_36 v52
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_37 : BitVec 32 := 1#32
  let v54 : BitVec 32 := Scalar.muli v6 c1_i32_37
  let v55 : BitVec 32 := Scalar.addi v53 v54
  v55.toNat
def k0_dev7 (d0 : Dev nD) : Nat :=
  let c0_i32_42 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_41 : BitVec 32 := 2#32
  let v63 : BitVec 32 := Scalar.muli v2 c2_i32_41
  let v64 : BitVec 32 := Scalar.addi c0_i32_42 v63
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_43 : BitVec 32 := 1#32
  let v65 : BitVec 32 := Scalar.muli v6 c1_i32_43
  let v66 : BitVec 32 := Scalar.addi v64 v65
  v66.toNat
def k0_dev8 (d0 : Dev nD) : Nat :=
  let c0_i32_48 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_47 : BitVec 32 := 2#32
  let v74 : BitVec 32 := Scalar.muli v2 c2_i32_47
  let v75 : BitVec 32 := Scalar.addi c0_i32_48 v74
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_49 : BitVec 32 := 1#32
  let v76 : BitVec 32 := Scalar.muli v6 c1_i32_49
  let v77 : BitVec 32 := Scalar.addi v75 v76
  v77.toNat
def k0_dev9 (d0 : Dev nD) : Nat :=
  let c0_i32_54 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_53 : BitVec 32 := 2#32
  let v85 : BitVec 32 := Scalar.muli v2 c2_i32_53
  let v86 : BitVec 32 := Scalar.addi c0_i32_54 v85
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_55 : BitVec 32 := 1#32
  let v87 : BitVec 32 := Scalar.muli v6 c1_i32_55
  let v88 : BitVec 32 := Scalar.addi v86 v87
  v88.toNat
def k0_dev10 (d0 : Dev nD) : Nat :=
  let c0_i32_60 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_59 : BitVec 32 := 2#32
  let v96 : BitVec 32 := Scalar.muli v2 c2_i32_59
  let v97 : BitVec 32 := Scalar.addi c0_i32_60 v96
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_61 : BitVec 32 := 1#32
  let v98 : BitVec 32 := Scalar.muli v6 c1_i32_61
  let v99 : BitVec 32 := Scalar.addi v97 v98
  v99.toNat
def k0_dev11 (d0 : Dev nD) : Nat :=
  let c0_i32_66 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_65 : BitVec 32 := 2#32
  let v107 : BitVec 32 := Scalar.muli v2 c2_i32_65
  let v108 : BitVec 32 := Scalar.addi c0_i32_66 v107
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_67 : BitVec 32 := 1#32
  let v109 : BitVec 32 := Scalar.muli v6 c1_i32_67
  let v110 : BitVec 32 := Scalar.addi v108 v109
  v110.toNat
def k0_dev12 (d0 : Dev nD) : Nat :=
  let c0_i32_72 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_71 : BitVec 32 := 2#32
  let v118 : BitVec 32 := Scalar.muli v2 c2_i32_71
  let v119 : BitVec 32 := Scalar.addi c0_i32_72 v118
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_73 : BitVec 32 := 1#32
  let v120 : BitVec 32 := Scalar.muli v6 c1_i32_73
  let v121 : BitVec 32 := Scalar.addi v119 v120
  v121.toNat
def k0_dev13 (d0 : Dev nD) : Nat :=
  let c0_i32_78 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_77 : BitVec 32 := 2#32
  let v129 : BitVec 32 := Scalar.muli v2 c2_i32_77
  let v130 : BitVec 32 := Scalar.addi c0_i32_78 v129
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_79 : BitVec 32 := 1#32
  let v131 : BitVec 32 := Scalar.muli v6 c1_i32_79
  let v132 : BitVec 32 := Scalar.addi v130 v131
  v132.toNat
def k0_dev14 (d0 : Dev nD) : Nat :=
  let c0_i32_84 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_83 : BitVec 32 := 2#32
  let v140 : BitVec 32 := Scalar.muli v2 c2_i32_83
  let v141 : BitVec 32 := Scalar.addi c0_i32_84 v140
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_85 : BitVec 32 := 1#32
  let v142 : BitVec 32 := Scalar.muli v6 c1_i32_85
  let v143 : BitVec 32 := Scalar.addi v141 v142
  v143.toNat
def k0_dev15 (d0 : Dev nD) : Nat :=
  let c0_i32_90 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_89 : BitVec 32 := 2#32
  let v151 : BitVec 32 := Scalar.muli v2 c2_i32_89
  let v152 : BitVec 32 := Scalar.addi c0_i32_90 v151
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_91 : BitVec 32 := 1#32
  let v153 : BitVec 32 := Scalar.muli v6 c1_i32_91
  let v154 : BitVec 32 := Scalar.addi v152 v153
  v154.toNat
def k0_dev16 (d0 : Dev nD) : Nat :=
  let c0_i32_96 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_95 : BitVec 32 := 2#32
  let v162 : BitVec 32 := Scalar.muli v2 c2_i32_95
  let v163 : BitVec 32 := Scalar.addi c0_i32_96 v162
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_97 : BitVec 32 := 1#32
  let v164 : BitVec 32 := Scalar.muli v6 c1_i32_97
  let v165 : BitVec 32 := Scalar.addi v163 v164
  v165.toNat
def k0_dev17 (d0 : Dev nD) : Nat :=
  let c0_i32_102 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_101 : BitVec 32 := 2#32
  let v173 : BitVec 32 := Scalar.muli v2 c2_i32_101
  let v174 : BitVec 32 := Scalar.addi c0_i32_102 v173
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_103 : BitVec 32 := 1#32
  let v175 : BitVec 32 := Scalar.muli v6 c1_i32_103
  let v176 : BitVec 32 := Scalar.addi v174 v175
  v176.toNat
def k0_dev18 (d0 : Dev nD) : Nat :=
  let c0_i32_108 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_107 : BitVec 32 := 2#32
  let v184 : BitVec 32 := Scalar.muli v2 c2_i32_107
  let v185 : BitVec 32 := Scalar.addi c0_i32_108 v184
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_109 : BitVec 32 := 1#32
  let v186 : BitVec 32 := Scalar.muli v6 c1_i32_109
  let v187 : BitVec 32 := Scalar.addi v185 v186
  v187.toNat
def k0_dev19 (d0 : Dev nD) : Nat :=
  let c0_i32_114 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_113 : BitVec 32 := 2#32
  let v195 : BitVec 32 := Scalar.muli v2 c2_i32_113
  let v196 : BitVec 32 := Scalar.addi c0_i32_114 v195
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_115 : BitVec 32 := 1#32
  let v197 : BitVec 32 := Scalar.muli v6 c1_i32_115
  let v198 : BitVec 32 := Scalar.addi v196 v197
  v198.toNat
def k0_dev20 (d0 : Dev nD) : Nat :=
  let c0_i32_120 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_119 : BitVec 32 := 2#32
  let v206 : BitVec 32 := Scalar.muli v2 c2_i32_119
  let v207 : BitVec 32 := Scalar.addi c0_i32_120 v206
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_121 : BitVec 32 := 1#32
  let v208 : BitVec 32 := Scalar.muli v6 c1_i32_121
  let v209 : BitVec 32 := Scalar.addi v207 v208
  v209.toNat
def k0_dev21 (d0 : Dev nD) : Nat :=
  let c0_i32_126 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_125 : BitVec 32 := 2#32
  let v217 : BitVec 32 := Scalar.muli v2 c2_i32_125
  let v218 : BitVec 32 := Scalar.addi c0_i32_126 v217
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_127 : BitVec 32 := 1#32
  let v219 : BitVec 32 := Scalar.muli v6 c1_i32_127
  let v220 : BitVec 32 := Scalar.addi v218 v219
  v220.toNat
def k0_dev22 (d0 : Dev nD) : Nat :=
  let c0_i32_132 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_131 : BitVec 32 := 2#32
  let v228 : BitVec 32 := Scalar.muli v2 c2_i32_131
  let v229 : BitVec 32 := Scalar.addi c0_i32_132 v228
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_133 : BitVec 32 := 1#32
  let v230 : BitVec 32 := Scalar.muli v6 c1_i32_133
  let v231 : BitVec 32 := Scalar.addi v229 v230
  v231.toNat
def k0_dev23 (d0 : Dev nD) : Nat :=
  let c0_i32_138 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_137 : BitVec 32 := 2#32
  let v239 : BitVec 32 := Scalar.muli v2 c2_i32_137
  let v240 : BitVec 32 := Scalar.addi c0_i32_138 v239
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_139 : BitVec 32 := 1#32
  let v241 : BitVec 32 := Scalar.muli v6 c1_i32_139
  let v242 : BitVec 32 := Scalar.addi v240 v241
  v242.toNat
def k0_dev24 (d0 : Dev nD) : Nat :=
  let c0_i32_144 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_143 : BitVec 32 := 2#32
  let v250 : BitVec 32 := Scalar.muli v2 c2_i32_143
  let v251 : BitVec 32 := Scalar.addi c0_i32_144 v250
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_145 : BitVec 32 := 1#32
  let v252 : BitVec 32 := Scalar.muli v6 c1_i32_145
  let v253 : BitVec 32 := Scalar.addi v251 v252
  v253.toNat
def k0_dev25 (d0 : Dev nD) : Nat :=
  let c0_i32_150 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_149 : BitVec 32 := 2#32
  let v261 : BitVec 32 := Scalar.muli v2 c2_i32_149
  let v262 : BitVec 32 := Scalar.addi c0_i32_150 v261
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_151 : BitVec 32 := 1#32
  let v263 : BitVec 32 := Scalar.muli v6 c1_i32_151
  let v264 : BitVec 32 := Scalar.addi v262 v263
  v264.toNat
def k0_dev26 (d0 : Dev nD) : Nat :=
  let c0_i32_156 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_155 : BitVec 32 := 2#32
  let v272 : BitVec 32 := Scalar.muli v2 c2_i32_155
  let v273 : BitVec 32 := Scalar.addi c0_i32_156 v272
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_157 : BitVec 32 := 1#32
  let v274 : BitVec 32 := Scalar.muli v6 c1_i32_157
  let v275 : BitVec 32 := Scalar.addi v273 v274
  v275.toNat
def k0_dev27 (d0 : Dev nD) : Nat :=
  let c0_i32_162 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_161 : BitVec 32 := 2#32
  let v283 : BitVec 32 := Scalar.muli v2 c2_i32_161
  let v284 : BitVec 32 := Scalar.addi c0_i32_162 v283
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_163 : BitVec 32 := 1#32
  let v285 : BitVec 32 := Scalar.muli v6 c1_i32_163
  let v286 : BitVec 32 := Scalar.addi v284 v285
  v286.toNat
def k0_dev28 (d0 : Dev nD) : Nat :=
  let c0_i32_168 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_167 : BitVec 32 := 2#32
  let v294 : BitVec 32 := Scalar.muli v2 c2_i32_167
  let v295 : BitVec 32 := Scalar.addi c0_i32_168 v294
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_169 : BitVec 32 := 1#32
  let v296 : BitVec 32 := Scalar.muli v6 c1_i32_169
  let v297 : BitVec 32 := Scalar.addi v295 v296
  v297.toNat
def k0_dev29 (d0 : Dev nD) : Nat :=
  let c0_i32_174 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_173 : BitVec 32 := 2#32
  let v305 : BitVec 32 := Scalar.muli v2 c2_i32_173
  let v306 : BitVec 32 := Scalar.addi c0_i32_174 v305
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_175 : BitVec 32 := 1#32
  let v307 : BitVec 32 := Scalar.muli v6 c1_i32_175
  let v308 : BitVec 32 := Scalar.addi v306 v307
  v308.toNat
def k0_dev30 (d0 : Dev nD) : Nat :=
  let c0_i32_180 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_179 : BitVec 32 := 2#32
  let v316 : BitVec 32 := Scalar.muli v2 c2_i32_179
  let v317 : BitVec 32 := Scalar.addi c0_i32_180 v316
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_181 : BitVec 32 := 1#32
  let v318 : BitVec 32 := Scalar.muli v6 c1_i32_181
  let v319 : BitVec 32 := Scalar.addi v317 v318
  v319.toNat
def k0_dev31 (d0 : Dev nD) : Nat :=
  let c0_i32_186 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_185 : BitVec 32 := 2#32
  let v327 : BitVec 32 := Scalar.muli v2 c2_i32_185
  let v328 : BitVec 32 := Scalar.addi c0_i32_186 v327
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_187 : BitVec 32 := 1#32
  let v329 : BitVec 32 := Scalar.muli v6 c1_i32_187
  let v330 : BitVec 32 := Scalar.addi v328 v329
  v330.toNat
def k0_dev32 (d0 : Dev nD) : Nat :=
  let c0_i32_192 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_191 : BitVec 32 := 2#32
  let v338 : BitVec 32 := Scalar.muli v2 c2_i32_191
  let v339 : BitVec 32 := Scalar.addi c0_i32_192 v338
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_193 : BitVec 32 := 1#32
  let v340 : BitVec 32 := Scalar.muli v6 c1_i32_193
  let v341 : BitVec 32 := Scalar.addi v339 v340
  v341.toNat
def k0_dev33 (d0 : Dev nD) : Nat :=
  let c0_i32_198 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_197 : BitVec 32 := 2#32
  let v349 : BitVec 32 := Scalar.muli v2 c2_i32_197
  let v350 : BitVec 32 := Scalar.addi c0_i32_198 v349
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_199 : BitVec 32 := 1#32
  let v351 : BitVec 32 := Scalar.muli v6 c1_i32_199
  let v352 : BitVec 32 := Scalar.addi v350 v351
  v352.toNat
def k0_dev34 (d0 : Dev nD) : Nat :=
  let c0_i32_204 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_203 : BitVec 32 := 2#32
  let v360 : BitVec 32 := Scalar.muli v2 c2_i32_203
  let v361 : BitVec 32 := Scalar.addi c0_i32_204 v360
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_205 : BitVec 32 := 1#32
  let v362 : BitVec 32 := Scalar.muli v6 c1_i32_205
  let v363 : BitVec 32 := Scalar.addi v361 v362
  v363.toNat
def k0_dev35 (d0 : Dev nD) : Nat :=
  let c0_i32_210 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_209 : BitVec 32 := 2#32
  let v371 : BitVec 32 := Scalar.muli v2 c2_i32_209
  let v372 : BitVec 32 := Scalar.addi c0_i32_210 v371
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_211 : BitVec 32 := 1#32
  let v373 : BitVec 32 := Scalar.muli v6 c1_i32_211
  let v374 : BitVec 32 := Scalar.addi v372 v373
  v374.toNat
def k0_dev36 (d0 : Dev nD) : Nat :=
  let c0_i32_216 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_215 : BitVec 32 := 2#32
  let v382 : BitVec 32 := Scalar.muli v2 c2_i32_215
  let v383 : BitVec 32 := Scalar.addi c0_i32_216 v382
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_217 : BitVec 32 := 1#32
  let v384 : BitVec 32 := Scalar.muli v6 c1_i32_217
  let v385 : BitVec 32 := Scalar.addi v383 v384
  v385.toNat
def k0_dev37 (d0 : Dev nD) : Nat :=
  let c0_i32_222 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_221 : BitVec 32 := 2#32
  let v393 : BitVec 32 := Scalar.muli v2 c2_i32_221
  let v394 : BitVec 32 := Scalar.addi c0_i32_222 v393
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_223 : BitVec 32 := 1#32
  let v395 : BitVec 32 := Scalar.muli v6 c1_i32_223
  let v396 : BitVec 32 := Scalar.addi v394 v395
  v396.toNat
def k0_dev38 (d0 : Dev nD) : Nat :=
  let c0_i32_228 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_227 : BitVec 32 := 2#32
  let v404 : BitVec 32 := Scalar.muli v2 c2_i32_227
  let v405 : BitVec 32 := Scalar.addi c0_i32_228 v404
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_229 : BitVec 32 := 1#32
  let v406 : BitVec 32 := Scalar.muli v6 c1_i32_229
  let v407 : BitVec 32 := Scalar.addi v405 v406
  v407.toNat
def k0_dev39 (d0 : Dev nD) : Nat :=
  let c0_i32_234 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_233 : BitVec 32 := 2#32
  let v415 : BitVec 32 := Scalar.muli v2 c2_i32_233
  let v416 : BitVec 32 := Scalar.addi c0_i32_234 v415
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_235 : BitVec 32 := 1#32
  let v417 : BitVec 32 := Scalar.muli v6 c1_i32_235
  let v418 : BitVec 32 := Scalar.addi v416 v417
  v418.toNat
def k0_dev40 (d0 : Dev nD) : Nat :=
  let c0_i32_240 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_239 : BitVec 32 := 2#32
  let v426 : BitVec 32 := Scalar.muli v2 c2_i32_239
  let v427 : BitVec 32 := Scalar.addi c0_i32_240 v426
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_241 : BitVec 32 := 1#32
  let v428 : BitVec 32 := Scalar.muli v6 c1_i32_241
  let v429 : BitVec 32 := Scalar.addi v427 v428
  v429.toNat
def k0_dev41 (d0 : Dev nD) : Nat :=
  let c0_i32_246 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_245 : BitVec 32 := 2#32
  let v437 : BitVec 32 := Scalar.muli v2 c2_i32_245
  let v438 : BitVec 32 := Scalar.addi c0_i32_246 v437
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_247 : BitVec 32 := 1#32
  let v439 : BitVec 32 := Scalar.muli v6 c1_i32_247
  let v440 : BitVec 32 := Scalar.addi v438 v439
  v440.toNat
def k0_dev42 (d0 : Dev nD) : Nat :=
  let c0_i32_252 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_251 : BitVec 32 := 2#32
  let v448 : BitVec 32 := Scalar.muli v2 c2_i32_251
  let v449 : BitVec 32 := Scalar.addi c0_i32_252 v448
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_253 : BitVec 32 := 1#32
  let v450 : BitVec 32 := Scalar.muli v6 c1_i32_253
  let v451 : BitVec 32 := Scalar.addi v449 v450
  v451.toNat
def k0_dev43 (d0 : Dev nD) : Nat :=
  let c0_i32_258 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_257 : BitVec 32 := 2#32
  let v459 : BitVec 32 := Scalar.muli v2 c2_i32_257
  let v460 : BitVec 32 := Scalar.addi c0_i32_258 v459
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_259 : BitVec 32 := 1#32
  let v461 : BitVec 32 := Scalar.muli v6 c1_i32_259
  let v462 : BitVec 32 := Scalar.addi v460 v461
  v462.toNat
def k0_dev44 (d0 : Dev nD) : Nat :=
  let c0_i32_264 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_263 : BitVec 32 := 2#32
  let v470 : BitVec 32 := Scalar.muli v2 c2_i32_263
  let v471 : BitVec 32 := Scalar.addi c0_i32_264 v470
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_265 : BitVec 32 := 1#32
  let v472 : BitVec 32 := Scalar.muli v6 c1_i32_265
  let v473 : BitVec 32 := Scalar.addi v471 v472
  v473.toNat
def k0_dev45 (d0 : Dev nD) : Nat :=
  let c0_i32_270 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_269 : BitVec 32 := 2#32
  let v481 : BitVec 32 := Scalar.muli v2 c2_i32_269
  let v482 : BitVec 32 := Scalar.addi c0_i32_270 v481
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_271 : BitVec 32 := 1#32
  let v483 : BitVec 32 := Scalar.muli v6 c1_i32_271
  let v484 : BitVec 32 := Scalar.addi v482 v483
  v484.toNat
def k0_dev46 (d0 : Dev nD) : Nat :=
  let c0_i32_276 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_275 : BitVec 32 := 2#32
  let v492 : BitVec 32 := Scalar.muli v2 c2_i32_275
  let v493 : BitVec 32 := Scalar.addi c0_i32_276 v492
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_277 : BitVec 32 := 1#32
  let v494 : BitVec 32 := Scalar.muli v6 c1_i32_277
  let v495 : BitVec 32 := Scalar.addi v493 v494
  v495.toNat
def k0_dev47 (d0 : Dev nD) : Nat :=
  let c0_i32_282 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_281 : BitVec 32 := 2#32
  let v503 : BitVec 32 := Scalar.muli v2 c2_i32_281
  let v504 : BitVec 32 := Scalar.addi c0_i32_282 v503
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_283 : BitVec 32 := 1#32
  let v505 : BitVec 32 := Scalar.muli v6 c1_i32_283
  let v506 : BitVec 32 := Scalar.addi v504 v505
  v506.toNat
def k0_dev48 (d0 : Dev nD) : Nat :=
  let c0_i32_288 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_287 : BitVec 32 := 2#32
  let v514 : BitVec 32 := Scalar.muli v2 c2_i32_287
  let v515 : BitVec 32 := Scalar.addi c0_i32_288 v514
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_289 : BitVec 32 := 1#32
  let v516 : BitVec 32 := Scalar.muli v6 c1_i32_289
  let v517 : BitVec 32 := Scalar.addi v515 v516
  v517.toNat
def k0_dev49 (d0 : Dev nD) : Nat :=
  let c0_i32_294 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_293 : BitVec 32 := 2#32
  let v525 : BitVec 32 := Scalar.muli v2 c2_i32_293
  let v526 : BitVec 32 := Scalar.addi c0_i32_294 v525
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_295 : BitVec 32 := 1#32
  let v527 : BitVec 32 := Scalar.muli v6 c1_i32_295
  let v528 : BitVec 32 := Scalar.addi v526 v527
  v528.toNat
def k0_dev50 (d0 : Dev nD) : Nat :=
  let c0_i32_300 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_299 : BitVec 32 := 2#32
  let v536 : BitVec 32 := Scalar.muli v2 c2_i32_299
  let v537 : BitVec 32 := Scalar.addi c0_i32_300 v536
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_301 : BitVec 32 := 1#32
  let v538 : BitVec 32 := Scalar.muli v6 c1_i32_301
  let v539 : BitVec 32 := Scalar.addi v537 v538
  v539.toNat
def k0_dev51 (d0 : Dev nD) : Nat :=
  let c0_i32_306 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_305 : BitVec 32 := 2#32
  let v547 : BitVec 32 := Scalar.muli v2 c2_i32_305
  let v548 : BitVec 32 := Scalar.addi c0_i32_306 v547
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_307 : BitVec 32 := 1#32
  let v549 : BitVec 32 := Scalar.muli v6 c1_i32_307
  let v550 : BitVec 32 := Scalar.addi v548 v549
  v550.toNat
def k0_dev52 (d0 : Dev nD) : Nat :=
  let c0_i32_312 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_311 : BitVec 32 := 2#32
  let v558 : BitVec 32 := Scalar.muli v2 c2_i32_311
  let v559 : BitVec 32 := Scalar.addi c0_i32_312 v558
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_313 : BitVec 32 := 1#32
  let v560 : BitVec 32 := Scalar.muli v6 c1_i32_313
  let v561 : BitVec 32 := Scalar.addi v559 v560
  v561.toNat
def k0_dev53 (d0 : Dev nD) : Nat :=
  let c0_i32_318 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_317 : BitVec 32 := 2#32
  let v569 : BitVec 32 := Scalar.muli v2 c2_i32_317
  let v570 : BitVec 32 := Scalar.addi c0_i32_318 v569
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_319 : BitVec 32 := 1#32
  let v571 : BitVec 32 := Scalar.muli v6 c1_i32_319
  let v572 : BitVec 32 := Scalar.addi v570 v571
  v572.toNat
def k0_dev54 (d0 : Dev nD) : Nat :=
  let c0_i32_324 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_323 : BitVec 32 := 2#32
  let v580 : BitVec 32 := Scalar.muli v2 c2_i32_323
  let v581 : BitVec 32 := Scalar.addi c0_i32_324 v580
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_325 : BitVec 32 := 1#32
  let v582 : BitVec 32 := Scalar.muli v6 c1_i32_325
  let v583 : BitVec 32 := Scalar.addi v581 v582
  v583.toNat
def k0_dev55 (d0 : Dev nD) : Nat :=
  let c0_i32_330 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_329 : BitVec 32 := 2#32
  let v591 : BitVec 32 := Scalar.muli v2 c2_i32_329
  let v592 : BitVec 32 := Scalar.addi c0_i32_330 v591
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_331 : BitVec 32 := 1#32
  let v593 : BitVec 32 := Scalar.muli v6 c1_i32_331
  let v594 : BitVec 32 := Scalar.addi v592 v593
  v594.toNat
def k0_dev56 (d0 : Dev nD) : Nat :=
  let c0_i32_336 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_335 : BitVec 32 := 2#32
  let v602 : BitVec 32 := Scalar.muli v2 c2_i32_335
  let v603 : BitVec 32 := Scalar.addi c0_i32_336 v602
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_337 : BitVec 32 := 1#32
  let v604 : BitVec 32 := Scalar.muli v6 c1_i32_337
  let v605 : BitVec 32 := Scalar.addi v603 v604
  v605.toNat
def k0_dev57 (d0 : Dev nD) : Nat :=
  let c0_i32_342 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_341 : BitVec 32 := 2#32
  let v613 : BitVec 32 := Scalar.muli v2 c2_i32_341
  let v614 : BitVec 32 := Scalar.addi c0_i32_342 v613
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_343 : BitVec 32 := 1#32
  let v615 : BitVec 32 := Scalar.muli v6 c1_i32_343
  let v616 : BitVec 32 := Scalar.addi v614 v615
  v616.toNat
def k0_dev58 (d0 : Dev nD) : Nat :=
  let c0_i32_348 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_347 : BitVec 32 := 2#32
  let v624 : BitVec 32 := Scalar.muli v2 c2_i32_347
  let v625 : BitVec 32 := Scalar.addi c0_i32_348 v624
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_349 : BitVec 32 := 1#32
  let v626 : BitVec 32 := Scalar.muli v6 c1_i32_349
  let v627 : BitVec 32 := Scalar.addi v625 v626
  v627.toNat
def k0_dev59 (d0 : Dev nD) : Nat :=
  let c0_i32_354 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_353 : BitVec 32 := 2#32
  let v635 : BitVec 32 := Scalar.muli v2 c2_i32_353
  let v636 : BitVec 32 := Scalar.addi c0_i32_354 v635
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_355 : BitVec 32 := 1#32
  let v637 : BitVec 32 := Scalar.muli v6 c1_i32_355
  let v638 : BitVec 32 := Scalar.addi v636 v637
  v638.toNat
def k0_dev60 (d0 : Dev nD) : Nat :=
  let c0_i32_360 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_359 : BitVec 32 := 2#32
  let v646 : BitVec 32 := Scalar.muli v2 c2_i32_359
  let v647 : BitVec 32 := Scalar.addi c0_i32_360 v646
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_361 : BitVec 32 := 1#32
  let v648 : BitVec 32 := Scalar.muli v6 c1_i32_361
  let v649 : BitVec 32 := Scalar.addi v647 v648
  v649.toNat
def k0_dev61 (d0 : Dev nD) : Nat :=
  let c0_i32_366 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_365 : BitVec 32 := 2#32
  let v657 : BitVec 32 := Scalar.muli v2 c2_i32_365
  let v658 : BitVec 32 := Scalar.addi c0_i32_366 v657
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_367 : BitVec 32 := 1#32
  let v659 : BitVec 32 := Scalar.muli v6 c1_i32_367
  let v660 : BitVec 32 := Scalar.addi v658 v659
  v660.toNat
def k0_dev62 (d0 : Dev nD) : Nat :=
  let c0_i32_372 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_371 : BitVec 32 := 2#32
  let v668 : BitVec 32 := Scalar.muli v2 c2_i32_371
  let v669 : BitVec 32 := Scalar.addi c0_i32_372 v668
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_373 : BitVec 32 := 1#32
  let v670 : BitVec 32 := Scalar.muli v6 c1_i32_373
  let v671 : BitVec 32 := Scalar.addi v669 v670
  v671.toNat
def k0_dev63 (d0 : Dev nD) : Nat :=
  let c0_i32_378 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_377 : BitVec 32 := 2#32
  let v679 : BitVec 32 := Scalar.muli v2 c2_i32_377
  let v680 : BitVec 32 := Scalar.addi c0_i32_378 v679
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_379 : BitVec 32 := 1#32
  let v681 : BitVec 32 := Scalar.muli v6 c1_i32_379
  let v682 : BitVec 32 := Scalar.addi v680 v681
  v682.toNat
def k0_dev64 (d0 : Dev nD) : Nat :=
  let c0_i32_384 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_383 : BitVec 32 := 2#32
  let v690 : BitVec 32 := Scalar.muli v2 c2_i32_383
  let v691 : BitVec 32 := Scalar.addi c0_i32_384 v690
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_385 : BitVec 32 := 1#32
  let v692 : BitVec 32 := Scalar.muli v6 c1_i32_385
  let v693 : BitVec 32 := Scalar.addi v691 v692
  v693.toNat
def k0_dev65 (d0 : Dev nD) : Nat :=
  let c0_i32_390 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_389 : BitVec 32 := 2#32
  let v701 : BitVec 32 := Scalar.muli v2 c2_i32_389
  let v702 : BitVec 32 := Scalar.addi c0_i32_390 v701
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_391 : BitVec 32 := 1#32
  let v703 : BitVec 32 := Scalar.muli v6 c1_i32_391
  let v704 : BitVec 32 := Scalar.addi v702 v703
  v704.toNat
def k0_dev66 (d0 : Dev nD) : Nat :=
  let c0_i32_396 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_395 : BitVec 32 := 2#32
  let v712 : BitVec 32 := Scalar.muli v2 c2_i32_395
  let v713 : BitVec 32 := Scalar.addi c0_i32_396 v712
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_397 : BitVec 32 := 1#32
  let v714 : BitVec 32 := Scalar.muli v6 c1_i32_397
  let v715 : BitVec 32 := Scalar.addi v713 v714
  v715.toNat
def k0_dev67 (d0 : Dev nD) : Nat :=
  let c0_i32_445 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_444 : BitVec 32 := 2#32
  let v764 : BitVec 32 := Scalar.muli v7 c2_i32_444
  let v765 : BitVec 32 := Scalar.addi c0_i32_445 v764
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_446 : BitVec 32 := 1#32
  let v766 : BitVec 32 := Scalar.muli v5 c1_i32_446
  let v767 : BitVec 32 := Scalar.addi v765 v766
  v767.toNat
def k0_dev68 (d0 : Dev nD) : Nat :=
  let c0_i32_500 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_499 : BitVec 32 := 2#32
  let v821 : BitVec 32 := Scalar.muli v7 c2_i32_499
  let v822 : BitVec 32 := Scalar.addi c0_i32_500 v821
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_501 : BitVec 32 := 1#32
  let v823 : BitVec 32 := Scalar.muli v5 c1_i32_501
  let v824 : BitVec 32 := Scalar.addi v822 v823
  v824.toNat
def k0_dev69 (d0 : Dev nD) : Nat :=
  let c0_i32_568 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_567 : BitVec 32 := 2#32
  let v888 : BitVec 32 := Scalar.muli v7 c2_i32_567
  let v889 : BitVec 32 := Scalar.addi c0_i32_568 v888
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_569 : BitVec 32 := 1#32
  let v890 : BitVec 32 := Scalar.muli v5 c1_i32_569
  let v891 : BitVec 32 := Scalar.addi v889 v890
  v891.toNat
def k0_dev70 (d0 : Dev nD) : Nat :=
  let c0_i32_636 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_635 : BitVec 32 := 2#32
  let v955 : BitVec 32 := Scalar.muli v7 c2_i32_635
  let v956 : BitVec 32 := Scalar.addi c0_i32_636 v955
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_637 : BitVec 32 := 1#32
  let v957 : BitVec 32 := Scalar.muli v5 c1_i32_637
  let v958 : BitVec 32 := Scalar.addi v956 v957
  v958.toNat
def k0_dev71 (d0 : Dev nD) : Nat :=
  let c0_i32_704 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_703 : BitVec 32 := 2#32
  let v1022 : BitVec 32 := Scalar.muli v7 c2_i32_703
  let v1023 : BitVec 32 := Scalar.addi c0_i32_704 v1022
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_705 : BitVec 32 := 1#32
  let v1024 : BitVec 32 := Scalar.muli v5 c1_i32_705
  let v1025 : BitVec 32 := Scalar.addi v1023 v1024
  v1025.toNat
def k0_dev72 (d0 : Dev nD) : Nat :=
  let c0_i32_772 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_771 : BitVec 32 := 2#32
  let v1089 : BitVec 32 := Scalar.muli v7 c2_i32_771
  let v1090 : BitVec 32 := Scalar.addi c0_i32_772 v1089
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_773 : BitVec 32 := 1#32
  let v1091 : BitVec 32 := Scalar.muli v5 c1_i32_773
  let v1092 : BitVec 32 := Scalar.addi v1090 v1091
  v1092.toNat
def k0_dev73 (d0 : Dev nD) : Nat :=
  let c0_i32_840 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_839 : BitVec 32 := 2#32
  let v1156 : BitVec 32 := Scalar.muli v7 c2_i32_839
  let v1157 : BitVec 32 := Scalar.addi c0_i32_840 v1156
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_841 : BitVec 32 := 1#32
  let v1158 : BitVec 32 := Scalar.muli v5 c1_i32_841
  let v1159 : BitVec 32 := Scalar.addi v1157 v1158
  v1159.toNat
def k0_dev74 (d0 : Dev nD) : Nat :=
  let c0_i32_908 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_907 : BitVec 32 := 2#32
  let v1223 : BitVec 32 := Scalar.muli v7 c2_i32_907
  let v1224 : BitVec 32 := Scalar.addi c0_i32_908 v1223
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_909 : BitVec 32 := 1#32
  let v1225 : BitVec 32 := Scalar.muli v5 c1_i32_909
  let v1226 : BitVec 32 := Scalar.addi v1224 v1225
  v1226.toNat
def k0_dev75 (d0 : Dev nD) : Nat :=
  let c0_i32_976 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_975 : BitVec 32 := 2#32
  let v1290 : BitVec 32 := Scalar.muli v7 c2_i32_975
  let v1291 : BitVec 32 := Scalar.addi c0_i32_976 v1290
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_977 : BitVec 32 := 1#32
  let v1292 : BitVec 32 := Scalar.muli v5 c1_i32_977
  let v1293 : BitVec 32 := Scalar.addi v1291 v1292
  v1293.toNat
def k0_dev76 (d0 : Dev nD) : Nat :=
  let c0_i32_1044 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1043 : BitVec 32 := 2#32
  let v1357 : BitVec 32 := Scalar.muli v7 c2_i32_1043
  let v1358 : BitVec 32 := Scalar.addi c0_i32_1044 v1357
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1045 : BitVec 32 := 1#32
  let v1359 : BitVec 32 := Scalar.muli v5 c1_i32_1045
  let v1360 : BitVec 32 := Scalar.addi v1358 v1359
  v1360.toNat
def k0_dev77 (d0 : Dev nD) : Nat :=
  let c0_i32_1112 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1111 : BitVec 32 := 2#32
  let v1424 : BitVec 32 := Scalar.muli v7 c2_i32_1111
  let v1425 : BitVec 32 := Scalar.addi c0_i32_1112 v1424
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1113 : BitVec 32 := 1#32
  let v1426 : BitVec 32 := Scalar.muli v5 c1_i32_1113
  let v1427 : BitVec 32 := Scalar.addi v1425 v1426
  v1427.toNat
def k0_dev78 (d0 : Dev nD) : Nat :=
  let c0_i32_1180 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1179 : BitVec 32 := 2#32
  let v1491 : BitVec 32 := Scalar.muli v7 c2_i32_1179
  let v1492 : BitVec 32 := Scalar.addi c0_i32_1180 v1491
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1181 : BitVec 32 := 1#32
  let v1493 : BitVec 32 := Scalar.muli v5 c1_i32_1181
  let v1494 : BitVec 32 := Scalar.addi v1492 v1493
  v1494.toNat
def k0_dev79 (d0 : Dev nD) : Nat :=
  let c0_i32_1248 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1247 : BitVec 32 := 2#32
  let v1558 : BitVec 32 := Scalar.muli v7 c2_i32_1247
  let v1559 : BitVec 32 := Scalar.addi c0_i32_1248 v1558
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1249 : BitVec 32 := 1#32
  let v1560 : BitVec 32 := Scalar.muli v5 c1_i32_1249
  let v1561 : BitVec 32 := Scalar.addi v1559 v1560
  v1561.toNat
def k0_dev80 (d0 : Dev nD) : Nat :=
  let c0_i32_1316 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1315 : BitVec 32 := 2#32
  let v1625 : BitVec 32 := Scalar.muli v7 c2_i32_1315
  let v1626 : BitVec 32 := Scalar.addi c0_i32_1316 v1625
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1317 : BitVec 32 := 1#32
  let v1627 : BitVec 32 := Scalar.muli v5 c1_i32_1317
  let v1628 : BitVec 32 := Scalar.addi v1626 v1627
  v1628.toNat
def k0_dev81 (d0 : Dev nD) : Nat :=
  let c0_i32_1384 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1383 : BitVec 32 := 2#32
  let v1692 : BitVec 32 := Scalar.muli v7 c2_i32_1383
  let v1693 : BitVec 32 := Scalar.addi c0_i32_1384 v1692
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1385 : BitVec 32 := 1#32
  let v1694 : BitVec 32 := Scalar.muli v5 c1_i32_1385
  let v1695 : BitVec 32 := Scalar.addi v1693 v1694
  v1695.toNat
def k0_dev82 (d0 : Dev nD) : Nat :=
  let c0_i32_1452 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1451 : BitVec 32 := 2#32
  let v1759 : BitVec 32 := Scalar.muli v7 c2_i32_1451
  let v1760 : BitVec 32 := Scalar.addi c0_i32_1452 v1759
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1453 : BitVec 32 := 1#32
  let v1761 : BitVec 32 := Scalar.muli v5 c1_i32_1453
  let v1762 : BitVec 32 := Scalar.addi v1760 v1761
  v1762.toNat
def k0_dev83 (d0 : Dev nD) : Nat :=
  let c0_i32_1520 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1519 : BitVec 32 := 2#32
  let v1826 : BitVec 32 := Scalar.muli v7 c2_i32_1519
  let v1827 : BitVec 32 := Scalar.addi c0_i32_1520 v1826
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1521 : BitVec 32 := 1#32
  let v1828 : BitVec 32 := Scalar.muli v5 c1_i32_1521
  let v1829 : BitVec 32 := Scalar.addi v1827 v1828
  v1829.toNat
def k0_dev84 (d0 : Dev nD) : Nat :=
  let c0_i32_1588 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1587 : BitVec 32 := 2#32
  let v1893 : BitVec 32 := Scalar.muli v7 c2_i32_1587
  let v1894 : BitVec 32 := Scalar.addi c0_i32_1588 v1893
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1589 : BitVec 32 := 1#32
  let v1895 : BitVec 32 := Scalar.muli v5 c1_i32_1589
  let v1896 : BitVec 32 := Scalar.addi v1894 v1895
  v1896.toNat
def k0_dev85 (d0 : Dev nD) : Nat :=
  let c0_i32_1656 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1655 : BitVec 32 := 2#32
  let v1960 : BitVec 32 := Scalar.muli v7 c2_i32_1655
  let v1961 : BitVec 32 := Scalar.addi c0_i32_1656 v1960
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1657 : BitVec 32 := 1#32
  let v1962 : BitVec 32 := Scalar.muli v5 c1_i32_1657
  let v1963 : BitVec 32 := Scalar.addi v1961 v1962
  v1963.toNat
def k0_dev86 (d0 : Dev nD) : Nat :=
  let c0_i32_1724 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1723 : BitVec 32 := 2#32
  let v2027 : BitVec 32 := Scalar.muli v7 c2_i32_1723
  let v2028 : BitVec 32 := Scalar.addi c0_i32_1724 v2027
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1725 : BitVec 32 := 1#32
  let v2029 : BitVec 32 := Scalar.muli v5 c1_i32_1725
  let v2030 : BitVec 32 := Scalar.addi v2028 v2029
  v2030.toNat
def k0_dev87 (d0 : Dev nD) : Nat :=
  let c0_i32_1792 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1791 : BitVec 32 := 2#32
  let v2094 : BitVec 32 := Scalar.muli v7 c2_i32_1791
  let v2095 : BitVec 32 := Scalar.addi c0_i32_1792 v2094
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1793 : BitVec 32 := 1#32
  let v2096 : BitVec 32 := Scalar.muli v5 c1_i32_1793
  let v2097 : BitVec 32 := Scalar.addi v2095 v2096
  v2097.toNat
def k0_dev88 (d0 : Dev nD) : Nat :=
  let c0_i32_1860 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1859 : BitVec 32 := 2#32
  let v2161 : BitVec 32 := Scalar.muli v7 c2_i32_1859
  let v2162 : BitVec 32 := Scalar.addi c0_i32_1860 v2161
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1861 : BitVec 32 := 1#32
  let v2163 : BitVec 32 := Scalar.muli v5 c1_i32_1861
  let v2164 : BitVec 32 := Scalar.addi v2162 v2163
  v2164.toNat
def k0_dev89 (d0 : Dev nD) : Nat :=
  let c0_i32_1928 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1927 : BitVec 32 := 2#32
  let v2228 : BitVec 32 := Scalar.muli v7 c2_i32_1927
  let v2229 : BitVec 32 := Scalar.addi c0_i32_1928 v2228
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1929 : BitVec 32 := 1#32
  let v2230 : BitVec 32 := Scalar.muli v5 c1_i32_1929
  let v2231 : BitVec 32 := Scalar.addi v2229 v2230
  v2231.toNat
def k0_dev90 (d0 : Dev nD) : Nat :=
  let c0_i32_1996 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_1995 : BitVec 32 := 2#32
  let v2295 : BitVec 32 := Scalar.muli v7 c2_i32_1995
  let v2296 : BitVec 32 := Scalar.addi c0_i32_1996 v2295
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_1997 : BitVec 32 := 1#32
  let v2297 : BitVec 32 := Scalar.muli v5 c1_i32_1997
  let v2298 : BitVec 32 := Scalar.addi v2296 v2297
  v2298.toNat
def k0_dev91 (d0 : Dev nD) : Nat :=
  let c0_i32_2064 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2063 : BitVec 32 := 2#32
  let v2362 : BitVec 32 := Scalar.muli v7 c2_i32_2063
  let v2363 : BitVec 32 := Scalar.addi c0_i32_2064 v2362
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2065 : BitVec 32 := 1#32
  let v2364 : BitVec 32 := Scalar.muli v5 c1_i32_2065
  let v2365 : BitVec 32 := Scalar.addi v2363 v2364
  v2365.toNat
def k0_dev92 (d0 : Dev nD) : Nat :=
  let c0_i32_2132 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2131 : BitVec 32 := 2#32
  let v2429 : BitVec 32 := Scalar.muli v7 c2_i32_2131
  let v2430 : BitVec 32 := Scalar.addi c0_i32_2132 v2429
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2133 : BitVec 32 := 1#32
  let v2431 : BitVec 32 := Scalar.muli v5 c1_i32_2133
  let v2432 : BitVec 32 := Scalar.addi v2430 v2431
  v2432.toNat
def k0_dev93 (d0 : Dev nD) : Nat :=
  let c0_i32_2200 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2199 : BitVec 32 := 2#32
  let v2496 : BitVec 32 := Scalar.muli v7 c2_i32_2199
  let v2497 : BitVec 32 := Scalar.addi c0_i32_2200 v2496
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2201 : BitVec 32 := 1#32
  let v2498 : BitVec 32 := Scalar.muli v5 c1_i32_2201
  let v2499 : BitVec 32 := Scalar.addi v2497 v2498
  v2499.toNat
def k0_dev94 (d0 : Dev nD) : Nat :=
  let c0_i32_2268 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2267 : BitVec 32 := 2#32
  let v2563 : BitVec 32 := Scalar.muli v7 c2_i32_2267
  let v2564 : BitVec 32 := Scalar.addi c0_i32_2268 v2563
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2269 : BitVec 32 := 1#32
  let v2565 : BitVec 32 := Scalar.muli v5 c1_i32_2269
  let v2566 : BitVec 32 := Scalar.addi v2564 v2565
  v2566.toNat
def k0_dev95 (d0 : Dev nD) : Nat :=
  let c0_i32_2336 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2335 : BitVec 32 := 2#32
  let v2630 : BitVec 32 := Scalar.muli v7 c2_i32_2335
  let v2631 : BitVec 32 := Scalar.addi c0_i32_2336 v2630
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2337 : BitVec 32 := 1#32
  let v2632 : BitVec 32 := Scalar.muli v5 c1_i32_2337
  let v2633 : BitVec 32 := Scalar.addi v2631 v2632
  v2633.toNat
def k0_dev96 (d0 : Dev nD) : Nat :=
  let c0_i32_2404 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2403 : BitVec 32 := 2#32
  let v2697 : BitVec 32 := Scalar.muli v7 c2_i32_2403
  let v2698 : BitVec 32 := Scalar.addi c0_i32_2404 v2697
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2405 : BitVec 32 := 1#32
  let v2699 : BitVec 32 := Scalar.muli v5 c1_i32_2405
  let v2700 : BitVec 32 := Scalar.addi v2698 v2699
  v2700.toNat
def k0_dev97 (d0 : Dev nD) : Nat :=
  let c0_i32_2472 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2471 : BitVec 32 := 2#32
  let v2764 : BitVec 32 := Scalar.muli v7 c2_i32_2471
  let v2765 : BitVec 32 := Scalar.addi c0_i32_2472 v2764
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2473 : BitVec 32 := 1#32
  let v2766 : BitVec 32 := Scalar.muli v5 c1_i32_2473
  let v2767 : BitVec 32 := Scalar.addi v2765 v2766
  v2767.toNat
def k0_dev98 (d0 : Dev nD) : Nat :=
  let c0_i32_2540 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2539 : BitVec 32 := 2#32
  let v2831 : BitVec 32 := Scalar.muli v7 c2_i32_2539
  let v2832 : BitVec 32 := Scalar.addi c0_i32_2540 v2831
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2541 : BitVec 32 := 1#32
  let v2833 : BitVec 32 := Scalar.muli v5 c1_i32_2541
  let v2834 : BitVec 32 := Scalar.addi v2832 v2833
  v2834.toNat
def k0_dev99 (d0 : Dev nD) : Nat :=
  let c0_i32_2608 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2607 : BitVec 32 := 2#32
  let v2898 : BitVec 32 := Scalar.muli v7 c2_i32_2607
  let v2899 : BitVec 32 := Scalar.addi c0_i32_2608 v2898
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2609 : BitVec 32 := 1#32
  let v2900 : BitVec 32 := Scalar.muli v5 c1_i32_2609
  let v2901 : BitVec 32 := Scalar.addi v2899 v2900
  v2901.toNat
def k0_dev100 (d0 : Dev nD) : Nat :=
  let c0_i32_2676 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2675 : BitVec 32 := 2#32
  let v2965 : BitVec 32 := Scalar.muli v7 c2_i32_2675
  let v2966 : BitVec 32 := Scalar.addi c0_i32_2676 v2965
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2677 : BitVec 32 := 1#32
  let v2967 : BitVec 32 := Scalar.muli v5 c1_i32_2677
  let v2968 : BitVec 32 := Scalar.addi v2966 v2967
  v2968.toNat
def k0_dev101 (d0 : Dev nD) : Nat :=
  let c0_i32_2744 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2743 : BitVec 32 := 2#32
  let v3032 : BitVec 32 := Scalar.muli v7 c2_i32_2743
  let v3033 : BitVec 32 := Scalar.addi c0_i32_2744 v3032
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2745 : BitVec 32 := 1#32
  let v3034 : BitVec 32 := Scalar.muli v5 c1_i32_2745
  let v3035 : BitVec 32 := Scalar.addi v3033 v3034
  v3035.toNat
def k0_dev102 (d0 : Dev nD) : Nat :=
  let c0_i32_2812 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2811 : BitVec 32 := 2#32
  let v3099 : BitVec 32 := Scalar.muli v7 c2_i32_2811
  let v3100 : BitVec 32 := Scalar.addi c0_i32_2812 v3099
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2813 : BitVec 32 := 1#32
  let v3101 : BitVec 32 := Scalar.muli v5 c1_i32_2813
  let v3102 : BitVec 32 := Scalar.addi v3100 v3101
  v3102.toNat
def k0_dev103 (d0 : Dev nD) : Nat :=
  let c0_i32_2880 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2879 : BitVec 32 := 2#32
  let v3166 : BitVec 32 := Scalar.muli v7 c2_i32_2879
  let v3167 : BitVec 32 := Scalar.addi c0_i32_2880 v3166
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2881 : BitVec 32 := 1#32
  let v3168 : BitVec 32 := Scalar.muli v5 c1_i32_2881
  let v3169 : BitVec 32 := Scalar.addi v3167 v3168
  v3169.toNat
def k0_dev104 (d0 : Dev nD) : Nat :=
  let c0_i32_2948 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_2947 : BitVec 32 := 2#32
  let v3233 : BitVec 32 := Scalar.muli v7 c2_i32_2947
  let v3234 : BitVec 32 := Scalar.addi c0_i32_2948 v3233
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_2949 : BitVec 32 := 1#32
  let v3235 : BitVec 32 := Scalar.muli v5 c1_i32_2949
  let v3236 : BitVec 32 := Scalar.addi v3234 v3235
  v3236.toNat
def k0_dev105 (d0 : Dev nD) : Nat :=
  let c0_i32_3016 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3015 : BitVec 32 := 2#32
  let v3300 : BitVec 32 := Scalar.muli v7 c2_i32_3015
  let v3301 : BitVec 32 := Scalar.addi c0_i32_3016 v3300
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3017 : BitVec 32 := 1#32
  let v3302 : BitVec 32 := Scalar.muli v5 c1_i32_3017
  let v3303 : BitVec 32 := Scalar.addi v3301 v3302
  v3303.toNat
def k0_dev106 (d0 : Dev nD) : Nat :=
  let c0_i32_3084 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3083 : BitVec 32 := 2#32
  let v3367 : BitVec 32 := Scalar.muli v7 c2_i32_3083
  let v3368 : BitVec 32 := Scalar.addi c0_i32_3084 v3367
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3085 : BitVec 32 := 1#32
  let v3369 : BitVec 32 := Scalar.muli v5 c1_i32_3085
  let v3370 : BitVec 32 := Scalar.addi v3368 v3369
  v3370.toNat
def k0_dev107 (d0 : Dev nD) : Nat :=
  let c0_i32_3152 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3151 : BitVec 32 := 2#32
  let v3434 : BitVec 32 := Scalar.muli v7 c2_i32_3151
  let v3435 : BitVec 32 := Scalar.addi c0_i32_3152 v3434
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3153 : BitVec 32 := 1#32
  let v3436 : BitVec 32 := Scalar.muli v5 c1_i32_3153
  let v3437 : BitVec 32 := Scalar.addi v3435 v3436
  v3437.toNat
def k0_dev108 (d0 : Dev nD) : Nat :=
  let c0_i32_3220 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3219 : BitVec 32 := 2#32
  let v3501 : BitVec 32 := Scalar.muli v7 c2_i32_3219
  let v3502 : BitVec 32 := Scalar.addi c0_i32_3220 v3501
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3221 : BitVec 32 := 1#32
  let v3503 : BitVec 32 := Scalar.muli v5 c1_i32_3221
  let v3504 : BitVec 32 := Scalar.addi v3502 v3503
  v3504.toNat
def k0_dev109 (d0 : Dev nD) : Nat :=
  let c0_i32_3288 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3287 : BitVec 32 := 2#32
  let v3568 : BitVec 32 := Scalar.muli v7 c2_i32_3287
  let v3569 : BitVec 32 := Scalar.addi c0_i32_3288 v3568
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3289 : BitVec 32 := 1#32
  let v3570 : BitVec 32 := Scalar.muli v5 c1_i32_3289
  let v3571 : BitVec 32 := Scalar.addi v3569 v3570
  v3571.toNat
def k0_dev110 (d0 : Dev nD) : Nat :=
  let c0_i32_3356 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3355 : BitVec 32 := 2#32
  let v3635 : BitVec 32 := Scalar.muli v7 c2_i32_3355
  let v3636 : BitVec 32 := Scalar.addi c0_i32_3356 v3635
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3357 : BitVec 32 := 1#32
  let v3637 : BitVec 32 := Scalar.muli v5 c1_i32_3357
  let v3638 : BitVec 32 := Scalar.addi v3636 v3637
  v3638.toNat
def k0_dev111 (d0 : Dev nD) : Nat :=
  let c0_i32_3424 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3423 : BitVec 32 := 2#32
  let v3702 : BitVec 32 := Scalar.muli v7 c2_i32_3423
  let v3703 : BitVec 32 := Scalar.addi c0_i32_3424 v3702
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3425 : BitVec 32 := 1#32
  let v3704 : BitVec 32 := Scalar.muli v5 c1_i32_3425
  let v3705 : BitVec 32 := Scalar.addi v3703 v3704
  v3705.toNat
def k0_dev112 (d0 : Dev nD) : Nat :=
  let c0_i32_3492 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3491 : BitVec 32 := 2#32
  let v3769 : BitVec 32 := Scalar.muli v7 c2_i32_3491
  let v3770 : BitVec 32 := Scalar.addi c0_i32_3492 v3769
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3493 : BitVec 32 := 1#32
  let v3771 : BitVec 32 := Scalar.muli v5 c1_i32_3493
  let v3772 : BitVec 32 := Scalar.addi v3770 v3771
  v3772.toNat
def k0_dev113 (d0 : Dev nD) : Nat :=
  let c0_i32_3560 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3559 : BitVec 32 := 2#32
  let v3836 : BitVec 32 := Scalar.muli v7 c2_i32_3559
  let v3837 : BitVec 32 := Scalar.addi c0_i32_3560 v3836
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3561 : BitVec 32 := 1#32
  let v3838 : BitVec 32 := Scalar.muli v5 c1_i32_3561
  let v3839 : BitVec 32 := Scalar.addi v3837 v3838
  v3839.toNat
def k0_dev114 (d0 : Dev nD) : Nat :=
  let c0_i32_3628 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3627 : BitVec 32 := 2#32
  let v3903 : BitVec 32 := Scalar.muli v7 c2_i32_3627
  let v3904 : BitVec 32 := Scalar.addi c0_i32_3628 v3903
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3629 : BitVec 32 := 1#32
  let v3905 : BitVec 32 := Scalar.muli v5 c1_i32_3629
  let v3906 : BitVec 32 := Scalar.addi v3904 v3905
  v3906.toNat
def k0_dev115 (d0 : Dev nD) : Nat :=
  let c0_i32_3696 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3695 : BitVec 32 := 2#32
  let v3970 : BitVec 32 := Scalar.muli v7 c2_i32_3695
  let v3971 : BitVec 32 := Scalar.addi c0_i32_3696 v3970
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3697 : BitVec 32 := 1#32
  let v3972 : BitVec 32 := Scalar.muli v5 c1_i32_3697
  let v3973 : BitVec 32 := Scalar.addi v3971 v3972
  v3973.toNat
def k0_dev116 (d0 : Dev nD) : Nat :=
  let c0_i32_3764 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3763 : BitVec 32 := 2#32
  let v4037 : BitVec 32 := Scalar.muli v7 c2_i32_3763
  let v4038 : BitVec 32 := Scalar.addi c0_i32_3764 v4037
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3765 : BitVec 32 := 1#32
  let v4039 : BitVec 32 := Scalar.muli v5 c1_i32_3765
  let v4040 : BitVec 32 := Scalar.addi v4038 v4039
  v4040.toNat
def k0_dev117 (d0 : Dev nD) : Nat :=
  let c0_i32_3832 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3831 : BitVec 32 := 2#32
  let v4104 : BitVec 32 := Scalar.muli v7 c2_i32_3831
  let v4105 : BitVec 32 := Scalar.addi c0_i32_3832 v4104
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3833 : BitVec 32 := 1#32
  let v4106 : BitVec 32 := Scalar.muli v5 c1_i32_3833
  let v4107 : BitVec 32 := Scalar.addi v4105 v4106
  v4107.toNat
def k0_dev118 (d0 : Dev nD) : Nat :=
  let c0_i32_3900 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3899 : BitVec 32 := 2#32
  let v4171 : BitVec 32 := Scalar.muli v7 c2_i32_3899
  let v4172 : BitVec 32 := Scalar.addi c0_i32_3900 v4171
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3901 : BitVec 32 := 1#32
  let v4173 : BitVec 32 := Scalar.muli v5 c1_i32_3901
  let v4174 : BitVec 32 := Scalar.addi v4172 v4173
  v4174.toNat
def k0_dev119 (d0 : Dev nD) : Nat :=
  let c0_i32_3968 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_3967 : BitVec 32 := 2#32
  let v4238 : BitVec 32 := Scalar.muli v7 c2_i32_3967
  let v4239 : BitVec 32 := Scalar.addi c0_i32_3968 v4238
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_3969 : BitVec 32 := 1#32
  let v4240 : BitVec 32 := Scalar.muli v5 c1_i32_3969
  let v4241 : BitVec 32 := Scalar.addi v4239 v4240
  v4241.toNat
def k0_dev120 (d0 : Dev nD) : Nat :=
  let c0_i32_4036 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4035 : BitVec 32 := 2#32
  let v4305 : BitVec 32 := Scalar.muli v7 c2_i32_4035
  let v4306 : BitVec 32 := Scalar.addi c0_i32_4036 v4305
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4037 : BitVec 32 := 1#32
  let v4307 : BitVec 32 := Scalar.muli v5 c1_i32_4037
  let v4308 : BitVec 32 := Scalar.addi v4306 v4307
  v4308.toNat
def k0_dev121 (d0 : Dev nD) : Nat :=
  let c0_i32_4104 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4103 : BitVec 32 := 2#32
  let v4372 : BitVec 32 := Scalar.muli v7 c2_i32_4103
  let v4373 : BitVec 32 := Scalar.addi c0_i32_4104 v4372
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4105 : BitVec 32 := 1#32
  let v4374 : BitVec 32 := Scalar.muli v5 c1_i32_4105
  let v4375 : BitVec 32 := Scalar.addi v4373 v4374
  v4375.toNat
def k0_dev122 (d0 : Dev nD) : Nat :=
  let c0_i32_4172 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4171 : BitVec 32 := 2#32
  let v4439 : BitVec 32 := Scalar.muli v7 c2_i32_4171
  let v4440 : BitVec 32 := Scalar.addi c0_i32_4172 v4439
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4173 : BitVec 32 := 1#32
  let v4441 : BitVec 32 := Scalar.muli v5 c1_i32_4173
  let v4442 : BitVec 32 := Scalar.addi v4440 v4441
  v4442.toNat
def k0_dev123 (d0 : Dev nD) : Nat :=
  let c0_i32_4240 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4239 : BitVec 32 := 2#32
  let v4506 : BitVec 32 := Scalar.muli v7 c2_i32_4239
  let v4507 : BitVec 32 := Scalar.addi c0_i32_4240 v4506
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4241 : BitVec 32 := 1#32
  let v4508 : BitVec 32 := Scalar.muli v5 c1_i32_4241
  let v4509 : BitVec 32 := Scalar.addi v4507 v4508
  v4509.toNat
def k0_dev124 (d0 : Dev nD) : Nat :=
  let c0_i32_4308 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4307 : BitVec 32 := 2#32
  let v4573 : BitVec 32 := Scalar.muli v7 c2_i32_4307
  let v4574 : BitVec 32 := Scalar.addi c0_i32_4308 v4573
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4309 : BitVec 32 := 1#32
  let v4575 : BitVec 32 := Scalar.muli v5 c1_i32_4309
  let v4576 : BitVec 32 := Scalar.addi v4574 v4575
  v4576.toNat
def k0_dev125 (d0 : Dev nD) : Nat :=
  let c0_i32_4376 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4375 : BitVec 32 := 2#32
  let v4640 : BitVec 32 := Scalar.muli v7 c2_i32_4375
  let v4641 : BitVec 32 := Scalar.addi c0_i32_4376 v4640
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4377 : BitVec 32 := 1#32
  let v4642 : BitVec 32 := Scalar.muli v5 c1_i32_4377
  let v4643 : BitVec 32 := Scalar.addi v4641 v4642
  v4643.toNat
def k0_dev126 (d0 : Dev nD) : Nat :=
  let c0_i32_4444 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4443 : BitVec 32 := 2#32
  let v4707 : BitVec 32 := Scalar.muli v7 c2_i32_4443
  let v4708 : BitVec 32 := Scalar.addi c0_i32_4444 v4707
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4445 : BitVec 32 := 1#32
  let v4709 : BitVec 32 := Scalar.muli v5 c1_i32_4445
  let v4710 : BitVec 32 := Scalar.addi v4708 v4709
  v4710.toNat
def k0_dev127 (d0 : Dev nD) : Nat :=
  let c0_i32_4512 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4511 : BitVec 32 := 2#32
  let v4774 : BitVec 32 := Scalar.muli v7 c2_i32_4511
  let v4775 : BitVec 32 := Scalar.addi c0_i32_4512 v4774
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4513 : BitVec 32 := 1#32
  let v4776 : BitVec 32 := Scalar.muli v5 c1_i32_4513
  let v4777 : BitVec 32 := Scalar.addi v4775 v4776
  v4777.toNat
def k0_dev128 (d0 : Dev nD) : Nat :=
  let c0_i32_4580 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4579 : BitVec 32 := 2#32
  let v4841 : BitVec 32 := Scalar.muli v7 c2_i32_4579
  let v4842 : BitVec 32 := Scalar.addi c0_i32_4580 v4841
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4581 : BitVec 32 := 1#32
  let v4843 : BitVec 32 := Scalar.muli v5 c1_i32_4581
  let v4844 : BitVec 32 := Scalar.addi v4842 v4843
  v4844.toNat
def k0_dev129 (d0 : Dev nD) : Nat :=
  let c0_i32_4648 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4647 : BitVec 32 := 2#32
  let v4908 : BitVec 32 := Scalar.muli v7 c2_i32_4647
  let v4909 : BitVec 32 := Scalar.addi c0_i32_4648 v4908
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4649 : BitVec 32 := 1#32
  let v4910 : BitVec 32 := Scalar.muli v5 c1_i32_4649
  let v4911 : BitVec 32 := Scalar.addi v4909 v4910
  v4911.toNat
def k0_dev130 (d0 : Dev nD) : Nat :=
  let c0_i32_4716 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_4715 : BitVec 32 := 2#32
  let v4975 : BitVec 32 := Scalar.muli v7 c2_i32_4715
  let v4976 : BitVec 32 := Scalar.addi c0_i32_4716 v4975
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_4717 : BitVec 32 := 1#32
  let v4977 : BitVec 32 := Scalar.muli v5 c1_i32_4717
  let v4978 : BitVec 32 := Scalar.addi v4976 v4977
  v4978.toNat

class Facts₀ : Prop where
  hamt_1 : (1#32 : BitVec 32).msb = false
  hamt_2 : (2#32 : BitVec 32).msb = false
  inb_S64_S1_0 : ∀ a, (![0] : Fin 1 → Nat) a + S1.size a ≤ S64.size a
  squeezes_S1_S_ : S1.Squeezes S_
  inb_S64_S1_1 : ∀ a, (![1] : Fin 1 → Nat) a + S1.size a ≤ S64.size a
  inb_S64_S1_2 : ∀ a, (![2] : Fin 1 → Nat) a + S1.size a ≤ S64.size a
  inb_S64_S1_3 : ∀ a, (![3] : Fin 1 → Nat) a + S1.size a ≤ S64.size a
  inb_S64_S1_4 : ∀ a, (![4] : Fin 1 → Nat) a + S1.size a ≤ S64.size a
  inb_S64_S1_5 : ∀ a, (![5] : Fin 1 → Nat) a + S1.size a ≤ S64.size a
  inb_S64_S1_6 : ∀ a, (![6] : Fin 1 → Nat) a + S1.size a ≤ S64.size a
  inb_S64_S1_7 : ∀ a, (![7] : Fin 1 → Nat) a + S1.size a ≤ S64.size a
  inb_S64_S1_8 : ∀ a, (![8] : Fin 1 → Nat) a + S1.size a ≤ S64.size a
  inb_S64_S1_9 : ∀ a, (![9] : Fin 1 → Nat) a + S1.size a ≤ S64.size a
  inb_S64_S1_10 : ∀ a, (![10] : Fin 1 → Nat) a + S1.size a ≤ S64.size a
  inb_S64_S1_11 : ∀ a, (![11] : Fin 1 → Nat) a + S1.size a ≤ S64.size a
  inb_S64_S1_12 : ∀ a, (![12] : Fin 1 → Nat) a + S1.size a ≤ S64.size a
  inb_S64_S1_13 : ∀ a, (![13] : Fin 1 → Nat) a + S1.size a ≤ S64.size a
  inb_S64_S1_14 : ∀ a, (![14] : Fin 1 → Nat) a + S1.size a ≤ S64.size a
  inb_S64_S1_15 : ∀ a, (![15] : Fin 1 → Nat) a + S1.size a ≤ S64.size a
  inb_S64_S1_16 : ∀ a, (![16] : Fin 1 → Nat) a + S1.size a ≤ S64.size a
  inb_S64_S1_17 : ∀ a, (![17] : Fin 1 → Nat) a + S1.size a ≤ S64.size a
  inb_S64_S1_18 : ∀ a, (![18] : Fin 1 → Nat) a + S1.size a ≤ S64.size a
  inb_S64_S1_19 : ∀ a, (![19] : Fin 1 → Nat) a + S1.size a ≤ S64.size a
  inb_S64_S1_20 : ∀ a, (![20] : Fin 1 → Nat) a + S1.size a ≤ S64.size a
  inb_S64_S1_21 : ∀ a, (![21] : Fin 1 → Nat) a + S1.size a ≤ S64.size a
  inb_S64_S1_22 : ∀ a, (![22] : Fin 1 → Nat) a + S1.size a ≤ S64.size a
  inb_S64_S1_23 : ∀ a, (![23] : Fin 1 → Nat) a + S1.size a ≤ S64.size a
  inb_S64_S1_24 : ∀ a, (![24] : Fin 1 → Nat) a + S1.size a ≤ S64.size a
  inb_S64_S1_25 : ∀ a, (![25] : Fin 1 → Nat) a + S1.size a ≤ S64.size a
  inb_S64_S1_26 : ∀ a, (![26] : Fin 1 → Nat) a + S1.size a ≤ S64.size a
  inb_S64_S1_27 : ∀ a, (![27] : Fin 1 → Nat) a + S1.size a ≤ S64.size a
  inb_S64_S1_28 : ∀ a, (![28] : Fin 1 → Nat) a + S1.size a ≤ S64.size a
  inb_S64_S1_29 : ∀ a, (![29] : Fin 1 → Nat) a + S1.size a ≤ S64.size a
  inb_S64_S1_30 : ∀ a, (![30] : Fin 1 → Nat) a + S1.size a ≤ S64.size a
  inb_S64_S1_31 : ∀ a, (![31] : Fin 1 → Nat) a + S1.size a ≤ S64.size a
  inb_S64_S1_32 : ∀ a, (![32] : Fin 1 → Nat) a + S1.size a ≤ S64.size a
  inb_S64_S1_33 : ∀ a, (![33] : Fin 1 → Nat) a + S1.size a ≤ S64.size a
  inb_S64_S1_34 : ∀ a, (![34] : Fin 1 → Nat) a + S1.size a ≤ S64.size a
  inb_S64_S1_35 : ∀ a, (![35] : Fin 1 → Nat) a + S1.size a ≤ S64.size a
  inb_S64_S1_36 : ∀ a, (![36] : Fin 1 → Nat) a + S1.size a ≤ S64.size a
  inb_S64_S1_37 : ∀ a, (![37] : Fin 1 → Nat) a + S1.size a ≤ S64.size a
  inb_S64_S1_38 : ∀ a, (![38] : Fin 1 → Nat) a + S1.size a ≤ S64.size a
  inb_S64_S1_39 : ∀ a, (![39] : Fin 1 → Nat) a + S1.size a ≤ S64.size a
  inb_S64_S1_40 : ∀ a, (![40] : Fin 1 → Nat) a + S1.size a ≤ S64.size a
  inb_S64_S1_41 : ∀ a, (![41] : Fin 1 → Nat) a + S1.size a ≤ S64.size a
  inb_S64_S1_42 : ∀ a, (![42] : Fin 1 → Nat) a + S1.size a ≤ S64.size a
  inb_S64_S1_43 : ∀ a, (![43] : Fin 1 → Nat) a + S1.size a ≤ S64.size a
  inb_S64_S1_44 : ∀ a, (![44] : Fin 1 → Nat) a + S1.size a ≤ S64.size a
  inb_S64_S1_45 : ∀ a, (![45] : Fin 1 → Nat) a + S1.size a ≤ S64.size a
  inb_S64_S1_46 : ∀ a, (![46] : Fin 1 → Nat) a + S1.size a ≤ S64.size a
  inb_S64_S1_47 : ∀ a, (![47] : Fin 1 → Nat) a + S1.size a ≤ S64.size a
  inb_S64_S1_48 : ∀ a, (![48] : Fin 1 → Nat) a + S1.size a ≤ S64.size a
  inb_S64_S1_49 : ∀ a, (![49] : Fin 1 → Nat) a + S1.size a ≤ S64.size a
  inb_S64_S1_50 : ∀ a, (![50] : Fin 1 → Nat) a + S1.size a ≤ S64.size a
  inb_S64_S1_51 : ∀ a, (![51] : Fin 1 → Nat) a + S1.size a ≤ S64.size a
  inb_S64_S1_52 : ∀ a, (![52] : Fin 1 → Nat) a + S1.size a ≤ S64.size a
  inb_S64_S1_53 : ∀ a, (![53] : Fin 1 → Nat) a + S1.size a ≤ S64.size a
  inb_S64_S1_54 : ∀ a, (![54] : Fin 1 → Nat) a + S1.size a ≤ S64.size a
  inb_S64_S1_55 : ∀ a, (![55] : Fin 1 → Nat) a + S1.size a ≤ S64.size a
  inb_S64_S1_56 : ∀ a, (![56] : Fin 1 → Nat) a + S1.size a ≤ S64.size a
  inb_S64_S1_57 : ∀ a, (![57] : Fin 1 → Nat) a + S1.size a ≤ S64.size a
  inb_S64_S1_58 : ∀ a, (![58] : Fin 1 → Nat) a + S1.size a ≤ S64.size a
  inb_S64_S1_59 : ∀ a, (![59] : Fin 1 → Nat) a + S1.size a ≤ S64.size a
  inb_S64_S1_60 : ∀ a, (![60] : Fin 1 → Nat) a + S1.size a ≤ S64.size a
  inb_S64_S1_61 : ∀ a, (![61] : Fin 1 → Nat) a + S1.size a ≤ S64.size a
  inb_S64_S1_62 : ∀ a, (![62] : Fin 1 → Nat) a + S1.size a ≤ S64.size a
  inb_S64_S1_63 : ∀ a, (![63] : Fin 1 → Nat) a + S1.size a ≤ S64.size a
  inb_S2_S1_0 : ∀ a, (![0] : Fin 1 → Nat) a + S1.size a ≤ S2.size a
  inb_S2x256x1024_S1x256x1024_0_0_0 : ∀ a, (![0, 0, 0] : Fin 3 → Nat) a + S1x256x1024.size a ≤ S2x256x1024.size a
  squeezes_S1x256x1024_S256x1024 : S1x256x1024.Squeezes S256x1024
  h_S1x256x1024 : 0 < S1x256x1024.numel
  shapeCasts_S1x256x1024_S256x1024 : S1x256x1024.ShapeCasts S256x1024
  shapeCasts_S256x1024_S1x256x1024 : S256x1024.ShapeCasts S1x256x1024
  inb_S2_S1_1 : ∀ a, (![1] : Fin 1 → Nat) a + S1.size a ≤ S2.size a
  inb_S2x256x1024_S1x256x1024_1_0_0 : ∀ a, (![1, 0, 0] : Fin 3 → Nat) a + S1x256x1024.size a ≤ S2x256x1024.size a
  hcc0_scratch0 : 0 + S64.numel ≤ 262
  hcc0_scratch1 : 64 + S64.numel ≤ 262
  hcc0_scratch2 : 128 + S64.numel ≤ 262
  hcc0_scratch3 : 192 + S64.numel ≤ 262
  hcc0_scratch7 : 256 + S2.numel ≤ 262
  hcc0_scratch8 : 258 + S2.numel ≤ 262
  hcc0_scratch9 : 260 + S2.numel ≤ 262
  k0_dev1_lt : ∀ d0 : Dev nD, (k0_dev1 d0) < nD
  k0_dev2_lt : ∀ d0 : Dev nD, (k0_dev2 d0) < nD
  k0_off1_inb : ∀ d0 : Dev nD, ∀ (r : Fin 64), ∀ a, (k0_off1 d0 (BitVec.ofNat 32 (256 * r.val))) a + S256x1024.size a ≤ S32768x1024.size a
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_dev63_lt : ∀ d0 : Dev nD, (k0_dev63 d0) < nD
  k0_dev64_lt : ∀ d0 : Dev nD, (k0_dev64 d0) < nD
  k0_dev65_lt : ∀ d0 : Dev nD, (k0_dev65 d0) < nD
  k0_dev66_lt : ∀ d0 : Dev nD, (k0_dev66 d0) < nD
  k0_dev67_lt : ∀ d0 : Dev nD, (k0_dev67 d0) < nD
  k0_dev68_lt : ∀ d0 : Dev nD, (k0_dev68 d0) < nD
  k0_dev69_lt : ∀ d0 : Dev nD, (k0_dev69 d0) < nD
  k0_dev70_lt : ∀ d0 : Dev nD, (k0_dev70 d0) < nD
  k0_dev71_lt : ∀ d0 : Dev nD, (k0_dev71 d0) < nD
  k0_dev72_lt : ∀ d0 : Dev nD, (k0_dev72 d0) < nD
  k0_dev73_lt : ∀ d0 : Dev nD, (k0_dev73 d0) < nD
  k0_dev74_lt : ∀ d0 : Dev nD, (k0_dev74 d0) < nD
  k0_dev75_lt : ∀ d0 : Dev nD, (k0_dev75 d0) < nD
  k0_dev76_lt : ∀ d0 : Dev nD, (k0_dev76 d0) < nD
  k0_dev77_lt : ∀ d0 : Dev nD, (k0_dev77 d0) < nD
  k0_dev78_lt : ∀ d0 : Dev nD, (k0_dev78 d0) < nD
  k0_dev79_lt : ∀ d0 : Dev nD, (k0_dev79 d0) < nD
  k0_dev80_lt : ∀ d0 : Dev nD, (k0_dev80 d0) < nD
  k0_dev81_lt : ∀ d0 : Dev nD, (k0_dev81 d0) < nD
  k0_dev82_lt : ∀ d0 : Dev nD, (k0_dev82 d0) < nD
  k0_dev83_lt : ∀ d0 : Dev nD, (k0_dev83 d0) < nD
  k0_dev84_lt : ∀ d0 : Dev nD, (k0_dev84 d0) < nD
  k0_dev85_lt : ∀ d0 : Dev nD, (k0_dev85 d0) < nD
  k0_dev86_lt : ∀ d0 : Dev nD, (k0_dev86 d0) < nD
  k0_dev87_lt : ∀ d0 : Dev nD, (k0_dev87 d0) < nD
  k0_dev88_lt : ∀ d0 : Dev nD, (k0_dev88 d0) < nD
  k0_dev89_lt : ∀ d0 : Dev nD, (k0_dev89 d0) < nD
  k0_dev90_lt : ∀ d0 : Dev nD, (k0_dev90 d0) < nD
  k0_dev91_lt : ∀ d0 : Dev nD, (k0_dev91 d0) < nD
  k0_dev92_lt : ∀ d0 : Dev nD, (k0_dev92 d0) < nD
  k0_dev93_lt : ∀ d0 : Dev nD, (k0_dev93 d0) < nD
  k0_dev94_lt : ∀ d0 : Dev nD, (k0_dev94 d0) < nD
  k0_dev95_lt : ∀ d0 : Dev nD, (k0_dev95 d0) < nD
  k0_dev96_lt : ∀ d0 : Dev nD, (k0_dev96 d0) < nD
  k0_dev97_lt : ∀ d0 : Dev nD, (k0_dev97 d0) < nD
  k0_dev98_lt : ∀ d0 : Dev nD, (k0_dev98 d0) < nD
  k0_dev99_lt : ∀ d0 : Dev nD, (k0_dev99 d0) < nD
  k0_dev100_lt : ∀ d0 : Dev nD, (k0_dev100 d0) < nD
  k0_dev101_lt : ∀ d0 : Dev nD, (k0_dev101 d0) < nD
  k0_dev102_lt : ∀ d0 : Dev nD, (k0_dev102 d0) < nD
  k0_dev103_lt : ∀ d0 : Dev nD, (k0_dev103 d0) < nD
  k0_dev104_lt : ∀ d0 : Dev nD, (k0_dev104 d0) < nD
  k0_dev105_lt : ∀ d0 : Dev nD, (k0_dev105 d0) < nD
  k0_dev106_lt : ∀ d0 : Dev nD, (k0_dev106 d0) < nD
  k0_dev107_lt : ∀ d0 : Dev nD, (k0_dev107 d0) < nD
  k0_dev108_lt : ∀ d0 : Dev nD, (k0_dev108 d0) < nD
  k0_dev109_lt : ∀ d0 : Dev nD, (k0_dev109 d0) < nD
  k0_dev110_lt : ∀ d0 : Dev nD, (k0_dev110 d0) < nD
  k0_dev111_lt : ∀ d0 : Dev nD, (k0_dev111 d0) < nD
  k0_dev112_lt : ∀ d0 : Dev nD, (k0_dev112 d0) < nD
  k0_dev113_lt : ∀ d0 : Dev nD, (k0_dev113 d0) < nD
  k0_dev114_lt : ∀ d0 : Dev nD, (k0_dev114 d0) < nD
  k0_dev115_lt : ∀ d0 : Dev nD, (k0_dev115 d0) < nD
  k0_dev116_lt : ∀ d0 : Dev nD, (k0_dev116 d0) < nD
  k0_dev117_lt : ∀ d0 : Dev nD, (k0_dev117 d0) < nD
  k0_dev118_lt : ∀ d0 : Dev nD, (k0_dev118 d0) < nD
  k0_dev119_lt : ∀ d0 : Dev nD, (k0_dev119 d0) < nD
  k0_dev120_lt : ∀ d0 : Dev nD, (k0_dev120 d0) < nD
  k0_dev121_lt : ∀ d0 : Dev nD, (k0_dev121 d0) < nD
  k0_dev122_lt : ∀ d0 : Dev nD, (k0_dev122 d0) < nD
  k0_dev123_lt : ∀ d0 : Dev nD, (k0_dev123 d0) < nD
  k0_dev124_lt : ∀ d0 : Dev nD, (k0_dev124 d0) < nD
  k0_dev125_lt : ∀ d0 : Dev nD, (k0_dev125 d0) < nD
  k0_dev126_lt : ∀ d0 : Dev nD, (k0_dev126 d0) < nD
  k0_dev127_lt : ∀ d0 : Dev nD, (k0_dev127 d0) < nD
  k0_dev128_lt : ∀ d0 : Dev nD, (k0_dev128 d0) < nD
  k0_dev129_lt : ∀ d0 : Dev nD, (k0_dev129 d0) < nD
  k0_dev130_lt : ∀ d0 : Dev nD, (k0_dev130 d0) < nD

variable [Facts₀]

abbrev cc0_scratch0 : DmaSems sig S64 := SemArray.consecutive 0 S64 hcc0_scratch0
abbrev cc0_scratch1 : DmaSems sig S64 := SemArray.consecutive 64 S64 hcc0_scratch1
abbrev cc0_scratch2 : DmaSems sig S64 := SemArray.consecutive 128 S64 hcc0_scratch2
abbrev cc0_scratch3 : DmaSems sig S64 := SemArray.consecutive 192 S64 hcc0_scratch3
abbrev cc0_scratch7 : DmaSems sig S2 := SemArray.consecutive 256 S2 hcc0_scratch7
abbrev cc0_scratch8 : DmaSems sig S2 := SemArray.consecutive 258 S2 hcc0_scratch8
abbrev cc0_scratch9 : DmaSems sig S2 := SemArray.consecutive 260 S2 hcc0_scratch9

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S65536x1024 : Shape := ⟨2, ![65536, 1024]⟩
abbrev S2x32768x1024 : Shape := ⟨3, ![2, 32768, 1024]⟩
abbrev S_ : Shape := ⟨0, ![]⟩
abbrev S32768x1024 : Shape := ⟨2, ![32768, 1024]⟩

abbrev nBuf : Space → Nat
  | .hbm => 4
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S2x32768x1024, .f32⟩
  | .hbm, ⟨2, _⟩ => ⟨S_, .f32⟩
  | .hbm, ⟨3, _⟩ => ⟨S32768x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S65536x1024_S2x32768x1024 : S65536x1024.ShapeCasts S2x32768x1024
  reducesTo_S2x32768x1024_S32768x1024_d0 : S2x32768x1024.ReducesTo [0] S32768x1024
  h_S_ : 0 < S_.numel

variable [Facts₀]

class Facts : Prop extends Facts₀ where

variable [Facts]
-- ==== Proof.Views.lean ====
/-
  The views and semaphores of one chunk of the all-reduce, for a symbolic chunk number k < 64.

  A device works on its own half of the 32768 rows, in 64 chunks of 256 rows; chunk k of a device's half
  starts at row  16384 * (device / 2) + 256 * k.  The chunk's rows of the argument array and of the result
  array, the two halves (slots) of each of the three VMEM scratch arrays, and the semaphores of chunk k in
  each of the four per-chunk semaphore arrays and of slot s in each of the three per-slot ones are named here once.
-/
import proofs.«900147_g7700000000000148_dist_ar_v7x_xy2x2_y_m32768_n1024_f32_1_alg».proof.Proof.Gen.KernelIdeal

noncomputable section

namespace Cert.KernelIdeal.Hand

open Idealize.ShloMosaic Idealize.SL.Sem
open Cert.KernelIdeal Cert.KernelIdeal.Gen

/-! ## In-bounds facts at a symbolic index -/

theorem inb64 (k : Nat) (hk : k < 64) : ∀ a, (![k] : Fin 1 → Nat) a + S1.size a ≤ S64.size a := by
  intro a; fin_cases a; show k + 1 ≤ 64; omega
theorem inb2 (s : Nat) (hs : s < 2) : ∀ a, (![s] : Fin 1 → Nat) a + S1.size a ≤ S2.size a := by
  intro a; fin_cases a; show s + 1 ≤ 2; omega
theorem inbSlot (s : Nat) (hs : s < 2) : ∀ a, (![s, 0, 0] : Fin 3 → Nat) a + S1x256x1024.size a ≤ S2x256x1024.size a := by
  intro a; fin_cases a
  · show s + 1 ≤ 2; omega
  · show 0 + 256 ≤ 256; omega
  · show 0 + 1024 ≤ 1024; omega

/-! ## The arrays -/

abbrev xM : Memref sig .tc .hbm S32768x1024 .f32 := Memref.whole main_arg0
abbrev oM : Memref sig .tc .hbm S32768x1024 .f32 := Memref.whole main_v1
abbrev aM : Memref sig .tc .vmem S2x256x1024 .f32 := Memref.whole cc0_scratch4
abbrev bM : Memref sig .tc .vmem S2x256x1024 .f32 := Memref.whole cc0_scratch5
abbrev sM : Memref sig .tc .vmem S2x256x1024 .f32 := Memref.whole cc0_scratch6

/-- The rectangle of chunk k of device d's half: 256 whole rows. -/
abbrev rowsR (d : Dev nD) (k : Nat) (hk : k < 64) : Rect S32768x1024 :=
  Rect.unit (s := S32768x1024) (k0_off1 d (BitVec.ofNat 32 (256 * k))) S256x1024.size (k0_off1_inb d ⟨k, hk⟩)

/-- Chunk k's rows of the argument array; of the result array. -/
abbrev xRows (d : Dev nD) (k : Nat) (hk : k < 64) : Memref sig .tc .hbm S256x1024 .f32 := xM.slice (rowsR d k hk) (fun _ => rfl)
abbrev oRows (d : Dev nD) (k : Nat) (hk : k < 64) : Memref sig .tc .hbm S256x1024 .f32 := oM.slice (rowsR d k hk) (fun _ => rfl)

/-- Slot s of a scratch array, as the box a vector load or store names it by; -/
abbrev slotR (s : Nat) (hs : s < 2) : Rect S2x256x1024 := Rect.unit (s := S2x256x1024) ![s, 0, 0] S1x256x1024.size (inbSlot s hs)
/-- and as the 256 x 1024 memref a copy names it by. -/
abbrev slotOf (M : Memref sig .tc .vmem S2x256x1024 .f32) (s : Nat) (hs : s < 2) : Memref sig .tc .vmem S256x1024 .f32 :=
  (M.slice (slotR s hs) (fun _ => rfl)).squeeze S256x1024 squeezes_S1x256x1024_S256x1024

/-- Semaphore k of an array of 64; semaphore s of an array of 2. -/
abbrev sem64 (A : DmaSems sig S64) (k : Nat) (hk : k < 64) : DmaSem sig :=
  ((A.slice (Rect.unit (s := S64) ![k] S1.size (inb64 k hk))).squeeze S_ squeezes_S1_S_).sem
abbrev sem2 (A : DmaSems sig S2) (s : Nat) (hs : s < 2) : DmaSem sig :=
  ((A.slice (Rect.unit (s := S2) ![s] S1.size (inb2 s hs))).squeeze S_ squeezes_S1_S_).sem

abbrev ysS (k : Nat) (hk : k < 64) : DmaSem sig := sem64 cc0_scratch0 k hk
abbrev yrS (k : Nat) (hk : k < 64) : DmaSem sig := sem64 cc0_scratch1 k hk
abbrev xsS (k : Nat) (hk : k < 64) : DmaSem sig := sem64 cc0_scratch2 k hk
abbrev xrS (k : Nat) (hk : k < 64) : DmaSem sig := sem64 cc0_scratch3 k hk
abbrev aS (s : Nat) (hs : s < 2) : DmaSem sig := sem2 cc0_scratch7 s hs
abbrev bS (s : Nat) (hs : s < 2) : DmaSem sig := sem2 cc0_scratch8 s hs
abbrev stS (s : Nat) (hs : s < 2) : DmaSem sig := sem2 cc0_scratch9 s hs

/-- The runtime's barrier semaphore of collective id 0. -/
abbrev barS : Sem sig := (SemArray.scalar (sig.barrier 0 rfl) : Sems sig S_).sem

/-- The y-neighbour and the x-neighbour of a device, as the kernel computes them. -/
abbrev nbrY (d : Dev nD) : Dev nD := ⟨k0_dev1 d, k0_dev1_lt d⟩
abbrev nbrX (d : Dev nD) : Dev nD := ⟨k0_dev2 d, k0_dev2_lt d⟩

end Cert.KernelIdeal.Hand

end
-- ==== Proof.Result.lean ====
/-
  The value the all-reduce leaves in each device's result array, as a function of the initial memory.

  Device d holds the array x_d (32768 rows of 1024).  The reduction runs along the y axis of the 2 x 2 mesh:
  the result at every index is x_d + x_{y-neighbour of d}.  Each device computes this sum only on its own half of
  the rows (the half numbered d / 2, 16384 rows); the other half is computed by its x-neighbour, which holds the
  same block of the whole argument (the x axis replicates) and whose y-neighbour holds the other block, and is then
  copied over.  So the result array of device c holds, on the rows of its own half, the sum formed on c, and on
  the other rows the sum formed on the x-neighbour of c.
-/
import proofs.«900147_g7700000000000148_dist_ar_v7x_xy2x2_y_m32768_n1024_f32_1_alg».proof.Proof.Views

noncomputable section

namespace Cert.KernelIdeal.Hand

open Idealize.ShloMosaic Idealize.SL.Sem
open Cert.KernelIdeal Cert.KernelIdeal.Gen

variable {F : FTy → Type} [FloatOps F]
variable (m : (ℓ : Loc nD τ sig) → Buf (Elt F) ℓ)

/-- Device d's argument array in the initial memory. -/
abbrev xs (d : Dev nD) : S32768x1024.Idx → F .f32 := m ((d.tc : Thread nD τ).loc main_arg0)

/-- The sum formed on device d: its own array plus its y-neighbour's, index by index. -/
def sumAt (d : Dev nD) : S32768x1024.Idx → F .f32 := fun i => FloatOps.addf (xs m d i) (xs m (nbrY d) i)

/-- The final contents of device c's result array: on the rows of c's own half (row / 16384 = c / 2) the sum
    formed on c, on the other half the sum formed on c's x-neighbour. -/
def resBuf (c : Dev nD) : Buf (Elt F) ((c.tc : Thread nD τ).loc main_v1) :=
  fun i => if (i 0).val / 16384 = c.val / 2 then sumAt m c i else sumAt m (nbrX c) i

end Cert.KernelIdeal.Hand

end
-- ==== Proof.Sched.lean ====
/-
  The protocol of the all-reduce as a schedule of rounds.

  Per device: the runtime's barrier cell (one round, two duties of one unit: the y-neighbour's signal, which hands over
  the rows of ITS result array this device will write with its y-copies, and the x-neighbour's, likewise for the x-copies);
  per chunk k the y-send, y-receive, x-send and x-receive cells (one round, one duty: a copy's credit); per slot s the
  three local cells a, b, st (32 rounds, round r serving chunk 2 r + s, one duty: this device's own local copy).
  Each landing's payload names the CONTENTS it lands: the y-receive of chunk k says the chunk's rows of the result array
  hold the y-neighbour's x there; the x-receive says the other half's chunk holds the x-neighbour's sum there.
-/
import proofs.«900147_g7700000000000148_dist_ar_v7x_xy2x2_y_m32768_n1024_f32_1_alg».proof.Proof.Result
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) beside the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev barCell (c : Dev nD) : GSem nD τ sig := ((c : Thread nD τ), .reg barS)
abbrev ysCell (c : Dev nD) (k : Nat) (hk : k < 64) : GSem nD τ sig := ((c : Thread nD τ), .dma (ysS k hk))
abbrev yrCell (c : Dev nD) (k : Nat) (hk : k < 64) : GSem nD τ sig := ((c : Thread nD τ), .dma (yrS k hk))
abbrev xsCell (c : Dev nD) (k : Nat) (hk : k < 64) : GSem nD τ sig := ((c : Thread nD τ), .dma (xsS k hk))
abbrev xrCell (c : Dev nD) (k : Nat) (hk : k < 64) : GSem nD τ sig := ((c : Thread nD τ), .dma (xrS k hk))
abbrev aCell (c : Dev nD) (s : Nat) (hs : s < 2) : GSem nD τ sig := ((c : Thread nD τ), .dma (aS s hs))
abbrev bCell (c : Dev nD) (s : Nat) (hs : s < 2) : GSem nD τ sig := ((c : Thread nD τ), .dma (bS s hs))
abbrev stCell (c : Dev nD) (s : Nat) (hs : s < 2) : GSem nD τ sig := ((c : Thread nD τ), .dma (stS s hs))

/-- What a semaphore is for, read off its number in the DMA pool (y-send 0.., y-receive 64.., x-send 128..,
    x-receive 192.., a 256.., b 258.., st 260..) or, on the regular pool, whether it is the barrier semaphore. -/
inductive Role : Type
  | bar | ys (k : Nat) | yr (k : Nat) | xs (k : Nat) | xr (k : Nat) | a (s : Nat) | b (s : Nat) | st (s : Nat) | other
  deriving DecidableEq

def roleOf : SemLoc sig → Role
  | .reg s => if s = barS then .bar else .other
  | .dma n =>
    if n.val < 64 then .ys n.val else if n.val < 128 then .yr (n.val - 64) else if n.val < 192 then .xs (n.val - 128)
    else if n.val < 256 then .xr (n.val - 192) else if n.val < 258 then .a (n.val - 256) else if n.val < 260 then .b (n.val - 258)
    else .st (n.val - 260)

/-! ## Credits -/

/-- The credit of a copy into 256 rows of the result array; into a slot of scratch a; of scratch b. -/
abbrev No : ℕ := (oRows (0 : Dev nD) 0 (by decide)).view.dmaCredit
abbrev Na : ℕ := (slotOf aM 0 (by decide)).view.dmaCredit
abbrev Nb : ℕ := (slotOf bM 0 (by decide)).view.dmaCredit

/-! ## Contents -/

/-- The two half shares a buffer read by two copies at once is held at. -/
abbrev qL : PosShare TreeShare := fullShare.left
abbrev qR : PosShare TreeShare := fullShare.right

/-- Chunk k of device d's half of a whole array g, laid into both slots of a 2 x 256 x 1024 scratch: entry (s, i, j) is
    g at row 16384 (d / 2) + 256 k + i, column j. (The row is taken mod 32768: no wrap for k < 64.) -/
def spread {α : Type} (g : S32768x1024.Idx → α) (d : Dev nD) (k : Nat) : S2x256x1024.Idx → α :=
  fun j => g (Shape.pair (⟨(16384 * (d.val / 2) + 256 * k + (j 1).val) % 32768, Nat.mod_lt _ (by decide)⟩ : Fin 32768)
    (⟨(j 2).val % 1024, Nat.mod_lt _ (by decide)⟩ : Fin 1024))

/-- Rows (d's half, chunk k) of device c's result array, held whole, at contents g there. -/
def oHolds (c d : Dev nD) (k : Nat) (hk : k < 64) (g : S32768x1024.Idx → F .f32) : sProp 𝕄 :=
  (oRows d k hk).view.loc (c : Thread nD τ) ↦[(oRows d k hk).view.set]{fullShare} g
/-- The same rows over some contents. -/
def oSome (c d : Dev nD) (k : Nat) (hk : k < 64) : sProp 𝕄 :=
  iprop(∃ f : S32768x1024.Idx → F .f32, (oRows d k hk).view.loc (c : Thread nD τ) ↦[(oRows d k hk).view.set]{fullShare} f)
/-- Chunk k's rows of device c's argument array, at share q, at its launch contents. -/
def xHolds (c : Dev nD) (k : Nat) (hk : k < 64) (q : PosShare TreeShare) : sProp 𝕄 :=
  (xRows c k hk).view.loc (c : Thread nD τ) ↦[(xRows c k hk).view.set]{q} (xs m c)
/-- Slot s of scratch a (of scratch b) of device c, whole, at contents v there; slot s of the sum scratch at share q over
    some contents. -/
def slotHoldsA (c : Dev nD) (s : Nat) (hs : s < 2) (v : S2x256x1024.Idx → F .f32) : sProp 𝕄 :=
  (slotOf aM s hs).view.loc (c : Thread nD τ) ↦[(slotOf aM s hs).view.set]{fullShare} v
def slotHoldsB (c : Dev nD) (s : Nat) (hs : s < 2) (v : S2x256x1024.Idx → F .f32) : sProp 𝕄 :=
  (slotOf bM s hs).view.loc (c : Thread nD τ) ↦[(slotOf bM s hs).view.set]{fullShare} v
def slotSomeS (c : Dev nD) (s : Nat) (hs : s < 2) (q : PosShare TreeShare) : sProp 𝕄 :=
  iprop(∃ f : S2x256x1024.Idx → F .f32, (slotOf sM s hs).view.loc (c : Thread nD τ) ↦[(slotOf sM s hs).view.set]{q} f)

/-- What a neighbour p's barrier signal hands device c: the rows of p's result array that c's copies to p write
    (c's half, all 64 chunks), over some contents. -/
def barPay (c p : Dev nD) : sProp 𝕄 := bigSep Finset.univ fun k : Fin 64 => oSome (F := F) p c k.val k.isLt

/-! ## The schedule -/

def payloadOf (c : Dev nD) (ro : Role) (r : ℕ) (d : Bool) : sProp 𝕄 :=
  match ro with
  | .bar => if d then barPay c (nbrX c) else barPay c (nbrY c)
  | .ys k => if hk : k < 64 then xHolds m c k hk qL else iprop(emp)
  | .yr k => if hk : k < 64 then oHolds c c k hk (xs m (nbrY c)) else iprop(emp)
  | .xs k => slotSomeS c (k % 2) (Nat.mod_lt _ (by decide)) qL
  | .xr k => if hk : k < 64 then oHolds c (nbrX c) k hk (sumAt m (nbrX c)) else iprop(emp)
  | .a s => if h : s < 2 ∧ 2 * r + s < 64 then
      iprop(slotHoldsA c s h.1 (spread (xs m c) c (2 * r + s)) ∗ xHolds m c (2 * r + s) h.2 qR) else iprop(emp)
  | .b s => if h : s < 2 ∧ 2 * r + s < 64 then
      iprop(slotHoldsB c s h.1 (spread (xs m (nbrY c)) c (2 * r + s)) ∗ oHolds c c (2 * r + s) h.2 (xs m (nbrY c))) else iprop(emp)
  | .st s => if h : s < 2 ∧ 2 * r + s < 64 then
      iprop(oHolds c c (2 * r + s) h.2 (sumAt m c) ∗ slotSomeS c s h.1 qR) else iprop(emp)
  | .other => iprop(emp)

def dutiesOf (ro : Role) (r : ℕ) : Finset Bool :=
  match ro with
  | .bar => if r = 0 then Finset.univ else ∅
  | .ys _ | .yr _ | .xs _ | .xr _ => if r = 0 then {false} else ∅
  | .a _ | .b _ | .st _ => if r < 32 then {false} else ∅
  | .other => ∅

def amountOfRole (ro : Role) : ℕ :=
  match ro with
  | .bar => 1
  | .a _ => Na
  | .b _ => Nb
  | _ => No

theorem No_pos : 0 < No := View.dmaCredit_pos _ (by decide)
theorem Na_pos : 0 < Na := View.dmaCredit_pos _ (by decide)
theorem Nb_pos : 0 < Nb := View.dmaCredit_pos _ (by decide)

def sched : Rounds.Schedule (GSem nD τ sig) Bool 𝕄 where
  duties g r := if g.1.2 = .tc then dutiesOf (roleOf g.2) r else ∅
  unitless _ := False
  amount g _ _ := amountOfRole (roleOf g.2)
  payload g r d := payloadOf m g.1.1 (roleOf g.2) r d
  amount_pos g _ _ _ := by
    show 0 < amountOfRole (roleOf g.2)
    unfold amountOfRole; split <;> first | exact Nat.one_pos | exact Na_pos | exact Nb_pos | exact No_pos

/-! ## What a device owes at launch, and the levels -/

/-- The 64 y-copies into the y-neighbour's y-receive cells, the 64 x-copies into the x-neighbour's x-receive cells. -/
def owedY (c : Dev nD) (from_ : Nat) : CellTallies nD τ sig Unit :=
  ∑ k : Fin 64, if from_ ≤ k.val then tallyAt (yrCell (nbrY c) k.val k.isLt) () No else 0
def owedX (c : Dev nD) (from_ : Nat) : CellTallies nD τ sig Unit :=
  ∑ k : Fin 64, if from_ ≤ k.val then tallyAt (xrCell (nbrX c) k.val k.isLt) () No else 0

/-- At launch: both barrier signals and all the copies. -/
def O₀ (c : Dev nD) : CellTallies nD τ sig Unit :=
  owedX c 0 + owedY c 0 + tallyAt (barCell (nbrX c)) () 1 + tallyAt (barCell (nbrY c)) () 1

def Lset (g : GSem nD τ sig) : Finset Unit := if g.1.2 = .tc then {()} else ∅
/-- Own send and local cells lowest, the barrier above them, the y-receive cells above it, the x-receive cells on top:
    whatever a device still owes when it waits lies above the cell it waits on. -/
def lv (g : GSem nD τ sig) (_ : Unit) : ℕ :=
  match roleOf g.2 with
  | .bar => 1
  | .yr _ => 2
  | .xr _ => 3
  | _ => 0

end Cert.KernelIdeal.Hand

end
-- ==== Proof.State.lean ====
/-
  What a device holds when its body starts and when it ends.

  All cells of all devices: the barrier cell and the 262 DMA cells of each. Persistent: every cell's invariant under the
  name the launch gave it, round 0 of every cell reached, the levels. Linear, at entry: the device's position at the start
  of each of its own cells; the token of every duty IT pays (both neighbours' barrier duties, the y-neighbour's y-receive
  duties, the x-neighbour's x-receive duties, and the duties of its own send and local cells); the launch credit of the
  cells others pay (its barrier's two units, its y-receive and x-receive cells' credits); what it owes; its argument array
  at its launch contents, its result array and its three scratch arrays over some contents.
  At exit: the argument array unchanged, the result array at the all-reduced contents, the scratch arrays over some
  contents, every own DMA cell closed with its counter at zero, nothing owed.
-/
import proofs.«900147_g7700000000000148_dist_ar_v7x_xy2x2_y_m32768_n1024_f32_1_alg».proof.Proof.Sched

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## All cells -/

/-- A device's cells: its barrier cell (`none`) and its DMA cells. -/
abbrev kcell (cj : Dev nD × Option (DmaSem sig)) : GSem nD τ sig :=
  match cj.2 with
  | none => barCell cj.1
  | some n => ((cj.1 : Thread nD τ), .dma n)

theorem kcell_injective : Function.Injective (kcell : Dev nD × Option (DmaSem sig) → GSem nD τ sig) := by
  rintro ⟨c, j⟩ ⟨c', j'⟩ h
  have h1 : c = c' := by
    have := congrArg (fun g : GSem nD τ sig => g.1.1) h
    cases j <;> cases j' <;> exact this
  subst h1
  have h2 := congrArg Prod.snd h
  cases j with
  | none =>
    cases j' with
    | none => rfl
    | some b => exact absurd h2 (fun h' => by cases h')
  | some a =>
    cases j' with
    | none => exact absurd h2 (fun h' => by cases h')
    | some b =>
      have hab : a = b := by injection h2
      subst hab; rfl

def allCells : Finset (GSem nD τ sig) := Finset.univ.map ⟨kcell, kcell_injective⟩

theorem mem_allCells_bar (c : Dev nD) : barCell c ∈ allCells := Finset.mem_map.mpr ⟨(c, none), Finset.mem_univ _, rfl⟩
theorem mem_allCells_dma (c : Dev nD) (n : DmaSem sig) : ((c : Thread nD τ), SemLoc.dma n) ∈ allCells :=
  Finset.mem_map.mpr ⟨(c, some n), Finset.mem_univ _, rfl⟩

/-! ## The persistent records -/

/-- Every cell's invariant, under the names `K`; round 0 of every cell reached. -/
def records (K : GSem nD τ sig → ℕ) : sProp 𝕄 :=
  iprop((bigSep allCells fun g => cellInv ER (sched m) (K g) g) ∗ bigSep allCells fun g => reached ER g 0)

instance records_persistent (K : GSem nD τ sig → ℕ) : BI.Persistent (records m K) := by unfold records; infer_instance

theorem inv_of_records (K : GSem nD τ sig → ℕ) {g : GSem nD τ sig} (hg : g ∈ allCells) :
    records m K ⊢ cellInv ER (sched m) (K g) g := by
  unfold records
  exact sep_elim_left.trans (bigSep_elim (Φ := fun g => (cellInv ER (sched m) (K g) g : sProp 𝕄)) hg)
theorem reached_of_records (K : GSem nD τ sig → ℕ) {g : GSem nD τ sig} (hg : g ∈ allCells) :
    records m K ⊢ reached ER g 0 := by
  unfold records
  exact sep_elim_right.trans (bigSep_elim (Φ := fun g => (reached ER g 0 : sProp 𝕄)) hg)

/-! ## A device's own linear ghost state at entry -/

/-- Its position at the start of each of its own cells. -/
def positions (c : Dev nD) : sProp 𝕄 :=
  iprop(atPos ER (barCell c) 0 ∅ 0 ∗ bigSep Finset.univ fun n : DmaSem sig => atPos ER ((c : Thread nD τ), SemLoc.dma n) 0 ∅ 0)

/-- The tokens of the duties device c pays. -/
def payToks (c : Dev nD) : sProp 𝕄 :=
  iprop(dutyTok ER (barCell (nbrY c)) 0 false ∗ dutyTok ER (barCell (nbrX c)) 0 true
    ∗ (bigSep Finset.univ fun k : Fin 64 => iprop(
        dutyTok ER (ysCell c k.val k.isLt) 0 false ∗ dutyTok ER (yrCell (nbrY c) k.val k.isLt) 0 false
        ∗ dutyTok ER (xsCell c k.val k.isLt) 0 false ∗ dutyTok ER (xrCell (nbrX c) k.val k.isLt) 0 false))
    ∗ (bigSep Finset.univ fun sr : Fin 2 × Fin 32 => iprop(
        dutyTok ER (aCell c sr.1.val sr.1.isLt) sr.2.val false ∗ dutyTok ER (bCell c sr.1.val sr.1.isLt) sr.2.val false
        ∗ dutyTok ER (stCell c sr.1.val sr.1.isLt) sr.2.val false)))

/-- The launch credit of the cells other devices pay. -/
def launchCreds (c : Dev nD) : sProp 𝕄 :=
  iprop(cred (tallyAt (barCell c) () 2)
    ∗ bigSep Finset.univ fun k : Fin 64 => iprop(
        cred (tallyAt (yrCell c k.val k.isLt) () No) ∗ cred (tallyAt (xrCell c k.val k.isLt) () No)))

/-- The ghost part of what the body starts from. -/
def start (c : Dev nD) : sProp 𝕄 :=
  iprop((∃ K, records m K) ∗ positions c ∗ payToks c ∗ launchCreds c ∗ levAts Lset lv)

/-! ## The buffers -/

/-- A whole buffer of device c at the full share. -/
abbrev whole (c : Dev nD) (b : Ref sig .tc) (f : Buf (Elt F) ((c : Thread nD τ).loc b)) : sProp 𝕄 :=
  ((c : Thread nD τ).loc b) ↦{fullShare} f

/-- The three scratch arrays over some contents. -/
def scratches (c : Dev nD) : sProp 𝕄 :=
  iprop((∃ f, whole c cc0_scratch4 f) ∗ (∃ f, whole c cc0_scratch5 f) ∗ (∃ f, whole c cc0_scratch6 f))

/-- Every own DMA cell's counter, at zero. -/
def ownZeros (c : Dev nD) : sProp 𝕄 := bigSep Finset.univ fun n : DmaSem sig => semVal ((c : Thread nD τ), SemLoc.dma n) 0

/-- Entry: the ghost state, what the device owes, the two arrays and the scratch. -/
def Φ₀ (c : Dev nD) : sProp 𝕄 :=
  iprop(start m c ∗ whole c main_arg0 (xs m c) ∗ (∃ f, whole c main_v1 f) ∗ scratches c)

/-- Exit: the argument unchanged, the result all-reduced, the scratch over some contents, the own cells closed. -/
def Φ₁ (c : Dev nD) : sProp 𝕄 :=
  iprop(whole c main_arg0 (xs m c) ∗ whole c main_v1 (resBuf m c) ∗ scratches c ∗ ownZeros c)

end Cert.KernelIdeal.Hand

end
-- ==== Proof.Fold.lean ====
/-
  The kernel body as its protocol reads: the entry handshake, the 64 copies to the y-neighbour, then 64 steps of one
  shape, the last two store-backs' waits, and the 64 waits for the x-neighbour's copies.

  The printed body is the same sequence of operations cut by count into some two hundred consecutive windows; a step
  of the protocol spans three of them. Here the sequence is laid out by chunk, each chunk's operations one term in the
  chunk number, and the two texts are one program: unfolding both gives the same tree of operations.
-/
import proofs.«900147_g7700000000000148_dist_ar_v7x_xy2x2_y_m32768_n1024_f32_1_alg».proof.Proof.Views
import Idealize.ShloMosaic.Lib.Pipeline.Regions

noncomputable section

namespace Cert.KernelIdeal.Hand

open Idealize.ShloMosaic Idealize.SL.Sem
open Cert.KernelIdeal Cert.KernelIdeal.Gen

variable {F : FTy → Type} [FloatOps F]

/-- One thread's program over the kernel's effects. -/
abbrev KProg (F : FTy → Type) [FloatOps F] : Type 1 := Prog (TpuEff nD τ sig (Elt F) Λ₀ .tc) PUnit

theorem slot_lt (k : Nat) : k % 2 < 2 := Nat.mod_lt _ (by decide)

/-- What a step stores into its slot of the sum scratch: the two loaded slots added, element by element. -/
def sumPay (va vb : Vec F S1x256x1024 .f32) : FVec F S1x256x1024 .f32 :=
  shapeCast S1x256x1024
    (addf (shapeCast S256x1024 va shapeCasts_S1x256x1024_S256x1024) (shapeCast S256x1024 vb shapeCasts_S1x256x1024_S256x1024))
    shapeCasts_S256x1024_S1x256x1024

/-- Chunk k's rows of x sent to the y-neighbour's result array, crediting this device's y-send cell k and the
    neighbour's y-receive cell k. -/
def yEnq (d : Dev nD) (k : Nat) (hk : k < 64) : KProg F :=
  Prog.lift (.enqueueDma (xRows d k hk) (.remote (Dev.tc (nbrY d)) (oRows d k hk) (.dma (ysS k hk))) (.dma (yrS k hk))
    (View.wordExact_bits rfl) (View.wordExact_bits rfl) ⟨⟨rfl, Or.inl rfl⟩, trivial⟩)

/-- The two waits that free the sum scratch's slot of chunk j: its store-back has landed, its copy to the x-neighbour
    has been read in full. -/
def waitsFor (d : Dev nD) (j : Nat) (hj : j < 64) : KProg F := do
  Prog.lift (.waitDma2 (stS (j % 2) (slot_lt j)) (slotOf sM (j % 2) (slot_lt j)) (oRows d j hj)
    ((View.wordExact_bits rfl).reshape _ _) (View.wordExact_bits rfl))
  Prog.lift (.waitDma2 (xsS j hj) (oRows d j hj) (slotOf sM (j % 2) (slot_lt j))
    (View.wordExact_bits rfl) ((View.wordExact_bits rfl).reshape _ _))

/-- Chunk k, first part: x's rows into slot a; the y-neighbour's rows awaited and copied into slot b; both awaited. -/
def coreA (d : Dev nD) (k : Nat) (hk : k < 64) : KProg F := do
  Prog.lift (.enqueueDma (xRows d k hk) (.here (slotOf aM (k % 2) (slot_lt k))) (.dma (aS (k % 2) (slot_lt k)))
    (View.wordExact_bits rfl) ((View.wordExact_bits rfl).reshape _ _) ⟨Or.inl rfl, trivial⟩)
  Prog.lift (.waitDma2 (yrS k hk) (xRows d k hk) (oRows d k hk) (View.wordExact_bits rfl) (View.wordExact_bits rfl))
  Prog.lift (.enqueueDma (oRows d k hk) (.here (slotOf bM (k % 2) (slot_lt k))) (.dma (bS (k % 2) (slot_lt k)))
    (View.wordExact_bits rfl) ((View.wordExact_bits rfl).reshape _ _) ⟨Or.inl rfl, trivial⟩)
  Prog.lift (.waitDma2 (aS (k % 2) (slot_lt k)) (xRows d k hk) (slotOf aM (k % 2) (slot_lt k))
    (View.wordExact_bits rfl) ((View.wordExact_bits rfl).reshape _ _))
  Prog.lift (.waitDma2 (bS (k % 2) (slot_lt k)) (oRows d k hk) (slotOf bM (k % 2) (slot_lt k))
    (View.wordExact_bits rfl) ((View.wordExact_bits rfl).reshape _ _))

/-- Second part: the two slots loaded (and the sum slot, whose value is not used), their sum stored into the sum slot. -/
def coreB (k : Nat) : KProg F := do
  let va : Vec F S1x256x1024 .f32 ← Prog.lift (.load aM (slotR (k % 2) (slot_lt k)).toLoadRect (View.loadsAt_vmem h_S1x256x1024))
  let vb : Vec F S1x256x1024 .f32 ← Prog.lift (.load bM (slotR (k % 2) (slot_lt k)).toLoadRect (View.loadsAt_vmem h_S1x256x1024))
  let _vo : Vec F S1x256x1024 .f32 ← Prog.lift (.load sM (slotR (k % 2) (slot_lt k)).toLoadRect (View.loadsAt_vmem h_S1x256x1024))
  Prog.lift (.store sM (slotR (k % 2) (slot_lt k)) (sumPay va vb) Finset.univ (View.stores_vmem_bits_univ h_S1x256x1024 rfl) (.inl rfl))

/-- Third part: the sum slot copied back to the result rows and to the x-neighbour's result rows; the y-copy's source
    released. -/
def coreC (d : Dev nD) (k : Nat) (hk : k < 64) : KProg F := do
  Prog.lift (.enqueueDma (slotOf sM (k % 2) (slot_lt k)) (.here (oRows d k hk)) (.dma (stS (k % 2) (slot_lt k)))
    ((View.wordExact_bits rfl).reshape _ _) (View.wordExact_bits rfl) ⟨Or.inl rfl, trivial⟩)
  Prog.lift (.enqueueDma (slotOf sM (k % 2) (slot_lt k)) (.remote (Dev.tc (nbrX d)) (oRows d k hk) (.dma (xsS k hk))) (.dma (xrS k hk))
    ((View.wordExact_bits rfl).reshape _ _) (View.wordExact_bits rfl) ⟨⟨rfl, Or.inl rfl⟩, trivial⟩)
  Prog.lift (.waitDma2 (ysS k hk) (oRows d k hk) (xRows d k hk) (View.wordExact_bits rfl) (View.wordExact_bits rfl))

/-- Chunk k's own operations: the three parts in order. -/
def core (d : Dev nD) (k : Nat) (hk : k < 64) : KProg F :=
  coreA d k hk >>= fun _ => coreB k >>= fun _ => coreC d k hk

/-- Step k: from the third chunk on, first free the slot (chunk k - 2's two waits). -/
def step (d : Dev nD) (k : Nat) (hk : k < 64) : KProg F :=
  if h : 2 ≤ k then (waitsFor d (k - 2) (by omega) >>= fun _ => core d k hk) else core d k hk

/-- The wait for the x-neighbour's copy of its chunk k into this device's result rows. -/
def xrWait (d : Dev nD) (k : Nat) (hk : k < 64) : KProg F :=
  Prog.lift (.waitDma2 (xrS k hk) (slotOf sM (k % 2) (slot_lt k)) (oRows d k hk)
    ((View.wordExact_bits rfl).reshape _ _) (View.wordExact_bits rfl))

/-- Everything after the entry handshake, chunk by chunk. -/
def items (d : Dev nD) : List (KProg F) :=
  (List.finRange 64).map (fun k => yEnq d k.val k.isLt)
    ++ (List.finRange 64).map (fun k => step d k.val k.isLt)
    ++ [waitsFor d 62 (by decide), waitsFor d 63 (by decide)]
    ++ (List.finRange 64).map (fun k => xrWait d k.val k.isLt)

/-- The body: read the device id, signal both neighbours' barrier semaphore, wait for both, then the chunks. -/
def folded : KProg F := do
  let d : Dev nD ← Prog.lift .deviceId
  semSignalWord (nbrY d) barS 1#32 hamt_1
  semSignalWord (nbrX d) barS 1#32 hamt_1
  semWaitWord barS 2#32 hamt_2
  Pipeline.chain (items d)

set_option maxRecDepth 200000 in
/-- The printed body, at the arrays the launch calls it with, is the body laid out by chunk. -/
theorem body_fold :
    cc0_body (F := F) (Memref.whole main_arg0) (Memref.isWhole_whole _) (Memref.whole main_v1) (Memref.isWhole_whole _)
      cc0_scratch0 cc0_scratch1 cc0_scratch2 cc0_scratch3 (Memref.whole cc0_scratch4) (Memref.isWhole_whole _)
      (Memref.whole cc0_scratch5) (Memref.isWhole_whole _) (Memref.whole cc0_scratch6) (Memref.isWhole_whole _)
      cc0_scratch7 cc0_scratch8 cc0_scratch9 = folded := by
  chain_rfl

/-- info: 'Cert.KernelIdeal.Hand.body_fold' depends on axioms: [propext, Classical.choice, Quot.sound] -/
#guard_msgs in #print axioms body_fold

end Cert.KernelIdeal.Hand

end
-- ==== Proof.StepDefs.lean ====
/-
  The state of a scratch slot between the steps of the protocol, and what a chunk's step consumes and leaves.
  Slot s serves the chunks of parity s in turn; the r-th of them is chunk 2 r + s.
-/
import proofs.«900147_g7700000000000148_dist_ar_v7x_xy2x2_y_m32768_n1024_f32_1_alg».proof.Proof.State
import proofs.«900147_g7700000000000148_dist_ar_v7x_xy2x2_y_m32768_n1024_f32_1_alg».proof.Proof.Fold

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The state of a slot, and what a chunk's step consumes and leaves -/

/-- A slot's scratch held over some contents: scratch a, scratch b. -/
def abSome (c : Dev nD) (s : Nat) (hs : s < 2) : sProp 𝕄 :=
  iprop((∃ f : S2x256x1024.Idx → F .f32, (slotOf aM s hs).view.loc (c : Thread nD τ) ↦[(slotOf aM s hs).view.set]{fullShare} f)
    ∗ (∃ f : S2x256x1024.Idx → F .f32, (slotOf bM s hs).view.loc (c : Thread nD τ) ↦[(slotOf bM s hs).view.set]{fullShare} f))

/-- Slot s FREE before the step of its r-th chunk: the three scratch slots over some contents, the three local cells at
    round r, reached. -/
def slotFree (c : Dev nD) (s : Nat) (hs : s < 2) (r : ℕ) : sProp 𝕄 :=
  iprop(abSome (F := F) c s hs
    ∗ (∃ f : S2x256x1024.Idx → F .f32, (slotOf sM s hs).view.loc (c : Thread nD τ) ↦[(slotOf sM s hs).view.set]{fullShare} f)
    ∗ atPos ER (aCell c s hs) r ∅ 0 ∗ atPos ER (bCell c s hs) r ∅ 0 ∗ atPos ER (stCell c s hs) r ∅ 0
    ∗ reached ER (aCell c s hs) r ∗ reached ER (bCell c s hs) r ∗ reached ER (stCell c s hs) r)

/-- Slot s BUSY after the step of chunk j, its r-th: the store-back and the x-copy of the sum slot in flight (their
    credits in hand, their cells not yet consumed), a and b already a round further. -/
def slotBusy (c : Dev nD) (s : Nat) (hs : s < 2) (r : ℕ) (j : Nat) (hj : j < 64) : sProp 𝕄 :=
  iprop(abSome (F := F) c s hs
    ∗ atPos ER (aCell c s hs) (r + 1) ∅ 0 ∗ atPos ER (bCell c s hs) (r + 1) ∅ 0
    ∗ reached ER (aCell c s hs) (r + 1) ∗ reached ER (bCell c s hs) (r + 1)
    ∗ cred (tallyAt (stCell c s hs) () No) ∗ atPos ER (stCell c s hs) r ∅ 0 ∗ reached ER (stCell c s hs) r
    ∗ cred (tallyAt (xsCell c j hj) () No) ∗ atPos ER (xsCell c j hj) 0 ∅ 0)

/-- What chunk k's step consumes: the y-receive cell's launch credit and position; the y-send cell's credit (from the
    y-copy) and position; the x-send cell's position; the right half share of x's rows; the x-neighbour's result rows; the
    five tokens it pays with. -/
def stepPre (c : Dev nD) (k : Nat) (hk : k < 64) : sProp 𝕄 :=
  iprop(cred (tallyAt (yrCell c k hk) () No) ∗ atPos ER (yrCell c k hk) 0 ∅ 0
    ∗ cred (tallyAt (ysCell c k hk) () No) ∗ atPos ER (ysCell c k hk) 0 ∅ 0
    ∗ atPos ER (xsCell c k hk) 0 ∅ 0
    ∗ xHolds m c k hk qR ∗ oSome (F := F) (nbrX c) c k hk
    ∗ dutyTok ER (xsCell c k hk) 0 false ∗ dutyTok ER (xrCell (nbrX c) k hk) 0 false
    ∗ dutyTok ER (aCell c (k % 2) (slot_lt k)) (k / 2) false ∗ dutyTok ER (bCell c (k % 2) (slot_lt k)) (k / 2) false
    ∗ dutyTok ER (stCell c (k % 2) (slot_lt k)) (k / 2) false)

/-- What it leaves: both half shares of x's rows back, the two y cells consumed. -/
def stepPost (c : Dev nD) (k : Nat) (hk : k < 64) : sProp 𝕄 :=
  iprop(xHolds m c k hk qL ∗ xHolds m c k hk qR ∗ atPos ER (ysCell c k hk) 1 ∅ 0 ∗ atPos ER (yrCell c k hk) 1 ∅ 0)

/-- What a device owes during the steps: the x-copies from chunk j on, with some record of its waits. -/
def owesX (c : Dev nD) (j : Nat) : sProp 𝕄 := iprop(∃ W : Waits sig Unit, owes (c : Thread nD τ) (owedX c j) W)

end Cert.KernelIdeal.Hand

end
-- ==== Proof.Tables.lean ====
/-
  The schedule's tables as equations, and the facts about levels.

  The number of each semaphore in the DMA pool (the four per-chunk arrays start at 0, 64, 128, 192; the three per-slot
  ones at 256, 258, 260) gives its role; from the role every cell's duties, amounts, expected units and payloads follow,
  round by round.  A chunk k is served by slot k % 2 in the local round k / 2.
-/
import proofs.«900147_g7700000000000148_dist_ar_v7x_xy2x2_y_m32768_n1024_f32_1_alg».proof.Proof.State

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem sem64_val (b : Nat) (h : b + S64.numel ≤ 262) (k : Nat) (hk : k < 64) :
    (sem64 (SemArray.consecutive b S64 h) k hk).val = b + k := by
  show b + (S64.rowMajor _).val = b + k
  rw [Shape.rowMajor_val_one, Rect.emb_apply]
  have h0 : ∀ x : Fin 1, b + (k + 1 * x.val) = b + k := fun x => by rw [Fin.val_eq_zero]; rfl
  exact h0 _

theorem sem2_val (b : Nat) (h : b + S2.numel ≤ 262) (s : Nat) (hs : s < 2) :
    (sem2 (SemArray.consecutive b S2 h) s hs).val = b + s := by
  show b + (S2.rowMajor _).val = b + s
  rw [Shape.rowMajor_val_one, Rect.emb_apply]
  have h0 : ∀ x : Fin 1, b + (s + 1 * x.val) = b + s := fun x => by rw [Fin.val_eq_zero]; rfl
  exact h0 _

theorem ysS_val (k : Nat) (hk : k < 64) : (ysS k hk).val = k := (sem64_val 0 hcc0_scratch0 k hk).trans (Nat.zero_add k)
theorem yrS_val (k : Nat) (hk : k < 64) : (yrS k hk).val = 64 + k := sem64_val 64 hcc0_scratch1 k hk
theorem xsS_val (k : Nat) (hk : k < 64) : (xsS k hk).val = 128 + k := sem64_val 128 hcc0_scratch2 k hk
theorem xrS_val (k : Nat) (hk : k < 64) : (xrS k hk).val = 192 + k := sem64_val 192 hcc0_scratch3 k hk
theorem aS_val (s : Nat) (hs : s < 2) : (aS s hs).val = 256 + s := sem2_val 256 hcc0_scratch7 s hs
theorem bS_val (s : Nat) (hs : s < 2) : (bS s hs).val = 258 + s := sem2_val 258 hcc0_scratch8 s hs
theorem stS_val (s : Nat) (hs : s < 2) : (stS s hs).val = 260 + s := sem2_val 260 hcc0_scratch9 s hs

theorem roleOf_bar : roleOf (.reg barS) = .bar := by simp only [roleOf]; exact if_pos trivial
theorem roleOf_ys (k : Nat) (hk : k < 64) : roleOf (.dma (ysS k hk)) = .ys k := by
  unfold roleOf; simp only [ysS_val]; rw [if_pos hk]
theorem roleOf_yr (k : Nat) (hk : k < 64) : roleOf (.dma (yrS k hk)) = .yr k := by
  unfold roleOf; simp only [yrS_val]
  rw [if_neg (by omega), if_pos (by omega)]; congr 1; omega
theorem roleOf_xs (k : Nat) (hk : k < 64) : roleOf (.dma (xsS k hk)) = .xs k := by
  unfold roleOf; simp only [xsS_val]
  rw [if_neg (by omega), if_neg (by omega), if_pos (by omega)]; congr 1; omega
theorem roleOf_xr (k : Nat) (hk : k < 64) : roleOf (.dma (xrS k hk)) = .xr k := by
  unfold roleOf; simp only [xrS_val]
  rw [if_neg (by omega), if_neg (by omega), if_neg (by omega), if_pos (by omega)]; congr 1; omega
theorem roleOf_a (s : Nat) (hs : s < 2) : roleOf (.dma (aS s hs)) = .a s := by
  unfold roleOf; simp only [aS_val]
  rw [if_neg (by omega), if_neg (by omega), if_neg (by omega), if_neg (by omega), if_pos (by omega)]; congr 1; omega
theorem roleOf_b (s : Nat) (hs : s < 2) : roleOf (.dma (bS s hs)) = .b s := by
  unfold roleOf; simp only [bS_val]
  rw [if_neg (by omega), if_neg (by omega), if_neg (by omega), if_neg (by omega), if_neg (by omega), if_pos (by omega)]; congr 1; omega
theorem roleOf_st (s : Nat) (hs : s < 2) : roleOf (.dma (stS s hs)) = .st s := by
  unfold roleOf; simp only [stS_val]
  rw [if_neg (by omega), if_neg (by omega), if_neg (by omega), if_neg (by omega), if_neg (by omega), if_neg (by omega)]; congr 1; omega

/-! ## The schedule's tables -/

section Tables
variable (c : Dev nD)

theorem duties_tc (sm : SemLoc sig) (r : ℕ) : (sched m).duties ((c : Thread nD τ), sm) r = dutiesOf (roleOf sm) r := by
  dsimp only [sched]; exact if_pos rfl
theorem amount_tc (sm : SemLoc sig) (r : ℕ) (d : Bool) : (sched m).amount ((c : Thread nD τ), sm) r d = amountOfRole (roleOf sm) := rfl
theorem payload_tc (sm : SemLoc sig) (r : ℕ) (d : Bool) : (sched m).payload ((c : Thread nD τ), sm) r d = payloadOf m c (roleOf sm) r d := rfl

theorem duties_bar : (sched m).duties (barCell c) 0 = Finset.univ := by rw [duties_tc, roleOf_bar]; rfl
theorem duties_ys (k : Nat) (hk : k < 64) : (sched m).duties (ysCell c k hk) 0 = {false} := by rw [duties_tc, roleOf_ys]; rfl
theorem duties_yr (k : Nat) (hk : k < 64) : (sched m).duties (yrCell c k hk) 0 = {false} := by rw [duties_tc, roleOf_yr]; rfl
theorem duties_xs (k : Nat) (hk : k < 64) : (sched m).duties (xsCell c k hk) 0 = {false} := by rw [duties_tc, roleOf_xs]; rfl
theorem duties_xr (k : Nat) (hk : k < 64) : (sched m).duties (xrCell c k hk) 0 = {false} := by rw [duties_tc, roleOf_xr]; rfl
theorem duties_a (s : Nat) (hs : s < 2) (r : ℕ) (hr : r < 32) : (sched m).duties (aCell c s hs) r = {false} := by
  rw [duties_tc, roleOf_a]; exact if_pos hr
theorem duties_b (s : Nat) (hs : s < 2) (r : ℕ) (hr : r < 32) : (sched m).duties (bCell c s hs) r = {false} := by
  rw [duties_tc, roleOf_b]; exact if_pos hr
theorem duties_st (s : Nat) (hs : s < 2) (r : ℕ) (hr : r < 32) : (sched m).duties (stCell c s hs) r = {false} := by
  rw [duties_tc, roleOf_st]; exact if_pos hr

/-- The roles whose cell has one round only (all but the three local ones). -/
def Role.single : Role → Bool
  | .a _ | .b _ | .st _ => false
  | _ => true

theorem dutiesOf_later_one (ro : Role) (h : ro.single = true) : ∀ r, 1 ≤ r → dutiesOf ro r = ∅ := by
  intro r hr
  have h0 : r ≠ 0 := by omega
  cases ro <;> first | exact if_neg h0 | rfl | exact absurd h Bool.false_ne_true
theorem dutiesOf_later_32 (ro : Role) : ∀ r, 32 ≤ r → dutiesOf ro r = ∅ := by
  intro r hr
  have h0 : r ≠ 0 := by omega
  have h1 : ¬ r < 32 := by omega
  cases ro <;> first | exact if_neg h0 | exact if_neg h1 | rfl

theorem duties_later_one (g : GSem nD τ sig) (h : (roleOf g.2).single = true) : ∀ r, 1 ≤ r → (sched m).duties g r = ∅ := by
  intro r hr; dsimp only [sched]; split
  · exact dutiesOf_later_one _ h r hr
  · rfl
/-- No cell has a duty from round 32 on. -/
theorem duties_later_32 (g : GSem nD τ sig) : ∀ r, 32 ≤ r → (sched m).duties g r = ∅ := by
  intro r hr; dsimp only [sched]; split
  · exact dutiesOf_later_32 _ r hr
  · rfl

theorem single_reg (s : Sem sig) : (roleOf (.reg s)).single = true := by
  simp only [roleOf]; split <;> rfl
theorem single_of_lt (n : DmaSem sig) (h : n.val < 256) : (roleOf (.dma n)).single = true := by
  simp only [roleOf]; (repeat' split) <;> first | rfl | omega

theorem duties_later_bar : ∀ r, 1 ≤ r → (sched m).duties (barCell c) r = ∅ := duties_later_one m _ (single_reg _)
theorem duties_later_ys (k : Nat) (hk : k < 64) : ∀ r, 1 ≤ r → (sched m).duties (ysCell c k hk) r = ∅ :=
  duties_later_one m _ (single_of_lt _ (by rw [ysS_val]; omega))
theorem duties_later_yr (k : Nat) (hk : k < 64) : ∀ r, 1 ≤ r → (sched m).duties (yrCell c k hk) r = ∅ :=
  duties_later_one m _ (single_of_lt _ (by rw [yrS_val]; omega))
theorem duties_later_xs (k : Nat) (hk : k < 64) : ∀ r, 1 ≤ r → (sched m).duties (xsCell c k hk) r = ∅ :=
  duties_later_one m _ (single_of_lt _ (by rw [xsS_val]; omega))
theorem duties_later_xr (k : Nat) (hk : k < 64) : ∀ r, 1 ≤ r → (sched m).duties (xrCell c k hk) r = ∅ :=
  duties_later_one m _ (single_of_lt _ (by rw [xrS_val]; omega))

end Tables

section Tables2
variable (c : Dev nD)

theorem amount_bar {r : ℕ} (d : Bool) : (sched m).amount (barCell c) r d = 1 := by rw [amount_tc, roleOf_bar]; rfl
theorem amount_ys (k : Nat) (hk : k < 64) {r : ℕ} (d : Bool) : (sched m).amount (ysCell c k hk) r d = No := by rw [amount_tc, roleOf_ys]; rfl
theorem amount_yr (k : Nat) (hk : k < 64) {r : ℕ} (d : Bool) : (sched m).amount (yrCell c k hk) r d = No := by rw [amount_tc, roleOf_yr]; rfl
theorem amount_xs (k : Nat) (hk : k < 64) {r : ℕ} (d : Bool) : (sched m).amount (xsCell c k hk) r d = No := by rw [amount_tc, roleOf_xs]; rfl
theorem amount_xr (k : Nat) (hk : k < 64) {r : ℕ} (d : Bool) : (sched m).amount (xrCell c k hk) r d = No := by rw [amount_tc, roleOf_xr]; rfl
theorem amount_a (s : Nat) (hs : s < 2) (r : ℕ) (d : Bool) : (sched m).amount (aCell c s hs) r d = Na := by rw [amount_tc, roleOf_a]; rfl
theorem amount_b (s : Nat) (hs : s < 2) (r : ℕ) (d : Bool) : (sched m).amount (bCell c s hs) r d = Nb := by rw [amount_tc, roleOf_b]; rfl
theorem amount_st (s : Nat) (hs : s < 2) (r : ℕ) (d : Bool) : (sched m).amount (stCell c s hs) r d = No := by rw [amount_tc, roleOf_st]; rfl

theorem expect_bar : (sched m).expect (barCell c) 0 = 2 := by
  unfold Schedule.expect Schedule.amountOf
  rw [duties_bar, Finset.sum_congr rfl fun d _ => amount_bar m c d, Finset.sum_const, Finset.card_univ, Fintype.card_bool, smul_eq_mul]
theorem expect_ys (k : Nat) (hk : k < 64) : (sched m).expect (ysCell c k hk) 0 = No := by
  unfold Schedule.expect Schedule.amountOf; rw [duties_ys, Finset.sum_singleton, amount_ys]
theorem expect_yr (k : Nat) (hk : k < 64) : (sched m).expect (yrCell c k hk) 0 = No := by
  unfold Schedule.expect Schedule.amountOf; rw [duties_yr, Finset.sum_singleton, amount_yr]
theorem expect_xs (k : Nat) (hk : k < 64) : (sched m).expect (xsCell c k hk) 0 = No := by
  unfold Schedule.expect Schedule.amountOf; rw [duties_xs, Finset.sum_singleton, amount_xs]
theorem expect_xr (k : Nat) (hk : k < 64) : (sched m).expect (xrCell c k hk) 0 = No := by
  unfold Schedule.expect Schedule.amountOf; rw [duties_xr, Finset.sum_singleton, amount_xr]
theorem expect_a (s : Nat) (hs : s < 2) (r : ℕ) (hr : r < 32) : (sched m).expect (aCell c s hs) r = Na := by
  unfold Schedule.expect Schedule.amountOf; rw [duties_a m c s hs r hr, Finset.sum_singleton, amount_a]
theorem expect_b (s : Nat) (hs : s < 2) (r : ℕ) (hr : r < 32) : (sched m).expect (bCell c s hs) r = Nb := by
  unfold Schedule.expect Schedule.amountOf; rw [duties_b m c s hs r hr, Finset.sum_singleton, amount_b]
theorem expect_st (s : Nat) (hs : s < 2) (r : ℕ) (hr : r < 32) : (sched m).expect (stCell c s hs) r = No := by
  unfold Schedule.expect Schedule.amountOf; rw [duties_st m c s hs r hr, Finset.sum_singleton, amount_st]

theorem payload_bar_false : (sched m).payload (barCell c) 0 false = barPay c (nbrY c) := by
  rw [payload_tc, roleOf_bar]; rfl
theorem payload_bar_true : (sched m).payload (barCell c) 0 true = barPay c (nbrX c) := by
  rw [payload_tc, roleOf_bar]; rfl
theorem payload_ys (k : Nat) (hk : k < 64) (d : Bool) : (sched m).payload (ysCell c k hk) 0 d = xHolds m c k hk qL := by
  rw [payload_tc, roleOf_ys]; exact dif_pos hk
theorem payload_yr (k : Nat) (hk : k < 64) (d : Bool) : (sched m).payload (yrCell c k hk) 0 d = oHolds c c k hk (xs m (nbrY c)) := by
  rw [payload_tc, roleOf_yr]; exact dif_pos hk
theorem payload_xs (k : Nat) (hk : k < 64) (d : Bool) :
    (sched m).payload (xsCell c k hk) 0 d = slotSomeS c (k % 2) (Nat.mod_lt _ (by decide)) qL := by
  rw [payload_tc, roleOf_xs]; rfl
theorem payload_xr (k : Nat) (hk : k < 64) (d : Bool) :
    (sched m).payload (xrCell c k hk) 0 d = oHolds c (nbrX c) k hk (sumAt m (nbrX c)) := by
  rw [payload_tc, roleOf_xr]; exact dif_pos hk
theorem payload_a (s : Nat) (hs : s < 2) (r : ℕ) (h : 2 * r + s < 64) (d : Bool) :
    (sched m).payload (aCell c s hs) r d
      = iprop(slotHoldsA c s hs (spread (xs m c) c (2 * r + s)) ∗ xHolds m c (2 * r + s) h qR) := by
  rw [payload_tc, roleOf_a]; exact dif_pos ⟨hs, h⟩
theorem payload_b (s : Nat) (hs : s < 2) (r : ℕ) (h : 2 * r + s < 64) (d : Bool) :
    (sched m).payload (bCell c s hs) r d
      = iprop(slotHoldsB c s hs (spread (xs m (nbrY c)) c (2 * r + s)) ∗ oHolds c c (2 * r + s) h (xs m (nbrY c))) := by
  rw [payload_tc, roleOf_b]; exact dif_pos ⟨hs, h⟩
theorem payload_st (s : Nat) (hs : s < 2) (r : ℕ) (h : 2 * r + s < 64) (d : Bool) :
    (sched m).payload (stCell c s hs) r d = iprop(oHolds c c (2 * r + s) h (sumAt m c) ∗ slotSomeS c s hs qR) := by
  rw [payload_tc, roleOf_st]; exact dif_pos ⟨hs, h⟩

end Tables2

/-! ## The rest of a round, no duty taken -/

section Rest
variable (c : Dev nD)

theorem rest_bar : bigSep ((sched m).duties (barCell c) 0 \ ∅) (fun d => (sched m).payload (barCell c) 0 d)
    = iprop(barPay c (nbrY c) ∗ barPay c (nbrX c)) := by
  rw [Finset.sdiff_empty, duties_bar, bigSep_univ_eq_bigSepL [false, true] (by decide) (by decide), bigSepL_cons_cons, bigSepL_singleton,
    payload_bar_false, payload_bar_true]
  rfl
theorem rest_ys (k : Nat) (hk : k < 64) : bigSep ((sched m).duties (ysCell c k hk) 0 \ ∅) (fun d => (sched m).payload (ysCell c k hk) 0 d)
    = xHolds m c k hk qL := by
  rw [Finset.sdiff_empty, duties_ys, bigSep_singleton, payload_ys]
theorem rest_yr (k : Nat) (hk : k < 64) : bigSep ((sched m).duties (yrCell c k hk) 0 \ ∅) (fun d => (sched m).payload (yrCell c k hk) 0 d)
    = oHolds c c k hk (xs m (nbrY c)) := by
  rw [Finset.sdiff_empty, duties_yr, bigSep_singleton, payload_yr]
theorem rest_xs (k : Nat) (hk : k < 64) : bigSep ((sched m).duties (xsCell c k hk) 0 \ ∅) (fun d => (sched m).payload (xsCell c k hk) 0 d)
    = slotSomeS c (k % 2) (Nat.mod_lt _ (by decide)) qL := by
  rw [Finset.sdiff_empty, duties_xs, bigSep_singleton, payload_xs]
theorem rest_xr (k : Nat) (hk : k < 64) : bigSep ((sched m).duties (xrCell c k hk) 0 \ ∅) (fun d => (sched m).payload (xrCell c k hk) 0 d)
    = oHolds c (nbrX c) k hk (sumAt m (nbrX c)) := by
  rw [Finset.sdiff_empty, duties_xr, bigSep_singleton, payload_xr]
theorem rest_a (s : Nat) (hs : s < 2) (r : ℕ) (h : 2 * r + s < 64) :
    bigSep ((sched m).duties (aCell c s hs) r \ ∅) (fun d => (sched m).payload (aCell c s hs) r d)
      = iprop(slotHoldsA c s hs (spread (xs m c) c (2 * r + s)) ∗ xHolds m c (2 * r + s) h qR) := by
  rw [Finset.sdiff_empty, duties_a m c s hs r (by omega), bigSep_singleton, payload_a]
theorem rest_b (s : Nat) (hs : s < 2) (r : ℕ) (h : 2 * r + s < 64) :
    bigSep ((sched m).duties (bCell c s hs) r \ ∅) (fun d => (sched m).payload (bCell c s hs) r d)
      = iprop(slotHoldsB c s hs (spread (xs m (nbrY c)) c (2 * r + s)) ∗ oHolds c c (2 * r + s) h (xs m (nbrY c))) := by
  rw [Finset.sdiff_empty, duties_b m c s hs r (by omega), bigSep_singleton, payload_b]
theorem rest_st (s : Nat) (hs : s < 2) (r : ℕ) (h : 2 * r + s < 64) :
    bigSep ((sched m).duties (stCell c s hs) r \ ∅) (fun d => (sched m).payload (stCell c s hs) r d)
      = iprop(oHolds c c (2 * r + s) h (sumAt m c) ∗ slotSomeS c s hs qR) := by
  rw [Finset.sdiff_empty, duties_st m c s hs r (by omega), bigSep_singleton, payload_st]

end Rest

/-! ## The local cells' tables at a chunk: chunk k is served by slot k % 2 in round k / 2 -/

section AtChunk
variable (c : Dev nD)

theorem duties_a_k (k : Nat) (hk : k < 64) : (sched m).duties (aCell c (k % 2) (Nat.mod_lt _ (by decide))) (k / 2) = {false} := duties_a m c _ _ _ (by omega)
theorem duties_b_k (k : Nat) (hk : k < 64) : (sched m).duties (bCell c (k % 2) (Nat.mod_lt _ (by decide))) (k / 2) = {false} := duties_b m c _ _ _ (by omega)
theorem duties_st_k (k : Nat) (hk : k < 64) : (sched m).duties (stCell c (k % 2) (Nat.mod_lt _ (by decide))) (k / 2) = {false} := duties_st m c _ _ _ (by omega)
theorem expect_a_k (k : Nat) (hk : k < 64) : (sched m).expect (aCell c (k % 2) (Nat.mod_lt _ (by decide))) (k / 2) = Na := expect_a m c _ _ _ (by omega)
theorem expect_b_k (k : Nat) (hk : k < 64) : (sched m).expect (bCell c (k % 2) (Nat.mod_lt _ (by decide))) (k / 2) = Nb := expect_b m c _ _ _ (by omega)
theorem expect_st_k (k : Nat) (hk : k < 64) : (sched m).expect (stCell c (k % 2) (Nat.mod_lt _ (by decide))) (k / 2) = No := expect_st m c _ _ _ (by omega)
theorem amount_a_k (k : Nat) (hk : k < 64) (d : Bool) : (sched m).amount (aCell c (k % 2) (Nat.mod_lt _ (by decide))) (k / 2) d = Na := amount_a m c _ _ _ d
theorem amount_b_k (k : Nat) (hk : k < 64) (d : Bool) : (sched m).amount (bCell c (k % 2) (Nat.mod_lt _ (by decide))) (k / 2) d = Nb := amount_b m c _ _ _ d
theorem amount_st_k (k : Nat) (hk : k < 64) (d : Bool) : (sched m).amount (stCell c (k % 2) (Nat.mod_lt _ (by decide))) (k / 2) d = No := amount_st m c _ _ _ d

theorem payload_a_k (k : Nat) (hk : k < 64) (d : Bool) : (sched m).payload (aCell c (k % 2) (Nat.mod_lt _ (by decide))) (k / 2) d
    = iprop(slotHoldsA c (k % 2) (Nat.mod_lt _ (by decide)) (spread (xs m c) c k) ∗ xHolds m c k hk qR) := by
  have key : ∀ (s : Nat) (hs : s < 2) (r : ℕ), s = k % 2 → r = k / 2 →
      (sched m).payload (aCell c s hs) r d = iprop(slotHoldsA c s hs (spread (xs m c) c k) ∗ xHolds m c k hk qR) := by
    intro s hs r e1 e2
    have hk' : k = 2 * r + s := by omega
    subst hk'
    exact payload_a m c s hs r hk d
  exact key _ _ _ rfl rfl
theorem payload_b_k (k : Nat) (hk : k < 64) (d : Bool) : (sched m).payload (bCell c (k % 2) (Nat.mod_lt _ (by decide))) (k / 2) d
    = iprop(slotHoldsB c (k % 2) (Nat.mod_lt _ (by decide)) (spread (xs m (nbrY c)) c k) ∗ oHolds c c k hk (xs m (nbrY c))) := by
  have key : ∀ (s : Nat) (hs : s < 2) (r : ℕ), s = k % 2 → r = k / 2 →
      (sched m).payload (bCell c s hs) r d
        = iprop(slotHoldsB c s hs (spread (xs m (nbrY c)) c k) ∗ oHolds c c k hk (xs m (nbrY c))) := by
    intro s hs r e1 e2
    have hk' : k = 2 * r + s := by omega
    subst hk'
    exact payload_b m c s hs r hk d
  exact key _ _ _ rfl rfl
theorem payload_st_k (k : Nat) (hk : k < 64) (d : Bool) : (sched m).payload (stCell c (k % 2) (Nat.mod_lt _ (by decide))) (k / 2) d
    = iprop(oHolds c c k hk (sumAt m c) ∗ slotSomeS c (k % 2) (Nat.mod_lt _ (by decide)) qR) := by
  have key : ∀ (s : Nat) (hs : s < 2) (r : ℕ), s = k % 2 → r = k / 2 →
      (sched m).payload (stCell c s hs) r d = iprop(oHolds c c k hk (sumAt m c) ∗ slotSomeS c s hs qR) := by
    intro s hs r e1 e2
    have hk' : k = 2 * r + s := by omega
    subst hk'
    exact payload_st m c s hs r hk d
  exact key _ _ _ rfl rfl

theorem rest_a_k (k : Nat) (hk : k < 64) : bigSep ((sched m).duties (aCell c (k % 2) (Nat.mod_lt _ (by decide))) (k / 2) \ ∅)
      (fun d => (sched m).payload (aCell c (k % 2) (Nat.mod_lt _ (by decide))) (k / 2) d)
    = iprop(slotHoldsA c (k % 2) (Nat.mod_lt _ (by decide)) (spread (xs m c) c k) ∗ xHolds m c k hk qR) := by
  rw [Finset.sdiff_empty, duties_a_k m c k hk, bigSep_singleton, payload_a_k m c k hk]
theorem rest_b_k (k : Nat) (hk : k < 64) : bigSep ((sched m).duties (bCell c (k % 2) (Nat.mod_lt _ (by decide))) (k / 2) \ ∅)
      (fun d => (sched m).payload (bCell c (k % 2) (Nat.mod_lt _ (by decide))) (k / 2) d)
    = iprop(slotHoldsB c (k % 2) (Nat.mod_lt _ (by decide)) (spread (xs m (nbrY c)) c k) ∗ oHolds c c k hk (xs m (nbrY c))) := by
  rw [Finset.sdiff_empty, duties_b_k m c k hk, bigSep_singleton, payload_b_k m c k hk]
theorem rest_st_k (k : Nat) (hk : k < 64) : bigSep ((sched m).duties (stCell c (k % 2) (Nat.mod_lt _ (by decide))) (k / 2) \ ∅)
      (fun d => (sched m).payload (stCell c (k % 2) (Nat.mod_lt _ (by decide))) (k / 2) d)
    = iprop(oHolds c c k hk (sumAt m c) ∗ slotSomeS c (k % 2) (Nat.mod_lt _ (by decide)) qR) := by
  rw [Finset.sdiff_empty, duties_st_k m c k hk, bigSep_singleton, payload_st_k m c k hk]

end AtChunk

/-! ## Payloads can be stored in an invariant -/

instance sched_payload_storable (g : GSem nD τ sig) (r : ℕ) (d : Bool) :
    BI.Storable (upEmb : UEmb _ 𝕄) ((sched m).payload g r d) := by
  show BI.Storable upEmb (payloadOf m g.1.1 (roleOf g.2) r d)
  generalize roleOf g.2 = ro
  unfold payloadOf barPay oSome xHolds oHolds slotHoldsA slotHoldsB slotSomeS
  (repeat' split) <;> infer_instance

/-! ## The neighbours are involutions -/

theorem nbrY_nbrY (c : Dev nD) : nbrY (nbrY c) = c := by revert c; decide +kernel
theorem nbrX_nbrX (c : Dev nD) : nbrX (nbrX c) = c := by revert c; decide +kernel

/-! ## Credits -/

theorem oRows_credit (d : Dev nD) (k : Nat) (hk : k < 64) : (oRows d k hk).view.dmaCredit = No := rfl
theorem slotA_credit (s : Nat) (hs : s < 2) : (slotOf aM s hs).view.dmaCredit = Na := rfl
theorem slotB_credit (s : Nat) (hs : s < 2) : (slotOf bM s hs).view.dmaCredit = Nb := rfl
theorem slotS_credit (s : Nat) (hs : s < 2) : (slotOf sM s hs).view.dmaCredit = No := rfl
theorem Na_eq : Na = No := rfl
theorem Nb_eq : Nb = No := rfl

theorem xRows_credit (d : Dev nD) (k : Nat) (hk : k < 64) : (xRows d k hk).view.dmaCredit = No := rfl
theorem oRows_amount (d : Dev nD) (k : Nat) (hk : k < 64) (n : DmaSem sig) : (oRows d k hk).view.amount (.dma n) = No := rfl
theorem slotA_amount (s : Nat) (hs : s < 2) (n : DmaSem sig) : (slotOf aM s hs).view.amount (.dma n) = Na := rfl
theorem slotB_amount (s : Nat) (hs : s < 2) (n : DmaSem sig) : (slotOf bM s hs).view.amount (.dma n) = Nb := rfl
theorem slotS_amount (s : Nat) (hs : s < 2) (n : DmaSem sig) : (slotOf sM s hs).view.amount (.dma n) = No := rfl

/-! ## Cells of different roles, or of different devices, differ -/

theorem cell_ne_of_role {c c' : Dev nD} {sm sm' : SemLoc sig} (h : roleOf sm ≠ roleOf sm') :
    (((c : Thread nD τ), sm) : GSem nD τ sig) ≠ ((c' : Thread nD τ), sm') :=
  fun e => h (congrArg (fun g : GSem nD τ sig => roleOf g.2) e)
theorem cell_ne_of_dev {c c' : Dev nD} {sm sm' : SemLoc sig} (h : c ≠ c') :
    (((c : Thread nD τ), sm) : GSem nD τ sig) ≠ ((c' : Thread nD τ), sm') :=
  fun e => h (congrArg (fun g : GSem nD τ sig => g.1.1) e)
theorem ys_ne_yr (c c' : Dev nD) (k k' : Nat) (hk : k < 64) (hk' : k' < 64) : ysCell c k hk ≠ yrCell c' k' hk' :=
  cell_ne_of_role (by rw [roleOf_ys, roleOf_yr]; exact fun e => Role.noConfusion e)
theorem yrCell_ne (c : Dev nD) {k k' : Nat} (hk : k < 64) (hk' : k' < 64) (h : k ≠ k') : yrCell c k hk ≠ yrCell c k' hk' :=
  cell_ne_of_role (by rw [roleOf_yr, roleOf_yr]; exact fun e => h (Role.yr.inj e))
theorem xrCell_ne (c : Dev nD) {k k' : Nat} (hk : k < 64) (hk' : k' < 64) (h : k ≠ k') : xrCell c k hk ≠ xrCell c k' hk' :=
  cell_ne_of_role (by rw [roleOf_xr, roleOf_xr]; exact fun e => h (Role.xr.inj e))

/-! ## Levels -/

theorem Lset_tc (c : Dev nD) (sm : SemLoc sig) : Lset ((c : Thread nD τ), sm) = {()} := if_pos rfl
theorem Lset_of_ne (g : GSem nD τ sig) (h : g.1.2 ≠ .tc) : Lset g = ∅ := if_neg h

theorem lv_bar (c : Dev nD) : lv (barCell c) () = 1 := by simp only [lv, roleOf_bar]
theorem lv_ys (c : Dev nD) (k : Nat) (hk : k < 64) : lv (ysCell c k hk) () = 0 := by simp only [lv, roleOf_ys]
theorem lv_yr (c : Dev nD) (k : Nat) (hk : k < 64) : lv (yrCell c k hk) () = 2 := by simp only [lv, roleOf_yr]
theorem lv_xs (c : Dev nD) (k : Nat) (hk : k < 64) : lv (xsCell c k hk) () = 0 := by simp only [lv, roleOf_xs]
theorem lv_xr (c : Dev nD) (k : Nat) (hk : k < 64) : lv (xrCell c k hk) () = 3 := by simp only [lv, roleOf_xr]
theorem lv_a (c : Dev nD) (s : Nat) (hs : s < 2) : lv (aCell c s hs) () = 0 := by simp only [lv, roleOf_a]
theorem lv_b (c : Dev nD) (s : Nat) (hs : s < 2) : lv (bCell c s hs) () = 0 := by simp only [lv, roleOf_b]
theorem lv_st (c : Dev nD) (s : Nat) (hs : s < 2) : lv (stCell c s hs) () = 0 := by simp only [lv, roleOf_st]

/-- What is owed, read at one cell and index. -/
theorem owedX_apply (c : Dev nD) (j : Nat) (g : GSem nD τ sig) (u : Unit) :
    owedX c j g u = ∑ k : Fin 64, if j ≤ k.val then tallyAt (xrCell (nbrX c) k.val k.isLt) () No g u else 0 := by
  unfold owedX
  rw [Finset.sum_apply, Finsupp.finset_sum_apply]
  refine Finset.sum_congr rfl fun k _ => ?_
  split <;> rfl
theorem owedY_apply (c : Dev nD) (j : Nat) (g : GSem nD τ sig) (u : Unit) :
    owedY c j g u = ∑ k : Fin 64, if j ≤ k.val then tallyAt (yrCell (nbrY c) k.val k.isLt) () No g u else 0 := by
  unfold owedY
  rw [Finset.sum_apply, Finsupp.finset_sum_apply]
  refine Finset.sum_congr rfl fun k _ => ?_
  split <;> rfl

/-- A positive entry of what is owed along x sits at an x-receive cell of the x-neighbour; along y, at a y-receive cell of
    the y-neighbour. -/
theorem owedX_pos {c : Dev nD} {j : Nat} {g : GSem nD τ sig} {u : Unit} (h : 0 < owedX c j g u) :
    ∃ (k : Nat) (hk : k < 64), j ≤ k ∧ g = xrCell (nbrX c) k hk := by
  rw [owedX_apply] at h
  by_contra hn
  have hz : (∑ k : Fin 64, if j ≤ k.val then tallyAt (xrCell (nbrX c) k.val k.isLt) () No g u else 0) = 0 := by
    refine Finset.sum_eq_zero fun k _ => ?_
    split
    · rename_i hjk
      rw [tallyAt_apply, if_neg]
      exact fun hh => hn ⟨k.val, k.isLt, hjk, hh.1⟩
    · rfl
  rw [hz] at h; exact Nat.lt_irrefl 0 h
theorem owedY_pos {c : Dev nD} {j : Nat} {g : GSem nD τ sig} {u : Unit} (h : 0 < owedY c j g u) :
    ∃ (k : Nat) (hk : k < 64), j ≤ k ∧ g = yrCell (nbrY c) k hk := by
  rw [owedY_apply] at h
  by_contra hn
  have hz : (∑ k : Fin 64, if j ≤ k.val then tallyAt (yrCell (nbrY c) k.val k.isLt) () No g u else 0) = 0 := by
    refine Finset.sum_eq_zero fun k _ => ?_
    split
    · rename_i hjk
      rw [tallyAt_apply, if_neg]
      exact fun hh => hn ⟨k.val, k.isLt, hjk, hh.1⟩
    · rfl
  rw [hz] at h; exact Nat.lt_irrefl 0 h

theorem owedXY_pos {c : Dev nD} {i j : Nat} {g : GSem nD τ sig} {u : Unit} (h : 0 < (owedX c i + owedY c j) g u) :
    (∃ (k : Nat) (hk : k < 64), i ≤ k ∧ g = xrCell (nbrX c) k hk) ∨ (∃ (k : Nat) (hk : k < 64), j ≤ k ∧ g = yrCell (nbrY c) k hk) := by
  rw [Pi.add_apply, Finsupp.add_apply] at h
  by_cases h1 : 0 < owedX c i g u
  · exact .inl (owedX_pos h1)
  · exact .inr (owedY_pos (u := u) (by omega))

/-- At its barrier wait a device owes receive cells only: all above the barrier cell. -/
theorem mayWait_bar (c : Dev nD) :
    (levAts Lset lv : sProp 𝕄) ⊢ MayWait (c : Thread nD τ) (.reg barS) () (owedX c 0 + owedY c 0) :=
  MayOwe.of_cut (L := Lset) (lev := lv) 1
    (fun p hp => by rw [Finset.mem_singleton.mp hp, Lset_tc]; exact Finset.mem_singleton_self _)
    (fun g u hg => by
      rcases owedXY_pos hg with ⟨k, hk, -, rfl⟩ | ⟨k, hk, -, rfl⟩ <;> (rw [Lset_tc]; exact Finset.mem_singleton_self _))
    (fun p hp => by rw [Finset.mem_singleton.mp hp]; exact le_of_eq (lv_bar c))
    (fun g u hg => by
      rcases owedXY_pos hg with ⟨k, hk, -, rfl⟩ | ⟨k, hk, -, rfl⟩
      · rw [lv_xr]; decide
      · rw [lv_yr]; decide)

/-- At a y-receive wait it owes x-receive cells only: above every y-receive cell. -/
theorem mayWait_yr (c : Dev nD) (k : Nat) (hk : k < 64) (j : Nat) :
    (levAts Lset lv : sProp 𝕄) ⊢ MayWait (c : Thread nD τ) (.dma (yrS k hk)) () (owedX c j) :=
  MayOwe.of_cut (L := Lset) (lev := lv) 2
    (fun p hp => by rw [Finset.mem_singleton.mp hp, Lset_tc]; exact Finset.mem_singleton_self _)
    (fun g u hg => by obtain ⟨k', hk', -, rfl⟩ := owedX_pos hg; rw [Lset_tc]; exact Finset.mem_singleton_self _)
    (fun p hp => by rw [Finset.mem_singleton.mp hp]; exact le_of_eq (lv_yr c k hk))
    (fun g u hg => by obtain ⟨k', hk', -, rfl⟩ := owedX_pos hg; rw [lv_xr]; decide)

/-- At a wait on a cell of level 0 (an own send cell, a local cell) likewise. -/
theorem mayWait_low (c : Dev nD) (sm : SemLoc sig) (h : lv ((c : Thread nD τ), sm) () = 0) (j : Nat) :
    (levAts Lset lv : sProp 𝕄) ⊢ MayWait (c : Thread nD τ) sm () (owedX c j) :=
  MayOwe.of_cut (L := Lset) (lev := lv) 0
    (fun p hp => by rw [Finset.mem_singleton.mp hp, Lset_tc]; exact Finset.mem_singleton_self _)
    (fun g u hg => by obtain ⟨k', hk', -, rfl⟩ := owedX_pos hg; rw [Lset_tc]; exact Finset.mem_singleton_self _)
    (fun p hp => by rw [Finset.mem_singleton.mp hp]; exact le_of_eq h)
    (fun g u hg => by obtain ⟨k', hk', -, rfl⟩ := owedX_pos hg; rw [lv_xr]; decide)

/-! ## The sums the body peels -/

theorem tally_split (T : Fin 64 → CellTallies nD τ sig Unit) (j : Nat) (hj : j < 64) :
    (∑ k : Fin 64, if j ≤ k.val then T k else 0) = (∑ k : Fin 64, if j + 1 ≤ k.val then T k else 0) + T ⟨j, hj⟩ := by
  have hsplit : ∀ k : Fin 64, (if j ≤ k.val then T k else 0)
      = (if j + 1 ≤ k.val then T k else 0) + (if k = ⟨j, hj⟩ then T k else 0) := by
    intro k
    by_cases h1 : j + 1 ≤ k.val
    · rw [if_pos (by omega), if_pos h1, if_neg (fun e => by rw [e] at h1; exact absurd h1 (Nat.not_succ_le_self j)), add_zero]
    · by_cases h2 : k = ⟨j, hj⟩
      · subst h2; rw [if_pos (le_refl j), if_neg h1, if_pos rfl, zero_add]
      · have h3 : ¬ j ≤ k.val := fun h => h2 (Fin.ext (by show k.val = j; omega))
        rw [if_neg h3, if_neg h1, if_neg h2, add_zero]
  rw [Finset.sum_congr rfl fun k _ => hsplit k, Finset.sum_add_distrib, Finset.sum_ite_eq', if_pos (Finset.mem_univ _)]

theorem owedY_succ (c : Dev nD) (j : Nat) (hj : j < 64) : owedY c j = owedY c (j + 1) + tallyAt (yrCell (nbrY c) j hj) () No :=
  tally_split (fun k => tallyAt (yrCell (nbrY c) k.val k.isLt) () No) j hj
theorem owedX_succ (c : Dev nD) (j : Nat) (hj : j < 64) : owedX c j = owedX c (j + 1) + tallyAt (xrCell (nbrX c) j hj) () No :=
  tally_split (fun k => tallyAt (xrCell (nbrX c) k.val k.isLt) () No) j hj
theorem owedY_64 (c : Dev nD) : owedY c 64 = 0 := Finset.sum_eq_zero fun k _ => if_neg (by have := k.isLt; omega)
theorem owedX_64 (c : Dev nD) : owedX c 64 = 0 := Finset.sum_eq_zero fun k _ => if_neg (by have := k.isLt; omega)

/-- info: 'Cert.KernelIdeal.Hand.mayWait_bar' depends on axioms: [propext, Classical.choice, Quot.sound] -/
#guard_msgs in #print axioms mayWait_bar
/-- info: 'Cert.KernelIdeal.Hand.sched_payload_storable' depends on axioms: [propext, Classical.choice, Quot.sound] -/
#guard_msgs in #print axioms sched_payload_storable

end Cert.KernelIdeal.Hand

end
-- ==== Proof.GeomSplit.lean ====
/-
  Cutting a device's two HBM arrays into the chunks the protocol moves, and joining them back.

  An array has 32768 rows of 1024. Device d works on the half numbered d / 2 (rows 16384 (d / 2) .. + 16384), in 64 chunks
  of 256 whole rows; chunk k of that half is the rows 16384 (d / 2) + 256 k .. + 256. The y-neighbour of a device has the
  same half, the x-neighbour the other one. So the 64 chunks of a device's half and the 64 chunks of its x-neighbour's
  half are 128 pairwise disjoint sets of rows that cover the array.

  * The result array, whole at contents f, is the 128 chunks each at f (`out_cut`, an equality); forgetting the contents
    gives `out_split`. The all-reduced contents are, on the own half's rows, the sum formed on the device and, on the other
    half's rows, the sum formed on the x-neighbour; a chunk's points-to sees the contents on the chunk only, so the 128
    chunks at those two sums join to the whole array at the all-reduced contents (`res_join`).
  * The argument array, whole at its launch contents, is the 64 chunks of the own half, each held as its two half shares,
    and the other half's rows whole (`x_cut`, an equality; `x_split`, `x_join`).
-/
import proofs.«900147_g7700000000000148_dist_ar_v7x_xy2x2_y_m32768_n1024_f32_1_alg».proof.Proof.State
import Idealize.ShloMosaic.Rules.PointsTo

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The chunks' rectangles -/

/-- The y-neighbour lies in the same half of the rows; the x-neighbour in the other. -/
theorem nbrY_half : ∀ c : Dev nD, (nbrY c).val / 2 = c.val / 2 := by decide +kernel
theorem nbrX_half : ∀ c : Dev nD, (nbrX c).val / 2 = 1 - c.val / 2 := by decide +kernel
theorem half_le_one : ∀ c : Dev nD, c.val / 2 ≤ 1 := by decide +kernel

/-- The first row of chunk k of device d's half. -/
theorem rows_off (d : Dev nD) (k : Nat) (hk : k < 64) :
    k0_off1 d (BitVec.ofNat 32 (256 * k)) = ![16384 * (d.val / 2) + 256 * k, 0] := k0_off1_eq d ⟨k, hk⟩

/-- A device and its y-neighbour work on the same rows. -/
theorem rows_off_nbrY (c : Dev nD) (k : Nat) (hk : k < 64) :
    k0_off1 (nbrY c) (BitVec.ofNat 32 (256 * k)) = k0_off1 c (BitVec.ofNat 32 (256 * k)) := by
  rw [rows_off _ k hk, rows_off _ k hk, nbrY_half]

theorem rowsR_nbrY (c : Dev nD) (k : Nat) (hk : k < 64) : rowsR (nbrY c) k hk = rowsR c k hk :=
  Rect.unit_congr (rows_off_nbrY c k hk) _ _

theorem oRows_nbrY (c : Dev nD) (k : Nat) (hk : k < 64) : oRows (nbrY c) k hk = oRows c k hk :=
  Memref.slice_unit_congr _ (rows_off_nbrY c k hk) _ _ _ _
theorem xRows_nbrY (c : Dev nD) (k : Nat) (hk : k < 64) : xRows (nbrY c) k hk = xRows c k hk :=
  Memref.slice_unit_congr _ (rows_off_nbrY c k hk) _ _ _ _

/-- The elements of a chunk: the 256 rows from its first. -/
theorem mem_rowsR (d : Dev nD) (k : Nat) (hk : k < 64) (i : S32768x1024.Idx) :
    i ∈ (rowsR d k hk).set ↔ 16384 * (d.val / 2) + 256 * k ≤ (i 0).val ∧ (i 0).val < 16384 * (d.val / 2) + 256 * k + 256 := by
  rw [Rect.mem_set_unit, rows_off d k hk]
  constructor
  · intro h; exact h 0
  · intro h a
    fin_cases a
    · exact h
    · exact ⟨Nat.zero_le _, by have := (i 1).isLt; simpa using this⟩

theorem oRows_set (d : Dev nD) (k : Nat) (hk : k < 64) : (oRows d k hk).view.set = (rowsR d k hk).set :=
  View.set_slice_whole _ _
theorem xRows_set (d : Dev nD) (k : Nat) (hk : k < 64) : (xRows d k hk).view.set = (rowsR d k hk).set :=
  View.set_slice_whole _ _

theorem mem_rows (d : Dev nD) (k : Nat) (hk : k < 64) (i : S32768x1024.Idx) :
    i ∈ (oRows d k hk).view.set ↔ 16384 * (d.val / 2) + 256 * k ≤ (i 0).val ∧ (i 0).val < 16384 * (d.val / 2) + 256 * k + 256 := by
  rw [oRows_set]; exact mem_rowsR d k hk i
theorem mem_xrows (d : Dev nD) (k : Nat) (hk : k < 64) (i : S32768x1024.Idx) :
    i ∈ (xRows d k hk).view.set ↔ 16384 * (d.val / 2) + 256 * k ≤ (i 0).val ∧ (i 0).val < 16384 * (d.val / 2) + 256 * k + 256 := by
  rw [xRows_set]; exact mem_rowsR d k hk i

/-! ## The chunks as points-tos over their rectangles' elements -/

theorem oHolds_eq (c d : Dev nD) (k : Nat) (hk : k < 64) (g : S32768x1024.Idx → F .f32) :
    oHolds (F := F) c d k hk g = ((c : Thread nD τ).loc main_v1 ↦[(rowsR d k hk).set]{fullShare} g : sProp 𝕄) := by
  unfold oHolds
  exact congrArg (fun I => ((c : Thread nD τ).loc main_v1 ↦[I]{fullShare} g : sProp 𝕄)) (oRows_set d k hk)

theorem xHolds_eq (c : Dev nD) (k : Nat) (hk : k < 64) (q : PosShare TreeShare) :
    xHolds m c k hk q = ((c : Thread nD τ).loc main_arg0 ↦[(rowsR c k hk).set]{q} xs m c : sProp 𝕄) := by
  unfold xHolds
  exact congrArg (fun I => ((c : Thread nD τ).loc main_arg0 ↦[I]{q} xs m c : sProp 𝕄)) (xRows_set c k hk)

theorem oSome_eq (c d : Dev nD) (k : Nat) (hk : k < 64) :
    oSome (F := F) c d k hk
      = (iprop(∃ f : S32768x1024.Idx → F .f32, (c : Thread nD τ).loc main_v1 ↦[(rowsR d k hk).set]{fullShare} f) : sProp 𝕄) := by
  unfold oSome
  exact congrArg (fun I => (iprop(∃ f : S32768x1024.Idx → F .f32, (c : Thread nD τ).loc main_v1 ↦[I]{fullShare} f) : sProp 𝕄))
    (oRows_set d k hk)

/-- A chunk's points-to depends on the contents on the chunk's rows only. -/
theorem oHolds_congr_eq (c d : Dev nD) (k : Nat) (hk : k < 64) (g g' : S32768x1024.Idx → F .f32)
    (h : ∀ i ∈ (oRows d k hk).view.set, g i = g' i) : oHolds (F := F) c d k hk g = oHolds c d k hk g' := by
  unfold oHolds; exact pointsTo_congr h

theorem oHolds_congr (c d : Dev nD) (k : Nat) (hk : k < 64) (g g' : S32768x1024.Idx → F .f32)
    (h : ∀ i ∈ (oRows d k hk).view.set, g i = g' i) : oHolds (F := F) c d k hk g ⊢ oHolds c d k hk g' :=
  Entails.of_eq (oHolds_congr_eq c d k hk g g' h)

/-- The y-neighbour's chunks are the device's own, so a chunk named through either is the same assertion. -/
theorem oHolds_nbrY (p c : Dev nD) (k : Nat) (hk : k < 64) (g : S32768x1024.Idx → F .f32) :
    oHolds (F := F) p (nbrY c) k hk g = oHolds p c k hk g := by
  rw [oHolds_eq, oHolds_eq, rowsR_nbrY]
theorem oSome_nbrY (p c : Dev nD) (k : Nat) (hk : k < 64) :
    oSome (F := F) p (nbrY c) k hk = oSome p c k hk := by
  rw [oSome_eq, oSome_eq, rowsR_nbrY]

/-! ## The two halves of the rows -/

/-- The rows of device d's half: its 64 chunks together. -/
def halfSet (d : Dev nD) : Finset S32768x1024.Idx := Finset.univ.biUnion fun k : Fin 64 => (rowsR d k.val k.isLt).set

theorem mem_halfSet (d : Dev nD) (i : S32768x1024.Idx) : i ∈ halfSet d ↔ (i 0).val / 16384 = d.val / 2 := by
  have hd := half_le_one d
  have hi : (i 0).val < 32768 := (i 0).isLt
  unfold halfSet
  rw [Finset.mem_biUnion]
  constructor
  · rintro ⟨k, -, hk⟩
    rw [mem_rowsR] at hk
    have := k.isLt
    omega
  · intro h
    have hK : ((i 0).val - 16384 * (d.val / 2)) / 256 < 64 := by omega
    exact ⟨⟨_, hK⟩, Finset.mem_univ _, (mem_rowsR d _ hK i).mpr (by omega)⟩

/-- Different chunks of one half share no row. -/
theorem rows_disjoint (d : Dev nD) (k k' : Fin 64) (h : k ≠ k') :
    Disjoint (rowsR d k.val k.isLt).set (rowsR d k'.val k'.isLt).set := by
  rw [Finset.disjoint_left]
  intro i h1 h2
  rw [mem_rowsR] at h1 h2
  have : k.val ≠ k'.val := fun e => h (Fin.ext e)
  omega

/-- The other half is the x-neighbour's. -/
theorem univ_sdiff_halfSet (c : Dev nD) : Finset.univ \ halfSet c = halfSet (nbrX c) := by
  ext i
  have hi : (i 0).val < 32768 := (i 0).isLt
  have hc := half_le_one c
  rw [Finset.mem_sdiff, mem_halfSet, mem_halfSet, nbrX_half]
  simp only [Finset.mem_univ, true_and]
  omega

/-! ## A half as its 64 chunks -/

/-- Different chunks of one half are disjoint, in the form the family lemma asks. -/
theorem rows_pairwise (d : Dev nD) :
    ∀ k ∈ (Finset.univ : Finset (Fin 64)), ∀ k' ∈ (Finset.univ : Finset (Fin 64)), k ≠ k' →
      Disjoint (rowsR d k.val k.isLt).set (rowsR d k'.val k'.isLt).set :=
  fun k _ k' _ h => rows_disjoint d k k' h

/-- A chunk's rows lie in their half. -/
theorem row_half_of_mem (d : Dev nD) (k : Nat) (hk : k < 64) (i : S32768x1024.Idx) (hi : i ∈ (rowsR d k hk).set) :
    (i 0).val / 16384 = d.val / 2 :=
  (mem_halfSet d i).mp (Finset.mem_biUnion.mpr ⟨⟨k, hk⟩, Finset.mem_univ _, hi⟩)

/-- A points-to over a half of the result array is the 64 points-tos over the half's chunks; -/
theorem out_half (c d : Dev nD) (q : PosShare TreeShare) (f : S32768x1024.Idx → F .f32) :
    ((c : Thread nD τ).loc main_v1 ↦[halfSet d]{q} f : sProp 𝕄)
      = bigSep Finset.univ fun k : Fin 64 => ((c : Thread nD τ).loc main_v1 ↦[(rowsR d k.val k.isLt).set]{q} f : sProp 𝕄) := by
  have h := pointsTo_biUnion (Ix := Unit) (Val := Elt F) (Name := ℕ) (U := UU) (Lvl := ℕ)
    (ℓ := (c : Thread nD τ).loc main_v1) (q := q) (f := f) Finset.univ
    (fun k : Fin 64 => (rowsR d k.val k.isLt).set) (rows_pairwise d)
  exact h

/-- and the same of the argument array. -/
theorem arg_half (c d : Dev nD) (q : PosShare TreeShare) (f : S32768x1024.Idx → F .f32) :
    ((c : Thread nD τ).loc main_arg0 ↦[halfSet d]{q} f : sProp 𝕄)
      = bigSep Finset.univ fun k : Fin 64 => ((c : Thread nD τ).loc main_arg0 ↦[(rowsR d k.val k.isLt).set]{q} f : sProp 𝕄) := by
  have h := pointsTo_biUnion (Ix := Unit) (Val := Elt F) (Name := ℕ) (U := UU) (Lvl := ℕ)
    (ℓ := (c : Thread nD τ).loc main_arg0) (q := q) (f := f) Finset.univ
    (fun k : Fin 64 => (rowsR d k.val k.isLt).set) (rows_pairwise d)
  exact h

/-! ## The result array: 128 chunks -/

/-- The result array is its own half and the x-neighbour's. -/
theorem out_halves (c : Dev nD) (f : S32768x1024.Idx → F .f32) :
    whole (F := F) c main_v1 f = iprop(((c : Thread nD τ).loc main_v1 ↦[halfSet c]{fullShare} f)
      ∗ ((c : Thread nD τ).loc main_v1 ↦[halfSet (nbrX c)]{fullShare} f)) := by
  have h := pointsTo_split_subset (Ix := Unit) (Val := Elt F) (Name := ℕ) (U := UU) (Lvl := ℕ)
    (ℓ := (c : Thread nD τ).loc main_v1) (q := fullShare) (f := f) (Finset.subset_univ (halfSet c))
  rw [univ_sdiff_halfSet] at h
  exact equiv_iff.mp ⟨h.1, h.2⟩

/-- The family of a half's chunks of the result array, each as a points-to over its rectangle's elements. -/
theorem oHolds_family (c d : Dev nD) (f : S32768x1024.Idx → F .f32) :
    (fun k : Fin 64 => oHolds (F := F) c d k.val k.isLt f)
      = fun k : Fin 64 => ((c : Thread nD τ).loc main_v1 ↦[(rowsR d k.val k.isLt).set]{fullShare} f : sProp 𝕄) :=
  funext fun k => oHolds_eq c d k.val k.isLt f

/-- The whole result array at contents f is the 64 chunks of the device's own half and the 64 of the other half,
    each at f. -/
theorem out_cut (c : Dev nD) (f : S32768x1024.Idx → F .f32) :
    whole (F := F) c main_v1 f
      = iprop((bigSep Finset.univ fun k : Fin 64 => oHolds c c k.val k.isLt f)
          ∗ (bigSep Finset.univ fun k : Fin 64 => oHolds c (nbrX c) k.val k.isLt f)) := by
  rw [out_halves c f, out_half (F := F) c c fullShare f, out_half (F := F) c (nbrX c) fullShare f,
    oHolds_family c c f, oHolds_family c (nbrX c) f]

/-- A chunk at some contents. -/
theorem oSome_of_oHolds (c d : Dev nD) (k : Nat) (hk : k < 64) (g : S32768x1024.Idx → F .f32) :
    oHolds (F := F) c d k hk g ⊢ oSome c d k hk := by
  unfold oHolds oSome
  iintro H
  iexists g
  iexact H

theorem out_split (c : Dev nD) (f : S32768x1024.Idx → F .f32) :
    whole (F := F) c main_v1 f
      ⊢ iprop((bigSep Finset.univ fun k : Fin 64 => oSome c c k.val k.isLt)
          ∗ (bigSep Finset.univ fun k : Fin 64 => oSome c (nbrX c) k.val k.isLt)) := by
  rw [out_cut c f]
  exact BI.sep_mono (bigSep_mono fun k _ => oSome_of_oHolds c c k.val k.isLt f)
    (bigSep_mono fun k _ => oSome_of_oHolds c (nbrX c) k.val k.isLt f)

/-- The all-reduced contents on the rows of the device's own half, and on the other half's. -/
theorem resBuf_own (c : Dev nD) (i : S32768x1024.Idx) (h : (i 0).val / 16384 = c.val / 2) :
    resBuf m c i = sumAt m c i := if_pos h
theorem resBuf_other (c : Dev nD) (i : S32768x1024.Idx) (h : (i 0).val / 16384 = (nbrX c).val / 2) :
    resBuf m c i = sumAt m (nbrX c) i :=
  if_neg (by rw [h, nbrX_half]; have := half_le_one c; omega)

theorem res_join (c : Dev nD) :
    iprop((bigSep Finset.univ fun k : Fin 64 => oHolds c c k.val k.isLt (sumAt m c))
        ∗ (bigSep Finset.univ fun k : Fin 64 => oHolds c (nbrX c) k.val k.isLt (sumAt m (nbrX c))))
      ⊢ whole c main_v1 (resBuf m c) := by
  rw [out_cut c (resBuf m c)]
  refine BI.sep_mono (bigSep_mono fun k _ => ?_) (bigSep_mono fun k _ => ?_)
  · refine oHolds_congr c c k.val k.isLt _ _ fun i hi => ?_
    rw [oRows_set] at hi
    exact (resBuf_own m c i (row_half_of_mem c k.val k.isLt i hi)).symm
  · refine oHolds_congr c (nbrX c) k.val k.isLt _ _ fun i hi => ?_
    rw [oRows_set] at hi
    exact (resBuf_other m c i (row_half_of_mem (nbrX c) k.val k.isLt i hi)).symm

/-! ## The argument array: the own half's 64 chunks, each at two half shares, and the rest -/

/-- The other half's rows of the argument array, whole, at their launch contents. -/
def xRest (c : Dev nD) : sProp 𝕄 :=
  (c : Thread nD τ).loc main_arg0 ↦[Finset.univ \ halfSet c]{fullShare} xs m c

/-- The rest is the x-neighbour's half. -/
theorem xRest_eq (c : Dev nD) :
    xRest m c = ((c : Thread nD τ).loc main_arg0 ↦[halfSet (nbrX c)]{fullShare} xs m c : sProp 𝕄) := by
  unfold xRest; rw [univ_sdiff_halfSet]

/-- A chunk of the argument array at the full share is the chunk at its two half shares. -/
theorem xHolds_halves (c : Dev nD) (k : Nat) (hk : k < 64) :
    xHolds m c k hk fullShare = iprop(xHolds m c k hk qL ∗ xHolds m c k hk qR) := by
  unfold xHolds
  have h := pointsTo_share (Ix := Unit) (Val := Elt F) (Name := ℕ) (U := UU) (Lvl := ℕ)
    (ℓ := (xRows c k hk).view.loc (c : Thread nD τ)) (I := (xRows c k hk).view.set) (f := xs m c)
    (PosShare.mem_left_op_right fullShare)
  exact equiv_iff.mp ⟨h.1, h.2⟩

theorem x_cut (c : Dev nD) :
    whole c main_arg0 (xs m c)
      = iprop((bigSep Finset.univ fun k : Fin 64 => iprop(xHolds m c k.val k.isLt qL ∗ xHolds m c k.val k.isLt qR))
          ∗ xRest m c) := by
  have h := pointsTo_split_subset (Ix := Unit) (Val := Elt F) (Name := ℕ) (U := UU) (Lvl := ℕ)
    (ℓ := (c : Thread nD τ).loc main_arg0) (q := fullShare) (f := xs m c) (Finset.subset_univ (halfSet c))
  refine (equiv_iff.mp ⟨h.1, h.2⟩).trans ?_
  unfold xRest
  rw [arg_half c c fullShare (xs m c)]
  refine congrArg (fun P : sProp 𝕄 => iprop(P ∗ ((c : Thread nD τ).loc main_arg0 ↦[Finset.univ \ halfSet c]{fullShare} xs m c)))
    (bigSep_congr fun k _ => ?_)
  rw [← xHolds_halves, xHolds_eq]

theorem x_split (c : Dev nD) :
    whole c main_arg0 (xs m c)
      ⊢ iprop((bigSep Finset.univ fun k : Fin 64 => iprop(xHolds m c k.val k.isLt qL ∗ xHolds m c k.val k.isLt qR))
          ∗ xRest m c) :=
  Entails.of_eq (x_cut m c)

theorem x_join (c : Dev nD) :
    iprop((bigSep Finset.univ fun k : Fin 64 => iprop(xHolds m c k.val k.isLt qL ∗ xHolds m c k.val k.isLt qR))
        ∗ xRest m c)
      ⊢ whole c main_arg0 (xs m c) :=
  Entails.of_eq (x_cut m c).symm

/-- info: 'Cert.KernelIdeal.Hand.out_split' depends on axioms: [propext, Classical.choice, Quot.sound] -/
#guard_msgs in #print axioms out_split
/-- info: 'Cert.KernelIdeal.Hand.res_join' depends on axioms: [propext, Classical.choice, Quot.sound] -/
#guard_msgs in #print axioms res_join
/-- info: 'Cert.KernelIdeal.Hand.x_split' depends on axioms: [propext, Classical.choice, Quot.sound] -/
#guard_msgs in #print axioms x_split
/-- info: 'Cert.KernelIdeal.Hand.x_join' depends on axioms: [propext, Classical.choice, Quot.sound] -/
#guard_msgs in #print axioms x_join

end Cert.KernelIdeal.Hand

end
-- ==== Proof.GeomLand.lean ====
/-
  What each copy lands, what the loads read and what the store writes: the index equations.

  A copy writes, through its destination view, what its source view reads. Every view here is a rectangle of whole rows
  of a 32768 x 1024 array (a chunk: 256 rows starting at row 16384 (d / 2) + 256 k) or one of the two slots of a
  2 x 256 x 1024 scratch array, seen either as the 1 x 256 x 1024 box at (s, 0, 0) or, with the unit axis dropped, as a
  256 x 1024 array. Index (i, j) of a chunk sits at row 16384 (d / 2) + 256 k + i, column j of the big array; index
  (i, j) of a slot sits at (s, i, j) of the scratch. So a copy from a chunk into a slot leaves the big array's entry at
  (16384 (d / 2) + 256 k + i, j) at (s, i, j), and a copy from a slot into a chunk the reverse. A points-to over a set of
  elements depends only on the contents on that set, which turns each equation into an entailment.
-/
import proofs.«900147_g7700000000000148_dist_ar_v7x_xy2x2_y_m32768_n1024_f32_1_alg».proof.Proof.State
import proofs.«900147_g7700000000000148_dist_ar_v7x_xy2x2_y_m32768_n1024_f32_1_alg».proof.Proof.Fold
import Idealize.ShloMosaic.Lib.Pipeline.Value

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Where the indices of a chunk and of a slot sit -/

theorem rows_emb_row (d : Dev nD) (k : Nat) (hk : k < 64) (y : S256x1024.Idx) :
    ((rowsR d k hk).emb y 0).val = 16384 * (d.val / 2) + 256 * k + (y 0).val := by
  rw [Rect.emb_apply]
  have h := k0_off1_eq d ⟨k, hk⟩
  show (k0_off1 d (BitVec.ofNat 32 (256 * k))) 0 + 1 * (y 0).val = _
  rw [h]
  show 16384 * (d.val / 2) + 256 * k + 1 * (y 0).val = _
  omega

theorem rows_emb_col (d : Dev nD) (k : Nat) (hk : k < 64) (y : S256x1024.Idx) :
    ((rowsR d k hk).emb y 1).val = (y 1).val := by
  rw [Rect.emb_apply]
  have h := k0_off1_eq d ⟨k, hk⟩
  show (k0_off1 d (BitVec.ofNat 32 (256 * k))) 1 + 1 * (y 1).val = _
  rw [h]
  show 0 + 1 * (y 1).val = _
  omega

/-- A points-to over a window of the result array depends on the window's rectangle only. -/
theorem oWindow_congr (c : Dev nD) (g : S32768x1024.Idx → F .f32) {R R' : Rect S32768x1024} (h : R = R')
    (hR : ∀ a, R.stride a = 1) (hR' : ∀ a, R'.stride a = 1) :
    ((oM.slice R hR).view.loc (c : Thread nD τ) ↦[(oM.slice R hR).view.set]{fullShare} g : sProp 𝕄)
      = ((oM.slice R' hR').view.loc (c : Thread nD τ) ↦[(oM.slice R' hR').view.set]{fullShare} g) := by
  subst h; rfl

/-! ## L1: a copy between the same rows of two arrays of one shape -/

/-- On the rows written, the written array is the source array. -/
theorem land_y_at (p : Dev nD) (k : Nat) (hk : k < 64) (fd g : S32768x1024.Idx → F .f32) :
    ∀ i ∈ (oRows p k hk).view.set,
      (oRows p k hk).view.write (Elt F) fd ((xRows p k hk).view.read (Elt F) g) Finset.univ i = g i := by
  intro i hi
  obtain ⟨y, rfl⟩ := View.exists_emb_of_mem_set _ hi
  rw [View.write_emb_of_mem _ _ (Finset.mem_univ y), View.read_apply]
  rfl

theorem land_y (c p : Dev nD) (k : Nat) (hk : k < 64) (hp : rowsR p k hk = rowsR c k hk) (fd : S32768x1024.Idx → F .f32) :
    ((oRows p k hk).view.loc (c : Thread nD τ) ↦[(oRows p k hk).view.set]{fullShare}
        ((oRows p k hk).view.write (Elt F) fd ((xRows p k hk).view.read (Elt F) (xs m p)) Finset.univ) : sProp 𝕄)
      ⊢ oHolds c c k hk (xs m p) :=
  Entails.of_eq ((pointsTo_congr (land_y_at p k hk fd (xs m p))).trans (oWindow_congr c (xs m p) hp _ _))

/-! ## A slot of a scratch array -/

/-- Where index (i, j) of a slot sits in the 2 x 256 x 1024 scratch array: at (s, i, j). -/
def slotIdx (s : Nat) (hs : s < 2) (y : S256x1024.Idx) : S2x256x1024.Idx :=
  (slotR s hs).emb (Shape.reshapeEquiv squeezes_S1x256x1024_S256x1024.numel_eq y)

theorem slotIdx_eq (s : Nat) (hs : s < 2) (y : S256x1024.Idx) :
    slotIdx s hs y = (slotR s hs).emb (Fin.cons ⟨0, Nat.one_pos⟩ y : S1x256x1024.Idx) := by
  unfold slotIdx
  exact congrArg (slotR s hs).emb (Shape.reshapeEquiv_cons_one (n := 2) (d := ![256, 1024]) _ y)

theorem slotIdx_0 (s : Nat) (hs : s < 2) (y : S256x1024.Idx) : (slotIdx s hs y 0).val = s := by
  rw [slotIdx_eq, Rect.emb_apply]
  show s + 1 * 0 = s
  omega
theorem slotIdx_1 (s : Nat) (hs : s < 2) (y : S256x1024.Idx) : (slotIdx s hs y 1).val = (y 0).val := by
  rw [slotIdx_eq, Rect.emb_apply]
  show 0 + 1 * (y 0).val = (y 0).val
  omega
theorem slotIdx_2 (s : Nat) (hs : s < 2) (y : S256x1024.Idx) : (slotIdx s hs y 2).val = (y 1).val := by
  rw [slotIdx_eq, Rect.emb_apply]
  show 0 + 1 * (y 1).val = (y 1).val
  omega

/-- The slot as a 256 x 1024 array places its index y at `slotIdx s hs y` of the scratch array. -/
theorem slot_emb (M : Memref sig .tc .vmem S2x256x1024 .f32) (s : Nat) (hs : s < 2) (y : S256x1024.Idx) :
    (slotOf M s hs).view.emb y = M.view.emb (slotIdx s hs y) := rfl

/-- The slot as a 256 x 1024 array and as a box of the scratch array are the same elements. -/
theorem slot_set (M : Memref sig .tc .vmem S2x256x1024 .f32) (s : Nat) (hs : s < 2) :
    (slotOf M s hs).view.set = M.view.setOn (slotR s hs).toLoadRect.set := by
  exact (View.set_reshape (M.view.slice (slotR s hs)) _).trans (View.set_slice M.view (slotR s hs))

/-- The entry of the big array g that `spread g d k` puts at a slot's index y: row 16384 (d / 2) + 256 k + y 0, column y 1,
    the entry the chunk's rectangle places y at. -/
theorem spread_slotIdx {α : Type} (g : S32768x1024.Idx → α) (d : Dev nD) (k : Nat) (hk : k < 64) (s : Nat) (hs : s < 2)
    (y : S256x1024.Idx) : spread g d k (slotIdx s hs y) = g ((rowsR d k hk).emb y) := by
  unfold spread
  refine congrArg g (funext fun a => Fin.ext ?_)
  have hd : d.val < 4 := d.isLt
  have h0 := (y 0).isLt
  have h1 := (y 1).isLt
  match a with
  | ⟨0, _⟩ =>
    show (16384 * (d.val / 2) + 256 * k + (slotIdx s hs y 1).val) % 32768 = ((rowsR d k hk).emb y 0).val
    rw [slotIdx_1, rows_emb_row]
    have h0' : (y 0).val < 256 := h0
    omega
  | ⟨1, _⟩ =>
    show (slotIdx s hs y 2).val % 1024 = ((rowsR d k hk).emb y 1).val
    rw [slotIdx_2, rows_emb_col]
    have h1' : (y 1).val < 1024 := h1
    omega

/-! ## L2, L3: a chunk copied into a slot -/

theorem land_a_at (c : Dev nD) (k : Nat) (hk : k < 64) (s : Nat) (hs : s < 2) (fd : S2x256x1024.Idx → F .f32)
    (g : S32768x1024.Idx → F .f32) :
    ∀ i ∈ (slotOf aM s hs).view.set,
      (slotOf aM s hs).view.write (Elt F) fd ((xRows c k hk).view.read (Elt F) g) Finset.univ i = spread g c k i := by
  intro i hi
  obtain ⟨y, rfl⟩ := View.exists_emb_of_mem_set _ hi
  rw [View.write_emb_of_mem _ _ (Finset.mem_univ y), View.read_apply]
  exact (spread_slotIdx g c k hk s hs y).symm

theorem land_a (c : Dev nD) (k : Nat) (hk : k < 64) (s : Nat) (hs : s < 2) (fd : S2x256x1024.Idx → F .f32) :
    ((slotOf aM s hs).view.loc (c : Thread nD τ) ↦[(slotOf aM s hs).view.set]{fullShare}
        ((slotOf aM s hs).view.write (Elt F) fd ((xRows c k hk).view.read (Elt F) (xs m c)) Finset.univ) : sProp 𝕄)
      ⊢ slotHoldsA c s hs (spread (xs m c) c k) :=
  Entails.of_eq (pointsTo_congr (land_a_at c k hk s hs fd (xs m c)))

theorem land_b_at (c : Dev nD) (k : Nat) (hk : k < 64) (s : Nat) (hs : s < 2) (fd : S2x256x1024.Idx → F .f32)
    (g : S32768x1024.Idx → F .f32) :
    ∀ i ∈ (slotOf bM s hs).view.set,
      (slotOf bM s hs).view.write (Elt F) fd ((oRows c k hk).view.read (Elt F) g) Finset.univ i = spread g c k i := by
  intro i hi
  obtain ⟨y, rfl⟩ := View.exists_emb_of_mem_set _ hi
  rw [View.write_emb_of_mem _ _ (Finset.mem_univ y), View.read_apply]
  exact (spread_slotIdx g c k hk s hs y).symm

theorem land_b (c : Dev nD) (k : Nat) (hk : k < 64) (s : Nat) (hs : s < 2) (g : S32768x1024.Idx → F .f32)
    (fd : S2x256x1024.Idx → F .f32) :
    ((slotOf bM s hs).view.loc (c : Thread nD τ) ↦[(slotOf bM s hs).view.set]{fullShare}
        ((slotOf bM s hs).view.write (Elt F) fd ((oRows c k hk).view.read (Elt F) g) Finset.univ) : sProp 𝕄)
      ⊢ slotHoldsB c s hs (spread g c k) :=
  Entails.of_eq (pointsTo_congr (land_b_at c k hk s hs fd g))

/-! ## L7: a slot copied back into a chunk's rows -/

theorem land_st_at (c : Dev nD) (k : Nat) (hk : k < 64) (s : Nat) (hs : s < 2) (g : S32768x1024.Idx → F .f32)
    (fS : S2x256x1024.Idx → F .f32) (fd : S32768x1024.Idx → F .f32)
    (h : ∀ i ∈ (slotOf sM s hs).view.set, fS i = spread g c k i) :
    ∀ i ∈ (oRows c k hk).view.set,
      (oRows c k hk).view.write (Elt F) fd ((slotOf sM s hs).view.read (Elt F) fS) Finset.univ i = g i := by
  intro i hi
  obtain ⟨y, rfl⟩ := View.exists_emb_of_mem_set _ hi
  rw [View.write_emb_of_mem _ _ (Finset.mem_univ y), View.read_apply]
  have e := h _ ((slotOf sM s hs).view.emb_mem_set y)
  exact e.trans (spread_slotIdx g c k hk s hs y)

theorem land_st (c' c : Dev nD) (k : Nat) (hk : k < 64) (s : Nat) (hs : s < 2) (g : S32768x1024.Idx → F .f32)
    (fS : S2x256x1024.Idx → F .f32) (fd : S32768x1024.Idx → F .f32)
    (h : ∀ i ∈ (slotOf sM s hs).view.set, fS i = spread g c k i) :
    ((oRows c k hk).view.loc (c' : Thread nD τ) ↦[(oRows c k hk).view.set]{fullShare}
        ((oRows c k hk).view.write (Elt F) fd ((slotOf sM s hs).view.read (Elt F) fS) Finset.univ) : sProp 𝕄)
      ⊢ oHolds c' c k hk g :=
  Entails.of_eq (pointsTo_congr (land_st_at c k hk s hs g fS fd h))

/-! ## L4: a slot loaded as a 1 x 256 x 1024 box -/

/-- Chunk k of device d's half of a whole array g as the 1 x 256 x 1024 vector a load of a slot reads: entry (0, i, j) is
    g at row 16384 (d / 2) + 256 k + i, column j. (Rows and columns are taken mod the array's sizes as in `spread`.) -/
def chunkVec {α : Type} (g : S32768x1024.Idx → α) (d : Dev nD) (k : Nat) : S1x256x1024.Idx → α :=
  fun j => g (Shape.pair (⟨(16384 * (d.val / 2) + 256 * k + (j 1).val) % 32768, Nat.mod_lt _ (by decide)⟩ : Fin 32768)
    (⟨(j 2).val % 1024, Nat.mod_lt _ (by decide)⟩ : Fin 1024))

/-- `spread` at an index of the scratch array and `chunkVec` at an index of the box with the same two trailing
    coordinates are the same entry of g. -/
theorem spread_eq_chunkVec {α : Type} (g : S32768x1024.Idx → α) (d : Dev nD) (k : Nat) (j : S2x256x1024.Idx)
    (x : S1x256x1024.Idx) (h1 : (j 1).val = (x 1).val) (h2 : (j 2).val = (x 2).val) :
    spread g d k j = chunkVec g d k x := by
  unfold spread chunkVec
  simp only [h1, h2]

/-- The box places its index x at (s + x 0, x 1, x 2) of the scratch array. -/
theorem slotR_idx_1 (s : Nat) (hs : s < 2) (x : S1x256x1024.Idx) : ((slotR s hs).toLoadRect.idx x 1).val = (x 1).val := by
  rw [LoadRect.idx_apply]
  show 0 + 1 * (x 1).val = (x 1).val
  omega
theorem slotR_idx_2 (s : Nat) (hs : s < 2) (x : S1x256x1024.Idx) : ((slotR s hs).toLoadRect.idx x 2).val = (x 2).val := by
  rw [LoadRect.idx_apply]
  show 0 + 1 * (x 2).val = (x 2).val
  omega

/-- The slot as a 256 x 1024 array has the elements of the view a load or store through the box goes through. -/
theorem slot_set_access (M : Memref sig .tc .vmem S2x256x1024 .f32) (s : Nat) (hs : s < 2) :
    (slotOf M s hs).view.set = (M.access (slotR s hs)).set :=
  View.set_reshape (M.view.slice (slotR s hs)) _

/-- What a load of the box reads lies in the slot; what an unmasked store through the box writes lies in the slot. -/
theorem load_sub (M : Memref sig .tc .vmem S2x256x1024 .f32) (s : Nat) (hs : s < 2) :
    M.view.setOn (slotR s hs).toLoadRect.set ⊆ (slotOf M s hs).view.set := by
  rw [slot_set M s hs]
theorem load_sub_A (s : Nat) (hs : s < 2) : aM.view.setOn (slotR s hs).toLoadRect.set ⊆ (slotOf aM s hs).view.set := load_sub aM s hs
theorem load_sub_B (s : Nat) (hs : s < 2) : bM.view.setOn (slotR s hs).toLoadRect.set ⊆ (slotOf bM s hs).view.set := load_sub bM s hs
theorem load_sub_S (s : Nat) (hs : s < 2) : sM.view.setOn (slotR s hs).toLoadRect.set ⊆ (slotOf sM s hs).view.set := load_sub sM s hs
theorem store_sub (s : Nat) (hs : s < 2) : (sM.access (slotR s hs)).setOn Finset.univ ⊆ (slotOf sM s hs).view.set := by
  rw [slot_set_access sM s hs, View.setOn_univ]

theorem load_slotA (s : Nat) (hs : s < 2) (f : S2x256x1024.Idx → F .f32) (g : S32768x1024.Idx → F .f32) (c : Dev nD) (k : Nat)
    (h : ∀ i ∈ (slotOf aM s hs).view.set, f i = spread g c k i) :
    aM.view.readAt (Elt F) (slotR s hs).toLoadRect f = chunkVec g c k := by
  funext x
  rw [View.readAt_apply, View.read_apply]
  have hm : aM.view.emb ((slotR s hs).toLoadRect.idx x) ∈ (slotOf aM s hs).view.set := by
    rw [slot_set aM s hs]; exact aM.view.mem_setOn.mpr ((slotR s hs).toLoadRect.idx_mem x)
  exact (h _ hm).trans (spread_eq_chunkVec g c k _ x (slotR_idx_1 s hs x) (slotR_idx_2 s hs x))

theorem load_slotB (s : Nat) (hs : s < 2) (f : S2x256x1024.Idx → F .f32) (g : S32768x1024.Idx → F .f32) (c : Dev nD) (k : Nat)
    (h : ∀ i ∈ (slotOf bM s hs).view.set, f i = spread g c k i) :
    bM.view.readAt (Elt F) (slotR s hs).toLoadRect f = chunkVec g c k := by
  funext x
  rw [View.readAt_apply, View.read_apply]
  have hm : bM.view.emb ((slotR s hs).toLoadRect.idx x) ∈ (slotOf bM s hs).view.set := by
    rw [slot_set bM s hs]; exact bM.view.mem_setOn.mpr ((slotR s hs).toLoadRect.idx_mem x)
  exact (h _ hm).trans (spread_eq_chunkVec g c k _ x (slotR_idx_1 s hs x) (slotR_idx_2 s hs x))

theorem load_slotS (s : Nat) (hs : s < 2) (f : S2x256x1024.Idx → F .f32) (g : S32768x1024.Idx → F .f32) (c : Dev nD) (k : Nat)
    (h : ∀ i ∈ (slotOf sM s hs).view.set, f i = spread g c k i) :
    sM.view.readAt (Elt F) (slotR s hs).toLoadRect f = chunkVec g c k := by
  funext x
  rw [View.readAt_apply, View.read_apply]
  have hm : sM.view.emb ((slotR s hs).toLoadRect.idx x) ∈ (slotOf sM s hs).view.set := by
    rw [slot_set sM s hs]; exact sM.view.mem_setOn.mpr ((slotR s hs).toLoadRect.idx_mem x)
  exact (h _ hm).trans (spread_eq_chunkVec g c k _ x (slotR_idx_1 s hs x) (slotR_idx_2 s hs x))

/-! ## L5: the sum of two loaded chunks -/

/-- The stored vector is the two loaded ones added entry by entry: the two shape casts undo each other. -/
theorem sumPay_apply (va vb : Vec F S1x256x1024 .f32) (j : S1x256x1024.Idx) :
    sumPay va vb j = FloatOps.addf (va j) (vb j) := by
  unfold sumPay
  show FloatOps.addf (va (Shape.reshapeEquiv _ (Shape.reshapeEquiv _ j))) (vb (Shape.reshapeEquiv _ (Shape.reshapeEquiv _ j))) = _
  rw [Shape.reshapeEquiv_reshapeEquiv, Shape.reshapeEquiv_self]

theorem sumPay_chunk (c : Dev nD) (k : Nat) :
    sumPay (chunkVec (xs m c) c k) (chunkVec (xs m (nbrY c)) c k) = chunkVec (sumAt m c) c k := by
  funext j
  rw [sumPay_apply]
  rfl

/-! ## L6: the sum stored through the box -/

theorem store_slot_at (s : Nat) (hs : s < 2) (f : S2x256x1024.Idx → F .f32) (g : S32768x1024.Idx → F .f32) (c : Dev nD) (k : Nat) :
    ∀ i ∈ (slotOf sM s hs).view.set,
      (sM.access (slotR s hs)).write (Elt F) f (chunkVec g c k) Finset.univ i = spread g c k i := by
  intro i hi
  rw [slot_set_access sM s hs] at hi
  obtain ⟨x, rfl⟩ := View.exists_emb_of_mem_set _ hi
  rw [View.write_emb_of_mem _ _ (Finset.mem_univ x)]
  exact (spread_eq_chunkVec g c k _ x (slotR_idx_1 s hs x) (slotR_idx_2 s hs x)).symm

/-- The slot of the sum scratch of device c' after the store, restated at the contents `spread g c k`. -/
theorem store_slot (c' : Dev nD) (s : Nat) (hs : s < 2) (f : S2x256x1024.Idx → F .f32) (g : S32768x1024.Idx → F .f32)
    (c : Dev nD) (k : Nat) :
    ((sM.access (slotR s hs)).loc (c' : Thread nD τ) ↦[(slotOf sM s hs).view.set]{fullShare}
        ((sM.access (slotR s hs)).write (Elt F) f (chunkVec g c k) Finset.univ) : sProp 𝕄)
      ⊢ ((slotOf sM s hs).view.loc (c' : Thread nD τ) ↦[(slotOf sM s hs).view.set]{fullShare} spread g c k) :=
  Entails.of_eq (pointsTo_congr (store_slot_at s hs f g c k))

/-! ## The two half shares of a slot of the sum scratch -/

/-- Two halves held over possibly different contents agree on the slot, and join. -/
theorem halves_join {ℓ : Loc nD τ sig} {I : Finset (Idx ℓ)} (f g : Buf (Elt F) ℓ) :
    iprop((ℓ ↦[I]{qL} f) ∗ ℓ ↦[I]{qR} g) ⊢ (ℓ ↦[I]{fullShare} f : sProp 𝕄) :=
  Laws.pure_elim _ pointsTo_agree fun hag => by
    rw [pointsTo_congr (f := g) (g := f) fun i hi => ((hag i (Finset.mem_inter.mpr ⟨hi, hi⟩)).1).symm]
    exact (pointsTo_share (PosShare.mem_left_op_right fullShare)).2

theorem slotS_join (c : Dev nD) (s : Nat) (hs : s < 2) :
    iprop(slotSomeS (F := F) c s hs qL ∗ slotSomeS (F := F) c s hs qR)
      ⊢ (iprop(∃ f : S2x256x1024.Idx → F .f32,
          (slotOf sM s hs).view.loc (c : Thread nD τ) ↦[(slotOf sM s hs).view.set]{fullShare} f) : sProp 𝕄) := by
  unfold slotSomeS
  iintro ⟨⟨%f, Hf⟩, ⟨%g, Hg⟩⟩
  iexists f
  iapply (halves_join f g)
  isplitl [Hf]
  · iexact Hf
  · iexact Hg

theorem slotS_split (c : Dev nD) (s : Nat) (hs : s < 2) (f : S2x256x1024.Idx → F .f32) :
    ((slotOf sM s hs).view.loc (c : Thread nD τ) ↦[(slotOf sM s hs).view.set]{fullShare} f : sProp 𝕄)
      ⊢ iprop(((slotOf sM s hs).view.loc (c : Thread nD τ) ↦[(slotOf sM s hs).view.set]{qL} f)
          ∗ ((slotOf sM s hs).view.loc (c : Thread nD τ) ↦[(slotOf sM s hs).view.set]{qR} f)) :=
  (pointsTo_share (PosShare.mem_left_op_right fullShare)).1

/-- info: 'Cert.KernelIdeal.Hand.land_y' depends on axioms: [propext, Classical.choice, Quot.sound] -/
#guard_msgs in #print axioms land_y

/-- info: 'Cert.KernelIdeal.Hand.land_a' depends on axioms: [propext, Classical.choice, Quot.sound] -/
#guard_msgs in #print axioms land_a

/-- info: 'Cert.KernelIdeal.Hand.land_b' depends on axioms: [propext, Classical.choice, Quot.sound] -/
#guard_msgs in #print axioms land_b

/-- info: 'Cert.KernelIdeal.Hand.land_st' depends on axioms: [propext, Classical.choice, Quot.sound] -/
#guard_msgs in #print axioms land_st

/-- info: 'Cert.KernelIdeal.Hand.load_slotA' depends on axioms: [propext, Classical.choice, Quot.sound] -/
#guard_msgs in #print axioms load_slotA

/-- info: 'Cert.KernelIdeal.Hand.load_slotB' depends on axioms: [propext, Classical.choice, Quot.sound] -/
#guard_msgs in #print axioms load_slotB

/-- info: 'Cert.KernelIdeal.Hand.load_slotS' depends on axioms: [propext, Classical.choice, Quot.sound] -/
#guard_msgs in #print axioms load_slotS

/-- info: 'Cert.KernelIdeal.Hand.sumPay_chunk' depends on axioms: [propext, Classical.choice, Quot.sound] -/
#guard_msgs in #print axioms sumPay_chunk

/-- info: 'Cert.KernelIdeal.Hand.store_slot' depends on axioms: [propext, Classical.choice, Quot.sound] -/
#guard_msgs in #print axioms store_slot

/-- info: 'Cert.KernelIdeal.Hand.slotS_join' depends on axioms: [propext, Classical.choice, Quot.sound] -/
#guard_msgs in #print axioms slotS_join

/-- info: 'Cert.KernelIdeal.Hand.slotS_split' depends on axioms: [propext, Classical.choice, Quot.sound] -/
#guard_msgs in #print axioms slotS_split

end Cert.KernelIdeal.Hand

end
-- ==== Proof.LibChain.lean ====
/-
  Weakest preconditions of a chain of unit programs.

  A chain is the right-nested sequence of a list of unit programs, closed by the unit return.  Since the
  weakest precondition of a sequence is the weakest precondition of its head at the weakest precondition of
  its tail, the weakest precondition of a chain folds over the list; the chain of an append is the sequence
  of the two chains.  From this follow the loop rules below for the chain of n steps indexed by Fin n: a state
  assertion S k is threaded through the steps (S k holds before step k, S (k+1) after it), and every step k may in
  addition consume a resource P k of its own and produce a resource Q k of its own; the resources of the steps not yet
  run, and the products of the steps already run, are framed around each step.
-/
import Idealize.ShloMosaic.Lib.Pipeline.Regions
import Idealize.SL.Sem.Prog
import Idealize.SL.ProofMode
import Idealize.SL.BI.BigOp
import Mathlib.Data.Fintype.Basic

namespace Idealize.ShloMosaic.Pipeline

open Idealize.SL Idealize.SL.Sem Idealize.SL.BI
open scoped Idealize.SL.BI
open Idealize.SL.BI.BIBase Idealize.SL.BI.Laws Idealize.SL.ProofMode

universe u w

/-! ## The chain of an append, as programs -/

section ChainProg
variable {E : Type → Type}

/-- The chain of an append is the chain of the first list followed by the chain of the second. -/
theorem chain_append (xs ys : List (Prog E PUnit)) :
    chain (xs ++ ys) = (chain xs >>= fun _ => chain ys) := by
  induction xs with
  | nil => rfl
  | cons x xs ih => simp only [List.cons_append, chain_cons, ih, Prog.bind_assoc]

/-- The chain of one item more at the end. -/
theorem chain_concat (xs : List (Prog E PUnit)) (q : Prog E PUnit) :
    chain (xs ++ [q]) = (chain xs >>= fun _ => q >>= fun _ => pure ⟨⟩) := by
  rw [chain_append]; rfl

/-- A chain followed by the unit return is the chain: the unit type has one value. -/
theorem chain_bind_pure (xs : List (Prog E PUnit)) : (chain xs >>= fun _ => pure ⟨⟩) = chain xs :=
  Prog.bind_pure (chain xs)

/-- The chain of the concatenation of a family of lists is the chain of the family's chains: every inner chain's
    closing unit return is absorbed by what follows it. -/
theorem chain_flatMap {ι : Type} (l : List ι) (f : ι → List (Prog E PUnit)) :
    chain (l.flatMap f) = chain (l.map fun i => chain (f i)) := by
  induction l with
  | nil => rfl
  | cons i l ih => rw [List.flatMap_cons, chain_append, List.map_cons, chain_cons, ih]

end ChainProg

/-! ## Splitting a big separating conjunction over Fin (n+1) -/

section BigSepFin
variable {M : Type u} [RA.URA M]

/-- The big separating conjunction over Fin (n+1) is the summand at 0 and the conjunction of the successors'. -/
theorem bigSep_fin_succ {n : ℕ} (Φ : Fin (n + 1) → sProp M) :
    bigSep Finset.univ Φ = iprop(Φ 0 ∗ bigSep Finset.univ (fun i : Fin n => Φ i.succ)) := by
  rw [Fin.univ_succ]
  unfold bigSep
  rw [Finset.fold_cons, Finset.fold_map]
  rfl

/-- The big separating conjunction over Fin (n+1) is the summand at the last index and the conjunction of the
    earlier ones'. -/
theorem bigSep_fin_castSucc {n : ℕ} (Φ : Fin (n + 1) → sProp M) :
    bigSep Finset.univ Φ = iprop(Φ (Fin.last n) ∗ bigSep Finset.univ (fun i : Fin n => Φ i.castSucc)) := by
  rw [Fin.univ_castSuccEmb]
  unfold bigSep
  rw [Finset.fold_cons, Finset.fold_map]
  rfl

/-- Over the empty index type Fin 0 the big separating conjunction is emp. -/
theorem bigSep_fin_zero (Φ : Fin 0 → sProp M) : bigSep Finset.univ Φ = iprop(emp) := by
  rw [Finset.univ_eq_empty]
  rfl

end BigSepFin

/-! ## The weakest precondition of a chain -/

section Rule

variable {E : Type → Type} {M : Type u} [RA.URA M] {Mask : Sort w}
variable (Fr : Mask → sProp M) (wpE : Mask → ∀ ⦃β : Type⦄, E β → sWPT M β) (Es : Mask)

/-- The weakest precondition of the empty chain is the post, under the update. -/
theorem wp_chain_nil_eq (Q : PUnit → sProp M) :
    wp Fr wpE Es (chain ([] : List (Prog E PUnit))) Q = iprop(|={Es}[Fr]=> Q ⟨⟩) := rfl

/-- The post gives the weakest precondition of the empty chain. -/
theorem wp_chain_nil (Q : PUnit → sProp M) :
    Q ⟨⟩ ⊢ wp Fr wpE Es (chain ([] : List (Prog E PUnit))) Q :=
  le_wp_ret Fr wpE Es PUnit.unit Q

/-- The weakest precondition of a chain with a head is the head's, at the weakest precondition of the tail's chain. -/
theorem wp_chain_cons_eq (q : Prog E PUnit) (qs : List (Prog E PUnit)) (Q : PUnit → sProp M) :
    wp Fr wpE Es (chain (q :: qs)) Q = wp Fr wpE Es q (fun _ => wp Fr wpE Es (chain qs) Q) := by
  rw [chain_cons, wp_bind]

/-- The head's weakest precondition, at the weakest precondition of the tail's chain, gives that of the chain. -/
theorem wp_chain_cons (q : Prog E PUnit) (qs : List (Prog E PUnit)) (Q : PUnit → sProp M) :
    wp Fr wpE Es q (fun _ => wp Fr wpE Es (chain qs) Q) ⊢ wp Fr wpE Es (chain (q :: qs)) Q :=
  (wp_chain_cons_eq Fr wpE Es q qs Q).symm ▸ .rfl

/-- The weakest precondition of the chain of an append is the first chain's, at that of the second's. -/
theorem wp_chain_append_eq (xs ys : List (Prog E PUnit)) (Q : PUnit → sProp M) :
    wp Fr wpE Es (chain (xs ++ ys)) Q = wp Fr wpE Es (chain xs) (fun _ => wp Fr wpE Es (chain ys) Q) := by
  rw [chain_append, wp_bind]

/-- The first chain's weakest precondition, at that of the second's, gives that of the chain of the append. -/
theorem wp_chain_append (xs ys : List (Prog E PUnit)) (Q : PUnit → sProp M) :
    wp Fr wpE Es (chain xs) (fun _ => wp Fr wpE Es (chain ys) Q) ⊢ wp Fr wpE Es (chain (xs ++ ys)) Q :=
  (wp_chain_append_eq Fr wpE Es xs ys Q).symm ▸ .rfl

/-- A one-item chain: the item's weakest precondition gives the chain's. -/
theorem wp_chain_singleton (q : Prog E PUnit) (Q : PUnit → sProp M) :
    wp Fr wpE Es q Q ⊢ wp Fr wpE Es (chain [q]) Q := by
  rw [wp_chain_cons_eq]
  exact wp_mono Fr wpE Es fun _ => wp_chain_nil Fr wpE Es Q

/-! ## The loop rules -/

/-- n steps that thread a state assertion: if step k takes S k to S (k+1), the chain of the n steps takes S 0 to
    S n.  No frame rule is needed: nothing is carried around a step. -/
theorem wp_chain_finRange_inv {n : ℕ} (step : Fin n → Prog E PUnit) (S : ℕ → sProp M)
    (hstep : ∀ k : Fin n, S k.val ⊢ wp Fr wpE Es (step k) (fun _ => S (k.val + 1))) :
    S 0 ⊢ wp Fr wpE Es (chain ((List.finRange n).map step)) (fun _ => S n) := by
  induction n generalizing S with
  | zero => exact wp_chain_nil Fr wpE Es (fun _ => S 0)
  | succ n ih =>
    rw [List.finRange_succ, List.map_cons, List.map_map, wp_chain_cons_eq]
    refine (hstep 0).trans (wp_mono Fr wpE Es fun _ => ?_)
    exact ih (fun k => step k.succ) (fun k => S (k + 1)) (fun k => hstep k.succ)

/-- The same before an arbitrary rest of the chain: the rest runs from S n. -/
theorem wp_chain_finRange_inv_append {n : ℕ} (step : Fin n → Prog E PUnit) (S : ℕ → sProp M)
    (hstep : ∀ k : Fin n, S k.val ⊢ wp Fr wpE Es (step k) (fun _ => S (k.val + 1)))
    (rest : List (Prog E PUnit)) (R : PUnit → sProp M) (hrest : S n ⊢ wp Fr wpE Es (chain rest) R) :
    S 0 ⊢ wp Fr wpE Es (chain ((List.finRange n).map step ++ rest)) R :=
  ((wp_chain_finRange_inv Fr wpE Es step S hstep).trans (wp_mono Fr wpE Es fun _ => hrest)).trans
    (wp_chain_append Fr wpE Es _ rest R)

section Framed
variable [∀ ⦃β : Type⦄ (e : E β), sWPT.Frameable (wpE Es e)]

/-- n steps that thread a state assertion and have resources of their own: if step k takes its own P k and S k to
    its own Q k and S (k+1), the chain of the n steps takes all the P k and S 0 to all the Q k and S n. -/
theorem wp_chain_finRange {n : ℕ} (step : Fin n → Prog E PUnit) (P Q : Fin n → sProp M) (S : ℕ → sProp M)
    (hstep : ∀ k : Fin n, iprop(P k ∗ S k.val) ⊢ wp Fr wpE Es (step k) (fun _ => iprop(Q k ∗ S (k.val + 1)))) :
    iprop(bigSep Finset.univ P ∗ S 0) ⊢
      wp Fr wpE Es (chain ((List.finRange n).map step)) (fun _ => iprop(bigSep Finset.univ Q ∗ S n)) := by
  induction n generalizing S with
  | zero => exact wp_chain_nil Fr wpE Es (fun _ => iprop(bigSep Finset.univ Q ∗ S 0))
  | succ n ih =>
    rw [List.finRange_succ, List.map_cons, List.map_map, wp_chain_cons_eq, bigSep_fin_succ P, bigSep_fin_succ Q]
    have h0 : iprop(P 0 ∗ S 0) ⊢ wp Fr wpE Es (step 0) (fun _ => iprop(Q 0 ∗ S 1)) := hstep 0
    have ih' : iprop(bigSep Finset.univ (fun k : Fin n => P k.succ) ∗ S 1) ⊢
        wp Fr wpE Es (chain ((List.finRange n).map (step ∘ Fin.succ)))
          (fun _ => iprop(bigSep Finset.univ (fun k : Fin n => Q k.succ) ∗ S (n + 1))) :=
      ih (fun k => step k.succ) (fun k => P k.succ) (fun k => Q k.succ) (fun k => S (k + 1))
        (fun k => hstep k.succ)
    iintro ⟨⟨HP0, HP⟩, HS⟩
    iapply (wp_wand_r Fr wpE Es)
    isplitl [HP0 HS]
    · iapply h0
      isplitl [HP0] <;> iassumption
    · iintro %_ ⟨HQ0, HS⟩
      iapply (wp_wand_r Fr wpE Es)
      isplitl [HP HS]
      · iapply ih'
        isplitl [HP] <;> iassumption
      · iintro %_ ⟨HQ, HS⟩
        isplitl [HQ0 HQ]
        · isplitl [HQ0] <;> iassumption
        · iassumption

/-- The same before an arbitrary rest of the chain: the rest runs from all the Q k and S n. -/
theorem wp_chain_finRange_append {n : ℕ} (step : Fin n → Prog E PUnit) (P Q : Fin n → sProp M) (S : ℕ → sProp M)
    (hstep : ∀ k : Fin n, iprop(P k ∗ S k.val) ⊢ wp Fr wpE Es (step k) (fun _ => iprop(Q k ∗ S (k.val + 1))))
    (rest : List (Prog E PUnit)) (R : PUnit → sProp M)
    (hrest : iprop(bigSep Finset.univ Q ∗ S n) ⊢ wp Fr wpE Es (chain rest) R) :
    iprop(bigSep Finset.univ P ∗ S 0) ⊢ wp Fr wpE Es (chain ((List.finRange n).map step ++ rest)) R :=
  ((wp_chain_finRange Fr wpE Es step P Q S hstep).trans (wp_mono Fr wpE Es fun _ => hrest)).trans
    (wp_chain_append Fr wpE Es _ rest R)

end Framed

end Rule

/-- info: 'Idealize.ShloMosaic.Pipeline.wp_chain_finRange_inv_append' depends on axioms: [propext, Classical.choice, Quot.sound] -/
#guard_msgs in #print axioms wp_chain_finRange_inv_append

/-- info: 'Idealize.ShloMosaic.Pipeline.wp_chain_finRange_append' depends on axioms: [propext, Classical.choice, Quot.sound] -/
#guard_msgs in #print axioms wp_chain_finRange_append

end Idealize.ShloMosaic.Pipeline
-- ==== Proof.Steps.lean ====
/-
  The steps of the protocol, each proved once at a symbolic device and a symbolic chunk: the y-copy of a chunk; the pair of
  waits that frees a sum slot; a chunk's own operations; the wait for the x-neighbour's copy. Each is the library's rule for
  its operations, applied in program order: a copy pays its duties with the tokens the device holds and hands over the
  buffers the schedule names; a wait takes the rest of its cell's round and receives the round's payloads.
-/
import proofs.«900147_g7700000000000148_dist_ar_v7x_xy2x2_y_m32768_n1024_f32_1_alg».proof.Proof.StepDefs
import proofs.«900147_g7700000000000148_dist_ar_v7x_xy2x2_y_m32768_n1024_f32_1_alg».proof.Proof.Tables
import proofs.«900147_g7700000000000148_dist_ar_v7x_xy2x2_y_m32768_n1024_f32_1_alg».proof.Proof.GeomSplit
import proofs.«900147_g7700000000000148_dist_ar_v7x_xy2x2_y_m32768_n1024_f32_1_alg».proof.Proof.GeomLand
import proofs.«900147_g7700000000000148_dist_ar_v7x_xy2x2_y_m32768_n1024_f32_1_alg».proof.Proof.LibChain

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
/-- The y-copy of chunk k: the chunk's rows of x (at the left half share) go to the y-neighbour's result rows, which this
    device holds since the handshake; the copy pays this device's y-send duty and the neighbour's y-receive duty. -/
theorem yStep (K : GSem nD τ sig → ℕ) (c : Dev nD) (k : Nat) (hk : k < 64) (W : Waits sig Unit) :
    iprop(records m K ∗ xHolds m c k hk qL ∗ oSome (F := F) (nbrY c) c k hk
        ∗ dutyTok ER (ysCell c k hk) 0 false ∗ dutyTok ER (yrCell (nbrY c) k hk) 0 false
        ∗ owes (c : Thread nD τ) (owedX c 0 + owedY c k) W)
      ⊢ wp frame (wpE (defs₀ (F := F)) 𝒱₀ c none) Set.univ (yEnq c k hk)
          (fun _ => iprop(cred (tallyAt (ysCell c k hk) () No) ∗ owes (c : Thread nD τ) (owedX c 0 + owedY c (k + 1)) W)) := by
  unfold oSome xHolds
  iintro ⟨#HR, Hx, ⟨%fd, Ho⟩, Hts, Htr, HO⟩
  unfold yEnq
  simp only [Prog.lift]
  ihave HIs := (inv_of_records m K (mem_allCells_dma c (ysS k hk))) $$ HR
  ihave HIr := (inv_of_records m K (mem_allCells_dma (nbrY c) (yrS k hk))) $$ HR
  ihave Hrs := (reached_of_records m K (mem_allCells_dma c (ysS k hk))) $$ HR
  ihave Hrr := (reached_of_records m K (mem_allCells_dma (nbrY c) (yrS k hk))) $$ HR
  iapply (Rounds.wp_send_pointsTo 𝒱₀ ER (sched m) (c : Thread nD τ) none (c' := (nbrY c : Thread nD τ))
      (src := xRows c k hk) (dst := oRows c k hk) (sS := .dma (ysS k hk)) (sem := .dma (yrS k hk)) (q := qL) (fs := xs m c) (fd := fd)
      (κ₁ := K (ysCell c k hk)) (κ₂ := K (yrCell (nbrY c) k hk)) (r₁ := 0) (r₂ := 0) (d₁ := false) (d₂ := false)
      (by rw [duties_ys m]; exact Finset.mem_singleton_self _) (by rw [duties_yr m]; exact Finset.mem_singleton_self _)
      () () No (oRows_credit c k hk) (amount_ys m c k hk false) (amount_yr m (nbrY c) k hk false)
      (O₀ := owedX c 0 + owedY c k) (owedX c 0 + owedY c (k + 1)) (by rw [owedY_succ c k hk, add_assoc]) (W := W)
      (by rw [payload_ys m]; exact BI.Entails.refl _)
      (by rw [payload_yr m, nbrY_nbrY]; exact land_y m (nbrY c) c k hk (rowsR_nbrY c k hk).symm fd)) $$ [Hx Ho HO Hts Htr]
  · isplitr; · iexact HIs
    isplitr; · iexact HIr
    isplitl [Hx]; · iexact Hx
    isplitl [Ho]; · iexact Ho
    isplitl [HO]; · iexact HO
    isplitl [Hts]; · iexact Hts
    isplitr; · iexact Hrs
    isplitl [Htr]; · iexact Htr
    iexact Hrr
  iintro ⟨Hc, HO⟩
  rw [wp_ret]; imodintro
  isplitl [Hc] <;> iassumption

/-- The two waits that free the sum slot of chunk j: the store-back has landed (the chunk's result rows hold the sum), the
    x-copy's source is read (the slot's other half share is back). -/
theorem waitsStep (K : GSem nD τ sig → ℕ) (c : Dev nD) (j : Nat) (hj : j < 64) (i : Nat) :
    iprop(records m K ∗ levAts Lset lv ∗ slotBusy (F := F) c (j % 2) (slot_lt j) (j / 2) j hj ∗ owesX (F := F) c i)
      ⊢ wp frame (wpE (defs₀ (F := F)) 𝒱₀ c none) Set.univ (waitsFor c j hj)
          (fun _ => iprop(slotFree (F := F) c (j % 2) (slot_lt j) (j / 2 + 1) ∗ oHolds c c j hj (sumAt m c)
            ∗ atPos ER (xsCell c j hj) 1 ∅ 0 ∗ owesX (F := F) c i)) := by
  unfold slotBusy owesX
  iintro ⟨#HR, #Hlev, ⟨Hab, Hpa, Hpb, #Hra, #Hrb, Hcst, Hpst, #Hrst, Hcxs, Hpxs⟩, ⟨%W, HO⟩⟩
  unfold waitsFor
  simp only [Prog.lift, bind_pure_comp, Prog.bind_op, Prog.bind_ret, bind, Prog.bind]
  ihave HIst := (inv_of_records m K (mem_allCells_dma c (stS (j % 2) (slot_lt j)))) $$ HR
  ihave HIxs := (inv_of_records m K (mem_allCells_dma c (xsS j hj))) $$ HR
  -- the store-back's wait
  iapply (Rounds.wp_wait_rest_token 𝒱₀ ER (sched m) (c : Thread nD τ) none (κ := K (stCell c (j % 2) (slot_lt j)))
      (wpE_waitDma2_eq 𝒱₀ (c : Thread nD τ) none Set.univ) (Set.mem_univ _) () (O := owedX c i) (W := W) (R := j / 2) (m := 0) (T := ∅)
      (by rw [Nat.zero_add, expect_st_k m c j hj, oRows_credit])) $$ [Hcst HO Hpst]
  · isplitr; · iexact HIst
    isplitl [Hcst]; · rw [oRows_credit]; iexact Hcst
    isplitl [HO]; · iexact HO
    isplitr; · iapply (mayWait_low c _ (lv_st c _ _) i); iexact Hlev
    iexact Hpst
  iintro ⟨HO, Hpst, #Hrst', Hpay⟩
  ihave Hp := (Entails.of_eq (rest_st_k m c j hj)) $$ Hpay
  icases Hp with ⟨Hout, HsR⟩
  -- the x-copy's send wait
  iapply (Rounds.wp_wait_rest_token 𝒱₀ ER (sched m) (c : Thread nD τ) none (κ := K (xsCell c j hj))
      (wpE_waitDma2_eq 𝒱₀ (c : Thread nD τ) none Set.univ) (Set.mem_univ _) () (O := owedX c i) (R := 0) (m := 0) (T := ∅)
      (by rw [Nat.zero_add, expect_xs m c j hj, slotS_credit])) $$ [Hcxs HO Hpxs]
  · isplitr; · iexact HIxs
    isplitl [Hcxs]; · rw [slotS_credit]; iexact Hcxs
    isplitl [HO]; · iexact HO
    isplitr; · iapply (mayWait_low c _ (lv_xs c j hj) i); iexact Hlev
    iexact Hpxs
  iintro ⟨HO, Hpxs, -, Hpay⟩
  ihave HsL := (Entails.of_eq (rest_xs m c j hj)) $$ Hpay
  ihave Hs := (slotS_join c (j % 2) (slot_lt j)) $$ [HsL HsR]
  · isplitl [HsL] <;> iassumption
  rw [wp_ret]; imodintro
  unfold slotFree
  isplitl [Hab Hs Hpa Hpb Hpst]
  · isplitl [Hab]; · iexact Hab
    isplitl [Hs]; · iexact Hs
    isplitl [Hpa]; · iexact Hpa
    isplitl [Hpb]; · iexact Hpb
    isplitl [Hpst]; · iexact Hpst
    isplitr; · iexact Hra
    isplitr; · iexact Hrb
    iexact Hrst'
  isplitl [Hout]; · iexact Hout
  isplitl [Hpxs]; · iexact Hpxs
  iexists _; iexact HO

/-! ## A chunk's own operations, in three parts -/

/-- What the first part leaves: both slots filled with the chunk's rows of x and of the y-neighbour's x, the rows
    themselves (x at the right half share, the result rows whole), the two local cells a round further, the y-receive cell
    consumed. -/
def midA (c : Dev nD) (k : Nat) (hk : k < 64) : sProp 𝕄 :=
  iprop(slotHoldsA c (k % 2) (slot_lt k) (spread (xs m c) c k) ∗ xHolds m c k hk qR
    ∗ slotHoldsB c (k % 2) (slot_lt k) (spread (xs m (nbrY c)) c k) ∗ oHolds c c k hk (xs m (nbrY c))
    ∗ atPos ER (aCell c (k % 2) (slot_lt k)) (k / 2 + 1) ∅ 0 ∗ atPos ER (bCell c (k % 2) (slot_lt k)) (k / 2 + 1) ∅ 0
    ∗ reached ER (aCell c (k % 2) (slot_lt k)) (k / 2 + 1) ∗ reached ER (bCell c (k % 2) (slot_lt k)) (k / 2 + 1)
    ∗ atPos ER (yrCell c k hk) 1 ∅ 0)

set_option maxHeartbeats 1600000 in
theorem coreA_ok (K : GSem nD τ sig → ℕ) (c : Dev nD) (k : Nat) (hk : k < 64) (Q : PUnit → sProp 𝕄) :
    iprop(records m K ∗ levAts Lset lv
        ∗ (cred (tallyAt (yrCell c k hk) () No) ∗ atPos ER (yrCell c k hk) 0 ∅ 0 ∗ xHolds m c k hk qR
          ∗ dutyTok ER (aCell c (k % 2) (slot_lt k)) (k / 2) false ∗ dutyTok ER (bCell c (k % 2) (slot_lt k)) (k / 2) false)
        ∗ (abSome (F := F) c (k % 2) (slot_lt k)
          ∗ atPos ER (aCell c (k % 2) (slot_lt k)) (k / 2) ∅ 0 ∗ atPos ER (bCell c (k % 2) (slot_lt k)) (k / 2) ∅ 0
          ∗ reached ER (aCell c (k % 2) (slot_lt k)) (k / 2) ∗ reached ER (bCell c (k % 2) (slot_lt k)) (k / 2))
        ∗ owesX (F := F) c k
        ∗ (iprop(midA m c k hk ∗ owesX (F := F) c k) -∗ Q ⟨⟩))
      ⊢ wp frame (wpE (defs₀ (F := F)) 𝒱₀ c none) Set.univ (coreA c k hk) Q := by
  unfold abSome owesX
  iintro ⟨#HR, #Hlev, ⟨Hcyr, Hpyr, HxR, Hta, Htb⟩, ⟨⟨⟨%fa, Ha⟩, ⟨%fb, Hb⟩⟩, Hpa, Hpb, #Hra, #Hrb⟩, ⟨%W, HO⟩, Hk⟩
  unfold coreA
  simp only [Prog.lift, bind_pure_comp, Prog.bind_op, Prog.bind_ret, bind, Prog.bind]
  ihave HIa := (inv_of_records m K (mem_allCells_dma c (aS (k % 2) (slot_lt k)))) $$ HR
  ihave HIb := (inv_of_records m K (mem_allCells_dma c (bS (k % 2) (slot_lt k)))) $$ HR
  ihave HIyr := (inv_of_records m K (mem_allCells_dma c (yrS k hk))) $$ HR
  -- x's rows into slot a
  unfold xHolds
  iapply (Rounds.wp_copy_pointsTo 𝒱₀ ER (sched m) (c : Thread nD τ) none
      (src := xRows c k hk) (dst := slotOf aM (k % 2) (slot_lt k)) (sem := .dma (aS (k % 2) (slot_lt k))) (q := qR) (fs := xs m c) (fd := fa)
      (κ := K (aCell c (k % 2) (slot_lt k))) (r := k / 2) (d := false)
      (by rw [duties_a_k m c k hk]; exact Finset.mem_singleton_self _) () Na (slotA_credit _ _) (amount_a_k m c k hk false)
      (by rw [payload_a_k m c k hk]; exact BIClass.sep_mono (land_a m c k hk _ _ fa) (BI.Entails.refl _))) $$ [HxR Ha Hta]
  · isplitr; · iexact HIa
    isplitl [HxR]; · iexact HxR
    isplitl [Ha]; · iexact Ha
    isplitl [Hta]; · iexact Hta
    iexact Hra
  iintro Hca
  -- the y-neighbour's rows have landed
  iapply (Rounds.wp_wait_rest_token 𝒱₀ ER (sched m) (c : Thread nD τ) none (κ := K (yrCell c k hk))
      (wpE_waitDma2_eq 𝒱₀ (c : Thread nD τ) none Set.univ) (Set.mem_univ _) () (O := owedX c k) (W := W) (R := 0) (m := 0) (T := ∅)
      (by rw [Nat.zero_add, expect_yr m c k hk, oRows_credit])) $$ [Hcyr HO Hpyr]
  · isplitr; · iexact HIyr
    isplitl [Hcyr]; · rw [oRows_credit]; iexact Hcyr
    isplitl [HO]; · iexact HO
    isplitr; · iapply (mayWait_yr c k hk k); iexact Hlev
    iexact Hpyr
  iintro ⟨HO, Hpyr, -, Hpay⟩
  ihave Hout := (Entails.of_eq (rest_yr m c k hk)) $$ Hpay
  -- they go into slot b
  unfold oHolds
  iapply (Rounds.wp_copy_pointsTo 𝒱₀ ER (sched m) (c : Thread nD τ) none
      (src := oRows c k hk) (dst := slotOf bM (k % 2) (slot_lt k)) (sem := .dma (bS (k % 2) (slot_lt k))) (q := fullShare) (fs := xs m (nbrY c)) (fd := fb)
      (κ := K (bCell c (k % 2) (slot_lt k))) (r := k / 2) (d := false)
      (by rw [duties_b_k m c k hk]; exact Finset.mem_singleton_self _) () Nb (slotB_credit _ _) (amount_b_k m c k hk false)
      (by rw [payload_b_k m c k hk]; exact BIClass.sep_mono (land_b c k hk _ _ (xs m (nbrY c)) fb) (BI.Entails.refl _))) $$ [Hout Hb Htb]
  · isplitr; · iexact HIb
    isplitl [Hout]; · iexact Hout
    isplitl [Hb]; · iexact Hb
    isplitl [Htb]; · iexact Htb
    iexact Hrb
  iintro Hcb
  -- both local copies awaited
  iapply (Rounds.wp_wait_rest_token 𝒱₀ ER (sched m) (c : Thread nD τ) none (κ := K (aCell c (k % 2) (slot_lt k)))
      (wpE_waitDma2_eq 𝒱₀ (c : Thread nD τ) none Set.univ) (Set.mem_univ _) () (O := owedX c k) (R := k / 2) (m := 0) (T := ∅)
      (by rw [Nat.zero_add, expect_a_k m c k hk, slotA_credit])) $$ [Hca HO Hpa]
  · isplitr; · iexact HIa
    isplitl [Hca]; · rw [slotA_credit]; iexact Hca
    isplitl [HO]; · iexact HO
    isplitr; · iapply (mayWait_low c _ (lv_a c _ _) k); iexact Hlev
    iexact Hpa
  iintro ⟨HO, Hpa, #Hra', Hpay⟩
  ihave Hp := (Entails.of_eq (rest_a_k m c k hk)) $$ Hpay
  icases Hp with ⟨Ha, HxR⟩
  iapply (Rounds.wp_wait_rest_token 𝒱₀ ER (sched m) (c : Thread nD τ) none (κ := K (bCell c (k % 2) (slot_lt k)))
      (wpE_waitDma2_eq 𝒱₀ (c : Thread nD τ) none Set.univ) (Set.mem_univ _) () (O := owedX c k) (R := k / 2) (m := 0) (T := ∅)
      (by rw [Nat.zero_add, expect_b_k m c k hk, slotB_credit])) $$ [Hcb HO Hpb]
  · isplitr; · iexact HIb
    isplitl [Hcb]; · rw [slotB_credit]; iexact Hcb
    isplitl [HO]; · iexact HO
    isplitr; · iapply (mayWait_low c _ (lv_b c _ _) k); iexact Hlev
    iexact Hpb
  iintro ⟨HO, Hpb, #Hrb', Hpay⟩
  ihave Hp := (Entails.of_eq (rest_b_k m c k hk)) $$ Hpay
  icases Hp with ⟨Hb, Hout⟩
  rw [wp_ret]; imodintro
  iapply Hk
  unfold midA
  isplitr [HO]
  · isplitl [Ha]; · iexact Ha
    isplitl [HxR]; · iexact HxR
    isplitl [Hb]; · iexact Hb
    isplitl [Hout]; · iexact Hout
    isplitl [Hpa]; · iexact Hpa
    isplitl [Hpb]; · iexact Hpb
    isplitr; · iexact Hra'
    isplitr; · iexact Hrb'
    iexact Hpyr
  iexists _; iexact HO

set_option maxHeartbeats 1600000 in
/-- The second part: the loads read the chunk's rows of x and of the y-neighbour's x, and the store leaves their sum, the
    chunk's rows of the device's sum, in the sum slot. -/
theorem coreB_ok (c : Dev nD) (k : Nat) (Q : PUnit → sProp 𝕄) :
    iprop(slotHoldsA c (k % 2) (slot_lt k) (spread (xs m c) c k) ∗ slotHoldsB c (k % 2) (slot_lt k) (spread (xs m (nbrY c)) c k)
        ∗ (∃ f : S2x256x1024.Idx → F .f32, (slotOf sM (k % 2) (slot_lt k)).view.loc (c : Thread nD τ) ↦[(slotOf sM (k % 2) (slot_lt k)).view.set]{fullShare} f)
        ∗ (iprop(abSome (F := F) c (k % 2) (slot_lt k)
            ∗ ((slotOf sM (k % 2) (slot_lt k)).view.loc (c : Thread nD τ) ↦[(slotOf sM (k % 2) (slot_lt k)).view.set]{fullShare} spread (sumAt m c) c k)) -∗ Q ⟨⟩))
      ⊢ wp frame (wpE (defs₀ (F := F)) 𝒱₀ c none) Set.univ (coreB k) Q := by
  unfold slotHoldsA slotHoldsB
  iintro ⟨Ha, Hb, ⟨%fs, Hs⟩, Hk⟩
  unfold coreB
  simp only [Prog.lift, bind_pure_comp, Prog.bind_op, Prog.bind_ret, bind, Prog.bind]
  iapply (wp_load 𝒱₀ (c : Thread nD τ) none Set.univ (m := aM) (load_sub_A _ _)) $$ Ha; iintro Ha
  rw [load_slotA (k % 2) (slot_lt k) _ (xs m c) c k (fun _ _ => rfl)]
  iapply (wp_load 𝒱₀ (c : Thread nD τ) none Set.univ (m := bM) (load_sub_B _ _)) $$ Hb; iintro Hb
  rw [load_slotB (k % 2) (slot_lt k) _ (xs m (nbrY c)) c k (fun _ _ => rfl)]
  iapply (wp_load 𝒱₀ (c : Thread nD τ) none Set.univ (m := sM) (load_sub_S _ _)) $$ Hs; iintro Hs
  iapply (wp_store 𝒱₀ (c : Thread nD τ) none Set.univ (m := sM) (r := slotR (k % 2) (slot_lt k)) (Mk := Finset.univ) (store_sub _ _)) $$ Hs; iintro Hs
  rw [sumPay_chunk m c k]
  ihave Hs' := (store_slot c (k % 2) (slot_lt k) fs (sumAt m c) c k) $$ Hs
  rw [wp_ret]; imodintro
  iapply Hk
  unfold abSome
  isplitl [Ha Hb]
  · isplitl [Ha]
    · iexists _; iexact Ha
    · iexists _; iexact Hb
  iexact Hs'

set_option maxHeartbeats 1600000 in
/-- The third part: the sum slot, at its two half shares, copied back to the chunk's result rows and to the
    x-neighbour's; then the y-copy's source released. -/
theorem coreC_ok (K : GSem nD τ sig → ℕ) (c : Dev nD) (k : Nat) (hk : k < 64) (Q : PUnit → sProp 𝕄) :
    iprop(records m K ∗ levAts Lset lv
        ∗ ((slotOf sM (k % 2) (slot_lt k)).view.loc (c : Thread nD τ) ↦[(slotOf sM (k % 2) (slot_lt k)).view.set]{fullShare} spread (sumAt m c) c k)
        ∗ oHolds c c k hk (xs m (nbrY c))
        ∗ (cred (tallyAt (ysCell c k hk) () No) ∗ atPos ER (ysCell c k hk) 0 ∅ 0
          ∗ oSome (F := F) (nbrX c) c k hk
          ∗ dutyTok ER (xsCell c k hk) 0 false ∗ dutyTok ER (xrCell (nbrX c) k hk) 0 false
          ∗ dutyTok ER (stCell c (k % 2) (slot_lt k)) (k / 2) false ∗ reached ER (stCell c (k % 2) (slot_lt k)) (k / 2))
        ∗ owesX (F := F) c k
        ∗ (iprop(xHolds m c k hk qL ∗ atPos ER (ysCell c k hk) 1 ∅ 0
            ∗ cred (tallyAt (stCell c (k % 2) (slot_lt k)) () No) ∗ cred (tallyAt (xsCell c k hk) () No)
            ∗ owesX (F := F) c (k + 1)) -∗ Q ⟨⟩))
      ⊢ wp frame (wpE (defs₀ (F := F)) 𝒱₀ c none) Set.univ (coreC c k hk) Q := by
  unfold owesX oSome oHolds
  iintro ⟨#HR, #Hlev, Hs, Hout, ⟨Hcys, Hpys, ⟨%fdx, Hox⟩, Htxs, Htxr, Htst, #Hrst⟩, ⟨%W, HO⟩, Hk⟩
  unfold coreC
  simp only [Prog.lift, bind_pure_comp, Prog.bind_op, Prog.bind_ret, bind, Prog.bind]
  ihave HIst := (inv_of_records m K (mem_allCells_dma c (stS (k % 2) (slot_lt k)))) $$ HR
  ihave HIys := (inv_of_records m K (mem_allCells_dma c (ysS k hk))) $$ HR
  ihave HIxs := (inv_of_records m K (mem_allCells_dma c (xsS k hk))) $$ HR
  ihave HIxr := (inv_of_records m K (mem_allCells_dma (nbrX c) (xrS k hk))) $$ HR
  ihave Hrxs := (reached_of_records m K (mem_allCells_dma c (xsS k hk))) $$ HR
  ihave Hrxr := (reached_of_records m K (mem_allCells_dma (nbrX c) (xrS k hk))) $$ HR
  ihave Hs2 := (slotS_split c (k % 2) (slot_lt k) _) $$ Hs
  icases Hs2 with ⟨HsL, HsR⟩
  -- the store-back
  iapply (Rounds.wp_copy_pointsTo 𝒱₀ ER (sched m) (c : Thread nD τ) none
      (src := slotOf sM (k % 2) (slot_lt k)) (dst := oRows c k hk) (sem := .dma (stS (k % 2) (slot_lt k))) (q := qR)
      (fs := spread (sumAt m c) c k) (fd := xs m (nbrY c))
      (κ := K (stCell c (k % 2) (slot_lt k))) (r := k / 2) (d := false)
      (by rw [duties_st_k m c k hk]; exact Finset.mem_singleton_self _) () No (oRows_credit _ _ _) (amount_st_k m c k hk false)
      (by
        rw [payload_st_k m c k hk]
        refine BIClass.sep_mono (land_st c c k hk _ _ (sumAt m c) _ _ (fun _ _ => rfl)) ?_
        unfold slotSomeS; iintro H; iexists _; iexact H)) $$ [HsR Hout Htst]
  · isplitr; · iexact HIst
    isplitl [HsR]; · iexact HsR
    isplitl [Hout]; · iexact Hout
    isplitl [Htst]; · iexact Htst
    iexact Hrst
  iintro Hcst
  -- the copy to the x-neighbour
  iapply (Rounds.wp_send_pointsTo 𝒱₀ ER (sched m) (c : Thread nD τ) none (c' := (nbrX c : Thread nD τ))
      (src := slotOf sM (k % 2) (slot_lt k)) (dst := oRows c k hk) (sS := .dma (xsS k hk)) (sem := .dma (xrS k hk)) (q := qL)
      (fs := spread (sumAt m c) c k) (fd := fdx)
      (κ₁ := K (xsCell c k hk)) (κ₂ := K (xrCell (nbrX c) k hk)) (r₁ := 0) (r₂ := 0) (d₁ := false) (d₂ := false)
      (by rw [duties_xs m]; exact Finset.mem_singleton_self _) (by rw [duties_xr m]; exact Finset.mem_singleton_self _)
      () () No (oRows_credit c k hk) (amount_xs m c k hk false) (amount_xr m (nbrX c) k hk false)
      (O₀ := owedX c k) (owedX c (k + 1)) (owedX_succ c k hk)
      (by rw [payload_xs m]; unfold slotSomeS; iintro H; iexists _; iexact H)
      (by rw [payload_xr m, nbrX_nbrX]; exact land_st (nbrX c) c k hk _ _ (sumAt m c) _ fdx (fun _ _ => rfl))) $$ [HsL Hox HO Htxs Htxr]
  · isplitr; · iexact HIxs
    isplitr; · iexact HIxr
    isplitl [HsL]; · iexact HsL
    isplitl [Hox]; · iexact Hox
    isplitl [HO]; · iexact HO
    isplitl [Htxs]; · iexact Htxs
    isplitr; · iexact Hrxs
    isplitl [Htxr]; · iexact Htxr
    iexact Hrxr
  iintro ⟨Hcxs, HO⟩
  -- the y-copy's source released
  iapply (Rounds.wp_wait_rest_token 𝒱₀ ER (sched m) (c : Thread nD τ) none (κ := K (ysCell c k hk))
      (wpE_waitDma2_eq 𝒱₀ (c : Thread nD τ) none Set.univ) (Set.mem_univ _) () (O := owedX c (k + 1)) (R := 0) (m := 0) (T := ∅)
      (by rw [Nat.zero_add, expect_ys m c k hk, xRows_credit])) $$ [Hcys HO Hpys]
  · isplitr; · iexact HIys
    isplitl [Hcys]; · rw [xRows_credit]; iexact Hcys
    isplitl [HO]; · iexact HO
    isplitr; · iapply (mayWait_low c _ (lv_ys c k hk) (k + 1)); iexact Hlev
    iexact Hpys
  iintro ⟨HO, Hpys, -, Hpay⟩
  ihave HxL := (Entails.of_eq (rest_ys m c k hk)) $$ Hpay
  rw [wp_ret]; imodintro
  iapply Hk
  isplitl [HxL]; · iexact HxL
  isplitl [Hpys]; · iexact Hpys
  isplitl [Hcst]; · iexact Hcst
  isplitl [Hcxs]; · iexact Hcxs
  iexists _; iexact HO

/-- Chunk k's own operations, from its slot free and what the step consumes, to its slot busy and what the step leaves;
    the device pays the x-copy of chunk k off what it owes. -/
theorem coreStep (K : GSem nD τ sig → ℕ) (c : Dev nD) (k : Nat) (hk : k < 64) :
    iprop(records m K ∗ levAts Lset lv ∗ stepPre m c k hk ∗ slotFree (F := F) c (k % 2) (slot_lt k) (k / 2) ∗ owesX (F := F) c k)
      ⊢ wp frame (wpE (defs₀ (F := F)) 𝒱₀ c none) Set.univ (core c k hk)
          (fun _ => iprop(stepPost m c k hk ∗ slotBusy (F := F) c (k % 2) (slot_lt k) (k / 2) k hk ∗ owesX (F := F) c (k + 1))) := by
  unfold stepPre slotFree
  iintro ⟨#HR, #Hlev, ⟨Hcyr, Hpyr, Hcys, Hpys, Hpxs, HxR, Hox, Htxs, Htxr, Hta, Htb, Htst⟩,
    ⟨Hab, Hs, Hpa, Hpb, Hpst, #Hra, #Hrb, #Hrst⟩, HO⟩
  unfold core
  rw [wp_bind, wp_bind]
  iapply (coreA_ok m K c k hk) $$ [Hcyr Hpyr HxR Hta Htb Hab Hpa Hpb HO Hs Hcys Hpys Hpxs Hox Htxs Htxr Htst Hpst]
  isplitr; · iexact HR
  isplitr; · iexact Hlev
  isplitl [Hcyr Hpyr HxR Hta Htb]
  · isplitl [Hcyr]; · iexact Hcyr
    isplitl [Hpyr]; · iexact Hpyr
    isplitl [HxR]; · iexact HxR
    isplitl [Hta]; · iexact Hta
    iexact Htb
  isplitl [Hab Hpa Hpb]
  · isplitl [Hab]; · iexact Hab
    isplitl [Hpa]; · iexact Hpa
    isplitl [Hpb]; · iexact Hpb
    isplitr; · iexact Hra
    iexact Hrb
  isplitl [HO]; · iexact HO
  unfold midA
  iintro ⟨⟨Ha, HxR, Hb, Hout, Hpa, Hpb, #Hra', #Hrb', Hpyr⟩, HO⟩
  iapply (coreB_ok m c k) $$ [Ha Hb Hs Hout HxR Hpa Hpb Hpyr HO Hcys Hpys Hpxs Hox Htxs Htxr Htst Hpst]
  isplitl [Ha]; · iexact Ha
  isplitl [Hb]; · iexact Hb
  isplitl [Hs]; · iexact Hs
  iintro ⟨Hab, Hs⟩
  iapply (coreC_ok m K c k hk) $$ [Hs Hout Hcys Hpys Hox Htxs Htxr Htst HO Hab HxR Hpa Hpb Hpyr Hpxs Hpst]
  isplitr; · iexact HR
  isplitr; · iexact Hlev
  isplitl [Hs]; · iexact Hs
  isplitl [Hout]; · iexact Hout
  isplitl [Hcys Hpys Hox Htxs Htxr Htst]
  · isplitl [Hcys]; · iexact Hcys
    isplitl [Hpys]; · iexact Hpys
    isplitl [Hox]; · iexact Hox
    isplitl [Htxs]; · iexact Htxs
    isplitl [Htxr]; · iexact Htxr
    isplitl [Htst]; · iexact Htst
    iexact Hrst
  isplitl [HO]; · iexact HO
  iintro ⟨HxL, Hpys, Hcst, Hcxs, HO⟩
  unfold stepPost slotBusy
  isplitl [HxL HxR Hpys Hpyr]
  · isplitl [HxL]; · iexact HxL
    isplitl [HxR]; · iexact HxR
    isplitl [Hpys]; · iexact Hpys
    iexact Hpyr
  isplitr [HO]
  · isplitl [Hab]; · iexact Hab
    isplitl [Hpa]; · iexact Hpa
    isplitl [Hpb]; · iexact Hpb
    isplitr; · iexact Hra'
    isplitr; · iexact Hrb'
    isplitl [Hcst]; · iexact Hcst
    isplitl [Hpst]; · iexact Hpst
    isplitr; · iexact Hrst
    isplitl [Hcxs]; · iexact Hcxs
    iexact Hpxs
  iexact HO

/-- The wait for the x-neighbour's copy of its chunk k: the other half's chunk k of the result array holds the
    neighbour's sum. By then the device owes nothing. -/
theorem xrStep (K : GSem nD τ sig → ℕ) (c : Dev nD) (k : Nat) (hk : k < 64) :
    iprop(records m K ∗ cred (tallyAt (xrCell c k hk) () No) ∗ atPos ER (xrCell c k hk) 0 ∅ 0
        ∗ (∃ W : Waits sig Unit, owes (c : Thread nD τ) 0 W))
      ⊢ wp frame (wpE (defs₀ (F := F)) 𝒱₀ c none) Set.univ (xrWait c k hk)
          (fun _ => iprop(oHolds c (nbrX c) k hk (sumAt m (nbrX c)) ∗ atPos ER (xrCell c k hk) 1 ∅ 0
            ∗ (∃ W : Waits sig Unit, owes (c : Thread nD τ) 0 W))) := by
  iintro ⟨#HR, Hc, Hp, ⟨%W, HO⟩⟩
  unfold xrWait
  simp only [Prog.lift]
  ihave HI := (inv_of_records m K (mem_allCells_dma c (xrS k hk))) $$ HR
  iapply (Rounds.wp_wait_rest_token 𝒱₀ ER (sched m) (c : Thread nD τ) none (κ := K (xrCell c k hk))
      (wpE_waitDma2_eq 𝒱₀ (c : Thread nD τ) none Set.univ) (Set.mem_univ _) () (O := 0) (W := W) (R := 0) (m := 0) (T := ∅)
      (by rw [Nat.zero_add, expect_xr m c k hk, oRows_credit])) $$ [Hc HO Hp]
  · isplitr; · iexact HI
    isplitl [Hc]; · rw [oRows_credit]; iexact Hc
    isplitl [HO]; · iexact HO
    isplitr; · rw [MayWait_zero]; iempintro
    iexact Hp
  iintro ⟨HO, Hp, -, Hpay⟩
  ihave Hout := (Entails.of_eq (rest_xr m c k hk)) $$ Hpay
  rw [wp_ret]; imodintro
  isplitl [Hout]; · iexact Hout
  isplitl [Hp]; · iexact Hp
  iexists _; iexact HO

/-- A step's triple carries any assertion it does not touch. -/
theorem frame_step {α : Type} (p : Prog (TpuEff nD τ sig (Elt F) Λ₀ .tc) α) (c : Dev nD) (P T Rr : sProp 𝕄) (Q T' : α → sProp 𝕄)
    (h : iprop(P ∗ T) ⊢ wp frame (wpE (defs₀ (F := F)) 𝒱₀ c none) Set.univ p (fun a => iprop(Q a ∗ T' a))) :
    iprop(P ∗ (Rr ∗ T)) ⊢ wp frame (wpE (defs₀ (F := F)) 𝒱₀ c none) Set.univ p (fun a => iprop(Q a ∗ (Rr ∗ T' a))) := by
  iintro ⟨HP, HR, HT⟩
  ihave Hw := h $$ [HP HT]
  · isplitl [HP] <;> iassumption
  ihave Hf := (wp_frame_l frame (wpE (defs₀ (F := F)) 𝒱₀ c none) Set.univ (p := p) (R := Rr)) $$ [HR Hw]
  · isplitl [HR] <;> iassumption
  iapply (wp_mono frame (wpE (defs₀ (F := F)) 𝒱₀ c none) Set.univ (p := p) (fun a => ?_)) $$ Hf
  iintro ⟨HR, HQ, HT⟩
  isplitl [HQ]; · iexact HQ
  isplitl [HR] <;> iassumption

/-- info: 'Cert.KernelIdeal.Hand.coreStep' depends on axioms: [propext, Classical.choice, Quot.sound] -/
#guard_msgs in #print axioms coreStep

end Cert.KernelIdeal.Hand

end
-- ==== Proof.Loops.lean ====
/-
  The two plain loops of the body: the 64 copies to the y-neighbour at the start, the 64 waits for the x-neighbour's copies
  at the end.

  Each is a chain of 64 items of one shape, and each item's rule is taken here as a hypothesis.  A step consumes resources
  of its own chunk and leaves products of its own chunk; what all steps share is threaded through them: an arbitrary
  assertion that nothing touches, the persistent records (present at every step), and what the device owes, which the
  y-copies pay off chunk by chunk and the waits leave as it is.
-/
import proofs.«900147_g7700000000000148_dist_ar_v7x_xy2x2_y_m32768_n1024_f32_1_alg».proof.Proof.StepDefs
import proofs.«900147_g7700000000000148_dist_ar_v7x_xy2x2_y_m32768_n1024_f32_1_alg».proof.Proof.LibChain

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The 64 copies to the y-neighbour -/

/-- The y-copies, then the rest of the chain.  Each copy takes the left half share of its chunk's rows of x, the
    neighbour's result rows it writes and the two tokens it pays with, and leaves the credit of its y-send cell; what the
    device owes loses one y-copy per step.  The rest runs from the 64 credits and the debt with no y-copy left, with
    the carried assertion and the records untouched. -/
theorem yLoop
    (hy : ∀ (K : GSem nD τ sig → ℕ) (c : Dev nD) (k : Nat) (hk : k < 64) (W : Waits sig Unit),
      iprop(records m K ∗ xHolds m c k hk qL ∗ oSome (F := F) (nbrY c) c k hk ∗ dutyTok ER (ysCell c k hk) 0 false
          ∗ dutyTok ER (yrCell (nbrY c) k hk) 0 false ∗ owes (c : Thread nD τ) (owedX c 0 + owedY c k) W)
        ⊢ wp frame (wpE (defs₀ (F := F)) 𝒱₀ c none) Set.univ (yEnq c k hk)
            (fun _ => iprop(cred (tallyAt (ysCell c k hk) () No) ∗ owes (c : Thread nD τ) (owedX c 0 + owedY c (k + 1)) W)))
    (K : GSem nD τ sig → ℕ) (c : Dev nD) (W : Waits sig Unit) (Fr : sProp 𝕄)
    (rest : List (KProg F)) (R : PUnit → sProp 𝕄)
    (hrest : iprop(Fr ∗ records m K ∗ (bigSep Finset.univ fun k : Fin 64 => cred (tallyAt (ysCell c k.val k.isLt) () No))
          ∗ owes (c : Thread nD τ) (owedX c 0 + owedY c 64) W)
        ⊢ wp frame (wpE (defs₀ (F := F)) 𝒱₀ c none) Set.univ (Pipeline.chain rest) R) :
    iprop(Fr ∗ records m K
        ∗ (bigSep Finset.univ fun k : Fin 64 => iprop(xHolds m c k.val k.isLt qL ∗ oSome (F := F) (nbrY c) c k.val k.isLt
            ∗ dutyTok ER (ysCell c k.val k.isLt) 0 false ∗ dutyTok ER (yrCell (nbrY c) k.val k.isLt) 0 false))
        ∗ owes (c : Thread nD τ) (owedX c 0 + owedY c 0) W)
      ⊢ wp frame (wpE (defs₀ (F := F)) 𝒱₀ c none) Set.univ
          (Pipeline.chain ((List.finRange 64).map (fun k => yEnq c k.val k.isLt) ++ rest)) R := by
  have hstep : ∀ k : Fin 64,
      iprop(iprop(xHolds m c k.val k.isLt qL ∗ oSome (F := F) (nbrY c) c k.val k.isLt
            ∗ dutyTok ER (ysCell c k.val k.isLt) 0 false ∗ dutyTok ER (yrCell (nbrY c) k.val k.isLt) 0 false)
          ∗ iprop(Fr ∗ records m K ∗ owes (c : Thread nD τ) (owedX c 0 + owedY c k.val) W))
        ⊢ wp frame (wpE (defs₀ (F := F)) 𝒱₀ c none) Set.univ (yEnq c k.val k.isLt)
            (fun _ => iprop(cred (tallyAt (ysCell c k.val k.isLt) () No)
              ∗ iprop(Fr ∗ records m K ∗ owes (c : Thread nD τ) (owedX c 0 + owedY c (k.val + 1)) W))) := by
    intro k
    iintro ⟨⟨Hx, Ho, Hd1, Hd2⟩, HFr, #Hrec, Howes⟩
    iapply (wp_wand_r frame _ Set.univ)
    isplitl [Hx Ho Hd1 Hd2 Howes]
    · iapply (hy K c k.val k.isLt W)
      isplitr; · iexact Hrec
      isplitl [Hx]; · iexact Hx
      isplitl [Ho]; · iexact Ho
      isplitl [Hd1]; · iexact Hd1
      isplitl [Hd2]; · iexact Hd2
      iexact Howes
    · iintro %_ ⟨Hc, Howes⟩
      isplitl [Hc]; · iexact Hc
      isplitl [HFr]; · iexact HFr
      isplitr; · iexact Hrec
      iexact Howes
  have hrest' : iprop((bigSep Finset.univ fun k : Fin 64 => cred (tallyAt (ysCell c k.val k.isLt) () No))
        ∗ iprop(Fr ∗ records m K ∗ owes (c : Thread nD τ) (owedX c 0 + owedY c 64) W))
      ⊢ wp frame (wpE (defs₀ (F := F)) 𝒱₀ c none) Set.univ (Pipeline.chain rest) R := by
    iintro ⟨Hc, HFr, Hrec, Howes⟩
    iapply hrest
    isplitl [HFr]; · iexact HFr
    isplitl [Hrec]; · iexact Hrec
    isplitl [Hc]; · iexact Hc
    iexact Howes
  have hmain := Pipeline.wp_chain_finRange_append frame (wpE (defs₀ (F := F)) 𝒱₀ c none) Set.univ
    (fun k : Fin 64 => yEnq (F := F) c k.val k.isLt)
    (fun k : Fin 64 => iprop(xHolds m c k.val k.isLt qL ∗ oSome (F := F) (nbrY c) c k.val k.isLt
            ∗ dutyTok ER (ysCell c k.val k.isLt) 0 false ∗ dutyTok ER (yrCell (nbrY c) k.val k.isLt) 0 false))
    (fun k : Fin 64 => cred (tallyAt (ysCell c k.val k.isLt) () No))
    (fun j : ℕ => iprop(Fr ∗ records m K ∗ owes (c : Thread nD τ) (owedX c 0 + owedY c j) W))
    hstep rest R hrest'
  iintro ⟨HFr, Hrec, HP, Howes⟩
  iapply hmain
  isplitl [HP]; · iexact HP
  isplitl [HFr]; · iexact HFr
  isplitl [Hrec]; · iexact Hrec
  iexact Howes

/-! ## The 64 waits for the x-neighbour's copies -/

/-- The waits for the x-neighbour's copies.  Each takes its x-receive cell's launch credit and the position at the cell's
    start, and leaves the chunk's rows of the result array at the x-neighbour's sum there and the position one round on;
    the carried assertion, the records and the (empty) debt pass through. -/
theorem xrLoop
    (hxr : ∀ (K : GSem nD τ sig → ℕ) (c : Dev nD) (k : Nat) (hk : k < 64),
      iprop(records m K ∗ cred (tallyAt (xrCell c k hk) () No) ∗ atPos ER (xrCell c k hk) 0 ∅ 0
          ∗ (∃ W : Waits sig Unit, owes (c : Thread nD τ) 0 W))
        ⊢ wp frame (wpE (defs₀ (F := F)) 𝒱₀ c none) Set.univ (xrWait c k hk)
            (fun _ => iprop(oHolds c (nbrX c) k hk (sumAt m (nbrX c)) ∗ atPos ER (xrCell c k hk) 1 ∅ 0
              ∗ (∃ W : Waits sig Unit, owes (c : Thread nD τ) 0 W))))
    (K : GSem nD τ sig → ℕ) (c : Dev nD) (Fr : sProp 𝕄) :
    iprop(Fr ∗ records m K
        ∗ (bigSep Finset.univ fun k : Fin 64 => iprop(cred (tallyAt (xrCell c k.val k.isLt) () No) ∗ atPos ER (xrCell c k.val k.isLt) 0 ∅ 0))
        ∗ (∃ W : Waits sig Unit, owes (c : Thread nD τ) 0 W))
      ⊢ wp frame (wpE (defs₀ (F := F)) 𝒱₀ c none) Set.univ
          (Pipeline.chain ((List.finRange 64).map (fun k => xrWait (F := F) c k.val k.isLt)))
          (fun _ => iprop(Fr ∗ records m K
            ∗ (bigSep Finset.univ fun k : Fin 64 => iprop(oHolds c (nbrX c) k.val k.isLt (sumAt m (nbrX c)) ∗ atPos ER (xrCell c k.val k.isLt) 1 ∅ 0))
            ∗ (∃ W : Waits sig Unit, owes (c : Thread nD τ) 0 W))) := by
  have hstep : ∀ k : Fin 64,
      iprop(iprop(cred (tallyAt (xrCell c k.val k.isLt) () No) ∗ atPos ER (xrCell c k.val k.isLt) 0 ∅ 0)
          ∗ iprop(Fr ∗ records m K ∗ (∃ W : Waits sig Unit, owes (c : Thread nD τ) 0 W)))
        ⊢ wp frame (wpE (defs₀ (F := F)) 𝒱₀ c none) Set.univ (xrWait c k.val k.isLt)
            (fun _ => iprop(iprop(oHolds c (nbrX c) k.val k.isLt (sumAt m (nbrX c)) ∗ atPos ER (xrCell c k.val k.isLt) 1 ∅ 0)
              ∗ iprop(Fr ∗ records m K ∗ (∃ W : Waits sig Unit, owes (c : Thread nD τ) 0 W)))) := by
    intro k
    iintro ⟨⟨Hc, Hat⟩, HFr, #Hrec, Howes⟩
    iapply (wp_wand_r frame _ Set.univ)
    isplitl [Hc Hat Howes]
    · iapply (hxr K c k.val k.isLt)
      isplitr; · iexact Hrec
      isplitl [Hc]; · iexact Hc
      isplitl [Hat]; · iexact Hat
      iexact Howes
    · iintro %_ ⟨Ho, Hat, Howes⟩
      isplitl [Ho Hat]
      · isplitl [Ho]; · iexact Ho
        iexact Hat
      isplitl [HFr]; · iexact HFr
      isplitr; · iexact Hrec
      iexact Howes
  have hmain := Pipeline.wp_chain_finRange frame (wpE (defs₀ (F := F)) 𝒱₀ c none) Set.univ
    (fun k : Fin 64 => xrWait (F := F) c k.val k.isLt)
    (fun k : Fin 64 => iprop(cred (tallyAt (xrCell c k.val k.isLt) () No) ∗ atPos ER (xrCell c k.val k.isLt) 0 ∅ 0))
    (fun k : Fin 64 => iprop(oHolds c (nbrX c) k.val k.isLt (sumAt m (nbrX c)) ∗ atPos ER (xrCell c k.val k.isLt) 1 ∅ 0))
    (fun _ : ℕ => iprop(Fr ∗ records m K ∗ (∃ W : Waits sig Unit, owes (c : Thread nD τ) 0 W)))
    hstep
  iintro ⟨HFr, Hrec, HP, Howes⟩
  iapply (wp_wand_r frame _ Set.univ)
  isplitl [HFr Hrec HP Howes]
  · iapply hmain
    isplitl [HP]; · iexact HP
    isplitl [HFr]; · iexact HFr
    isplitl [Hrec]; · iexact Hrec
    iexact Howes
  · iintro %_ ⟨HQ, HFr, Hrec, Howes⟩
    isplitl [HFr]; · iexact HFr
    isplitl [Hrec]; · iexact Hrec
    isplitl [HQ]; · iexact HQ
    iexact Howes

/-- info: 'Cert.KernelIdeal.Hand.yLoop' depends on axioms: [propext, Classical.choice, Quot.sound] -/
#guard_msgs in #print axioms yLoop

/-- info: 'Cert.KernelIdeal.Hand.xrLoop' depends on axioms: [propext, Classical.choice, Quot.sound] -/
#guard_msgs in #print axioms xrLoop

end Cert.KernelIdeal.Hand

end
-- ==== Proof.Reindex.lean ====
/-
  The 262 DMA semaphores of a device by role.

  The pool is laid out as four arrays of 64 (y-send, y-receive, x-send, x-receive: numbers k, 64 + k, 128 + k, 192 + k for
  chunk k) followed by three arrays of 2 (a, b, st: numbers 256 + s, 258 + s, 260 + s for slot s).  A separating
  conjunction over the whole pool is therefore the conjunction over the chunks of the four per-chunk summands and over the
  slots of the three per-slot summands.  With it a device's positions at entry are read cell by cell, and at exit the
  closing of every cell (each at a round from which it has no duty) gives every counter of the pool at zero.
-/
import proofs.«900147_g7700000000000148_dist_ar_v7x_xy2x2_y_m32768_n1024_f32_1_alg».proof.Proof.State

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The numbers of the semaphores -/

private theorem ysS_num : ∀ k : Fin 64, (ysS k.val k.isLt).val = k.val := by decide
private theorem yrS_num : ∀ k : Fin 64, (yrS k.val k.isLt).val = 64 + k.val := by decide
private theorem xsS_num : ∀ k : Fin 64, (xsS k.val k.isLt).val = 128 + k.val := by decide
private theorem xrS_num : ∀ k : Fin 64, (xrS k.val k.isLt).val = 192 + k.val := by decide
private theorem aS_num : ∀ s : Fin 2, (aS s.val s.isLt).val = 256 + s.val := by decide
private theorem bS_num : ∀ s : Fin 2, (bS s.val s.isLt).val = 258 + s.val := by decide
private theorem stS_num : ∀ s : Fin 2, (stS s.val s.isLt).val = 260 + s.val := by decide

/-! ## Splitting a conjunction over an initial segment of the naturals -/

section Split
universe u
variable {M : Type u} [URA M]

/-- Over Fin (a + b): the first a indices, then the last b. -/
theorem bigSep_fin_add (a b : ℕ) (Φ : Fin (a + b) → sProp M) :
    bigSep Finset.univ Φ = iprop(bigSep Finset.univ (fun i : Fin a => Φ (Fin.castAdd b i))
      ∗ bigSep Finset.univ (fun j : Fin b => Φ (Fin.natAdd a j))) := by
  rw [bigSep_univ_equiv finSumFinEquiv Φ, bigSep_univ_sum]
  rfl

/-- Over Fin n with n = a + b: the indices below a, then the indices a + j. -/
theorem bigSep_fin_split (a b n : ℕ) (h : a + b = n) (Φ : Fin n → sProp M) :
    bigSep Finset.univ Φ = iprop(bigSep Finset.univ (fun i : Fin a => Φ ⟨i.val, by omega⟩)
      ∗ bigSep Finset.univ (fun j : Fin b => Φ ⟨a + j.val, by omega⟩)) := by
  subst h
  exact bigSep_fin_add a b Φ

end Split

/-! ## The pool by role -/

/-- A conjunction over the 262 DMA semaphores is the conjunction over the 64 chunks of the summands at the chunk's four
    semaphores and over the 2 slots of the summands at the slot's three. -/
theorem dma_split (Φ : DmaSem sig → sProp 𝕄) :
    bigSep Finset.univ Φ = iprop(
      (bigSep Finset.univ fun k : Fin 64 => iprop(Φ (ysS k.val k.isLt) ∗ Φ (yrS k.val k.isLt) ∗ Φ (xsS k.val k.isLt) ∗ Φ (xrS k.val k.isLt)))
      ∗ (bigSep Finset.univ fun s : Fin 2 => iprop(Φ (aS s.val s.isLt) ∗ Φ (bS s.val s.isLt) ∗ Φ (stS s.val s.isLt)))) := by
  have hys : ∀ k : Fin 64, Φ (ysS k.val k.isLt) = Φ (⟨k.val, by omega⟩ : Fin 262) := fun k => congrArg Φ (Fin.ext (ysS_num k))
  have hyr : ∀ k : Fin 64, Φ (yrS k.val k.isLt) = Φ (⟨64 + k.val, by omega⟩ : Fin 262) := fun k => congrArg Φ (Fin.ext (yrS_num k))
  have hxs : ∀ k : Fin 64, Φ (xsS k.val k.isLt) = Φ (⟨128 + k.val, by omega⟩ : Fin 262) := fun k => congrArg Φ (Fin.ext (xsS_num k))
  have hxr : ∀ k : Fin 64, Φ (xrS k.val k.isLt) = Φ (⟨192 + k.val, by omega⟩ : Fin 262) := fun k => congrArg Φ (Fin.ext (xrS_num k))
  have ha : ∀ s : Fin 2, Φ (aS s.val s.isLt) = Φ (⟨256 + s.val, by omega⟩ : Fin 262) := fun s => congrArg Φ (Fin.ext (aS_num s))
  have hb : ∀ s : Fin 2, Φ (bS s.val s.isLt) = Φ (⟨258 + s.val, by omega⟩ : Fin 262) := fun s => congrArg Φ (Fin.ext (bS_num s))
  have hst : ∀ s : Fin 2, Φ (stS s.val s.isLt) = Φ (⟨260 + s.val, by omega⟩ : Fin 262) := fun s => congrArg Φ (Fin.ext (stS_num s))
  rw [bigSep_fin_split 260 2 262 rfl Φ, bigSep_fin_split 258 2 260 rfl, bigSep_fin_split 256 2 258 rfl,
    bigSep_fin_split 192 64 256 rfl, bigSep_fin_split 128 64 192 rfl, bigSep_fin_split 64 64 128 rfl]
  have hassoc : ∀ P Q R : sProp 𝕄, iprop((P ∗ Q) ∗ R) = iprop(P ∗ Q ∗ R) :=
    fun P Q R => Idealize.SL.BI.sep_assoc.antisymm Idealize.SL.BI.sep_assoc'
  simp only [hys, hyr, hxs, hxr, ha, hb, hst, bigSep_sep', Fin.val_mk, hassoc]

/-! ## The positions at entry, cell by cell -/

/-- A device's positions at entry: at the start of its barrier cell, of the four cells of every chunk and of the three
    cells of every slot. -/
theorem positions_split (c : Dev nD) :
    positions (F := F) c = iprop(atPos ER (barCell c) 0 ∅ 0
      ∗ (bigSep Finset.univ fun k : Fin 64 => iprop(atPos ER (ysCell c k.val k.isLt) 0 ∅ 0 ∗ atPos ER (yrCell c k.val k.isLt) 0 ∅ 0
          ∗ atPos ER (xsCell c k.val k.isLt) 0 ∅ 0 ∗ atPos ER (xrCell c k.val k.isLt) 0 ∅ 0))
      ∗ (bigSep Finset.univ fun s : Fin 2 => iprop(atPos ER (aCell c s.val s.isLt) 0 ∅ 0 ∗ atPos ER (bCell c s.val s.isLt) 0 ∅ 0
          ∗ atPos ER (stCell c s.val s.isLt) 0 ∅ 0))) := by
  unfold positions
  rw [dma_split (fun n => atPos ER ((c : Thread nD τ), SemLoc.dma n) 0 ∅ 0)]

/-! ## The exit: every own cell closed -/

/-- One cell closed: from the records and the owner's position at a round from which the cell has no duty, nothing
    taken and nothing consumed, the cell's counter at zero. -/
theorem close_one (K : GSem nD τ sig → ℕ) {g : GSem nD τ sig} (hg : g ∈ allCells) {R : ℕ}
    (hR : ∀ r, R ≤ r → (sched m).duties g r = ∅) :
    iprop(records m K ∗ atPos ER g R ∅ 0) ⊢ iprop(|={Set.univ}=> semVal g 0) :=
  (sep_mono_left (inv_of_records m K hg)).trans
    (Rounds.cell_close ER (sched m) (Set.mem_univ (K g)) (fun h => h) (R := R) hR)

/-- All 262 own DMA cells closed: the per-chunk cells from round 1, the per-slot cells from round 32, given that the
    schedule has no duty on them from there on. -/
theorem close_all (K : GSem nD τ sig → ℕ) (c : Dev nD)
    (hys : ∀ (k : Nat) (hk : k < 64) (r : ℕ), 1 ≤ r → (sched m).duties (ysCell c k hk) r = ∅)
    (hyr : ∀ (k : Nat) (hk : k < 64) (r : ℕ), 1 ≤ r → (sched m).duties (yrCell c k hk) r = ∅)
    (hxs : ∀ (k : Nat) (hk : k < 64) (r : ℕ), 1 ≤ r → (sched m).duties (xsCell c k hk) r = ∅)
    (hxr : ∀ (k : Nat) (hk : k < 64) (r : ℕ), 1 ≤ r → (sched m).duties (xrCell c k hk) r = ∅)
    (ha : ∀ (s : Nat) (hs : s < 2) (r : ℕ), 32 ≤ r → (sched m).duties (aCell c s hs) r = ∅)
    (hb : ∀ (s : Nat) (hs : s < 2) (r : ℕ), 32 ≤ r → (sched m).duties (bCell c s hs) r = ∅)
    (hst : ∀ (s : Nat) (hs : s < 2) (r : ℕ), 32 ≤ r → (sched m).duties (stCell c s hs) r = ∅) :
    iprop(records m K
      ∗ (bigSep Finset.univ fun k : Fin 64 => iprop(atPos ER (ysCell c k.val k.isLt) 1 ∅ 0 ∗ atPos ER (yrCell c k.val k.isLt) 1 ∅ 0
          ∗ atPos ER (xsCell c k.val k.isLt) 1 ∅ 0 ∗ atPos ER (xrCell c k.val k.isLt) 1 ∅ 0))
      ∗ (bigSep Finset.univ fun s : Fin 2 => iprop(atPos ER (aCell c s.val s.isLt) 32 ∅ 0 ∗ atPos ER (bCell c s.val s.isLt) 32 ∅ 0
          ∗ atPos ER (stCell c s.val s.isLt) 32 ∅ 0)))
      ⊢ iprop(|={Set.univ}=> ownZeros (F := F) c) := by
  unfold ownZeros
  rw [dma_split (fun n => semVal ((c : Thread nD τ), SemLoc.dma n) 0)]
  have h64 : iprop(records m K
      ∗ (bigSep Finset.univ fun k : Fin 64 => iprop(atPos ER (ysCell c k.val k.isLt) 1 ∅ 0 ∗ atPos ER (yrCell c k.val k.isLt) 1 ∅ 0
          ∗ atPos ER (xsCell c k.val k.isLt) 1 ∅ 0 ∗ atPos ER (xrCell c k.val k.isLt) 1 ∅ 0)))
      ⊢ bigSep Finset.univ fun k : Fin 64 => iprop(|={Set.univ}=> (semVal (ysCell c k.val k.isLt) 0 ∗ semVal (yrCell c k.val k.isLt) 0
          ∗ semVal (xsCell c k.val k.isLt) 0 ∗ semVal (xrCell c k.val k.isLt) 0)) := by
    refine bigSep_with_persistent fun k _ => ?_
    iintro ⟨#Hrec, Hys, Hyr, Hxs, Hxr⟩
    imod (close_one m K (mem_allCells_dma c _) (hys k.val k.isLt)) $$ [Hys] with Hys
    · isplitr; · iexact Hrec
      iexact Hys
    imod (close_one m K (mem_allCells_dma c _) (hyr k.val k.isLt)) $$ [Hyr] with Hyr
    · isplitr; · iexact Hrec
      iexact Hyr
    imod (close_one m K (mem_allCells_dma c _) (hxs k.val k.isLt)) $$ [Hxs] with Hxs
    · isplitr; · iexact Hrec
      iexact Hxs
    imod (close_one m K (mem_allCells_dma c _) (hxr k.val k.isLt)) $$ [Hxr] with Hxr
    · isplitr; · iexact Hrec
      iexact Hxr
    imodintro
    isplitl [Hys]; · iexact Hys
    isplitl [Hyr]; · iexact Hyr
    isplitl [Hxs]; · iexact Hxs
    iexact Hxr
  have h2 : iprop(records m K
      ∗ (bigSep Finset.univ fun s : Fin 2 => iprop(atPos ER (aCell c s.val s.isLt) 32 ∅ 0 ∗ atPos ER (bCell c s.val s.isLt) 32 ∅ 0
          ∗ atPos ER (stCell c s.val s.isLt) 32 ∅ 0)))
      ⊢ bigSep Finset.univ fun s : Fin 2 => iprop(|={Set.univ}=> (semVal (aCell c s.val s.isLt) 0 ∗ semVal (bCell c s.val s.isLt) 0
          ∗ semVal (stCell c s.val s.isLt) 0)) := by
    refine bigSep_with_persistent fun s _ => ?_
    iintro ⟨#Hrec, Ha, Hb, Hst⟩
    imod (close_one m K (mem_allCells_dma c _) (ha s.val s.isLt)) $$ [Ha] with Ha
    · isplitr; · iexact Hrec
      iexact Ha
    imod (close_one m K (mem_allCells_dma c _) (hb s.val s.isLt)) $$ [Hb] with Hb
    · isplitr; · iexact Hrec
      iexact Hb
    imod (close_one m K (mem_allCells_dma c _) (hst s.val s.isLt)) $$ [Hst] with Hst
    · isplitr; · iexact Hrec
      iexact Hst
    imodintro
    isplitl [Ha]; · iexact Ha
    isplitl [Hb]; · iexact Hb
    iexact Hst
  iintro ⟨#Hrec, H64, H2⟩
  imod (h64.trans (bigSep_fupd _ _)) $$ [H64] with H64
  · isplitr; · iexact Hrec
    iexact H64
  imod (h2.trans (bigSep_fupd _ _)) $$ [H2] with H2
  · isplitr; · iexact Hrec
    iexact H2
  imodintro
  isplitl [H64]; · iexact H64
  iexact H2

/-- info: 'Cert.KernelIdeal.Hand.dma_split' depends on axioms: [propext, Classical.choice, Quot.sound] -/
#guard_msgs in #print axioms dma_split

/-- info: 'Cert.KernelIdeal.Hand.positions_split' depends on axioms: [propext, Classical.choice, Quot.sound] -/
#guard_msgs in #print axioms positions_split

/-- info: 'Cert.KernelIdeal.Hand.close_all' depends on axioms: [propext, Classical.choice, Quot.sound] -/
#guard_msgs in #print axioms close_all

end Cert.KernelIdeal.Hand

end
-- ==== Proof.Exit.lean ====
/-
  Entering and leaving the chunk steps: the scratch arrays cut into their two slots and put back, and the exit assembled.

  A 2 x 256 x 1024 scratch array is its slot 0 (the elements whose first coordinate is 0) and its slot 1, two disjoint
  sets that cover it; so the array over some contents is its two slots, each over some contents, and back (the joined
  contents are one slot's on that slot and the other's elsewhere). At entry this gives each slot free at round 0. At
  exit the argument array is put back from the chunks' half shares and the other half's rows, the result array from its
  128 chunks at the two sums, the scratch arrays from their slots, and every own cell is closed at a round from which it
  has no duty.
-/
import proofs.«900147_g7700000000000148_dist_ar_v7x_xy2x2_y_m32768_n1024_f32_1_alg».proof.Proof.StepDefs
import proofs.«900147_g7700000000000148_dist_ar_v7x_xy2x2_y_m32768_n1024_f32_1_alg».proof.Proof.Reindex
import proofs.«900147_g7700000000000148_dist_ar_v7x_xy2x2_y_m32768_n1024_f32_1_alg».proof.Proof.GeomLand
import proofs.«900147_g7700000000000148_dist_ar_v7x_xy2x2_y_m32768_n1024_f32_1_alg».proof.Proof.GeomSplit

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The two slots partition a scratch array -/

/-- Slot s of a scratch array: the elements whose first coordinate is s. -/
theorem mem_slotR (s : Nat) (hs : s < 2) (i : S2x256x1024.Idx) : i ∈ (slotR s hs).set ↔ (i 0).val = s := by
  rw [Rect.mem_set_unit]
  constructor
  · intro h
    have h0 : s ≤ (i 0).val ∧ (i 0).val < s + 1 := h 0
    omega
  · intro h a
    fin_cases a
    · show s ≤ (i 0).val ∧ (i 0).val < s + 1
      omega
    · exact ⟨Nat.zero_le _, by have := (i 1).isLt; simpa using this⟩
    · exact ⟨Nat.zero_le _, by have := (i 2).isLt; simpa using this⟩

theorem slots_disjoint : Disjoint (slotR 0 (by decide)).set (slotR 1 (by decide)).set := by
  rw [Finset.disjoint_left]
  intro i h0 h1
  rw [mem_slotR] at h0 h1
  omega

theorem slots_union : (slotR 0 (by decide)).set ∪ (slotR 1 (by decide)).set = Finset.univ := by
  ext i
  have hi : (i 0).val < 2 := (i 0).isLt
  simp only [Finset.mem_union, mem_slotR, Finset.mem_univ, iff_true]
  omega

/-- A buffer held whole is any two disjoint sets of its elements that cover it; -/
theorem cut_two {ℓ : Loc nD τ sig} {I₀ I₁ : Finset (Idx ℓ)} (hd : Disjoint I₀ I₁) (hu : I₀ ∪ I₁ = Finset.univ)
    (f : Buf (Elt F) ℓ) :
    (ℓ ↦{fullShare} f : sProp 𝕄) = iprop((ℓ ↦[I₀]{fullShare} f) ∗ ℓ ↦[I₁]{fullShare} f) := by
  have h := pointsTo_union (Ix := Unit) (Val := Elt F) (Name := ℕ) (U := UU) (Lvl := ℕ) (ℓ := ℓ) (q := fullShare) (f := f) hd
  rw [hu] at h
  exact equiv_iff.mp ⟨h.1, h.2⟩

/-- and two such sets held over different contents join to the whole, over the second's contents on the second set and
    the first's elsewhere. -/
theorem join_two {ℓ : Loc nD τ sig} {I₀ I₁ : Finset (Idx ℓ)} (hd : Disjoint I₀ I₁) (hu : I₀ ∪ I₁ = Finset.univ)
    (f₀ f₁ : Buf (Elt F) ℓ) :
    iprop((ℓ ↦[I₀]{fullShare} f₀) ∗ ℓ ↦[I₁]{fullShare} f₁) ⊢ (ℓ ↦{fullShare} (I₁.piecewise f₁ f₀) : sProp 𝕄) := by
  have h := pointsTo_join (Ix := Unit) (Val := Elt F) (Name := ℕ) (U := UU) (Lvl := ℕ) (ℓ := ℓ) (q := fullShare)
    (f := f₀) (g := f₁) hd
  rw [hu] at h
  exact h

/-- A slot of each scratch array, as a set of the array's elements. -/
theorem slotA_set (s : Nat) (hs : s < 2) : (slotOf aM s hs).view.set = (slotR s hs).set :=
  (slot_set_access aM s hs).trans (View.set_slice_whole cc0_scratch4 (slotR s hs))
theorem slotB_set (s : Nat) (hs : s < 2) : (slotOf bM s hs).view.set = (slotR s hs).set :=
  (slot_set_access bM s hs).trans (View.set_slice_whole cc0_scratch5 (slotR s hs))
theorem slotS_set (s : Nat) (hs : s < 2) : (slotOf sM s hs).view.set = (slotR s hs).set :=
  (slot_set_access sM s hs).trans (View.set_slice_whole cc0_scratch6 (slotR s hs))

/-- A slot of scratch a, b, or the sum scratch of device c, whole, at contents f. -/
abbrev pieceA (c : Dev nD) (s : Nat) (hs : s < 2) (f : S2x256x1024.Idx → F .f32) : sProp 𝕄 :=
  (slotOf aM s hs).view.loc (c : Thread nD τ) ↦[(slotOf aM s hs).view.set]{fullShare} f
abbrev pieceB (c : Dev nD) (s : Nat) (hs : s < 2) (f : S2x256x1024.Idx → F .f32) : sProp 𝕄 :=
  (slotOf bM s hs).view.loc (c : Thread nD τ) ↦[(slotOf bM s hs).view.set]{fullShare} f
abbrev pieceS (c : Dev nD) (s : Nat) (hs : s < 2) (f : S2x256x1024.Idx → F .f32) : sProp 𝕄 :=
  (slotOf sM s hs).view.loc (c : Thread nD τ) ↦[(slotOf sM s hs).view.set]{fullShare} f

theorem scratchA_cut (c : Dev nD) (f : S2x256x1024.Idx → F .f32) :
    whole (F := F) c cc0_scratch4 f = iprop(pieceA c 0 (by decide) f ∗ pieceA c 1 (by decide) f) := by
  unfold pieceA
  rw [slotA_set, slotA_set]
  exact cut_two (ℓ := (c : Thread nD τ).loc cc0_scratch4) slots_disjoint slots_union f
theorem scratchB_cut (c : Dev nD) (f : S2x256x1024.Idx → F .f32) :
    whole (F := F) c cc0_scratch5 f = iprop(pieceB c 0 (by decide) f ∗ pieceB c 1 (by decide) f) := by
  unfold pieceB
  rw [slotB_set, slotB_set]
  exact cut_two (ℓ := (c : Thread nD τ).loc cc0_scratch5) slots_disjoint slots_union f
theorem scratchS_cut (c : Dev nD) (f : S2x256x1024.Idx → F .f32) :
    whole (F := F) c cc0_scratch6 f = iprop(pieceS c 0 (by decide) f ∗ pieceS c 1 (by decide) f) := by
  unfold pieceS
  rw [slotS_set, slotS_set]
  exact cut_two (ℓ := (c : Thread nD τ).loc cc0_scratch6) slots_disjoint slots_union f

/-! ## A scratch array over some contents is its two slots over some contents -/

theorem scratchA_split (c : Dev nD) :
    (iprop(∃ f, whole (F := F) c cc0_scratch4 f) : sProp 𝕄)
      ⊢ iprop((∃ f, pieceA (F := F) c 0 (by decide) f) ∗ (∃ f, pieceA (F := F) c 1 (by decide) f)) := by
  iintro ⟨%f, H⟩
  ihave H2 := (Entails.of_eq (scratchA_cut c f)) $$ H
  icases H2 with ⟨H0, H1⟩
  isplitl [H0]
  · iexists f; iexact H0
  · iexists f; iexact H1

theorem scratchA_join (c : Dev nD) :
    (iprop((∃ f, pieceA (F := F) c 0 (by decide) f) ∗ (∃ f, pieceA (F := F) c 1 (by decide) f)) : sProp 𝕄)
      ⊢ iprop(∃ f, whole (F := F) c cc0_scratch4 f) := by
  have key : ∀ f₀ f₁ : S2x256x1024.Idx → F .f32,
      iprop(pieceA (F := F) c 0 (by decide) f₀ ∗ pieceA (F := F) c 1 (by decide) f₁)
        ⊢ whole (F := F) c cc0_scratch4 ((slotR 1 (by decide)).set.piecewise f₁ f₀) := by
    intro f₀ f₁
    unfold pieceA
    rw [slotA_set, slotA_set]
    exact join_two (ℓ := (c : Thread nD τ).loc cc0_scratch4) slots_disjoint slots_union f₀ f₁
  iintro ⟨⟨%f₀, H0⟩, ⟨%f₁, H1⟩⟩
  iexists ((slotR 1 (by decide)).set.piecewise f₁ f₀)
  iapply (key f₀ f₁)
  isplitl [H0]
  · iexact H0
  · iexact H1

theorem scratchB_split (c : Dev nD) :
    (iprop(∃ f, whole (F := F) c cc0_scratch5 f) : sProp 𝕄)
      ⊢ iprop((∃ f, pieceB (F := F) c 0 (by decide) f) ∗ (∃ f, pieceB (F := F) c 1 (by decide) f)) := by
  iintro ⟨%f, H⟩
  ihave H2 := (Entails.of_eq (scratchB_cut c f)) $$ H
  icases H2 with ⟨H0, H1⟩
  isplitl [H0]
  · iexists f; iexact H0
  · iexists f; iexact H1

theorem scratchB_join (c : Dev nD) :
    (iprop((∃ f, pieceB (F := F) c 0 (by decide) f) ∗ (∃ f, pieceB (F := F) c 1 (by decide) f)) : sProp 𝕄)
      ⊢ iprop(∃ f, whole (F := F) c cc0_scratch5 f) := by
  have key : ∀ f₀ f₁ : S2x256x1024.Idx → F .f32,
      iprop(pieceB (F := F) c 0 (by decide) f₀ ∗ pieceB (F := F) c 1 (by decide) f₁)
        ⊢ whole (F := F) c cc0_scratch5 ((slotR 1 (by decide)).set.piecewise f₁ f₀) := by
    intro f₀ f₁
    unfold pieceB
    rw [slotB_set, slotB_set]
    exact join_two (ℓ := (c : Thread nD τ).loc cc0_scratch5) slots_disjoint slots_union f₀ f₁
  iintro ⟨⟨%f₀, H0⟩, ⟨%f₁, H1⟩⟩
  iexists ((slotR 1 (by decide)).set.piecewise f₁ f₀)
  iapply (key f₀ f₁)
  isplitl [H0]
  · iexact H0
  · iexact H1

theorem scratchS_split (c : Dev nD) :
    (iprop(∃ f, whole (F := F) c cc0_scratch6 f) : sProp 𝕄)
      ⊢ iprop((∃ f, pieceS (F := F) c 0 (by decide) f) ∗ (∃ f, pieceS (F := F) c 1 (by decide) f)) := by
  iintro ⟨%f, H⟩
  ihave H2 := (Entails.of_eq (scratchS_cut c f)) $$ H
  icases H2 with ⟨H0, H1⟩
  isplitl [H0]
  · iexists f; iexact H0
  · iexists f; iexact H1

theorem scratchS_join (c : Dev nD) :
    (iprop((∃ f, pieceS (F := F) c 0 (by decide) f) ∗ (∃ f, pieceS (F := F) c 1 (by decide) f)) : sProp 𝕄)
      ⊢ iprop(∃ f, whole (F := F) c cc0_scratch6 f) := by
  have key : ∀ f₀ f₁ : S2x256x1024.Idx → F .f32,
      iprop(pieceS (F := F) c 0 (by decide) f₀ ∗ pieceS (F := F) c 1 (by decide) f₁)
        ⊢ whole (F := F) c cc0_scratch6 ((slotR 1 (by decide)).set.piecewise f₁ f₀) := by
    intro f₀ f₁
    unfold pieceS
    rw [slotS_set, slotS_set]
    exact join_two (ℓ := (c : Thread nD τ).loc cc0_scratch6) slots_disjoint slots_union f₀ f₁
  iintro ⟨⟨%f₀, H0⟩, ⟨%f₁, H1⟩⟩
  iexists ((slotR 1 (by decide)).set.piecewise f₁ f₀)
  iapply (key f₀ f₁)
  isplitl [H0]
  · iexact H0
  · iexact H1

/-- The three scratch arrays are their six slots, -/
theorem scratches_split (c : Dev nD) :
    scratches (F := F) c
      ⊢ iprop(((∃ f, pieceA (F := F) c 0 (by decide) f) ∗ (∃ f, pieceA (F := F) c 1 (by decide) f))
          ∗ ((∃ f, pieceB (F := F) c 0 (by decide) f) ∗ (∃ f, pieceB (F := F) c 1 (by decide) f))
          ∗ ((∃ f, pieceS (F := F) c 0 (by decide) f) ∗ (∃ f, pieceS (F := F) c 1 (by decide) f))) := by
  unfold scratches
  exact BI.sep_mono (scratchA_split c) (BI.sep_mono (scratchB_split c) (scratchS_split c))

/-- and back. -/
theorem scratches_join (c : Dev nD) :
    (iprop(((∃ f, pieceA (F := F) c 0 (by decide) f) ∗ (∃ f, pieceA (F := F) c 1 (by decide) f))
          ∗ ((∃ f, pieceB (F := F) c 0 (by decide) f) ∗ (∃ f, pieceB (F := F) c 1 (by decide) f))
          ∗ ((∃ f, pieceS (F := F) c 0 (by decide) f) ∗ (∃ f, pieceS (F := F) c 1 (by decide) f))) : sProp 𝕄)
      ⊢ scratches (F := F) c := by
  unfold scratches
  exact BI.sep_mono (scratchA_join c) (BI.sep_mono (scratchB_join c) (scratchS_join c))

/-! ## Entry: both slots free at round 0 -/

theorem entry_slots (K : GSem nD τ sig → ℕ) (c : Dev nD) :
    iprop(scratches (F := F) c
      ∗ (bigSep Finset.univ fun s : Fin 2 => iprop(atPos ER (aCell c s.val s.isLt) 0 ∅ 0 ∗ atPos ER (bCell c s.val s.isLt) 0 ∅ 0
          ∗ atPos ER (stCell c s.val s.isLt) 0 ∅ 0))
      ∗ records m K)
      ⊢ iprop(slotFree (F := F) c 0 (by decide) 0 ∗ slotFree (F := F) c 1 (by decide) 0) := by
  rw [bigSep_univ_two]
  unfold slotFree abSome
  iintro ⟨Hscr, ⟨⟨Pa0, Pb0, Ps0⟩, ⟨Pa1, Pb1, Ps1⟩⟩, #Hrec⟩
  ihave Hscr := (scratches_split c) $$ Hscr
  icases Hscr with ⟨⟨A0, A1⟩, ⟨B0, B1⟩, ⟨S0, S1⟩⟩
  ihave #Ra0 := (reached_of_records m K (mem_allCells_dma c (aS 0 (by decide)))) $$ Hrec
  ihave #Rb0 := (reached_of_records m K (mem_allCells_dma c (bS 0 (by decide)))) $$ Hrec
  ihave #Rs0 := (reached_of_records m K (mem_allCells_dma c (stS 0 (by decide)))) $$ Hrec
  ihave #Ra1 := (reached_of_records m K (mem_allCells_dma c (aS 1 (by decide)))) $$ Hrec
  ihave #Rb1 := (reached_of_records m K (mem_allCells_dma c (bS 1 (by decide)))) $$ Hrec
  ihave #Rs1 := (reached_of_records m K (mem_allCells_dma c (stS 1 (by decide)))) $$ Hrec
  isplitl [A0 B0 S0 Pa0 Pb0 Ps0]
  · isplitl [A0 B0]
    · isplitl [A0]
      · iexact A0
      · iexact B0
    isplitl [S0]; · iexact S0
    isplitl [Pa0]; · iexact Pa0
    isplitl [Pb0]; · iexact Pb0
    isplitl [Ps0]; · iexact Ps0
    isplitr; · iexact Ra0
    isplitr; · iexact Rb0
    iexact Rs0
  · isplitl [A1 B1]
    · isplitl [A1]
      · iexact A1
      · iexact B1
    isplitl [S1]; · iexact S1
    isplitl [Pa1]; · iexact Pa1
    isplitl [Pb1]; · iexact Pb1
    isplitl [Ps1]; · iexact Ps1
    isplitr; · iexact Ra1
    isplitr; · iexact Rb1
    iexact Rs1

/-! ## Exit -/

/-- One chunk's share of the regrouping below. -/
theorem exit_regroup_at (c : Dev nD) (k : Nat) (hk : k < 64) :
    iprop(stepPost m c k hk
      ∗ (oHolds (F := F) c c k hk (sumAt m c) ∗ atPos ER (xsCell c k hk) 1 ∅ 0)
      ∗ (oHolds (F := F) c (nbrX c) k hk (sumAt m (nbrX c)) ∗ atPos ER (xrCell c k hk) 1 ∅ 0))
      ⊢ iprop((xHolds m c k hk qL ∗ xHolds m c k hk qR)
          ∗ oHolds (F := F) c c k hk (sumAt m c)
          ∗ oHolds (F := F) c (nbrX c) k hk (sumAt m (nbrX c))
          ∗ (atPos ER (ysCell c k hk) 1 ∅ 0 ∗ atPos ER (yrCell c k hk) 1 ∅ 0
              ∗ atPos ER (xsCell c k hk) 1 ∅ 0 ∗ atPos ER (xrCell c k hk) 1 ∅ 0)) := by
  unfold stepPost
  iintro ⟨⟨XL, XR, Pys, Pyr⟩, ⟨O1, Pxs⟩, ⟨O2, Pxr⟩⟩
  isplitl [XL XR]
  · isplitl [XL]
    · iexact XL
    · iexact XR
  isplitl [O1]; · iexact O1
  isplitl [O2]; · iexact O2
  isplitl [Pys]; · iexact Pys
  isplitl [Pyr]; · iexact Pyr
  isplitl [Pxs]; · iexact Pxs
  iexact Pxr

/-- The per-chunk conjunctions the steps leave, regrouped by what each part is put back into: the argument array's
    half shares, the result array's own and other chunks, and the four per-chunk cells' positions. -/
theorem exit_regroup (c : Dev nD) :
    iprop((bigSep Finset.univ fun k : Fin 64 => stepPost m c k.val k.isLt)
      ∗ (bigSep Finset.univ fun k : Fin 64 => iprop(oHolds (F := F) c c k.val k.isLt (sumAt m c) ∗ atPos ER (xsCell c k.val k.isLt) 1 ∅ 0))
      ∗ (bigSep Finset.univ fun k : Fin 64 => iprop(oHolds (F := F) c (nbrX c) k.val k.isLt (sumAt m (nbrX c)) ∗ atPos ER (xrCell c k.val k.isLt) 1 ∅ 0)))
      ⊢ iprop((bigSep Finset.univ fun k : Fin 64 => iprop(xHolds m c k.val k.isLt qL ∗ xHolds m c k.val k.isLt qR))
          ∗ (bigSep Finset.univ fun k : Fin 64 => oHolds (F := F) c c k.val k.isLt (sumAt m c))
          ∗ (bigSep Finset.univ fun k : Fin 64 => oHolds (F := F) c (nbrX c) k.val k.isLt (sumAt m (nbrX c)))
          ∗ (bigSep Finset.univ fun k : Fin 64 => iprop(atPos ER (ysCell c k.val k.isLt) 1 ∅ 0 ∗ atPos ER (yrCell c k.val k.isLt) 1 ∅ 0
              ∗ atPos ER (xsCell c k.val k.isLt) 1 ∅ 0 ∗ atPos ER (xrCell c k.val k.isLt) 1 ∅ 0))) := by
  rw [← bigSep_sep', ← bigSep_sep', ← bigSep_sep', ← bigSep_sep', ← bigSep_sep']
  exact bigSep_mono fun k _ => exit_regroup_at m c k.val k.isLt

theorem exit_ok (K : GSem nD τ sig → ℕ) (c : Dev nD)
    (hys : ∀ (k : Nat) (hk : k < 64) (r : ℕ), 1 ≤ r → (sched m).duties (ysCell c k hk) r = ∅)
    (hyr : ∀ (k : Nat) (hk : k < 64) (r : ℕ), 1 ≤ r → (sched m).duties (yrCell c k hk) r = ∅)
    (hxs : ∀ (k : Nat) (hk : k < 64) (r : ℕ), 1 ≤ r → (sched m).duties (xsCell c k hk) r = ∅)
    (hxr : ∀ (k : Nat) (hk : k < 64) (r : ℕ), 1 ≤ r → (sched m).duties (xrCell c k hk) r = ∅)
    (ha : ∀ (s : Nat) (hs : s < 2) (r : ℕ), 32 ≤ r → (sched m).duties (aCell c s hs) r = ∅)
    (hb : ∀ (s : Nat) (hs : s < 2) (r : ℕ), 32 ≤ r → (sched m).duties (bCell c s hs) r = ∅)
    (hst : ∀ (s : Nat) (hs : s < 2) (r : ℕ), 32 ≤ r → (sched m).duties (stCell c s hs) r = ∅) :
    iprop(records m K
      ∗ (bigSep Finset.univ fun k : Fin 64 => stepPost m c k.val k.isLt)
      ∗ (bigSep Finset.univ fun k : Fin 64 => iprop(oHolds (F := F) c c k.val k.isLt (sumAt m c) ∗ atPos ER (xsCell c k.val k.isLt) 1 ∅ 0))
      ∗ (bigSep Finset.univ fun k : Fin 64 => iprop(oHolds (F := F) c (nbrX c) k.val k.isLt (sumAt m (nbrX c)) ∗ atPos ER (xrCell c k.val k.isLt) 1 ∅ 0))
      ∗ slotFree (F := F) c 0 (by decide) 32 ∗ slotFree (F := F) c 1 (by decide) 32 ∗ xRest m c)
      ⊢ iprop(|={Set.univ}=> Φ₁ m c) := by
  have hcl := close_all m K c hys hyr hxs hxr ha hb hst
  rw [bigSep_univ_two] at hcl
  unfold Φ₁ slotFree abSome
  iintro ⟨#Hrec, Hpost, Hxs, Hxr, F0, F1, Hrest⟩
  ihave H := (exit_regroup m c) $$ [Hpost Hxs Hxr]
  · isplitl [Hpost]; · iexact Hpost
    isplitl [Hxs]; · iexact Hxs
    iexact Hxr
  icases H with ⟨HX, HO1, HO2, HP⟩
  ihave HA := (x_join m c) $$ [HX Hrest]
  · isplitl [HX]; · iexact HX
    iexact Hrest
  ihave HO := (res_join m c) $$ [HO1 HO2]
  · isplitl [HO1]; · iexact HO1
    iexact HO2
  icases F0 with ⟨⟨A0, B0⟩, S0, Pa0, Pb0, Ps0, -⟩
  icases F1 with ⟨⟨A1, B1⟩, S1, Pa1, Pb1, Ps1, -⟩
  ihave Hscr := (scratches_join c) $$ [A0 A1 B0 B1 S0 S1]
  · isplitl [A0 A1]
    · isplitl [A0]
      · iexact A0
      · iexact A1
    isplitl [B0 B1]
    · isplitl [B0]
      · iexact B0
      · iexact B1
    isplitl [S0]
    · iexact S0
    · iexact S1
  imod hcl $$ [HP Pa0 Pb0 Ps0 Pa1 Pb1 Ps1] with Hz
  · isplitr; · iexact Hrec
    isplitl [HP]; · iexact HP
    isplitl [Pa0 Pb0 Ps0]
    · isplitl [Pa0]; · iexact Pa0
      isplitl [Pb0]; · iexact Pb0
      iexact Ps0
    · isplitl [Pa1]; · iexact Pa1
      isplitl [Pb1]; · iexact Pb1
      iexact Ps1
  imodintro
  isplitl [HA]; · iexact HA
  isplitl [HO]; · iexact HO
  isplitl [Hscr]; · iexact Hscr
  iexact Hz

/-- info: 'Cert.KernelIdeal.Hand.scratchA_split' depends on axioms: [propext, Classical.choice, Quot.sound] -/
#guard_msgs in #print axioms scratchA_split

/-- info: 'Cert.KernelIdeal.Hand.scratchA_join' depends on axioms: [propext, Classical.choice, Quot.sound] -/
#guard_msgs in #print axioms scratchA_join

/-- info: 'Cert.KernelIdeal.Hand.scratchB_split' depends on axioms: [propext, Classical.choice, Quot.sound] -/
#guard_msgs in #print axioms scratchB_split

/-- info: 'Cert.KernelIdeal.Hand.scratchB_join' depends on axioms: [propext, Classical.choice, Quot.sound] -/
#guard_msgs in #print axioms scratchB_join

/-- info: 'Cert.KernelIdeal.Hand.scratchS_split' depends on axioms: [propext, Classical.choice, Quot.sound] -/
#guard_msgs in #print axioms scratchS_split

/-- info: 'Cert.KernelIdeal.Hand.scratchS_join' depends on axioms: [propext, Classical.choice, Quot.sound] -/
#guard_msgs in #print axioms scratchS_join

/-- info: 'Cert.KernelIdeal.Hand.scratches_split' depends on axioms: [propext, Classical.choice, Quot.sound] -/
#guard_msgs in #print axioms scratches_split

/-- info: 'Cert.KernelIdeal.Hand.scratches_join' depends on axioms: [propext, Classical.choice, Quot.sound] -/
#guard_msgs in #print axioms scratches_join

/-- info: 'Cert.KernelIdeal.Hand.entry_slots' depends on axioms: [propext, Classical.choice, Quot.sound] -/
#guard_msgs in #print axioms entry_slots

/-- info: 'Cert.KernelIdeal.Hand.exit_ok' depends on axioms: [propext, Classical.choice, Quot.sound] -/
#guard_msgs in #print axioms exit_ok

end Cert.KernelIdeal.Hand

end
-- ==== Proof.Launch.lean ====
/-
  The launch of the all-reduce: from one obligation about a single device's body to the run of the whole program
  on the four devices.

  At launch every semaphore counter is zero. The ghost state of the protocol is made once for all devices: every
  cell's round state at counter zero, every owner's position at the start of its cell, and one token per duty of
  the schedule. Each device's 262 own DMA semaphores and its barrier semaphore, at zero, are joined with the round
  states into the cells' invariants; the tokens, minted at the cell they pay, are dealt to the device that pays
  them: a barrier duty to the neighbour that signals it, a receive duty to the neighbour that copies into it.
  What every device owes at launch comes back to the owners of the owed cells as launch credit: two units on a
  device's barrier cell, one copy's credit on each of its receive cells.
  The argument and result arrays are not staged: they travel beside the ghost state into the body's entry
  assertion and back out of its exit assertion, where the final memory is read off them.
-/
import proofs.«900147_g7700000000000148_dist_ar_v7x_xy2x2_y_m32768_n1024_f32_1_alg».proof.Proof.State
import proofs.«900147_g7700000000000148_dist_ar_v7x_xy2x2_y_m32768_n1024_f32_1_alg».proof.Proof.Fold
import proofs.«900147_g7700000000000148_dist_ar_v7x_xy2x2_y_m32768_n1024_f32_1_alg».proof.Proof.Gen.KernelIdeal.Launch
import proofs.«900147_g7700000000000148_dist_ar_v7x_xy2x2_y_m32768_n1024_f32_1_alg».proof.Proof.Gen.KernelIdeal.Points
import proofs.«900147_g7700000000000148_dist_ar_v7x_xy2x2_y_m32768_n1024_f32_1_alg».proof.Proof.Gen.KernelIdeal.Frame

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The proof data -/

theorem cfg0_N : cfg0.N = 1 := by decide
/-- The one grid point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- No window is staged; before the one point the entry assertion, after it the exit assertion; at entry the device
    owes everything, at exit nothing. -/
def dats (ρ : Dev nD → PrngReg) (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

variable (ρ : Dev nD → PrngReg)

/-! ## The body obligation from the body lemma -/

/-- The form the body is proved in: from the entry assertion and everything owed, the body laid out by chunk runs to the
    exit assertion and nothing owed. -/
def BodySound : Prop :=
  ∀ (c : Dev nD) (Kt : PUnit → sProp 𝕄),
    iprop(Φ₀ m c ∗ Pipeline.owesWithin c (O₀ c) Set.univ
        ∗ (iprop(Φ₁ m c ∗ Pipeline.owesWithin c (0 : CellTallies nD τ sig Unit) Set.univ) -∗ Kt ⟨⟩))
      ⊢ wp frame (wpE (defs₀ (F := F)) Variants.none c none) Set.univ (folded (F := F)) Kt

set_option maxRecDepth 65536 in
/-- The library's body obligation on device c: the printed body is the body laid out by chunk, there is no staging buffer to
    hand over, and the bound on the recorded waits is everything. -/
theorem body_obligation (hsound : BodySound (F := F) m) (c : Dev nD) :
    BodyObligation (dats (F := F) m ρ 0 c) (defs₀ (F := F)) Variants.none () Set.univ := fun t => by
  rw [fin_N t]
  show iprop(Φ₀ m c ∗ (dats m ρ 0 c).owesAt () t₀.castSucc ∗ emp)
    ⊢ wp frame (wpE (defs₀ (F := F)) Variants.none c none) Set.univ (bodyAt0 (F := F) t₀)
        (fun _ => iprop(Φ₁ m c ∗ (dats m ρ 0 c).owesAt () t₀.succ ∗ emp))
  rw [show bodyAt0 (F := F) t₀ = folded from body_fold]
  iintro ⟨HΦ, Ho, -⟩
  iapply (hsound c _)
  isplitl [HΦ]; · iexact HΦ
  isplitl [Ho]
  · iapply (Pipeline.owesWithin_mono c _ (Set.subset_univ _)); iexact Ho
  · iintro ⟨HΦ1, Ho1⟩
    isplitl [HΦ1]; · iexact HΦ1
    isplitl [Ho1]
    · iapply (Pipeline.owesWithin_mono c _ (Set.subset_union_left)); iexact Ho1
    · iempintro

/-! ## The launch -/

namespace Launch

/-- The kernel's own semaphores: all 262 of the DMA pool. -/
abbrev osem : DmaSem sig → SemLoc sig := fun n => .dma n

theorem ownSemFacts : Pipeline.OwnSemFacts cfg0.spec osem :=
  ⟨by decide +kernel, fun a b h => by injection h, fun k w => w.elim0⟩

theorem share_eq (c : Dev nD) (w : Fin cfg0.W) : (dats m ρ 0 c).share w = fullShare := w.elim0

/-! ### The neighbour maps are involutions -/

theorem Ln.nbrY_nbrY (c : Dev nD) : nbrY (nbrY c) = c := by revert c; decide +kernel
theorem Ln.nbrX_nbrX (c : Dev nD) : nbrX (nbrX c) = c := by revert c; decide +kernel

def Ln.yE : Dev nD ≃ Dev nD := ⟨nbrY, nbrY, Ln.nbrY_nbrY, Ln.nbrY_nbrY⟩
def Ln.xE : Dev nD ≃ Dev nD := ⟨nbrX, nbrX, Ln.nbrX_nbrX, Ln.nbrX_nbrX⟩

/-! ### The semaphores by number -/

namespace Ln

theorem sem64_val (b : Nat) (h : b + S64.numel ≤ 262) (k : Nat) (hk : k < 64) :
    (sem64 (SemArray.consecutive b S64 h) k hk).val = b + k := by
  show b + (S64.rowMajor _).val = b + k
  rw [Shape.rowMajor_val_one, Rect.emb_apply]
  have h0 : ∀ x : Fin 1, b + (k + 1 * x.val) = b + k := fun x => by rw [Fin.val_eq_zero]; rfl
  exact h0 _

theorem sem2_val (b : Nat) (h : b + S2.numel ≤ 262) (s : Nat) (hs : s < 2) :
    (sem2 (SemArray.consecutive b S2 h) s hs).val = b + s := by
  show b + (S2.rowMajor _).val = b + s
  rw [Shape.rowMajor_val_one, Rect.emb_apply]
  have h0 : ∀ x : Fin 1, b + (s + 1 * x.val) = b + s := fun x => by rw [Fin.val_eq_zero]; rfl
  exact h0 _

/-- The four per-chunk semaphores and the three per-slot semaphores, by number. -/
abbrev chunkSem (j : Fin 4) (k : Fin 64) : DmaSem sig :=
  match j with
  | 0 => ysS k.val k.isLt
  | 1 => yrS k.val k.isLt
  | 2 => xsS k.val k.isLt
  | 3 => xrS k.val k.isLt
abbrev slotSem (j : Fin 3) (s : Fin 2) : DmaSem sig :=
  match j with
  | 0 => aS s.val s.isLt
  | 1 => bS s.val s.isLt
  | 2 => stS s.val s.isLt

theorem chunkSem_val : ∀ (j : Fin 4) (k : Fin 64), (chunkSem j k).val = 64 * j.val + k.val
  | 0, k => (sem64_val 0 hcc0_scratch0 k.val k.isLt)
  | 1, k => (sem64_val 64 hcc0_scratch1 k.val k.isLt)
  | 2, k => (sem64_val 128 hcc0_scratch2 k.val k.isLt)
  | 3, k => (sem64_val 192 hcc0_scratch3 k.val k.isLt)
theorem slotSem_val : ∀ (j : Fin 3) (s : Fin 2), (slotSem j s).val = 256 + 2 * j.val + s.val
  | 0, s => (sem2_val 256 hcc0_scratch7 s.val s.isLt)
  | 1, s => (sem2_val 258 hcc0_scratch8 s.val s.isLt)
  | 2, s => (sem2_val 260 hcc0_scratch9 s.val s.isLt)

/-- A semaphore's number: 0 for a regular semaphore, 1 + n for DMA semaphore n. -/
def semNum : SemLoc sig → ℕ
  | .reg _ => 0
  | .dma n => 1 + n.val

end Ln

open Ln

/-! ### The duty tokens, as minted: each at the cell it pays -/

/-- A device's own cells' duties: the barrier's two, one for each per-chunk cell, 32 for each per-slot cell. -/
abbrev TokIdx : Type := Bool ⊕ (Fin 64 × Fin 4) ⊕ ((Fin 2 × Fin 32) × Fin 3)

abbrev tokSem : TokIdx → SemLoc sig
  | .inl _ => .reg barS
  | .inr (.inl (k, j)) => .dma (chunkSem j k)
  | .inr (.inr ((s, _), j)) => .dma (slotSem j s)
abbrev tokRd : TokIdx → ℕ
  | .inr (.inr ((_, r), _)) => r.val
  | _ => 0
abbrev tokDuty : TokIdx → Bool
  | .inl b => b
  | _ => false

abbrev tokOf (ci : Dev nD × TokIdx) : GSem nD τ sig × ℕ × Bool :=
  (((ci.1 : Thread nD τ), tokSem ci.2), tokRd ci.2, tokDuty ci.2)

theorem tokIdx_injective : ∀ i i' : TokIdx, semNum (tokSem i) = semNum (tokSem i') → tokRd i = tokRd i' → tokDuty i = tokDuty i' → i = i'
  | .inl b, .inl b', _, _, hd => congrArg Sum.inl hd
  | .inl b, .inr (.inl (k, j)), hn, _, _ => absurd hn (by show (0 : ℕ) ≠ 1 + _; omega)
  | .inl b, .inr (.inr ((s, r), j)), hn, _, _ => absurd hn (by show (0 : ℕ) ≠ 1 + _; omega)
  | .inr (.inl (k, j)), .inl b, hn, _, _ => absurd hn (by show 1 + _ ≠ (0 : ℕ); omega)
  | .inr (.inr ((s, r), j)), .inl b, hn, _, _ => absurd hn (by show 1 + _ ≠ (0 : ℕ); omega)
  | .inr (.inl (k, j)), .inr (.inl (k', j')), hn, _, _ => by
    have h : 1 + (chunkSem j k).val = 1 + (chunkSem j' k').val := hn
    rw [chunkSem_val, chunkSem_val] at h
    have hj : j = j' := Fin.ext (by have := k.isLt; have := k'.isLt; omega)
    have hk : k = k' := Fin.ext (by have := k.isLt; have := k'.isLt; subst hj; omega)
    rw [hj, hk]
  | .inr (.inl (k, j)), .inr (.inr ((s, r), j')), hn, _, _ => by
    have h : 1 + (chunkSem j k).val = 1 + (slotSem j' s).val := hn
    rw [chunkSem_val, slotSem_val] at h
    exact absurd h (by have := k.isLt; have := j.isLt; omega)
  | .inr (.inr ((s, r), j')), .inr (.inl (k, j)), hn, _, _ => by
    have h : 1 + (slotSem j' s).val = 1 + (chunkSem j k).val := hn
    rw [chunkSem_val, slotSem_val] at h
    exact absurd h (by have := k.isLt; have := j.isLt; omega)
  | .inr (.inr ((s, r), j)), .inr (.inr ((s', r'), j')), hn, hr, _ => by
    have h : 1 + (slotSem j s).val = 1 + (slotSem j' s').val := hn
    rw [slotSem_val, slotSem_val] at h
    have hj : j = j' := Fin.ext (by have := s.isLt; have := s'.isLt; omega)
    have hs : s = s' := Fin.ext (by have := s.isLt; have := s'.isLt; subst hj; omega)
    have hr' : r = r' := Fin.ext hr
    rw [hj, hs, hr']

theorem tokOf_injective : Function.Injective (tokOf : Dev nD × TokIdx → GSem nD τ sig × ℕ × Bool) := by
  rintro ⟨c, i⟩ ⟨c', i'⟩ h
  have h1 : c = c' := congrArg (fun x : GSem nD τ sig × ℕ × Bool => x.1.1.1) h
  subst h1
  have h2 : i = i' := tokIdx_injective i i' (congrArg (fun x : GSem nD τ sig × ℕ × Bool => semNum x.1.2) h)
    (congrArg (fun x : GSem nD τ sig × ℕ × Bool => x.2.1) h) (congrArg (fun x : GSem nD τ sig × ℕ × Bool => x.2.2) h)
  rw [h2]

def allToks : Finset (GSem nD τ sig × ℕ × Bool) := Finset.univ.map ⟨tokOf, tokOf_injective⟩

/-- The launch element: the pipeline library's (no staging cell, no token) beside the protocol's. -/
def u₀ : UU :=
  (initOf (Pipeline.cells cfgs cellOf_inj) (Pipeline.launchToks cfgs cellOf_inj), initOf allCells allToks)

/-- The duty tokens of device c's own cells, as the launch element holds them; -/
def toks (c : Dev nD) : sProp 𝕄 :=
  bigSep Finset.univ fun i : TokIdx => dutyTok ER ((c : Thread nD τ), tokSem i) (tokRd i) (tokDuty i)

/-- and cell by cell. -/
def ownToks (c : Dev nD) : sProp 𝕄 :=
  iprop((dutyTok ER (barCell c) 0 false ∗ dutyTok ER (barCell c) 0 true)
    ∗ (bigSep Finset.univ fun k : Fin 64 => iprop(
        dutyTok ER (ysCell c k.val k.isLt) 0 false ∗ dutyTok ER (yrCell c k.val k.isLt) 0 false
        ∗ dutyTok ER (xsCell c k.val k.isLt) 0 false ∗ dutyTok ER (xrCell c k.val k.isLt) 0 false))
    ∗ (bigSep Finset.univ fun sr : Fin 2 × Fin 32 => iprop(
        dutyTok ER (aCell c sr.1.val sr.1.isLt) sr.2.val false ∗ dutyTok ER (bCell c sr.1.val sr.1.isLt) sr.2.val false
        ∗ dutyTok ER (stCell c sr.1.val sr.1.isLt) sr.2.val false)))

omit [FloatOps F] in
theorem Ln.bigSep_bool (Φ : Bool → sProp 𝕄) : bigSep Finset.univ Φ = iprop(Φ false ∗ Φ true) :=
  bigSep_univ_eq_bigSepL [false, true] (by decide) (by decide) Φ
omit [FloatOps F] in
theorem Ln.bigSep_fin3' (Φ : Fin 3 → sProp 𝕄) : bigSep Finset.univ Φ = iprop(Φ 0 ∗ Φ 1 ∗ Φ 2) :=
  bigSep_univ_eq_bigSepL [0, 1, 2] (by decide) (by decide) Φ
omit [FloatOps F] in
theorem Ln.bigSep_fin4' (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem toks_eq (c : Dev nD) : (toks c : sProp 𝕄) = ownToks c := by
  unfold toks ownToks
  rw [bigSep_univ_sum, bigSep_univ_sum, Ln.bigSep_bool, bigSep_univ_prod, bigSep_univ_prod]
  refine congrArg₂ _ rfl (congrArg₂ _ ?_ ?_)
  · exact bigSep_congr fun k _ => by rw [Ln.bigSep_fin4']
  · exact bigSep_congr fun sr _ => by rw [Ln.bigSep_fin3']

/-- Every payload of the schedule is made of points-to assertions: it can be put in an invariant. -/
instance Ln.payload_storable (g : GSem nD τ sig) (r : ℕ) (d : Bool) :
    BI.Storable (upEmb : UEmb _ 𝕄) ((sched (F := F) m).payload g r d) := by
  show BI.Storable upEmb (payloadOf m g.1.1 (roleOf g.2) r d)
  unfold payloadOf barPay oSome oHolds xHolds slotHoldsA slotHoldsB slotSomeS
  (repeat' split) <;> infer_instance

/-- What the launch element deals device c. -/
def G (c : Dev nD) : sProp 𝕄 :=
  iprop((bigSep Finset.univ fun j : Option (DmaSem sig) => roundState ER (sched m) (kcell (c, j)) 0)
    ∗ (bigSep Finset.univ fun j : Option (DmaSem sig) => iprop(atPos ER (kcell (c, j)) 0 ∅ 0 ∗ reached ER (kcell (c, j)) 0))
    ∗ toks c)

/-- What the global step makes of it. -/
def G' (c : Dev nD) : sProp 𝕄 := iprop((∃ K, records m K) ∗ positions c ∗ payToks c)

omit [FloatOps F] in
/-- All cells, device by device. -/
theorem cells_eq (Φ : GSem nD τ sig → sProp 𝕄) :
    bigSep allCells Φ = bigSep Finset.univ fun c : Dev nD => bigSep Finset.univ fun j : Option (DmaSem sig) => Φ (kcell (c, j)) := by
  unfold allCells; rw [bigSep_map, bigSep_univ_prod]; rfl

omit [FloatOps F] in
theorem toks_all_eq : bigSep allToks (fun x => (dutyTok ER x.1 x.2.1 x.2.2 : sProp 𝕄)) = bigSep Finset.univ fun c : Dev nD => toks c := by
  unfold allToks; rw [bigSep_map, bigSep_univ_prod]; rfl

theorem fund_all : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst' := (Entails.of_eq (cells_eq fun g => roundState ER (sched m) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq toks_all_eq) $$ Htok
  unfold G; simp only [bigSep_sep']
  isplitl [Hst']; · iexact Hst'
  isplitl [Hat' Hr']
  · isplitl [Hat'] <;> iassumption
  iexact Htok'

omit [FloatOps F] in
/-- A device's cells: the barrier cell and the DMA cells. -/
theorem Ln.bigSep_univ_option {α : Type} [Fintype α] [DecidableEq α] (Φ : Option α → sProp 𝕄) :
    bigSep Finset.univ Φ = iprop(Φ none ∗ bigSep Finset.univ fun a => Φ (some a)) := by
  rw [bigSep_univ_at Φ none]
  have h : (Finset.univ.erase (none : Option α)) = Finset.univ.map Function.Embedding.some := by
    ext x; cases x <;> simp
  rw [h, bigSep_map]; rfl

omit [FloatOps F] in
/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Option (DmaSem sig) => semVal (kcell (c, j)) 0 : sProp 𝕄) := by
  rw [unscopedSems0_eq, Ln.bigSep_univ_option]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Option (DmaSem sig) => iprop(∃ κ : ℕ, cellInv ER (sched m) κ (kcell (c, j))))
          ∗ (bigSep Finset.univ fun j : Option (DmaSem sig) => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Option (DmaSem sig) => semVal (kcell (c, j)) 0) ∗ bigSep Finset.univ fun j : Option (DmaSem sig) => roundState ER (sched m) (kcell (c, j)) 0)
      ⊢ (|={Set.univ}=> bigSep Finset.univ fun j : Option (DmaSem sig) => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem Ln.bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- The tokens dealt to the devices that pay them: a barrier's first duty and a y-receive duty to the y-neighbour, a barrier's
    second duty and an x-receive duty to the x-neighbour; the send and local duties stay. -/
theorem toks_around : (bigSep Finset.univ fun c : Dev nD => (ownToks c : sProp 𝕄)) ⊢ bigSep Finset.univ fun c : Dev nD => payToks c := by
  unfold ownToks payToks
  simp only [bigSep_sep']
  iintro ⟨⟨H0, H1⟩, ⟨HA, HB, HC, HD⟩, HL⟩
  ihave H0' := (Entails.of_eq (bigSep_univ_equiv Ln.yE (fun c : Dev nD => (dutyTok ER (barCell c) 0 false : sProp 𝕄)))) $$ H0
  ihave H1' := (Entails.of_eq (bigSep_univ_equiv Ln.xE (fun c : Dev nD => (dutyTok ER (barCell c) 0 true : sProp 𝕄)))) $$ H1
  ihave HB' := (Entails.of_eq (bigSep_univ_equiv Ln.yE (fun c : Dev nD => bigSep Finset.univ fun k : Fin 64 => (dutyTok ER (yrCell c k.val k.isLt) 0 false : sProp 𝕄)))) $$ HB
  ihave HD' := (Entails.of_eq (bigSep_univ_equiv Ln.xE (fun c : Dev nD => bigSep Finset.univ fun k : Fin 64 => (dutyTok ER (xrCell c k.val k.isLt) 0 false : sProp 𝕄)))) $$ HD
  isplitl [H0']; · iexact H0'
  isplitl [H1']; · iexact H1'
  isplitr [HL]
  · isplitl [HA]; · iexact HA
    isplitl [HB']; · iexact HB'
    isplitl [HC]; · iexact HC
    iexact HD'
  iexact HL

omit [FloatOps F] in
theorem positions_eq (c : Dev nD) :
    (bigSep Finset.univ fun j : Option (DmaSem sig) => (atPos ER (kcell (c, j)) 0 ∅ 0 : sProp 𝕄)) = positions c := by
  unfold positions; rw [Ln.bigSep_univ_option]

theorem regroup :
    (bigSep Finset.univ fun c : Dev nD => iprop((bigSep Finset.univ fun j : Option (DmaSem sig) => iprop(∃ κ : ℕ, cellInv ER (sched m) κ (kcell (c, j))))
          ∗ (bigSep Finset.univ fun j : Option (DmaSem sig) => iprop(atPos ER (kcell (c, j)) 0 ∅ 0 ∗ reached ER (kcell (c, j)) 0)) ∗ toks c) : sProp 𝕄)
      ⊢ bigSep Finset.univ (G' m) := by
  refine (bigSep_mono (Ψ := fun c : Dev nD => iprop((bigSep Finset.univ fun j : Option (DmaSem sig) => iprop(∃ κ : ℕ, cellInv ER (sched m) κ (kcell (c, j))))
      ∗ (positions c ∗ bigSep Finset.univ fun j : Option (DmaSem sig) => reached ER (kcell (c, j)) 0) ∗ ownToks c)) fun c _ => ?_).trans (show _ ⊢ (_ : sProp 𝕄) from ?_)
  · rw [bigSep_sep', positions_eq, toks_eq]; exact BI.Entails.refl _
  simp only [bigSep_sep']
  rw [← cells_eq (fun g => iprop(∃ κ : ℕ, cellInv ER (sched m) κ g)), ← cells_eq (fun g => (reached ER g 0 : sProp 𝕄))]
  iintro ⟨HI, ⟨Hat, #HR⟩, Htok⟩
  ihave HK := (BI.bigSep_exists_pi allCells (fun (g : GSem nD τ sig) (κ : ℕ) => (cellInv ER (sched m) κ g : sProp 𝕄))) $$ HI
  icases HK with ⟨%K, #HI⟩
  ihave Htk := (toks_around (F := F)) $$ Htok
  iapply (Ln.bigSep_with_persistent (R := records m K) (Φ := fun c : Dev nD => iprop(positions c ∗ payToks c)) fun c _ => by
    unfold G'
    iintro ⟨#HRc, Hp, Ht⟩
    isplitr
    · iexists K; iexact HRc
    isplitl [Hp]; · iexact Hp
    iexact Ht)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
/-- What the devices owe the x-receive cells comes back to each as its own cells' credit; likewise the y-receive cells. -/
theorem credX (c : Dev nD) :
    (Pipeline.launchCred (fun d => owedX d 0) c : sProp 𝕄) ⊢ bigSep Finset.univ fun k : Fin 64 => cred (tallyAt (xrCell c k.val k.isLt) () No) := by
  have h : (fun d : Dev nD => owedX d 0) = fun d => ∑ k ∈ (Finset.univ : Finset (Fin 64)), tallyAt (((nbrX d).tc : Thread nD τ), SemLoc.dma (xrS k.val k.isLt)) () No :=
    funext fun d => Finset.sum_congr rfl fun k _ => if_pos (Nat.zero_le _)
  rw [h, Pipeline.launchCred_sum Finset.univ (fun (k : Fin 64) (d : Dev nD) => tallyAt (((nbrX d).tc : Thread nD τ), SemLoc.dma (xrS k.val k.isLt)) () No) c]
  exact bigSep_mono fun k _ => Pipeline.launchCred_tallyAt (SemLoc.dma (xrS k.val k.isLt)) nbrX nbrX Ln.nbrX_nbrX Ln.nbrX_nbrX () No c

omit [FloatOps F] in
theorem credY (c : Dev nD) :
    (Pipeline.launchCred (fun d => owedY d 0) c : sProp 𝕄) ⊢ bigSep Finset.univ fun k : Fin 64 => cred (tallyAt (yrCell c k.val k.isLt) () No) := by
  have h : (fun d : Dev nD => owedY d 0) = fun d => ∑ k ∈ (Finset.univ : Finset (Fin 64)), tallyAt (((nbrY d).tc : Thread nD τ), SemLoc.dma (yrS k.val k.isLt)) () No :=
    funext fun d => Finset.sum_congr rfl fun k _ => if_pos (Nat.zero_le _)
  rw [h, Pipeline.launchCred_sum Finset.univ (fun (k : Fin 64) (d : Dev nD) => tallyAt (((nbrY d).tc : Thread nD τ), SemLoc.dma (yrS k.val k.isLt)) () No) c]
  exact bigSep_mono fun k _ => Pipeline.launchCred_tallyAt (SemLoc.dma (yrS k.val k.isLt)) nbrY nbrY Ln.nbrY_nbrY Ln.nbrY_nbrY () No c

omit [FloatOps F] in
/-- A device's launch credit: two units on its barrier cell, a copy's credit on each receive cell. -/
theorem creds (c : Dev nD) : (Pipeline.launchCred O₀ c : sProp 𝕄) ⊢ launchCreds c := by
  have h : (O₀ : Dev nD → CellTallies nD τ sig Unit)
      = fun d => ((fun d => owedX d 0 + owedY d 0) d + tallyAt (barCell (nbrX d)) () 1) + tallyAt (barCell (nbrY d)) () 1 := rfl
  rw [h, Pipeline.launchCred_add (fun d => (fun d => owedX d 0 + owedY d 0) d + tallyAt (barCell (nbrX d)) () 1) (fun d => tallyAt (barCell (nbrY d)) () 1) c,
    Pipeline.launchCred_add (fun d => owedX d 0 + owedY d 0) (fun d => tallyAt (barCell (nbrX d)) () 1) c,
    Pipeline.launchCred_add (fun d => owedX d 0) (fun d => owedY d 0) c]
  unfold launchCreds
  iintro ⟨⟨⟨HX, HY⟩, HbX⟩, HbY⟩
  ihave HX' := (credX (F := F) c) $$ HX
  ihave HY' := (credY (F := F) c) $$ HY
  ihave HbX' := (Pipeline.launchCred_tallyAt (SemLoc.reg barS) nbrX nbrX Ln.nbrX_nbrX Ln.nbrX_nbrX () 1 c) $$ HbX
  ihave HbY' := (Pipeline.launchCred_tallyAt (SemLoc.reg barS) nbrY nbrY Ln.nbrY_nbrY Ln.nbrY_nbrY () 1 c) $$ HbY
  isplitl [HbX' HbY']
  · rw [← tallyAt_add (barCell c) () 1 1]
    iapply (cred_add _ _).2
    isplitl [HbX'] <;> iassumption
  · iapply (Entails.of_eq (bigSep_sep' Finset.univ (fun k : Fin 64 => (cred (tallyAt (yrCell c k.val k.isLt) () No) : sProp 𝕄))
      (fun k : Fin 64 => cred (tallyAt (xrCell c k.val k.isLt) () No))).symm)
    isplitl [HY'] <;> iassumption

/-! ### The theorem's side conditions -/

/-- What the body's entry takes from the launch: the ghost state and the two arrays as launched. -/
def X (c : Dev nD) : sProp 𝕄 :=
  iprop(start m c ∗ whole c main_arg0 (xs m c) ∗ whole c main_v1 (m ((c : Thread nD τ).loc main_v1)))
/-- What the body's exit hands back: the argument array unchanged, the result array all-reduced. -/
def Y (c : Dev nD) : sProp 𝕄 := iprop(whole c main_arg0 (xs m c) ∗ whole c main_v1 (resBuf m c))

theorem start_intro (c : Dev nD) :
    iprop(Pipeline.unscopedRestP Pipeline.Prefetch.none cfg0.spec c (fun b => m ((c : Thread nD τ).loc b)) ∗ levAts Lset lv
        ∗ Pipeline.launchCred O₀ c ∗ prngReg c (ρ c) ∗ G' m c)
      ⊢ |={Set.univ}=> iprop(X m c ∗ emp) := by
  rw [Pipeline.unscopedRestP_none, unscopedRest0_eq]
  unfold G'
  iintro ⟨⟨Hx, Ho⟩, Hlev, Hcr, -, ⟨HK, Hpos, Hpay⟩⟩
  ihave Hc := (creds (F := F) c) $$ Hcr
  imodintro
  unfold X start
  isplitl
  · isplitr [Hx Ho]
    · isplitl [HK]; · iexact HK
      isplitl [Hpos]; · iexact Hpos
      isplitl [Hpay]; · iexact Hpay
      isplitl [Hc]; · iexact Hc
      iexact Hlev
    · isplitl [Hx] <;> iassumption
  · iempintro

theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ X scratches
  iintro ⟨⟨Hs, Hx, Ho⟩, -, Hscr⟩
  isplitl [Hs]; · iexact Hs
  isplitl [Hx]; · iexact Hx
  isplitl [Ho]
  · iexists _; iexact Ho
  iexact Hscr

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq]
  unfold Φ₁ Y scratches
  iintro ⟨Hx, Ho, Hscr, Hz⟩
  isplitl [Hx Ho]
  · isplitl [Hx] <;> iassumption
  isplitl [Hz]
  · unfold ownZeros Pipeline.ownSems0; iexact Hz
  iexact Hscr

theorem waits (c : Dev nD) : (levAts Lset lv : sProp 𝕄) ⊢ Pipeline.cellsWaits cfgs (dats m ρ) () 0 c :=
  Pipeline.cellsWaits_intro cfgs (dats m ρ) () 0 c fun w s t => w.elim0

end Launch

open Launch Launch.Ln

/-! ### The run -/

set_option maxRecDepth 65536 in
/-- At the compiled mesh of four devices, for any float values, from any memory with zero counters: every weakly fair
    execution of @main terminates, and every final state has each device's result array at the all-reduced contents and
    its argument array unchanged. -/
theorem run_main (hbody : ∀ c, BodyObligation (dats (F := F) m ρ 0 c) (defs₀ (F := F)) Variants.none () Set.univ) :
    θ_run defs (onTc (τ := τ) (main (F := F))) ⟨m, fun _ => 0, ρ⟩
      (fun r => ∀ c : Dev nD, r.2.mem ((c.tc : Thread nD τ).loc main_v1) = resBuf m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := hbody) (hne := fun w => w.elim0) (harr := arr_whole0) (hstage := stage_whole0) (hshare := share_eq m ρ)
    (hdistinct := winFacts0.arr_inj)
    (O₀ := O₀) (howed₀ := fun _ => rfl) (howedN := fun _ => rfl)
    (L := Lset) (lv := lv) (hL := fun g h => if_neg h) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m ρ) (hout := phi1_exit m ρ)
    (QY := fun c s => s.mem ((c : Thread nD τ).loc main_v1) = resBuf m c
      ∧ s.mem ((c : Thread nD τ).loc main_arg0) = m ((c : Thread nD τ).loc main_arg0))
    (hY := fun c s' => by
      unfold Y
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.KernelIdeal.Hand.body_obligation' depends on axioms: [propext, Classical.choice, Quot.sound] -/
#guard_msgs in #print axioms body_obligation

/-- info: 'Cert.KernelIdeal.Hand.run_main' depends on axioms: [propext, Classical.choice, Quot.sound] -/
#guard_msgs in #print axioms run_main

end Cert.KernelIdeal.Hand

end
-- ==== Proof.MainLoop.lean ====
/-
  The 64 steps of the protocol and the two closing waits, from the rules of a step's two halves.

  Slot p (p = 0, 1) of the three scratch arrays serves the chunks of parity p in turn: chunk 2 r + p is its r-th.
  Before step k a slot that has not served a chunk yet is free at round 0; otherwise it is busy with the last chunk
  of its parity below k.  So the state of slot p is a function of the NUMBER n of chunks of parity p below k
  (n = (k + 1) / 2 for p = 0, n = k / 2 for p = 1): free at round 0 for n = 0, busy with chunk 2 (n - 1) + p, its
  (n - 1)-th, for n > 0.  Step k works on the slot of its own parity, which has served k / 2 chunks, and serves it
  one more; the number of the other slot's chunks below k and below k + 1 is the same, so that slot is carried
  around the step unchanged.

  From the third step on, a step first waits for the store-back and the copy to the x-neighbour of the chunk two
  before it (which frees its slot, a round further, and hands over that chunk's result rows at the sum and its x-send
  cell consumed), then runs the chunk's own operations.  The result rows of chunks 0 .. 61 are thus handed over by
  steps 2 .. 63, those of chunks 62 and 63 by the two closing waits: all 64 in the end.
-/
import proofs.«900147_g7700000000000148_dist_ar_v7x_xy2x2_y_m32768_n1024_f32_1_alg».proof.Proof.StepDefs
import proofs.«900147_g7700000000000148_dist_ar_v7x_xy2x2_y_m32768_n1024_f32_1_alg».proof.Proof.LibChain

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The rules of a step's two halves, as statements -/

/-- The two waits for chunk j: its busy slot comes back free, a round further, with the chunk's result rows at the sum
    and its x-send cell consumed. -/
abbrev WaitsRule : Prop :=
  ∀ (K : GSem nD τ sig → ℕ) (c : Dev nD) (j : Nat) (hj : j < 64) (i : Nat),
    iprop(records m K ∗ levAts Lset lv ∗ slotBusy (F := F) c (j % 2) (slot_lt j) (j / 2) j hj ∗ owesX (F := F) c i)
      ⊢ wp frame (wpE (defs₀ (F := F)) 𝒱₀ c none) Set.univ (waitsFor c j hj)
          (fun _ => iprop(slotFree (F := F) c (j % 2) (slot_lt j) (j / 2 + 1) ∗ oHolds c c j hj (sumAt m c)
            ∗ atPos ER (xsCell c j hj) 1 ∅ 0 ∗ owesX (F := F) c i))

/-- Chunk k's own operations: its free slot becomes busy with it, one x-copy fewer is owed. -/
abbrev CoreRule : Prop :=
  ∀ (K : GSem nD τ sig → ℕ) (c : Dev nD) (k : Nat) (hk : k < 64),
    iprop(records m K ∗ levAts Lset lv ∗ stepPre m c k hk ∗ slotFree (F := F) c (k % 2) (slot_lt k) (k / 2) ∗ owesX (F := F) c k)
      ⊢ wp frame (wpE (defs₀ (F := F)) 𝒱₀ c none) Set.univ (core c k hk)
          (fun _ => iprop(stepPost m c k hk ∗ slotBusy (F := F) c (k % 2) (slot_lt k) (k / 2) k hk ∗ owesX (F := F) c (k + 1)))

/-! ## Equal indices give equal assertions -/

theorem slotFree_congr (c : Dev nD) {s s' : Nat} {hs : s < 2} {hs' : s' < 2} {r r' : ℕ} (h1 : s = s') (h2 : r = r') :
    slotFree (F := F) c s hs r = slotFree (F := F) c s' hs' r' := by subst h1; subst h2; rfl

theorem slotBusy_congr (c : Dev nD) {s s' : Nat} {hs : s < 2} {hs' : s' < 2} {r r' : ℕ} {j j' : Nat} {hj : j < 64} {hj' : j' < 64}
    (h1 : s = s') (h2 : r = r') (h3 : j = j') :
    slotBusy (F := F) c s hs r j hj = slotBusy (F := F) c s' hs' r' j' hj' := by subst h1; subst h2; subst h3; rfl

/-- What the two waits for chunk j hand over beside the slot: the chunk's result rows at the sum formed here, and the
    chunk's x-send cell consumed. -/
def chunkDone (c : Dev nD) (j : Nat) (hj : j < 64) : sProp 𝕄 :=
  iprop(oHolds c c j hj (sumAt m c) ∗ atPos ER (xsCell c j hj) 1 ∅ 0)

theorem chunkDone_congr (c : Dev nD) {j j' : Nat} {hj : j < 64} {hj' : j' < 64} (h : j = j') :
    chunkDone m c j hj = chunkDone m c j' hj' := by subst h; rfl

/-! ## The state of a slot that has served n chunks -/

/-- Slot p after n of its chunks: free at round 0 if none, else busy with chunk 2 (n - 1) + p, its (n - 1)-th. -/
def slotAt (c : Dev nD) (p : Nat) (hp : p < 2) (n : ℕ) : sProp 𝕄 :=
  if n = 0 then slotFree (F := F) c p hp 0
  else if h : 2 * (n - 1) + p < 64 then slotBusy (F := F) c p hp (n - 1) (2 * (n - 1) + p) h else iprop(emp)

theorem slotAt_congr (c : Dev nD) {s s' : Nat} {hs : s < 2} {hs' : s' < 2} {n n' : ℕ} (h1 : s = s') (h2 : n = n') :
    slotAt (F := F) c s hs n = slotAt (F := F) c s' hs' n' := by subst h1; subst h2; rfl

theorem slotAt_zero (c : Dev nD) (p : Nat) (hp : p < 2) : slotAt (F := F) c p hp 0 = slotFree (F := F) c p hp 0 := if_pos rfl

/-- Before its first chunk (k < 2) the slot of chunk k is free, at the round the chunk's operations expect. -/
theorem slotAt_free (c : Dev nD) (k : Nat) (hk2 : k < 2) :
    slotAt (F := F) c (k % 2) (slot_lt k) (k / 2) = slotFree (F := F) c (k % 2) (slot_lt k) (k / 2) := by
  have h0 : k / 2 = 0 := by omega
  calc slotAt (F := F) c (k % 2) (slot_lt k) (k / 2)
      = slotAt (F := F) c (k % 2) (slot_lt k) 0 := slotAt_congr c rfl h0
    _ = slotFree (F := F) c (k % 2) (slot_lt k) 0 := slotAt_zero c _ _
    _ = slotFree (F := F) c (k % 2) (slot_lt k) (k / 2) := slotFree_congr c rfl h0.symm

/-- After chunk k's operations its slot, having served one chunk more, is busy with k. -/
theorem slotAt_busy (c : Dev nD) (k : Nat) (hk : k < 64) :
    slotAt (F := F) c (k % 2) (slot_lt k) (k / 2 + 1) = slotBusy (F := F) c (k % 2) (slot_lt k) (k / 2) k hk := by
  unfold slotAt
  rw [if_neg (Nat.succ_ne_zero _), dif_pos (show 2 * (k / 2 + 1 - 1) + k % 2 < 64 by omega)]
  exact slotBusy_congr c rfl (by omega) (by omega)

/-- What step k hands over beside its own products: chunk k - 2's result rows, from the third step on. -/
def emitted (c : Dev nD) (k : Nat) (hk : k < 64) : sProp 𝕄 :=
  if h : 2 ≤ k then chunkDone m c (k - 2) (by omega) else iprop(emp)

/-! ## One step -/

/-- Step k on the slot of its own parity: the slot has served k / 2 chunks and serves one more. -/
theorem step_rule (hwaits : WaitsRule (F := F) m) (hcore : CoreRule (F := F) m)
    (K : GSem nD τ sig → ℕ) (c : Dev nD) (k : Nat) (hk : k < 64) :
    iprop(records m K ∗ levAts Lset lv ∗ stepPre m c k hk ∗ slotAt (F := F) c (k % 2) (slot_lt k) (k / 2) ∗ owesX (F := F) c k)
      ⊢ wp frame (wpE (defs₀ (F := F)) 𝒱₀ c none) Set.univ (step c k hk)
          (fun _ => iprop(stepPost m c k hk ∗ emitted m c k hk ∗ slotAt (F := F) c (k % 2) (slot_lt k) (k / 2 + 1)
            ∗ owesX (F := F) c (k + 1))) := by
  rw [slotAt_busy c k hk]
  by_cases h : 2 ≤ k
  · -- the slot is busy with chunk k - 2: its two waits first, then the chunk's own operations
    have hj : k - 2 < 64 := by omega
    have e1 : slotAt (F := F) c (k % 2) (slot_lt k) (k / 2)
        = slotBusy (F := F) c ((k - 2) % 2) (slot_lt (k - 2)) ((k - 2) / 2) (k - 2) hj := by
      rw [← slotAt_busy c (k - 2) hj]; exact slotAt_congr c (by omega) (by omega)
    have e2 : slotFree (F := F) c ((k - 2) % 2) (slot_lt (k - 2)) ((k - 2) / 2 + 1)
        = slotFree (F := F) c (k % 2) (slot_lt k) (k / 2) := slotFree_congr c (by omega) (by omega)
    have e3 : emitted m c k hk = chunkDone m c (k - 2) hj := dif_pos h
    have e4 : step (F := F) c k hk = (waitsFor c (k - 2) hj >>= fun _ => core c k hk) := dif_pos h
    have hw := hwaits K c (k - 2) hj k
    rw [e2] at hw
    rw [e1, e3, e4, wp_bind]
    unfold chunkDone
    iintro ⟨#HR, #HL, HP, HB, HO⟩
    iapply (wp_wand_r frame _ Set.univ)
    isplitl [HB HO]
    · iapply hw
      isplitr; · iexact HR
      isplitr; · iexact HL
      isplitl [HB]; · iexact HB
      iexact HO
    · iintro %_ ⟨HF, HD1, HD2, HO⟩
      iapply (wp_wand_r frame _ Set.univ)
      isplitl [HP HF HO]
      · iapply (hcore K c k hk)
        isplitr; · iexact HR
        isplitr; · iexact HL
        isplitl [HP]; · iexact HP
        isplitl [HF]; · iexact HF
        iexact HO
      · iintro %_ ⟨HQ, HB, HO⟩
        isplitl [HQ]; · iexact HQ
        isplitl [HD1 HD2]
        · isplitl [HD1]; · iexact HD1
          iexact HD2
        isplitl [HB]; · iexact HB
        iexact HO
  · -- the first chunk of its parity: the slot is free
    have hk2 : k < 2 := by omega
    have e3 : emitted m c k hk = iprop(emp) := dif_neg h
    have e4 : step (F := F) c k hk = core c k hk := dif_neg h
    rw [slotAt_free c k hk2, e3, e4]
    iintro ⟨#HR, #HL, HP, HF, HO⟩
    iapply (wp_wand_r frame _ Set.univ)
    isplitl [HP HF HO]
    · iapply (hcore K c k hk)
      isplitr; · iexact HR
      isplitr; · iexact HL
      isplitl [HP]; · iexact HP
      isplitl [HF]; · iexact HF
      iexact HO
    · iintro %_ ⟨HQ, HB, HO⟩
      isplitl [HQ]; · iexact HQ
      isplitr; · iempintro
      isplitl [HB]; · iexact HB
      iexact HO

/-! ## The state threaded through the steps -/

/-- Before step k: slot 0 has served (k + 1) / 2 chunks, slot 1 has served k / 2; the x-copies from chunk k on are owed. -/
def loopSt (K : GSem nD τ sig → ℕ) (c : Dev nD) (k : ℕ) : sProp 𝕄 :=
  iprop(records m K ∗ levAts Lset lv ∗ slotAt (F := F) c 0 (by decide) ((k + 1) / 2) ∗ slotAt (F := F) c 1 (by decide) (k / 2)
    ∗ owesX (F := F) c k)

/-- Step k takes the state before it to the state after it: the slot of k's parity serves one chunk more, the other
    slot's count is the same before and after. -/
theorem loop_step (hwaits : WaitsRule (F := F) m) (hcore : CoreRule (F := F) m)
    (K : GSem nD τ sig → ℕ) (c : Dev nD) (k : Fin 64) :
    iprop(stepPre m c k.val k.isLt ∗ loopSt m K c k.val)
      ⊢ wp frame (wpE (defs₀ (F := F)) 𝒱₀ c none) Set.univ (step c k.val k.isLt)
          (fun _ => iprop((stepPost m c k.val k.isLt ∗ emitted m c k.val k.isLt) ∗ loopSt m K c (k.val + 1))) := by
  obtain ⟨k, hk⟩ := k
  show iprop(stepPre m c k hk ∗ loopSt m K c k)
      ⊢ wp frame (wpE (defs₀ (F := F)) 𝒱₀ c none) Set.univ (step c k hk)
          (fun _ => iprop((stepPost m c k hk ∗ emitted m c k hk) ∗ loopSt m K c (k + 1)))
  have hs := step_rule m hwaits hcore K c k hk
  unfold loopSt
  rcases Nat.mod_two_eq_zero_or_one k with h | h
  · -- k even: slot 0 is its own
    have a1 : slotAt (F := F) c 0 (by decide) ((k + 1) / 2) = slotAt (F := F) c (k % 2) (slot_lt k) (k / 2) :=
      slotAt_congr c h.symm (by omega)
    have a2 : slotAt (F := F) c 0 (by decide) ((k + 1 + 1) / 2) = slotAt (F := F) c (k % 2) (slot_lt k) (k / 2 + 1) :=
      slotAt_congr c h.symm (by omega)
    have a3 : slotAt (F := F) c 1 (by decide) ((k + 1) / 2) = slotAt (F := F) c 1 (by decide) (k / 2) :=
      slotAt_congr c rfl (by omega)
    rw [a1, a2, a3]
    iintro ⟨HP, #HR, #HL, H0, H1, HO⟩
    iapply (wp_wand_r frame _ Set.univ)
    isplitl [HP H0 HO]
    · iapply hs
      isplitr; · iexact HR
      isplitr; · iexact HL
      isplitl [HP]; · iexact HP
      isplitl [H0]; · iexact H0
      iexact HO
    · iintro %_ ⟨HQ, HE, H0, HO⟩
      isplitl [HQ HE]
      · isplitl [HQ]; · iexact HQ
        iexact HE
      isplitr; · iexact HR
      isplitr; · iexact HL
      isplitl [H0]; · iexact H0
      isplitl [H1]; · iexact H1
      iexact HO
  · -- k odd: slot 1 is its own
    have a1 : slotAt (F := F) c 1 (by decide) (k / 2) = slotAt (F := F) c (k % 2) (slot_lt k) (k / 2) :=
      slotAt_congr c h.symm rfl
    have a2 : slotAt (F := F) c 1 (by decide) ((k + 1) / 2) = slotAt (F := F) c (k % 2) (slot_lt k) (k / 2 + 1) :=
      slotAt_congr c h.symm (by omega)
    have a3 : slotAt (F := F) c 0 (by decide) ((k + 1 + 1) / 2) = slotAt (F := F) c 0 (by decide) ((k + 1) / 2) :=
      slotAt_congr c rfl (by omega)
    rw [a1, a2, a3]
    iintro ⟨HP, #HR, #HL, H0, H1, HO⟩
    iapply (wp_wand_r frame _ Set.univ)
    isplitl [HP H1 HO]
    · iapply hs
      isplitr; · iexact HR
      isplitr; · iexact HL
      isplitl [HP]; · iexact HP
      isplitl [H1]; · iexact H1
      iexact HO
    · iintro %_ ⟨HQ, HE, H1, HO⟩
      isplitl [HQ HE]
      · isplitl [HQ]; · iexact HQ
        iexact HE
      isplitr; · iexact HR
      isplitr; · iexact HL
      isplitl [H0]; · iexact H0
      isplitl [H1]; · iexact H1
      iexact HO

/-! ## The result rows handed over: all 64 chunks' in the end -/

/-- The unit law and the distribution of a big separating conjunction over a binary one, in the spelling the
    assertions below are written in. -/
theorem emp_sep_eq (P : sProp 𝕄) : iprop(emp ∗ P) = P := equiv_iff.mp emp_sep

theorem bigSep_sep_eq {I : Type} (s : Finset I) (Φ Ψ : I → sProp 𝕄) :
    (bigSep s fun i => iprop(Φ i ∗ Ψ i)) = iprop(bigSep s Φ ∗ bigSep s Ψ) := bigSep_sep s Φ Ψ

theorem lt64_of_fin62 (i : Fin 62) : i.val < 64 := Nat.lt_trans i.isLt (by decide)

/-- Steps 2 .. 63 hand over the rows of chunks 0 .. 61, the two closing waits those of chunks 62 and 63. -/
theorem emitted_all (c : Dev nD) :
    iprop((bigSep Finset.univ fun k : Fin 64 => emitted m c k.val k.isLt)
        ∗ (oHolds c c 62 (by decide) (sumAt m c) ∗ atPos ER (xsCell c 62 (by decide)) 1 ∅ 0)
        ∗ (oHolds c c 63 (by decide) (sumAt m c) ∗ atPos ER (xsCell c 63 (by decide)) 1 ∅ 0))
      ⊢ bigSep Finset.univ fun k : Fin 64 =>
          iprop(oHolds c c k.val k.isLt (sumAt m c) ∗ atPos ER (xsCell c k.val k.isLt) 1 ∅ 0) := by
  show iprop((bigSep Finset.univ fun k : Fin 64 => emitted m c k.val k.isLt)
        ∗ chunkDone m c 62 (by decide) ∗ chunkDone m c 63 (by decide))
      ⊢ bigSep Finset.univ fun k : Fin 64 => chunkDone m c k.val k.isLt
  have hL : (bigSep Finset.univ fun k : Fin 64 => emitted m c k.val k.isLt)
      = bigSep Finset.univ fun i : Fin 62 => chunkDone m c i.val (lt64_of_fin62 i) := by
    rw [Pipeline.bigSep_fin_succ, Pipeline.bigSep_fin_succ]
    have a0 : emitted m c (0 : Fin 64).val (0 : Fin 64).isLt = iprop(emp) := dif_neg (by decide)
    have a1 : emitted m c (Fin.succ (0 : Fin 63)).val (Fin.succ (0 : Fin 63)).isLt = iprop(emp) := dif_neg (by decide)
    rw [a0, a1, emp_sep_eq, emp_sep_eq]
    refine bigSep_congr fun i _ => ?_
    have h2 : 2 ≤ i.succ.succ.val := by simp only [Fin.val_succ]; omega
    exact (dif_pos h2).trans (chunkDone_congr m c (by simp only [Fin.val_succ]; omega))
  have hR : (bigSep Finset.univ fun k : Fin 64 => chunkDone m c k.val k.isLt)
      = iprop(chunkDone m c 63 (by decide) ∗ chunkDone m c 62 (by decide)
          ∗ bigSep Finset.univ fun i : Fin 62 => chunkDone m c i.val (lt64_of_fin62 i)) := by
    rw [Pipeline.bigSep_fin_castSucc, Pipeline.bigSep_fin_castSucc]
    rfl
  rw [hL, hR]
  iintro ⟨H, H62, H63⟩
  isplitl [H63]; · iexact H63
  isplitl [H62]; · iexact H62
  iexact H

/-! ## The 64 steps and the two closing waits -/

theorem mainLoop (hwaits : WaitsRule (F := F) m) (hcore : CoreRule (F := F) m)
    (K : GSem nD τ sig → ℕ) (c : Dev nD) (rest : List (KProg F)) (R : PUnit → sProp 𝕄)
    (hrest : iprop(records m K ∗ levAts Lset lv
                ∗ (bigSep Finset.univ fun k : Fin 64 => stepPost m c k.val k.isLt)
                ∗ (bigSep Finset.univ fun k : Fin 64 =>
                    iprop(oHolds c c k.val k.isLt (sumAt m c) ∗ atPos ER (xsCell c k.val k.isLt) 1 ∅ 0))
                ∗ slotFree (F := F) c 0 (by decide) 32 ∗ slotFree (F := F) c 1 (by decide) 32 ∗ owesX (F := F) c 64)
              ⊢ wp frame (wpE (defs₀ (F := F)) 𝒱₀ c none) Set.univ (Pipeline.chain rest) R) :
    iprop(records m K ∗ levAts Lset lv ∗ (bigSep Finset.univ fun k : Fin 64 => stepPre m c k.val k.isLt)
        ∗ slotFree (F := F) c 0 (by decide) 0 ∗ slotFree (F := F) c 1 (by decide) 0 ∗ owesX (F := F) c 0)
      ⊢ wp frame (wpE (defs₀ (F := F)) 𝒱₀ c none) Set.univ
          (Pipeline.chain ((List.finRange 64).map (fun k => step c k.val k.isLt)
            ++ ([waitsFor c 62 (by decide), waitsFor c 63 (by decide)] ++ rest))) R := by
  -- after step 63 slot 0 is busy with chunk 62 and slot 1 with chunk 63: the two closing waits free them at round 32
  have hend : iprop((bigSep Finset.univ fun k : Fin 64 => iprop(stepPost m c k.val k.isLt ∗ emitted m c k.val k.isLt))
        ∗ loopSt m K c 64)
      ⊢ wp frame (wpE (defs₀ (F := F)) 𝒱₀ c none) Set.univ
          (Pipeline.chain ([waitsFor c 62 (by decide), waitsFor c 63 (by decide)] ++ rest)) R := by
    have b0 : slotAt (F := F) c 0 (by decide) ((64 + 1) / 2)
        = slotBusy (F := F) c (62 % 2) (slot_lt 62) (62 / 2) 62 (by decide) := by
      rw [← slotAt_busy c 62 (by decide)]
    have b1 : slotAt (F := F) c 1 (by decide) (64 / 2)
        = slotBusy (F := F) c (63 % 2) (slot_lt 63) (63 / 2) 63 (by decide) := by
      rw [← slotAt_busy c 63 (by decide)]
    have f0 : slotFree (F := F) c (62 % 2) (slot_lt 62) (62 / 2 + 1) = slotFree (F := F) c 0 (by decide) 32 :=
      slotFree_congr c (by decide) (by decide)
    have f1 : slotFree (F := F) c (63 % 2) (slot_lt 63) (63 / 2 + 1) = slotFree (F := F) c 1 (by decide) 32 :=
      slotFree_congr c (by decide) (by decide)
    have w62 := hwaits K c 62 (by decide) 64
    have w63 := hwaits K c 63 (by decide) 64
    rw [f0] at w62
    rw [f1] at w63
    unfold loopSt
    rw [b0, b1, bigSep_sep_eq, List.cons_append, List.cons_append, List.nil_append,
      Pipeline.wp_chain_cons_eq, Pipeline.wp_chain_cons_eq]
    iintro ⟨⟨HQ, HE⟩, #HR, #HL, HB0, HB1, HO⟩
    iapply (wp_wand_r frame _ Set.univ)
    isplitl [HB0 HO]
    · iapply w62
      isplitr; · iexact HR
      isplitr; · iexact HL
      isplitl [HB0]; · iexact HB0
      iexact HO
    · iintro %_ ⟨HF0, HDa, HDb, HO⟩
      iapply (wp_wand_r frame _ Set.univ)
      isplitl [HB1 HO]
      · iapply w63
        isplitr; · iexact HR
        isplitr; · iexact HL
        isplitl [HB1]; · iexact HB1
        iexact HO
      · iintro %_ ⟨HF1, HDc, HDd, HO⟩
        iapply hrest
        isplitr; · iexact HR
        isplitr; · iexact HL
        isplitl [HQ]; · iexact HQ
        isplitl [HE HDa HDb HDc HDd]
        · iapply (emitted_all m c)
          isplitl [HE]; · iexact HE
          isplitl [HDa HDb]
          · isplitl [HDa]; · iexact HDa
            iexact HDb
          · isplitl [HDc]; · iexact HDc
            iexact HDd
        isplitl [HF0]; · iexact HF0
        isplitl [HF1]; · iexact HF1
        iexact HO
  -- before step 0 neither slot has served a chunk
  have hstart : iprop(records m K ∗ levAts Lset lv ∗ (bigSep Finset.univ fun k : Fin 64 => stepPre m c k.val k.isLt)
        ∗ slotFree (F := F) c 0 (by decide) 0 ∗ slotFree (F := F) c 1 (by decide) 0 ∗ owesX (F := F) c 0)
      ⊢ iprop((bigSep Finset.univ fun k : Fin 64 => stepPre m c k.val k.isLt) ∗ loopSt m K c 0) := by
    unfold loopSt
    rw [show slotAt (F := F) c 0 (by decide) ((0 + 1) / 2) = slotFree (F := F) c 0 (by decide) 0 from slotAt_zero c 0 _,
      show slotAt (F := F) c 1 (by decide) (0 / 2) = slotFree (F := F) c 1 (by decide) 0 from slotAt_zero c 1 _]
    iintro ⟨#HR, #HL, HP, H0, H1, HO⟩
    isplitl [HP]; · iexact HP
    isplitr; · iexact HR
    isplitr; · iexact HL
    isplitl [H0]; · iexact H0
    isplitl [H1]; · iexact H1
    iexact HO
  have hmain := Pipeline.wp_chain_finRange_append frame (wpE (defs₀ (F := F)) 𝒱₀ c none) Set.univ (n := 64)
    (fun k : Fin 64 => step (F := F) c k.val k.isLt)
    (fun k => stepPre m c k.val k.isLt) (fun k => iprop(stepPost m c k.val k.isLt ∗ emitted m c k.val k.isLt))
    (loopSt m K c) (loop_step m hwaits hcore K c)
    ([waitsFor c 62 (by decide), waitsFor c 63 (by decide)] ++ rest) R hend
  refine hstart.trans ?_
  -- the two sides are the same assertion; compared without unfolding the 64-step program
  with_reducible exact hmain

/-- info: 'Cert.KernelIdeal.Hand.mainLoop' depends on axioms: [propext, Classical.choice, Quot.sound] -/
#guard_msgs in #print axioms mainLoop

end Cert.KernelIdeal.Hand

end
-- ==== Proof.Regroup.lean ====
/-
  Regrouping the conjunctions over the 64 chunks between the phases of the body.

  At entry a device holds, per kind of resource, one conjunction over all chunks (positions, tokens, launch credits, the
  two half shares of its argument's rows, and — from the barrier — the neighbours' result rows).  The phases take them
  per chunk: the y-copy of chunk k takes one bundle, the step of chunk k another, the final wait on chunk k's x-receive
  cell a third.  Separating conjunction being associative and commutative, the two groupings hold the same summands;
  the local cells' tokens, indexed at entry by slot and round, are re-indexed by chunk along k ↦ (k % 2, k / 2).
-/
import proofs.«900147_g7700000000000148_dist_ar_v7x_xy2x2_y_m32768_n1024_f32_1_alg».proof.Proof.StepDefs
import proofs.«900147_g7700000000000148_dist_ar_v7x_xy2x2_y_m32768_n1024_f32_1_alg».proof.Proof.Reindex
import proofs.«900147_g7700000000000148_dist_ar_v7x_xy2x2_y_m32768_n1024_f32_1_alg».proof.Proof.Tables

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What each phase takes of a chunk -/

/-- What the y-copy of chunk k consumes: the left half share of x's rows, the y-neighbour's result rows, the two tokens. -/
def pY (c : Dev nD) (k : Nat) (hk : k < 64) : sProp 𝕄 :=
  iprop(xHolds m c k hk qL ∗ oSome (F := F) (nbrY c) c k hk ∗ dutyTok ER (ysCell c k hk) 0 false ∗ dutyTok ER (yrCell (nbrY c) k hk) 0 false)

/-- What chunk k's step consumes, but for the y-send cell's credit (which the y-copy produces). -/
def preMain (c : Dev nD) (k : Nat) (hk : k < 64) : sProp 𝕄 :=
  iprop(cred (tallyAt (yrCell c k hk) () No) ∗ atPos ER (yrCell c k hk) 0 ∅ 0
    ∗ atPos ER (ysCell c k hk) 0 ∅ 0
    ∗ atPos ER (xsCell c k hk) 0 ∅ 0
    ∗ xHolds m c k hk qR ∗ oSome (F := F) (nbrX c) c k hk
    ∗ dutyTok ER (xsCell c k hk) 0 false ∗ dutyTok ER (xrCell (nbrX c) k hk) 0 false
    ∗ dutyTok ER (aCell c (k % 2) (slot_lt k)) (k / 2) false ∗ dutyTok ER (bCell c (k % 2) (slot_lt k)) (k / 2) false
    ∗ dutyTok ER (stCell c (k % 2) (slot_lt k)) (k / 2) false)

/-- What the final wait on chunk k's x-receive cell consumes. -/
def preXr (c : Dev nD) (k : Nat) (hk : k < 64) : sProp 𝕄 :=
  iprop(cred (tallyAt (xrCell c k hk) () No) ∗ atPos ER (xrCell c k hk) 0 ∅ 0)

/-! ## Chunks against slots and rounds -/

/-- Chunk k is the (k / 2)-th chunk of slot k % 2. -/
def chunkEquiv : Fin 64 ≃ Fin 2 × Fin 32 where
  toFun k := (⟨k.val % 2, slot_lt k.val⟩, ⟨k.val / 2, by have := k.isLt; omega⟩)
  invFun sr := ⟨2 * sr.2.val + sr.1.val, by have := sr.1.isLt; have := sr.2.isLt; omega⟩
  left_inv k := Fin.ext (by show 2 * (k.val / 2) + k.val % 2 = k.val; omega)
  right_inv sr := by
    obtain ⟨⟨s, hs⟩, ⟨r, hr⟩⟩ := sr
    refine Prod.ext (Fin.ext ?_) (Fin.ext ?_)
    · show (2 * r + s) % 2 = s; omega
    · show (2 * r + s) / 2 = r; omega

theorem local_toks_reindex_eq (c : Dev nD) :
    (bigSep Finset.univ fun sr : Fin 2 × Fin 32 => (iprop(dutyTok ER (aCell c sr.1.val sr.1.isLt) sr.2.val false ∗ dutyTok ER (bCell c sr.1.val sr.1.isLt) sr.2.val false ∗ dutyTok ER (stCell c sr.1.val sr.1.isLt) sr.2.val false) : sProp 𝕄))
      = bigSep Finset.univ fun k : Fin 64 => iprop(dutyTok ER (aCell c (k.val % 2) (slot_lt k.val)) (k.val / 2) false ∗ dutyTok ER (bCell c (k.val % 2) (slot_lt k.val)) (k.val / 2) false ∗ dutyTok ER (stCell c (k.val % 2) (slot_lt k.val)) (k.val / 2) false) :=
  bigSep_univ_equiv chunkEquiv _

theorem local_toks_reindex (c : Dev nD) :
    (bigSep Finset.univ fun sr : Fin 2 × Fin 32 => (iprop(dutyTok ER (aCell c sr.1.val sr.1.isLt) sr.2.val false ∗ dutyTok ER (bCell c sr.1.val sr.1.isLt) sr.2.val false ∗ dutyTok ER (stCell c sr.1.val sr.1.isLt) sr.2.val false) : sProp 𝕄))
      ⊢ bigSep Finset.univ fun k : Fin 64 => iprop(dutyTok ER (aCell c (k.val % 2) (slot_lt k.val)) (k.val / 2) false ∗ dutyTok ER (bCell c (k.val % 2) (slot_lt k.val)) (k.val / 2) false ∗ dutyTok ER (stCell c (k.val % 2) (slot_lt k.val)) (k.val / 2) false) :=
  Entails.of_eq (local_toks_reindex_eq c)

theorem pY_unfold (c : Dev nD) : (bigSep Finset.univ fun k : Fin 64 => pY m c k.val k.isLt)
    = (bigSep Finset.univ fun k : Fin 64 => iprop(xHolds m c k.val k.isLt qL ∗ oSome (F := F) (nbrY c) c k.val k.isLt
        ∗ dutyTok ER (ysCell c k.val k.isLt) 0 false ∗ dutyTok ER (yrCell (nbrY c) k.val k.isLt) 0 false)) := rfl

theorem entry_regroup (c : Dev nD) : iprop(
      (bigSep Finset.univ fun k : Fin 64 => iprop(atPos ER (ysCell c k.val k.isLt) 0 ∅ 0 ∗ atPos ER (yrCell c k.val k.isLt) 0 ∅ 0
          ∗ atPos ER (xsCell c k.val k.isLt) 0 ∅ 0 ∗ atPos ER (xrCell c k.val k.isLt) 0 ∅ 0))
      ∗ (bigSep Finset.univ fun k : Fin 64 => iprop(dutyTok ER (ysCell c k.val k.isLt) 0 false ∗ dutyTok ER (yrCell (nbrY c) k.val k.isLt) 0 false
          ∗ dutyTok ER (xsCell c k.val k.isLt) 0 false ∗ dutyTok ER (xrCell (nbrX c) k.val k.isLt) 0 false))
      ∗ (bigSep Finset.univ fun sr : Fin 2 × Fin 32 => iprop(dutyTok ER (aCell c sr.1.val sr.1.isLt) sr.2.val false ∗ dutyTok ER (bCell c sr.1.val sr.1.isLt) sr.2.val false ∗ dutyTok ER (stCell c sr.1.val sr.1.isLt) sr.2.val false))
      ∗ (bigSep Finset.univ fun k : Fin 64 => iprop(cred (tallyAt (yrCell c k.val k.isLt) () No) ∗ cred (tallyAt (xrCell c k.val k.isLt) () No)))
      ∗ (bigSep Finset.univ fun k : Fin 64 => iprop(xHolds m c k.val k.isLt qL ∗ xHolds m c k.val k.isLt qR))
      ∗ barPay (F := F) c (nbrY c) ∗ barPay (F := F) c (nbrX c))
    ⊢ iprop((bigSep Finset.univ fun k : Fin 64 => pY m c k.val k.isLt) ∗ (bigSep Finset.univ fun k : Fin 64 => preMain m c k.val k.isLt)
        ∗ (bigSep Finset.univ fun k : Fin 64 => preXr (F := F) c k.val k.isLt)) := by
  rw [local_toks_reindex_eq c]
  unfold barPay pY preMain preXr
  simp only [bigSep_sep']
  iintro ⟨⟨Pys, Pyr, Pxs, Pxr⟩, ⟨Tys, Tyr, Txs, Txr⟩, ⟨Ta, Tb, Tst⟩, ⟨Cyr, Cxr⟩, ⟨XL, XR⟩, OY, OX⟩
  iframe

theorem stepPre_intro (c : Dev nD) :
    iprop((bigSep Finset.univ fun k : Fin 64 => preMain m c k.val k.isLt)
      ∗ (bigSep Finset.univ fun k : Fin 64 => cred (tallyAt (ysCell c k.val k.isLt) () No)))
    ⊢ bigSep Finset.univ fun k : Fin 64 => stepPre m c k.val k.isLt := by
  unfold preMain stepPre
  simp only [bigSep_sep']
  iintro ⟨⟨Cyr, Pyr, Pys, Pxs, XR, OX, Txs, Txr, Ta, Tb, Tst⟩, Cys⟩
  iframe

/-- info: 'Cert.KernelIdeal.Hand.entry_regroup' depends on axioms: [propext, Classical.choice, Quot.sound] -/
#guard_msgs in #print axioms entry_regroup
/-- info: 'Cert.KernelIdeal.Hand.stepPre_intro' depends on axioms: [propext, Classical.choice, Quot.sound] -/
#guard_msgs in #print axioms stepPre_intro

end Cert.KernelIdeal.Hand

end
-- ==== Proof.Body.lean ====
/-
  The body of one device, from what it holds at entry to what it holds at exit: the entry handshake (the device gives
  each neighbour the half of its result array that neighbour will write, and receives the halves it will write), the 64
  y-copies, the 64 steps, the two tail waits, the 64 x-receive waits, then the arrays rejoined and the cells closed.
-/
import proofs.«900147_g7700000000000148_dist_ar_v7x_xy2x2_y_m32768_n1024_f32_1_alg».proof.Proof.Steps
import proofs.«900147_g7700000000000148_dist_ar_v7x_xy2x2_y_m32768_n1024_f32_1_alg».proof.Proof.Loops
import proofs.«900147_g7700000000000148_dist_ar_v7x_xy2x2_y_m32768_n1024_f32_1_alg».proof.Proof.Exit
import proofs.«900147_g7700000000000148_dist_ar_v7x_xy2x2_y_m32768_n1024_f32_1_alg».proof.Proof.Launch
import proofs.«900147_g7700000000000148_dist_ar_v7x_xy2x2_y_m32768_n1024_f32_1_alg».proof.Proof.MainLoop
import proofs.«900147_g7700000000000148_dist_ar_v7x_xy2x2_y_m32768_n1024_f32_1_alg».proof.Proof.Regroup

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What is carried past the steps to the end: the x-receive cells' credits and positions, the other half's rows of x,
    and the continuation that takes the exit state. -/
def carried (c : Dev nD) (Kt : PUnit → sProp 𝕄) : sProp 𝕄 :=
  iprop((bigSep Finset.univ fun k : Fin 64 => preXr (F := F) c k.val k.isLt) ∗ xRest m c
    ∗ (iprop(Φ₁ m c ∗ Pipeline.owesWithin c (0 : CellTallies nD τ sig Unit) Set.univ) -∗ Kt ⟨⟩))

/-- What the steps and the two tail waits leave. -/
def afterSteps (c : Dev nD) : sProp 𝕄 :=
  iprop((bigSep Finset.univ fun k : Fin 64 => stepPost m c k.val k.isLt)
    ∗ (bigSep Finset.univ fun k : Fin 64 => iprop(oHolds c c k.val k.isLt (sumAt m c) ∗ atPos ER (xsCell c k.val k.isLt) 1 ∅ 0))
    ∗ slotFree (F := F) c 0 (by decide) 32 ∗ slotFree (F := F) c 1 (by decide) 32 ∗ owesX (F := F) c 64)

set_option maxRecDepth 100000 in
/-- The body's first four operations, exposed: the device id, the two barrier signals, the barrier wait; then the chunks. -/
theorem folded_eq :
    (folded (F := F)) = Prog.op (TpuEff.deviceId) (fun d : Dev nD =>
      Prog.op (TpuEff.semSignal ((nbrY d : Dev nD), Proc.tc) barS (1#32).toNat) fun _ =>
      Prog.op (TpuEff.semSignal ((nbrX d : Dev nD), Proc.tc) barS (1#32).toNat) fun _ =>
      Prog.op (TpuEff.semWait barS (2#32).toNat) fun _ => Pipeline.chain (items d)) := by
  chain_rfl

/-- The items, associated to the right: the y-copies, then the steps, then the two tail waits, then the x-receive waits. -/
theorem items_eq (c : Dev nD) :
    items (F := F) c = (List.finRange 64).map (fun k => yEnq c k.val k.isLt)
      ++ (((List.finRange 64).map (fun k => step c k.val k.isLt) ++ ([waitsFor c 62 (by decide), waitsFor c 63 (by decide)] ++ []))
        ++ (List.finRange 64).map (fun k => xrWait c k.val k.isLt)) := by
  simp only [items, List.append_assoc, List.append_nil]

/-- The entry handshake, over any continuation program: the device gives the y-neighbour the rows of its own half of its
    result array and the x-neighbour the rows of the other half, and after the wait holds the rows of both neighbours'
    result arrays that its own copies write. -/
theorem entry_ok (K : GSem nD τ sig → ℕ) (c : Dev nD) (W : Waits sig Unit) (Kt : PUnit → sProp 𝕄) (prog : KProg F) :
    iprop(records m K ∗ levAts Lset lv ∗ atPos ER (barCell c) 0 ∅ 0
        ∗ dutyTok ER (barCell (nbrY c)) 0 false ∗ dutyTok ER (barCell (nbrX c)) 0 true
        ∗ cred (tallyAt (barCell c) () 2)
        ∗ (bigSep Finset.univ fun k : Fin 64 => oSome (F := F) c c k.val k.isLt)
        ∗ (bigSep Finset.univ fun k : Fin 64 => oSome (F := F) c (nbrX c) k.val k.isLt)
        ∗ owes (c : Thread nD τ) (O₀ c) W
        ∗ (iprop(barPay (F := F) c (nbrY c) ∗ barPay (F := F) c (nbrX c)
              ∗ (∃ W' : Waits sig Unit, owes (c : Thread nD τ) (owedX c 0 + owedY c 0) W'))
            -∗ wp frame (wpE (defs₀ (F := F)) 𝒱₀ c none) Set.univ prog Kt))
      ⊢ wp frame (wpE (defs₀ (F := F)) 𝒱₀ c none) Set.univ
          (Prog.op (TpuEff.semSignal ((nbrY c : Dev nD), Proc.tc) barS (1#32).toNat) fun _ =>
           Prog.op (TpuEff.semSignal ((nbrX c : Dev nD), Proc.tc) barS (1#32).toNat) fun _ =>
           Prog.op (TpuEff.semWait barS (2#32).toNat) fun _ => prog) Kt := by
  iintro ⟨#HR, #Hlev, HpB, HtBY, HtBX, HcB, HoOwn, HoOth, HO, Hk⟩
  ihave HIb := (inv_of_records m K (mem_allCells_bar c)) $$ HR
  ihave HIbY := (inv_of_records m K (mem_allCells_bar (nbrY c))) $$ HR
  ihave HIbX := (inv_of_records m K (mem_allCells_bar (nbrX c))) $$ HR
  ihave HrbY := (reached_of_records m K (mem_allCells_bar (nbrY c))) $$ HR
  ihave HrbX := (reached_of_records m K (mem_allCells_bar (nbrX c))) $$ HR
  unfold O₀
  -- to the y-neighbour: the rows of this device's own half
  iapply (Rounds.wp_signal 𝒱₀ ER (sched m) (c : Thread nD τ) none (dst := ((nbrY c : Dev nD) : Thread nD τ)) (sem := barS)
      (κ := K (barCell (nbrY c))) (r := 0) (d := false)
      (by rw [duties_bar m]; exact Finset.mem_univ _) ((amount_bar m (nbrY c) false).trans (by decide)) ()
      (owedX c 0 + owedY c 0 + tallyAt (barCell (nbrX c)) () 1) rfl) $$ [HO HtBY HoOwn]
  · isplitr; · iexact HIbY
    isplitl [HO]; · iexact HO
    isplitl [HtBY]; · iexact HtBY
    isplitl [HoOwn]
    · rw [payload_bar_false m, nbrY_nbrY]
      unfold barPay
      have h : (bigSep Finset.univ (fun k : Fin 64 => oSome (F := F) c c k.val k.isLt) : sProp 𝕄)
          ⊢ bigSep Finset.univ (fun k : Fin 64 => oSome (F := F) c (nbrY c) k.val k.isLt) :=
        bigSep_mono (fun k _ => Entails.of_eq (oSome_nbrY c c k.val k.isLt).symm)
      iapply h $$ HoOwn
    iexact HrbY
  iintro HO
  -- to the x-neighbour: the rows of the other half
  iapply (Rounds.wp_signal 𝒱₀ ER (sched m) (c : Thread nD τ) none (dst := ((nbrX c : Dev nD) : Thread nD τ)) (sem := barS)
      (κ := K (barCell (nbrX c))) (r := 0) (d := true)
      (by rw [duties_bar m]; exact Finset.mem_univ _) ((amount_bar m (nbrX c) true).trans (by decide)) ()
      (owedX c 0 + owedY c 0) rfl) $$ [HO HtBX HoOth]
  · isplitr; · iexact HIbX
    isplitl [HO]; · iexact HO
    isplitl [HtBX]; · iexact HtBX
    isplitl [HoOth]
    · rw [payload_bar_true m, nbrX_nbrX]
      unfold barPay
      iexact HoOth
    iexact HrbX
  iintro HO
  -- the wait for both neighbours
  iapply (Rounds.wp_wait_rest_token 𝒱₀ ER (sched m) (c : Thread nD τ) none (κ := K (barCell c))
      (wpE_semWait_eq 𝒱₀ (c : Thread nD τ) none Set.univ) (Set.mem_univ _) () (O := owedX c 0 + owedY c 0) (W := W) (R := 0) (m := 0) (T := ∅)
      (by rw [expect_bar m]; decide)) $$ [HcB HO HpB]
  · isplitr; · iexact HIb
    isplitl [HcB]; · iexact HcB
    isplitl [HO]; · iexact HO
    isplitr; · iapply (mayWait_bar c); iexact Hlev
    iexact HpB
  iintro ⟨HO, -, -, Hpay⟩
  ihave Hp := (Entails.of_eq (rest_bar m c)) $$ Hpay
  icases Hp with ⟨HbY, HbX⟩
  iapply Hk
  isplitl [HbY]; · iexact HbY
  isplitl [HbX]; · iexact HbX
  iexists _; iexact HO

/-- The x-receive waits and the exit: with nothing owed any more, each wait brings a chunk of the other half; then the
    arrays are whole again and every own cell is closed. -/
theorem tail_ok (K : GSem nD τ sig → ℕ) (c : Dev nD) (Kt : PUnit → sProp 𝕄) :
    iprop(records m K ∗ carried m c Kt ∗ afterSteps m c)
      ⊢ wp frame (wpE (defs₀ (F := F)) 𝒱₀ c none) Set.univ
          (Pipeline.chain ((List.finRange 64).map (fun k => xrWait (F := F) c k.val k.isLt))) Kt := by
  unfold carried afterSteps owesX preXr
  rw [owedX_64]
  iintro ⟨#HR, ⟨Hxr, Hxrest, Hk⟩, ⟨Hpost, Hdone, Hs0, Hs1, HO⟩⟩
  iapply (wp_fupd frame (wpE (defs₀ (F := F)) 𝒱₀ c none) Set.univ)
  ihave Hw := (xrLoop m (xrStep m) K c
      iprop(xRest m c ∗ (iprop(Φ₁ m c ∗ Pipeline.owesWithin c (0 : CellTallies nD τ sig Unit) Set.univ) -∗ Kt ⟨⟩)
        ∗ (bigSep Finset.univ fun k : Fin 64 => stepPost m c k.val k.isLt)
        ∗ (bigSep Finset.univ fun k : Fin 64 => iprop(oHolds c c k.val k.isLt (sumAt m c) ∗ atPos ER (xsCell c k.val k.isLt) 1 ∅ 0))
        ∗ slotFree (F := F) c 0 (by decide) 32 ∗ slotFree (F := F) c 1 (by decide) 32)) $$ [Hxr Hxrest Hk Hpost Hdone Hs0 Hs1 HO]
  · isplitl [Hxrest Hk Hpost Hdone Hs0 Hs1]
    · isplitl [Hxrest]; · iexact Hxrest
      isplitl [Hk]; · iexact Hk
      isplitl [Hpost]; · iexact Hpost
      isplitl [Hdone]; · iexact Hdone
      isplitl [Hs0]; · iexact Hs0
      iexact Hs1
    isplitr; · iexact HR
    isplitl [Hxr]; · iexact Hxr
    iexact HO
  iapply (wp_mono frame (wpE (defs₀ (F := F)) 𝒱₀ c none) Set.univ (fun _ => ?_)) $$ Hw
  iintro ⟨⟨Hxrest, Hk, Hpost, Hdone, Hs0, Hs1⟩, #HR, Hxdone, ⟨%W, HO⟩⟩
  imod (exit_ok m K c (duties_later_ys m c) (duties_later_yr m c) (duties_later_xs m c) (duties_later_xr m c)
      (fun s hs => duties_later_32 m _) (fun s hs => duties_later_32 m _) (fun s hs => duties_later_32 m _)) $$ [Hpost Hdone Hxdone Hs0 Hs1 Hxrest] with HΦ
  · isplitr; · iexact HR
    isplitl [Hpost]; · iexact Hpost
    isplitl [Hdone]; · iexact Hdone
    isplitl [Hxdone]; · iexact Hxdone
    isplitl [Hs0]; · iexact Hs0
    isplitl [Hs1]; · iexact Hs1
    iexact Hxrest
  imodintro
  iapply Hk
  isplitl [HΦ]; · iexact HΦ
  iexists W
  isplitr; · ipureintro; exact Set.subset_univ _
  iexact HO

/-- The steps and the two tail waits, carrying what the end needs; then the end. -/
theorem main_ok (K : GSem nD τ sig → ℕ) (c : Dev nD) (Kt : PUnit → sProp 𝕄) :
    iprop(records m K ∗ levAts Lset lv ∗ carried m c Kt
        ∗ (bigSep Finset.univ fun k : Fin 64 => stepPre m c k.val k.isLt)
        ∗ slotFree (F := F) c 0 (by decide) 0 ∗ slotFree (F := F) c 1 (by decide) 0 ∗ owesX (F := F) c 0)
      ⊢ wp frame (wpE (defs₀ (F := F)) 𝒱₀ c none) Set.univ
          (Pipeline.chain (((List.finRange 64).map (fun k => step (F := F) c k.val k.isLt) ++ ([waitsFor c 62 (by decide), waitsFor c 63 (by decide)] ++ []))
            ++ (List.finRange 64).map (fun k => xrWait (F := F) c k.val k.isLt))) Kt := by
  iintro ⟨#HR, #Hlev, Hcar, Hpre, Hs0, Hs1, HO⟩
  iapply (Pipeline.wp_chain_append frame (wpE (defs₀ (F := F)) 𝒱₀ c none) Set.univ)
  have hloop := mainLoop m (waitsStep m) (coreStep m) K c [] (fun _ => iprop(records m K ∗ afterSteps m c))
    (by
      unfold afterSteps
      iintro ⟨#HR', -, Hpost, Hdone, Hs0, Hs1, HO⟩
      iapply (Pipeline.wp_chain_nil frame (wpE (defs₀ (F := F)) 𝒱₀ c none) Set.univ)
      isplitr; · iexact HR'
      isplitl [Hpost]; · iexact Hpost
      isplitl [Hdone]; · iexact Hdone
      isplitl [Hs0]; · iexact Hs0
      isplitl [Hs1]; · iexact Hs1
      iexact HO)
  ihave Hw := hloop $$ [Hpre Hs0 Hs1 HO]
  · isplitr; · iexact HR
    isplitr; · iexact Hlev
    isplitl [Hpre]; · iexact Hpre
    isplitl [Hs0]; · iexact Hs0
    isplitl [Hs1]; · iexact Hs1
    iexact HO
  ihave Hf := (wp_frame_l frame (wpE (defs₀ (F := F)) 𝒱₀ c none) Set.univ (R := carried m c Kt)) $$ [Hcar Hw]
  · isplitl [Hcar] <;> iassumption
  iapply (wp_mono frame (wpE (defs₀ (F := F)) 𝒱₀ c none) Set.univ (fun _ => ?_)) $$ Hf
  iintro ⟨Hcar, #HR', Haft⟩
  iapply (tail_ok m K c Kt)
  isplitr; · iexact HR'
  isplitl [Hcar] <;> iassumption

set_option maxHeartbeats 1600000 in
/-- One device's body: from what it holds at entry, through the handshake, the y-copies, the steps and the waits, to what
    it holds at exit. -/
theorem body_sound : BodySound (F := F) m := by
  intro c Kt
  rw [folded_eq, wp_deviceId]
  unfold Φ₀ start payToks launchCreds
  rw [positions_split]
  iintro ⟨⟨⟨⟨%K, #HR⟩, ⟨HpB, Hpk, Hps⟩, ⟨HtBY, HtBX, Htk, Htl⟩, ⟨HcB, Hck⟩, #Hlev⟩, Hx, ⟨%f0, Hout⟩, Hscr⟩, ⟨%W, %hW, HO⟩, Hk⟩
  ihave Hos := (out_split c f0) $$ Hout
  icases Hos with ⟨HoOwn, HoOth⟩
  iapply (entry_ok m K c W Kt (Pipeline.chain (items (F := F) c))) $$ [HpB HtBY HtBX HcB HoOwn HoOth HO Hpk Hps Htk Htl Hck Hx Hscr Hk]
  isplitr; · iexact HR
  isplitr; · iexact Hlev
  isplitl [HpB]; · iexact HpB
  isplitl [HtBY]; · iexact HtBY
  isplitl [HtBX]; · iexact HtBX
  isplitl [HcB]; · iexact HcB
  isplitl [HoOwn]; · iexact HoOwn
  isplitl [HoOth]; · iexact HoOth
  isplitl [HO]; · iexact HO
  iintro ⟨HbY, HbX, ⟨%W', HO⟩⟩
  ihave Hxs := (x_split m c) $$ Hx
  icases Hxs with ⟨Hxk, Hxrest⟩
  ihave Hsl := (entry_slots m K c) $$ [Hscr Hps]
  · isplitl [Hscr]; · iexact Hscr
    isplitl [Hps]; · iexact Hps
    iexact HR
  icases Hsl with ⟨Hs0, Hs1⟩
  ihave Hrg := (entry_regroup m c) $$ [Hpk Htk Htl Hck Hxk HbY HbX]
  · isplitl [Hpk]; · iexact Hpk
    isplitl [Htk]; · iexact Htk
    isplitl [Htl]; · iexact Htl
    isplitl [Hck]; · iexact Hck
    isplitl [Hxk]; · iexact Hxk
    isplitl [HbY]; · iexact HbY
    iexact HbX
  icases Hrg with ⟨HpY, HpM, HpX⟩
  rw [items_eq]
  have hy := yLoop m (yStep m) K c W'
    iprop(levAts Lset lv ∗ carried m c Kt ∗ (bigSep Finset.univ fun k : Fin 64 => preMain m c k.val k.isLt)
      ∗ slotFree (F := F) c 0 (by decide) 0 ∗ slotFree (F := F) c 1 (by decide) 0)
    (((List.finRange 64).map (fun k => step (F := F) c k.val k.isLt) ++ ([waitsFor c 62 (by decide), waitsFor c 63 (by decide)] ++ []))
      ++ (List.finRange 64).map (fun k => xrWait (F := F) c k.val k.isLt)) Kt
    (by
      rw [owedY_64, add_zero]
      iintro ⟨⟨#Hlev', Hcar, HpM, Hs0, Hs1⟩, #HR', Hcys, HO⟩
      ihave Hpre := (stepPre_intro m c) $$ [HpM Hcys]
      · isplitl [HpM] <;> iassumption
      iapply (main_ok m K c Kt)
      isplitr; · iexact HR'
      isplitr; · iexact Hlev'
      isplitl [Hcar]; · iexact Hcar
      isplitl [Hpre]; · iexact Hpre
      isplitl [Hs0]; · iexact Hs0
      isplitl [Hs1]; · iexact Hs1
      unfold owesX; iexists _; iexact HO)
  iapply hy
  isplitl [HpM Hs0 Hs1 HpX Hxrest Hk]
  · isplitr; · iexact Hlev
    isplitl [HpX Hxrest Hk]
    · unfold carried
      isplitl [HpX]; · iexact HpX
      isplitl [Hxrest] <;> iassumption
    isplitl [HpM]; · iexact HpM
    isplitl [Hs0] <;> iassumption
  isplitr; · iexact HR
  isplitl [HpY]; · rw [← pY_unfold m c]; iexact HpY
  iexact HO

/-- info: 'Cert.KernelIdeal.Hand.body_sound' depends on axioms: [propext, Classical.choice, Quot.sound] -/
#guard_msgs in #print axioms body_sound

end Cert.KernelIdeal.Hand

end
-- ==== Proof.Bits.Views.lean ====
/-
  The views and semaphores of one chunk of the all-reduce, for a symbolic chunk number k < 64.

  A device works on its own half of the 32768 rows, in 64 chunks of 256 rows; chunk k of a device's half
  starts at row  16384 * (device / 2) + 256 * k.  The chunk's rows of the argument array and of the result
  array, the two halves (slots) of each of the three VMEM scratch arrays, and the semaphores of chunk k in
  each of the four per-chunk semaphore arrays and of slot s in each of the three per-slot ones are named here once.
-/
import proofs.«900147_g7700000000000148_dist_ar_v7x_xy2x2_y_m32768_n1024_f32_1_alg».proof.Proof.Gen.Kernel

noncomputable section

namespace Cert.Kernel.Hand

open Idealize.ShloMosaic Idealize.SL.Sem
open Cert.Kernel Cert.Kernel.Gen

/-! ## In-bounds facts at a symbolic index -/

theorem inb64 (k : Nat) (hk : k < 64) : ∀ a, (![k] : Fin 1 → Nat) a + S1.size a ≤ S64.size a := by
  intro a; fin_cases a; show k + 1 ≤ 64; omega
theorem inb2 (s : Nat) (hs : s < 2) : ∀ a, (![s] : Fin 1 → Nat) a + S1.size a ≤ S2.size a := by
  intro a; fin_cases a; show s + 1 ≤ 2; omega
theorem inbSlot (s : Nat) (hs : s < 2) : ∀ a, (![s, 0, 0] : Fin 3 → Nat) a + S1x256x1024.size a ≤ S2x256x1024.size a := by
  intro a; fin_cases a
  · show s + 1 ≤ 2; omega
  · show 0 + 256 ≤ 256; omega
  · show 0 + 1024 ≤ 1024; omega

/-! ## The arrays -/

abbrev xM : Memref sig .tc .hbm S32768x1024 .f32 := Memref.whole main_arg0
abbrev oM : Memref sig .tc .hbm S32768x1024 .f32 := Memref.whole main_v1
abbrev aM : Memref sig .tc .vmem S2x256x1024 .f32 := Memref.whole cc0_scratch4
abbrev bM : Memref sig .tc .vmem S2x256x1024 .f32 := Memref.whole cc0_scratch5
abbrev sM : Memref sig .tc .vmem S2x256x1024 .f32 := Memref.whole cc0_scratch6

/-- The rectangle of chunk k of device d's half: 256 whole rows. -/
abbrev rowsR (d : Dev nD) (k : Nat) (hk : k < 64) : Rect S32768x1024 :=
  Rect.unit (s := S32768x1024) (k0_off1 d (BitVec.ofNat 32 (256 * k))) S256x1024.size (k0_off1_inb d ⟨k, hk⟩)

/-- Chunk k's rows of the argument array; of the result array. -/
abbrev xRows (d : Dev nD) (k : Nat) (hk : k < 64) : Memref sig .tc .hbm S256x1024 .f32 := xM.slice (rowsR d k hk) (fun _ => rfl)
abbrev oRows (d : Dev nD) (k : Nat) (hk : k < 64) : Memref sig .tc .hbm S256x1024 .f32 := oM.slice (rowsR d k hk) (fun _ => rfl)

/-- Slot s of a scratch array, as the box a vector load or store names it by; -/
abbrev slotR (s : Nat) (hs : s < 2) : Rect S2x256x1024 := Rect.unit (s := S2x256x1024) ![s, 0, 0] S1x256x1024.size (inbSlot s hs)
/-- and as the 256 x 1024 memref a copy names it by. -/
abbrev slotOf (M : Memref sig .tc .vmem S2x256x1024 .f32) (s : Nat) (hs : s < 2) : Memref sig .tc .vmem S256x1024 .f32 :=
  (M.slice (slotR s hs) (fun _ => rfl)).squeeze S256x1024 squeezes_S1x256x1024_S256x1024

/-- Semaphore k of an array of 64; semaphore s of an array of 2. -/
abbrev sem64 (A : DmaSems sig S64) (k : Nat) (hk : k < 64) : DmaSem sig :=
  ((A.slice (Rect.unit (s := S64) ![k] S1.size (inb64 k hk))).squeeze S_ squeezes_S1_S_).sem
abbrev sem2 (A : DmaSems sig S2) (s : Nat) (hs : s < 2) : DmaSem sig :=
  ((A.slice (Rect.unit (s := S2) ![s] S1.size (inb2 s hs))).squeeze S_ squeezes_S1_S_).sem

abbrev ysS (k : Nat) (hk : k < 64) : DmaSem sig := sem64 cc0_scratch0 k hk
abbrev yrS (k : Nat) (hk : k < 64) : DmaSem sig := sem64 cc0_scratch1 k hk
abbrev xsS (k : Nat) (hk : k < 64) : DmaSem sig := sem64 cc0_scratch2 k hk
abbrev xrS (k : Nat) (hk : k < 64) : DmaSem sig := sem64 cc0_scratch3 k hk
abbrev aS (s : Nat) (hs : s < 2) : DmaSem sig := sem2 cc0_scratch7 s hs
abbrev bS (s : Nat) (hs : s < 2) : DmaSem sig := sem2 cc0_scratch8 s hs
abbrev stS (s : Nat) (hs : s < 2) : DmaSem sig := sem2 cc0_scratch9 s hs

/-- The runtime's barrier semaphore of collective id 0. -/
abbrev barS : Sem sig := (SemArray.scalar (sig.barrier 0 rfl) : Sems sig S_).sem

/-- The y-neighbour and the x-neighbour of a device, as the kernel computes them. -/
abbrev nbrY (d : Dev nD) : Dev nD := ⟨k0_dev1 d, k0_dev1_lt d⟩
abbrev nbrX (d : Dev nD) : Dev nD := ⟨k0_dev2 d, k0_dev2_lt d⟩

end Cert.Kernel.Hand

end
-- ==== Proof.Bits.Result.lean ====
/-
  The value the all-reduce leaves in each device's result array, as a function of the initial memory.

  Device d holds the array x_d (32768 rows of 1024).  The reduction runs along the y axis of the 2 x 2 mesh:
  the result at every index is x_d + x_{y-neighbour of d}.  Each device computes this sum only on its own half of
  the rows (the half numbered d / 2, 16384 rows); the other half is computed by its x-neighbour, which holds the
  same block of the whole argument (the x axis replicates) and whose y-neighbour holds the other block, and is then
  copied over.  So the result array of device c holds, on the rows of its own half, the sum formed on c, and on
  the other rows the sum formed on the x-neighbour of c.
-/
import proofs.«900147_g7700000000000148_dist_ar_v7x_xy2x2_y_m32768_n1024_f32_1_alg».proof.Proof.Bits.Views

noncomputable section

namespace Cert.Kernel.Hand

open Idealize.ShloMosaic Idealize.SL.Sem
open Cert.Kernel Cert.Kernel.Gen

variable {F : FTy → Type} [FloatOps F]
variable (m : (ℓ : Loc nD τ sig) → Buf (Elt F) ℓ)

/-- Device d's argument array in the initial memory. -/
abbrev xs (d : Dev nD) : S32768x1024.Idx → F .f32 := m ((d.tc : Thread nD τ).loc main_arg0)

/-- The sum formed on device d: its own array plus its y-neighbour's, index by index. -/
def sumAt (d : Dev nD) : S32768x1024.Idx → F .f32 := fun i => FloatOps.addf (xs m d i) (xs m (nbrY d) i)

/-- The final contents of device c's result array: on the rows of c's own half (row / 16384 = c / 2) the sum
    formed on c, on the other half the sum formed on c's x-neighbour. -/
def resBuf (c : Dev nD) : Buf (Elt F) ((c.tc : Thread nD τ).loc main_v1) :=
  fun i => if (i 0).val / 16384 = c.val / 2 then sumAt m c i else sumAt m (nbrX c) i

end Cert.Kernel.Hand

end
-- ==== Proof.Bits.Sched.lean ====
/-
  The protocol of the all-reduce as a schedule of rounds.

  Per device: the runtime's barrier cell (one round, two duties of one unit: the y-neighbour's signal, which hands over
  the rows of ITS result array this device will write with its y-copies, and the x-neighbour's, likewise for the x-copies);
  per chunk k the y-send, y-receive, x-send and x-receive cells (one round, one duty: a copy's credit); per slot s the
  three local cells a, b, st (32 rounds, round r serving chunk 2 r + s, one duty: this device's own local copy).
  Each landing's payload names the CONTENTS it lands: the y-receive of chunk k says the chunk's rows of the result array
  hold the y-neighbour's x there; the x-receive says the other half's chunk holds the x-neighbour's sum there.
-/
import proofs.«900147_g7700000000000148_dist_ar_v7x_xy2x2_y_m32768_n1024_f32_1_alg».proof.Proof.Bits.Result
import Idealize.ShloMosaic.Lib.Pipeline.Launch
import Idealize.ShloMosaic.Lib.Pipeline.Kit
import Idealize.ShloMosaic.Lib.Tactic

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) beside the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

abbrev barCell (c : Dev nD) : GSem nD τ sig := ((c : Thread nD τ), .reg barS)
abbrev ysCell (c : Dev nD) (k : Nat) (hk : k < 64) : GSem nD τ sig := ((c : Thread nD τ), .dma (ysS k hk))
abbrev yrCell (c : Dev nD) (k : Nat) (hk : k < 64) : GSem nD τ sig := ((c : Thread nD τ), .dma (yrS k hk))
abbrev xsCell (c : Dev nD) (k : Nat) (hk : k < 64) : GSem nD τ sig := ((c : Thread nD τ), .dma (xsS k hk))
abbrev xrCell (c : Dev nD) (k : Nat) (hk : k < 64) : GSem nD τ sig := ((c : Thread nD τ), .dma (xrS k hk))
abbrev aCell (c : Dev nD) (s : Nat) (hs : s < 2) : GSem nD τ sig := ((c : Thread nD τ), .dma (aS s hs))
abbrev bCell (c : Dev nD) (s : Nat) (hs : s < 2) : GSem nD τ sig := ((c : Thread nD τ), .dma (bS s hs))
abbrev stCell (c : Dev nD) (s : Nat) (hs : s < 2) : GSem nD τ sig := ((c : Thread nD τ), .dma (stS s hs))

/-- What a semaphore is for, read off its number in the DMA pool (y-send 0.., y-receive 64.., x-send 128..,
    x-receive 192.., a 256.., b 258.., st 260..) or, on the regular pool, whether it is the barrier semaphore. -/
inductive Role : Type
  | bar | ys (k : Nat) | yr (k : Nat) | xs (k : Nat) | xr (k : Nat) | a (s : Nat) | b (s : Nat) | st (s : Nat) | other
  deriving DecidableEq

def roleOf : SemLoc sig → Role
  | .reg s => if s = barS then .bar else .other
  | .dma n =>
    if n.val < 64 then .ys n.val else if n.val < 128 then .yr (n.val - 64) else if n.val < 192 then .xs (n.val - 128)
    else if n.val < 256 then .xr (n.val - 192) else if n.val < 258 then .a (n.val - 256) else if n.val < 260 then .b (n.val - 258)
    else .st (n.val - 260)

/-! ## Credits -/

/-- The credit of a copy into 256 rows of the result array; into a slot of scratch a; of scratch b. -/
abbrev No : ℕ := (oRows (0 : Dev nD) 0 (by decide)).view.dmaCredit
abbrev Na : ℕ := (slotOf aM 0 (by decide)).view.dmaCredit
abbrev Nb : ℕ := (slotOf bM 0 (by decide)).view.dmaCredit

/-! ## Contents -/

/-- The two half shares a buffer read by two copies at once is held at. -/
abbrev qL : PosShare TreeShare := fullShare.left
abbrev qR : PosShare TreeShare := fullShare.right

/-- Chunk k of device d's half of a whole array g, laid into both slots of a 2 x 256 x 1024 scratch: entry (s, i, j) is
    g at row 16384 (d / 2) + 256 k + i, column j. (The row is taken mod 32768: no wrap for k < 64.) -/
def spread {α : Type} (g : S32768x1024.Idx → α) (d : Dev nD) (k : Nat) : S2x256x1024.Idx → α :=
  fun j => g (Shape.pair (⟨(16384 * (d.val / 2) + 256 * k + (j 1).val) % 32768, Nat.mod_lt _ (by decide)⟩ : Fin 32768)
    (⟨(j 2).val % 1024, Nat.mod_lt _ (by decide)⟩ : Fin 1024))

/-- Rows (d's half, chunk k) of device c's result array, held whole, at contents g there. -/
def oHolds (c d : Dev nD) (k : Nat) (hk : k < 64) (g : S32768x1024.Idx → F .f32) : sProp 𝕄 :=
  (oRows d k hk).view.loc (c : Thread nD τ) ↦[(oRows d k hk).view.set]{fullShare} g
/-- The same rows over some contents. -/
def oSome (c d : Dev nD) (k : Nat) (hk : k < 64) : sProp 𝕄 :=
  iprop(∃ f : S32768x1024.Idx → F .f32, (oRows d k hk).view.loc (c : Thread nD τ) ↦[(oRows d k hk).view.set]{fullShare} f)
/-- Chunk k's rows of device c's argument array, at share q, at its launch contents. -/
def xHolds (c : Dev nD) (k : Nat) (hk : k < 64) (q : PosShare TreeShare) : sProp 𝕄 :=
  (xRows c k hk).view.loc (c : Thread nD τ) ↦[(xRows c k hk).view.set]{q} (xs m c)
/-- Slot s of scratch a (of scratch b) of device c, whole, at contents v there; slot s of the sum scratch at share q over
    some contents. -/
def slotHoldsA (c : Dev nD) (s : Nat) (hs : s < 2) (v : S2x256x1024.Idx → F .f32) : sProp 𝕄 :=
  (slotOf aM s hs).view.loc (c : Thread nD τ) ↦[(slotOf aM s hs).view.set]{fullShare} v
def slotHoldsB (c : Dev nD) (s : Nat) (hs : s < 2) (v : S2x256x1024.Idx → F .f32) : sProp 𝕄 :=
  (slotOf bM s hs).view.loc (c : Thread nD τ) ↦[(slotOf bM s hs).view.set]{fullShare} v
def slotSomeS (c : Dev nD) (s : Nat) (hs : s < 2) (q : PosShare TreeShare) : sProp 𝕄 :=
  iprop(∃ f : S2x256x1024.Idx → F .f32, (slotOf sM s hs).view.loc (c : Thread nD τ) ↦[(slotOf sM s hs).view.set]{q} f)

/-- What a neighbour p's barrier signal hands device c: the rows of p's result array that c's copies to p write
    (c's half, all 64 chunks), over some contents. -/
def barPay (c p : Dev nD) : sProp 𝕄 := bigSep Finset.univ fun k : Fin 64 => oSome (F := F) p c k.val k.isLt

/-! ## The schedule -/

def payloadOf (c : Dev nD) (ro : Role) (r : ℕ) (d : Bool) : sProp 𝕄 :=
  match ro with
  | .bar => if d then barPay c (nbrX c) else barPay c (nbrY c)
  | .ys k => if hk : k < 64 then xHolds m c k hk qL else iprop(emp)
  | .yr k => if hk : k < 64 then oHolds c c k hk (xs m (nbrY c)) else iprop(emp)
  | .xs k => slotSomeS c (k % 2) (Nat.mod_lt _ (by decide)) qL
  | .xr k => if hk : k < 64 then oHolds c (nbrX c) k hk (sumAt m (nbrX c)) else iprop(emp)
  | .a s => if h : s < 2 ∧ 2 * r + s < 64 then
      iprop(slotHoldsA c s h.1 (spread (xs m c) c (2 * r + s)) ∗ xHolds m c (2 * r + s) h.2 qR) else iprop(emp)
  | .b s => if h : s < 2 ∧ 2 * r + s < 64 then
      iprop(slotHoldsB c s h.1 (spread (xs m (nbrY c)) c (2 * r + s)) ∗ oHolds c c (2 * r + s) h.2 (xs m (nbrY c))) else iprop(emp)
  | .st s => if h : s < 2 ∧ 2 * r + s < 64 then
      iprop(oHolds c c (2 * r + s) h.2 (sumAt m c) ∗ slotSomeS c s h.1 qR) else iprop(emp)
  | .other => iprop(emp)

def dutiesOf (ro : Role) (r : ℕ) : Finset Bool :=
  match ro with
  | .bar => if r = 0 then Finset.univ else ∅
  | .ys _ | .yr _ | .xs _ | .xr _ => if r = 0 then {false} else ∅
  | .a _ | .b _ | .st _ => if r < 32 then {false} else ∅
  | .other => ∅

def amountOfRole (ro : Role) : ℕ :=
  match ro with
  | .bar => 1
  | .a _ => Na
  | .b _ => Nb
  | _ => No

theorem No_pos : 0 < No := View.dmaCredit_pos _ (by decide)
theorem Na_pos : 0 < Na := View.dmaCredit_pos _ (by decide)
theorem Nb_pos : 0 < Nb := View.dmaCredit_pos _ (by decide)

def sched : Rounds.Schedule (GSem nD τ sig) Bool 𝕄 where
  duties g r := if g.1.2 = .tc then dutiesOf (roleOf g.2) r else ∅
  unitless _ := False
  amount g _ _ := amountOfRole (roleOf g.2)
  payload g r d := payloadOf m g.1.1 (roleOf g.2) r d
  amount_pos g _ _ _ := by
    show 0 < amountOfRole (roleOf g.2)
    unfold amountOfRole; split <;> first | exact Nat.one_pos | exact Na_pos | exact Nb_pos | exact No_pos

/-! ## What a device owes at launch, and the levels -/

/-- The 64 y-copies into the y-neighbour's y-receive cells, the 64 x-copies into the x-neighbour's x-receive cells. -/
def owedY (c : Dev nD) (from_ : Nat) : CellTallies nD τ sig Unit :=
  ∑ k : Fin 64, if from_ ≤ k.val then tallyAt (yrCell (nbrY c) k.val k.isLt) () No else 0
def owedX (c : Dev nD) (from_ : Nat) : CellTallies nD τ sig Unit :=
  ∑ k : Fin 64, if from_ ≤ k.val then tallyAt (xrCell (nbrX c) k.val k.isLt) () No else 0

/-- At launch: both barrier signals and all the copies. -/
def O₀ (c : Dev nD) : CellTallies nD τ sig Unit :=
  owedX c 0 + owedY c 0 + tallyAt (barCell (nbrX c)) () 1 + tallyAt (barCell (nbrY c)) () 1

def Lset (g : GSem nD τ sig) : Finset Unit := if g.1.2 = .tc then {()} else ∅
/-- Own send and local cells lowest, the barrier above them, the y-receive cells above it, the x-receive cells on top:
    whatever a device still owes when it waits lies above the cell it waits on. -/
def lv (g : GSem nD τ sig) (_ : Unit) : ℕ :=
  match roleOf g.2 with
  | .bar => 1
  | .yr _ => 2
  | .xr _ => 3
  | _ => 0

end Cert.Kernel.Hand

end
-- ==== Proof.Bits.State.lean ====
/-
  What a device holds when its body starts and when it ends.

  All cells of all devices: the barrier cell and the 262 DMA cells of each. Persistent: every cell's invariant under the
  name the launch gave it, round 0 of every cell reached, the levels. Linear, at entry: the device's position at the start
  of each of its own cells; the token of every duty IT pays (both neighbours' barrier duties, the y-neighbour's y-receive
  duties, the x-neighbour's x-receive duties, and the duties of its own send and local cells); the launch credit of the
  cells others pay (its barrier's two units, its y-receive and x-receive cells' credits); what it owes; its argument array
  at its launch contents, its result array and its three scratch arrays over some contents.
  At exit: the argument array unchanged, the result array at the all-reduced contents, the scratch arrays over some
  contents, every own DMA cell closed with its counter at zero, nothing owed.
-/
import proofs.«900147_g7700000000000148_dist_ar_v7x_xy2x2_y_m32768_n1024_f32_1_alg».proof.Proof.Bits.Sched

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## All cells -/

/-- A device's cells: its barrier cell (`none`) and its DMA cells. -/
abbrev kcell (cj : Dev nD × Option (DmaSem sig)) : GSem nD τ sig :=
  match cj.2 with
  | none => barCell cj.1
  | some n => ((cj.1 : Thread nD τ), .dma n)

theorem kcell_injective : Function.Injective (kcell : Dev nD × Option (DmaSem sig) → GSem nD τ sig) := by
  rintro ⟨c, j⟩ ⟨c', j'⟩ h
  have h1 : c = c' := by
    have := congrArg (fun g : GSem nD τ sig => g.1.1) h
    cases j <;> cases j' <;> exact this
  subst h1
  have h2 := congrArg Prod.snd h
  cases j with
  | none =>
    cases j' with
    | none => rfl
    | some b => exact absurd h2 (fun h' => by cases h')
  | some a =>
    cases j' with
    | none => exact absurd h2 (fun h' => by cases h')
    | some b =>
      have hab : a = b := by injection h2
      subst hab; rfl

def allCells : Finset (GSem nD τ sig) := Finset.univ.map ⟨kcell, kcell_injective⟩

theorem mem_allCells_bar (c : Dev nD) : barCell c ∈ allCells := Finset.mem_map.mpr ⟨(c, none), Finset.mem_univ _, rfl⟩
theorem mem_allCells_dma (c : Dev nD) (n : DmaSem sig) : ((c : Thread nD τ), SemLoc.dma n) ∈ allCells :=
  Finset.mem_map.mpr ⟨(c, some n), Finset.mem_univ _, rfl⟩

/-! ## The persistent records -/

/-- Every cell's invariant, under the names `K`; round 0 of every cell reached. -/
def records (K : GSem nD τ sig → ℕ) : sProp 𝕄 :=
  iprop((bigSep allCells fun g => cellInv ER (sched m) (K g) g) ∗ bigSep allCells fun g => reached ER g 0)

instance records_persistent (K : GSem nD τ sig → ℕ) : BI.Persistent (records m K) := by unfold records; infer_instance

theorem inv_of_records (K : GSem nD τ sig → ℕ) {g : GSem nD τ sig} (hg : g ∈ allCells) :
    records m K ⊢ cellInv ER (sched m) (K g) g := by
  unfold records
  exact sep_elim_left.trans (bigSep_elim (Φ := fun g => (cellInv ER (sched m) (K g) g : sProp 𝕄)) hg)
theorem reached_of_records (K : GSem nD τ sig → ℕ) {g : GSem nD τ sig} (hg : g ∈ allCells) :
    records m K ⊢ reached ER g 0 := by
  unfold records
  exact sep_elim_right.trans (bigSep_elim (Φ := fun g => (reached ER g 0 : sProp 𝕄)) hg)

/-! ## A device's own linear ghost state at entry -/

/-- Its position at the start of each of its own cells. -/
def positions (c : Dev nD) : sProp 𝕄 :=
  iprop(atPos ER (barCell c) 0 ∅ 0 ∗ bigSep Finset.univ fun n : DmaSem sig => atPos ER ((c : Thread nD τ), SemLoc.dma n) 0 ∅ 0)

/-- The tokens of the duties device c pays. -/
def payToks (c : Dev nD) : sProp 𝕄 :=
  iprop(dutyTok ER (barCell (nbrY c)) 0 false ∗ dutyTok ER (barCell (nbrX c)) 0 true
    ∗ (bigSep Finset.univ fun k : Fin 64 => iprop(
        dutyTok ER (ysCell c k.val k.isLt) 0 false ∗ dutyTok ER (yrCell (nbrY c) k.val k.isLt) 0 false
        ∗ dutyTok ER (xsCell c k.val k.isLt) 0 false ∗ dutyTok ER (xrCell (nbrX c) k.val k.isLt) 0 false))
    ∗ (bigSep Finset.univ fun sr : Fin 2 × Fin 32 => iprop(
        dutyTok ER (aCell c sr.1.val sr.1.isLt) sr.2.val false ∗ dutyTok ER (bCell c sr.1.val sr.1.isLt) sr.2.val false
        ∗ dutyTok ER (stCell c sr.1.val sr.1.isLt) sr.2.val false)))

/-- The launch credit of the cells other devices pay. -/
def launchCreds (c : Dev nD) : sProp 𝕄 :=
  iprop(cred (tallyAt (barCell c) () 2)
    ∗ bigSep Finset.univ fun k : Fin 64 => iprop(
        cred (tallyAt (yrCell c k.val k.isLt) () No) ∗ cred (tallyAt (xrCell c k.val k.isLt) () No)))

/-- The ghost part of what the body starts from. -/
def start (c : Dev nD) : sProp 𝕄 :=
  iprop((∃ K, records m K) ∗ positions c ∗ payToks c ∗ launchCreds c ∗ levAts Lset lv)

/-! ## The buffers -/

/-- A whole buffer of device c at the full share. -/
abbrev whole (c : Dev nD) (b : Ref sig .tc) (f : Buf (Elt F) ((c : Thread nD τ).loc b)) : sProp 𝕄 :=
  ((c : Thread nD τ).loc b) ↦{fullShare} f

/-- The three scratch arrays over some contents. -/
def scratches (c : Dev nD) : sProp 𝕄 :=
  iprop((∃ f, whole c cc0_scratch4 f) ∗ (∃ f, whole c cc0_scratch5 f) ∗ (∃ f, whole c cc0_scratch6 f))

/-- Every own DMA cell's counter, at zero. -/
def ownZeros (c : Dev nD) : sProp 𝕄 := bigSep Finset.univ fun n : DmaSem sig => semVal ((c : Thread nD τ), SemLoc.dma n) 0

/-- Entry: the ghost state, what the device owes, the two arrays and the scratch. -/
def Φ₀ (c : Dev nD) : sProp 𝕄 :=
  iprop(start m c ∗ whole c main_arg0 (xs m c) ∗ (∃ f, whole c main_v1 f) ∗ scratches c)

/-- Exit: the argument unchanged, the result all-reduced, the scratch over some contents, the own cells closed. -/
def Φ₁ (c : Dev nD) : sProp 𝕄 :=
  iprop(whole c main_arg0 (xs m c) ∗ whole c main_v1 (resBuf m c) ∗ scratches c ∗ ownZeros c)

end Cert.Kernel.Hand

end
-- ==== Proof.Bits.Fold.lean ====
/-
  The kernel body as its protocol reads: the entry handshake, the 64 copies to the y-neighbour, then 64 steps of one
  shape, the last two store-backs' waits, and the 64 waits for the x-neighbour's copies.

  The printed body is the same sequence of operations cut by count into some two hundred consecutive windows; a step
  of the protocol spans three of them. Here the sequence is laid out by chunk, each chunk's operations one term in the
  chunk number, and the two texts are one program: unfolding both gives the same tree of operations.
-/
import proofs.«900147_g7700000000000148_dist_ar_v7x_xy2x2_y_m32768_n1024_f32_1_alg».proof.Proof.Bits.Views
import Idealize.ShloMosaic.Lib.Pipeline.Regions

noncomputable section

namespace Cert.Kernel.Hand

open Idealize.ShloMosaic Idealize.SL.Sem
open Cert.Kernel Cert.Kernel.Gen

variable {F : FTy → Type} [FloatOps F]

/-- One thread's program over the kernel's effects. -/
abbrev KProg (F : FTy → Type) [FloatOps F] : Type 1 := Prog (TpuEff nD τ sig (Elt F) Λ₀ .tc) PUnit

theorem slot_lt (k : Nat) : k % 2 < 2 := Nat.mod_lt _ (by decide)

/-- What a step stores into its slot of the sum scratch: the two loaded slots added, element by element. -/
def sumPay (va vb : Vec F S1x256x1024 .f32) : FVec F S1x256x1024 .f32 :=
  shapeCast S1x256x1024
    (addf (shapeCast S256x1024 va shapeCasts_S1x256x1024_S256x1024) (shapeCast S256x1024 vb shapeCasts_S1x256x1024_S256x1024))
    shapeCasts_S256x1024_S1x256x1024

/-- Chunk k's rows of x sent to the y-neighbour's result array, crediting this device's y-send cell k and the
    neighbour's y-receive cell k. -/
def yEnq (d : Dev nD) (k : Nat) (hk : k < 64) : KProg F :=
  Prog.lift (.enqueueDma (xRows d k hk) (.remote (Dev.tc (nbrY d)) (oRows d k hk) (.dma (ysS k hk))) (.dma (yrS k hk))
    (View.wordExact_bits rfl) (View.wordExact_bits rfl) ⟨⟨rfl, Or.inl rfl⟩, trivial⟩)

/-- The two waits that free the sum scratch's slot of chunk j: its store-back has landed, its copy to the x-neighbour
    has been read in full. -/
def waitsFor (d : Dev nD) (j : Nat) (hj : j < 64) : KProg F := do
  Prog.lift (.waitDma2 (stS (j % 2) (slot_lt j)) (slotOf sM (j % 2) (slot_lt j)) (oRows d j hj)
    ((View.wordExact_bits rfl).reshape _ _) (View.wordExact_bits rfl))
  Prog.lift (.waitDma2 (xsS j hj) (oRows d j hj) (slotOf sM (j % 2) (slot_lt j))
    (View.wordExact_bits rfl) ((View.wordExact_bits rfl).reshape _ _))

/-- Chunk k, first part: x's rows into slot a; the y-neighbour's rows awaited and copied into slot b; both awaited. -/
def coreA (d : Dev nD) (k : Nat) (hk : k < 64) : KProg F := do
  Prog.lift (.enqueueDma (xRows d k hk) (.here (slotOf aM (k % 2) (slot_lt k))) (.dma (aS (k % 2) (slot_lt k)))
    (View.wordExact_bits rfl) ((View.wordExact_bits rfl).reshape _ _) ⟨Or.inl rfl, trivial⟩)
  Prog.lift (.waitDma2 (yrS k hk) (xRows d k hk) (oRows d k hk) (View.wordExact_bits rfl) (View.wordExact_bits rfl))
  Prog.lift (.enqueueDma (oRows d k hk) (.here (slotOf bM (k % 2) (slot_lt k))) (.dma (bS (k % 2) (slot_lt k)))
    (View.wordExact_bits rfl) ((View.wordExact_bits rfl).reshape _ _) ⟨Or.inl rfl, trivial⟩)
  Prog.lift (.waitDma2 (aS (k % 2) (slot_lt k)) (xRows d k hk) (slotOf aM (k % 2) (slot_lt k))
    (View.wordExact_bits rfl) ((View.wordExact_bits rfl).reshape _ _))
  Prog.lift (.waitDma2 (bS (k % 2) (slot_lt k)) (oRows d k hk) (slotOf bM (k % 2) (slot_lt k))
    (View.wordExact_bits rfl) ((View.wordExact_bits rfl).reshape _ _))

/-- Second part: the two slots loaded (and the sum slot, whose value is not used), their sum stored into the sum slot. -/
def coreB (k : Nat) : KProg F := do
  let va : Vec F S1x256x1024 .f32 ← Prog.lift (.load aM (slotR (k % 2) (slot_lt k)).toLoadRect (View.loadsAt_vmem h_S1x256x1024))
  let vb : Vec F S1x256x1024 .f32 ← Prog.lift (.load bM (slotR (k % 2) (slot_lt k)).toLoadRect (View.loadsAt_vmem h_S1x256x1024))
  let _vo : Vec F S1x256x1024 .f32 ← Prog.lift (.load sM (slotR (k % 2) (slot_lt k)).toLoadRect (View.loadsAt_vmem h_S1x256x1024))
  Prog.lift (.store sM (slotR (k % 2) (slot_lt k)) (sumPay va vb) Finset.univ (View.stores_vmem_bits_univ h_S1x256x1024 rfl) (.inl rfl))

/-- Third part: the sum slot copied back to the result rows and to the x-neighbour's result rows; the y-copy's source
    released. -/
def coreC (d : Dev nD) (k : Nat) (hk : k < 64) : KProg F := do
  Prog.lift (.enqueueDma (slotOf sM (k % 2) (slot_lt k)) (.here (oRows d k hk)) (.dma (stS (k % 2) (slot_lt k)))
    ((View.wordExact_bits rfl).reshape _ _) (View.wordExact_bits rfl) ⟨Or.inl rfl, trivial⟩)
  Prog.lift (.enqueueDma (slotOf sM (k % 2) (slot_lt k)) (.remote (Dev.tc (nbrX d)) (oRows d k hk) (.dma (xsS k hk))) (.dma (xrS k hk))
    ((View.wordExact_bits rfl).reshape _ _) (View.wordExact_bits rfl) ⟨⟨rfl, Or.inl rfl⟩, trivial⟩)
  Prog.lift (.waitDma2 (ysS k hk) (oRows d k hk) (xRows d k hk) (View.wordExact_bits rfl) (View.wordExact_bits rfl))

/-- Chunk k's own operations: the three parts in order. -/
def core (d : Dev nD) (k : Nat) (hk : k < 64) : KProg F :=
  coreA d k hk >>= fun _ => coreB k >>= fun _ => coreC d k hk

/-- Step k: from the third chunk on, first free the slot (chunk k - 2's two waits). -/
def step (d : Dev nD) (k : Nat) (hk : k < 64) : KProg F :=
  if h : 2 ≤ k then (waitsFor d (k - 2) (by omega) >>= fun _ => core d k hk) else core d k hk

/-- The wait for the x-neighbour's copy of its chunk k into this device's result rows. -/
def xrWait (d : Dev nD) (k : Nat) (hk : k < 64) : KProg F :=
  Prog.lift (.waitDma2 (xrS k hk) (slotOf sM (k % 2) (slot_lt k)) (oRows d k hk)
    ((View.wordExact_bits rfl).reshape _ _) (View.wordExact_bits rfl))

/-- Everything after the entry handshake, chunk by chunk. -/
def items (d : Dev nD) : List (KProg F) :=
  (List.finRange 64).map (fun k => yEnq d k.val k.isLt)
    ++ (List.finRange 64).map (fun k => step d k.val k.isLt)
    ++ [waitsFor d 62 (by decide), waitsFor d 63 (by decide)]
    ++ (List.finRange 64).map (fun k => xrWait d k.val k.isLt)

/-- The body: read the device id, signal both neighbours' barrier semaphore, wait for both, then the chunks. -/
def folded : KProg F := do
  let d : Dev nD ← Prog.lift .deviceId
  semSignalWord (nbrY d) barS 1#32 hamt_1
  semSignalWord (nbrX d) barS 1#32 hamt_1
  semWaitWord barS 2#32 hamt_2
  Pipeline.chain (items d)

set_option maxRecDepth 200000 in
/-- The printed body, at the arrays the launch calls it with, is the body laid out by chunk. -/
theorem body_fold :
    cc0_body (F := F) (Memref.whole main_arg0) (Memref.isWhole_whole _) (Memref.whole main_v1) (Memref.isWhole_whole _)
      cc0_scratch0 cc0_scratch1 cc0_scratch2 cc0_scratch3 (Memref.whole cc0_scratch4) (Memref.isWhole_whole _)
      (Memref.whole cc0_scratch5) (Memref.isWhole_whole _) (Memref.whole cc0_scratch6) (Memref.isWhole_whole _)
      cc0_scratch7 cc0_scratch8 cc0_scratch9 = folded := by
  chain_rfl

/-- info: 'Cert.Kernel.Hand.body_fold' depends on axioms: [propext, Classical.choice, Quot.sound] -/
#guard_msgs in #print axioms body_fold

end Cert.Kernel.Hand

end
-- ==== Proof.Bits.StepDefs.lean ====
/-
  The state of a scratch slot between the steps of the protocol, and what a chunk's step consumes and leaves.
  Slot s serves the chunks of parity s in turn; the r-th of them is chunk 2 r + s.
-/
import proofs.«900147_g7700000000000148_dist_ar_v7x_xy2x2_y_m32768_n1024_f32_1_alg».proof.Proof.Bits.State
import proofs.«900147_g7700000000000148_dist_ar_v7x_xy2x2_y_m32768_n1024_f32_1_alg».proof.Proof.Bits.Fold

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The state of a slot, and what a chunk's step consumes and leaves -/

/-- A slot's scratch held over some contents: scratch a, scratch b. -/
def abSome (c : Dev nD) (s : Nat) (hs : s < 2) : sProp 𝕄 :=
  iprop((∃ f : S2x256x1024.Idx → F .f32, (slotOf aM s hs).view.loc (c : Thread nD τ) ↦[(slotOf aM s hs).view.set]{fullShare} f)
    ∗ (∃ f : S2x256x1024.Idx → F .f32, (slotOf bM s hs).view.loc (c : Thread nD τ) ↦[(slotOf bM s hs).view.set]{fullShare} f))

/-- Slot s FREE before the step of its r-th chunk: the three scratch slots over some contents, the three local cells at
    round r, reached. -/
def slotFree (c : Dev nD) (s : Nat) (hs : s < 2) (r : ℕ) : sProp 𝕄 :=
  iprop(abSome (F := F) c s hs
    ∗ (∃ f : S2x256x1024.Idx → F .f32, (slotOf sM s hs).view.loc (c : Thread nD τ) ↦[(slotOf sM s hs).view.set]{fullShare} f)
    ∗ atPos ER (aCell c s hs) r ∅ 0 ∗ atPos ER (bCell c s hs) r ∅ 0 ∗ atPos ER (stCell c s hs) r ∅ 0
    ∗ reached ER (aCell c s hs) r ∗ reached ER (bCell c s hs) r ∗ reached ER (stCell c s hs) r)

/-- Slot s BUSY after the step of chunk j, its r-th: the store-back and the x-copy of the sum slot in flight (their
    credits in hand, their cells not yet consumed), a and b already a round further. -/
def slotBusy (c : Dev nD) (s : Nat) (hs : s < 2) (r : ℕ) (j : Nat) (hj : j < 64) : sProp 𝕄 :=
  iprop(abSome (F := F) c s hs
    ∗ atPos ER (aCell c s hs) (r + 1) ∅ 0 ∗ atPos ER (bCell c s hs) (r + 1) ∅ 0
    ∗ reached ER (aCell c s hs) (r + 1) ∗ reached ER (bCell c s hs) (r + 1)
    ∗ cred (tallyAt (stCell c s hs) () No) ∗ atPos ER (stCell c s hs) r ∅ 0 ∗ reached ER (stCell c s hs) r
    ∗ cred (tallyAt (xsCell c j hj) () No) ∗ atPos ER (xsCell c j hj) 0 ∅ 0)

/-- What chunk k's step consumes: the y-receive cell's launch credit and position; the y-send cell's credit (from the
    y-copy) and position; the x-send cell's position; the right half share of x's rows; the x-neighbour's result rows; the
    five tokens it pays with. -/
def stepPre (c : Dev nD) (k : Nat) (hk : k < 64) : sProp 𝕄 :=
  iprop(cred (tallyAt (yrCell c k hk) () No) ∗ atPos ER (yrCell c k hk) 0 ∅ 0
    ∗ cred (tallyAt (ysCell c k hk) () No) ∗ atPos ER (ysCell c k hk) 0 ∅ 0
    ∗ atPos ER (xsCell c k hk) 0 ∅ 0
    ∗ xHolds m c k hk qR ∗ oSome (F := F) (nbrX c) c k hk
    ∗ dutyTok ER (xsCell c k hk) 0 false ∗ dutyTok ER (xrCell (nbrX c) k hk) 0 false
    ∗ dutyTok ER (aCell c (k % 2) (slot_lt k)) (k / 2) false ∗ dutyTok ER (bCell c (k % 2) (slot_lt k)) (k / 2) false
    ∗ dutyTok ER (stCell c (k % 2) (slot_lt k)) (k / 2) false)

/-- What it leaves: both half shares of x's rows back, the two y cells consumed. -/
def stepPost (c : Dev nD) (k : Nat) (hk : k < 64) : sProp 𝕄 :=
  iprop(xHolds m c k hk qL ∗ xHolds m c k hk qR ∗ atPos ER (ysCell c k hk) 1 ∅ 0 ∗ atPos ER (yrCell c k hk) 1 ∅ 0)

/-- What a device owes during the steps: the x-copies from chunk j on, with some record of its waits. -/
def owesX (c : Dev nD) (j : Nat) : sProp 𝕄 := iprop(∃ W : Waits sig Unit, owes (c : Thread nD τ) (owedX c j) W)

end Cert.Kernel.Hand

end
-- ==== Proof.Bits.Tables.lean ====
/-
  The schedule's tables as equations, and the facts about levels.

  The number of each semaphore in the DMA pool (the four per-chunk arrays start at 0, 64, 128, 192; the three per-slot
  ones at 256, 258, 260) gives its role; from the role every cell's duties, amounts, expected units and payloads follow,
  round by round.  A chunk k is served by slot k % 2 in the local round k / 2.
-/
import proofs.«900147_g7700000000000148_dist_ar_v7x_xy2x2_y_m32768_n1024_f32_1_alg».proof.Proof.Bits.State

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem sem64_val (b : Nat) (h : b + S64.numel ≤ 262) (k : Nat) (hk : k < 64) :
    (sem64 (SemArray.consecutive b S64 h) k hk).val = b + k := by
  show b + (S64.rowMajor _).val = b + k
  rw [Shape.rowMajor_val_one, Rect.emb_apply]
  have h0 : ∀ x : Fin 1, b + (k + 1 * x.val) = b + k := fun x => by rw [Fin.val_eq_zero]; rfl
  exact h0 _

theorem sem2_val (b : Nat) (h : b + S2.numel ≤ 262) (s : Nat) (hs : s < 2) :
    (sem2 (SemArray.consecutive b S2 h) s hs).val = b + s := by
  show b + (S2.rowMajor _).val = b + s
  rw [Shape.rowMajor_val_one, Rect.emb_apply]
  have h0 : ∀ x : Fin 1, b + (s + 1 * x.val) = b + s := fun x => by rw [Fin.val_eq_zero]; rfl
  exact h0 _

theorem ysS_val (k : Nat) (hk : k < 64) : (ysS k hk).val = k := (sem64_val 0 hcc0_scratch0 k hk).trans (Nat.zero_add k)
theorem yrS_val (k : Nat) (hk : k < 64) : (yrS k hk).val = 64 + k := sem64_val 64 hcc0_scratch1 k hk
theorem xsS_val (k : Nat) (hk : k < 64) : (xsS k hk).val = 128 + k := sem64_val 128 hcc0_scratch2 k hk
theorem xrS_val (k : Nat) (hk : k < 64) : (xrS k hk).val = 192 + k := sem64_val 192 hcc0_scratch3 k hk
theorem aS_val (s : Nat) (hs : s < 2) : (aS s hs).val = 256 + s := sem2_val 256 hcc0_scratch7 s hs
theorem bS_val (s : Nat) (hs : s < 2) : (bS s hs).val = 258 + s := sem2_val 258 hcc0_scratch8 s hs
theorem stS_val (s : Nat) (hs : s < 2) : (stS s hs).val = 260 + s := sem2_val 260 hcc0_scratch9 s hs

theorem roleOf_bar : roleOf (.reg barS) = .bar := by simp only [roleOf]; exact if_pos trivial
theorem roleOf_ys (k : Nat) (hk : k < 64) : roleOf (.dma (ysS k hk)) = .ys k := by
  unfold roleOf; simp only [ysS_val]; rw [if_pos hk]
theorem roleOf_yr (k : Nat) (hk : k < 64) : roleOf (.dma (yrS k hk)) = .yr k := by
  unfold roleOf; simp only [yrS_val]
  rw [if_neg (by omega), if_pos (by omega)]; congr 1; omega
theorem roleOf_xs (k : Nat) (hk : k < 64) : roleOf (.dma (xsS k hk)) = .xs k := by
  unfold roleOf; simp only [xsS_val]
  rw [if_neg (by omega), if_neg (by omega), if_pos (by omega)]; congr 1; omega
theorem roleOf_xr (k : Nat) (hk : k < 64) : roleOf (.dma (xrS k hk)) = .xr k := by
  unfold roleOf; simp only [xrS_val]
  rw [if_neg (by omega), if_neg (by omega), if_neg (by omega), if_pos (by omega)]; congr 1; omega
theorem roleOf_a (s : Nat) (hs : s < 2) : roleOf (.dma (aS s hs)) = .a s := by
  unfold roleOf; simp only [aS_val]
  rw [if_neg (by omega), if_neg (by omega), if_neg (by omega), if_neg (by omega), if_pos (by omega)]; congr 1; omega
theorem roleOf_b (s : Nat) (hs : s < 2) : roleOf (.dma (bS s hs)) = .b s := by
  unfold roleOf; simp only [bS_val]
  rw [if_neg (by omega), if_neg (by omega), if_neg (by omega), if_neg (by omega), if_neg (by omega), if_pos (by omega)]; congr 1; omega
theorem roleOf_st (s : Nat) (hs : s < 2) : roleOf (.dma (stS s hs)) = .st s := by
  unfold roleOf; simp only [stS_val]
  rw [if_neg (by omega), if_neg (by omega), if_neg (by omega), if_neg (by omega), if_neg (by omega), if_neg (by omega)]; congr 1; omega

/-! ## The schedule's tables -/

section Tables
variable (c : Dev nD)

theorem duties_tc (sm : SemLoc sig) (r : ℕ) : (sched m).duties ((c : Thread nD τ), sm) r = dutiesOf (roleOf sm) r := by
  dsimp only [sched]; exact if_pos rfl
theorem amount_tc (sm : SemLoc sig) (r : ℕ) (d : Bool) : (sched m).amount ((c : Thread nD τ), sm) r d = amountOfRole (roleOf sm) := rfl
theorem payload_tc (sm : SemLoc sig) (r : ℕ) (d : Bool) : (sched m).payload ((c : Thread nD τ), sm) r d = payloadOf m c (roleOf sm) r d := rfl

theorem duties_bar : (sched m).duties (barCell c) 0 = Finset.univ := by rw [duties_tc, roleOf_bar]; rfl
theorem duties_ys (k : Nat) (hk : k < 64) : (sched m).duties (ysCell c k hk) 0 = {false} := by rw [duties_tc, roleOf_ys]; rfl
theorem duties_yr (k : Nat) (hk : k < 64) : (sched m).duties (yrCell c k hk) 0 = {false} := by rw [duties_tc, roleOf_yr]; rfl
theorem duties_xs (k : Nat) (hk : k < 64) : (sched m).duties (xsCell c k hk) 0 = {false} := by rw [duties_tc, roleOf_xs]; rfl
theorem duties_xr (k : Nat) (hk : k < 64) : (sched m).duties (xrCell c k hk) 0 = {false} := by rw [duties_tc, roleOf_xr]; rfl
theorem duties_a (s : Nat) (hs : s < 2) (r : ℕ) (hr : r < 32) : (sched m).duties (aCell c s hs) r = {false} := by
  rw [duties_tc, roleOf_a]; exact if_pos hr
theorem duties_b (s : Nat) (hs : s < 2) (r : ℕ) (hr : r < 32) : (sched m).duties (bCell c s hs) r = {false} := by
  rw [duties_tc, roleOf_b]; exact if_pos hr
theorem duties_st (s : Nat) (hs : s < 2) (r : ℕ) (hr : r < 32) : (sched m).duties (stCell c s hs) r = {false} := by
  rw [duties_tc, roleOf_st]; exact if_pos hr

/-- The roles whose cell has one round only (all but the three local ones). -/
def Role.single : Role → Bool
  | .a _ | .b _ | .st _ => false
  | _ => true

theorem dutiesOf_later_one (ro : Role) (h : ro.single = true) : ∀ r, 1 ≤ r → dutiesOf ro r = ∅ := by
  intro r hr
  have h0 : r ≠ 0 := by omega
  cases ro <;> first | exact if_neg h0 | rfl | exact absurd h Bool.false_ne_true
theorem dutiesOf_later_32 (ro : Role) : ∀ r, 32 ≤ r → dutiesOf ro r = ∅ := by
  intro r hr
  have h0 : r ≠ 0 := by omega
  have h1 : ¬ r < 32 := by omega
  cases ro <;> first | exact if_neg h0 | exact if_neg h1 | rfl

theorem duties_later_one (g : GSem nD τ sig) (h : (roleOf g.2).single = true) : ∀ r, 1 ≤ r → (sched m).duties g r = ∅ := by
  intro r hr; dsimp only [sched]; split
  · exact dutiesOf_later_one _ h r hr
  · rfl
/-- No cell has a duty from round 32 on. -/
theorem duties_later_32 (g : GSem nD τ sig) : ∀ r, 32 ≤ r → (sched m).duties g r = ∅ := by
  intro r hr; dsimp only [sched]; split
  · exact dutiesOf_later_32 _ r hr
  · rfl

theorem single_reg (s : Sem sig) : (roleOf (.reg s)).single = true := by
  simp only [roleOf]; split <;> rfl
theorem single_of_lt (n : DmaSem sig) (h : n.val < 256) : (roleOf (.dma n)).single = true := by
  simp only [roleOf]; (repeat' split) <;> first | rfl | omega

theorem duties_later_bar : ∀ r, 1 ≤ r → (sched m).duties (barCell c) r = ∅ := duties_later_one m _ (single_reg _)
theorem duties_later_ys (k : Nat) (hk : k < 64) : ∀ r, 1 ≤ r → (sched m).duties (ysCell c k hk) r = ∅ :=
  duties_later_one m _ (single_of_lt _ (by rw [ysS_val]; omega))
theorem duties_later_yr (k : Nat) (hk : k < 64) : ∀ r, 1 ≤ r → (sched m).duties (yrCell c k hk) r = ∅ :=
  duties_later_one m _ (single_of_lt _ (by rw [yrS_val]; omega))
theorem duties_later_xs (k : Nat) (hk : k < 64) : ∀ r, 1 ≤ r → (sched m).duties (xsCell c k hk) r = ∅ :=
  duties_later_one m _ (single_of_lt _ (by rw [xsS_val]; omega))
theorem duties_later_xr (k : Nat) (hk : k < 64) : ∀ r, 1 ≤ r → (sched m).duties (xrCell c k hk) r = ∅ :=
  duties_later_one m _ (single_of_lt _ (by rw [xrS_val]; omega))

end Tables

section Tables2
variable (c : Dev nD)

theorem amount_bar {r : ℕ} (d : Bool) : (sched m).amount (barCell c) r d = 1 := by rw [amount_tc, roleOf_bar]; rfl
theorem amount_ys (k : Nat) (hk : k < 64) {r : ℕ} (d : Bool) : (sched m).amount (ysCell c k hk) r d = No := by rw [amount_tc, roleOf_ys]; rfl
theorem amount_yr (k : Nat) (hk : k < 64) {r : ℕ} (d : Bool) : (sched m).amount (yrCell c k hk) r d = No := by rw [amount_tc, roleOf_yr]; rfl
theorem amount_xs (k : Nat) (hk : k < 64) {r : ℕ} (d : Bool) : (sched m).amount (xsCell c k hk) r d = No := by rw [amount_tc, roleOf_xs]; rfl
theorem amount_xr (k : Nat) (hk : k < 64) {r : ℕ} (d : Bool) : (sched m).amount (xrCell c k hk) r d = No := by rw [amount_tc, roleOf_xr]; rfl
theorem amount_a (s : Nat) (hs : s < 2) (r : ℕ) (d : Bool) : (sched m).amount (aCell c s hs) r d = Na := by rw [amount_tc, roleOf_a]; rfl
theorem amount_b (s : Nat) (hs : s < 2) (r : ℕ) (d : Bool) : (sched m).amount (bCell c s hs) r d = Nb := by rw [amount_tc, roleOf_b]; rfl
theorem amount_st (s : Nat) (hs : s < 2) (r : ℕ) (d : Bool) : (sched m).amount (stCell c s hs) r d = No := by rw [amount_tc, roleOf_st]; rfl

theorem expect_bar : (sched m).expect (barCell c) 0 = 2 := by
  unfold Schedule.expect Schedule.amountOf
  rw [duties_bar, Finset.sum_congr rfl fun d _ => amount_bar m c d, Finset.sum_const, Finset.card_univ, Fintype.card_bool, smul_eq_mul]
theorem expect_ys (k : Nat) (hk : k < 64) : (sched m).expect (ysCell c k hk) 0 = No := by
  unfold Schedule.expect Schedule.amountOf; rw [duties_ys, Finset.sum_singleton, amount_ys]
theorem expect_yr (k : Nat) (hk : k < 64) : (sched m).expect (yrCell c k hk) 0 = No := by
  unfold Schedule.expect Schedule.amountOf; rw [duties_yr, Finset.sum_singleton, amount_yr]
theorem expect_xs (k : Nat) (hk : k < 64) : (sched m).expect (xsCell c k hk) 0 = No := by
  unfold Schedule.expect Schedule.amountOf; rw [duties_xs, Finset.sum_singleton, amount_xs]
theorem expect_xr (k : Nat) (hk : k < 64) : (sched m).expect (xrCell c k hk) 0 = No := by
  unfold Schedule.expect Schedule.amountOf; rw [duties_xr, Finset.sum_singleton, amount_xr]
theorem expect_a (s : Nat) (hs : s < 2) (r : ℕ) (hr : r < 32) : (sched m).expect (aCell c s hs) r = Na := by
  unfold Schedule.expect Schedule.amountOf; rw [duties_a m c s hs r hr, Finset.sum_singleton, amount_a]
theorem expect_b (s : Nat) (hs : s < 2) (r : ℕ) (hr : r < 32) : (sched m).expect (bCell c s hs) r = Nb := by
  unfold Schedule.expect Schedule.amountOf; rw [duties_b m c s hs r hr, Finset.sum_singleton, amount_b]
theorem expect_st (s : Nat) (hs : s < 2) (r : ℕ) (hr : r < 32) : (sched m).expect (stCell c s hs) r = No := by
  unfold Schedule.expect Schedule.amountOf; rw [duties_st m c s hs r hr, Finset.sum_singleton, amount_st]

theorem payload_bar_false : (sched m).payload (barCell c) 0 false = barPay c (nbrY c) := by
  rw [payload_tc, roleOf_bar]; rfl
theorem payload_bar_true : (sched m).payload (barCell c) 0 true = barPay c (nbrX c) := by
  rw [payload_tc, roleOf_bar]; rfl
theorem payload_ys (k : Nat) (hk : k < 64) (d : Bool) : (sched m).payload (ysCell c k hk) 0 d = xHolds m c k hk qL := by
  rw [payload_tc, roleOf_ys]; exact dif_pos hk
theorem payload_yr (k : Nat) (hk : k < 64) (d : Bool) : (sched m).payload (yrCell c k hk) 0 d = oHolds c c k hk (xs m (nbrY c)) := by
  rw [payload_tc, roleOf_yr]; exact dif_pos hk
theorem payload_xs (k : Nat) (hk : k < 64) (d : Bool) :
    (sched m).payload (xsCell c k hk) 0 d = slotSomeS c (k % 2) (Nat.mod_lt _ (by decide)) qL := by
  rw [payload_tc, roleOf_xs]; rfl
theorem payload_xr (k : Nat) (hk : k < 64) (d : Bool) :
    (sched m).payload (xrCell c k hk) 0 d = oHolds c (nbrX c) k hk (sumAt m (nbrX c)) := by
  rw [payload_tc, roleOf_xr]; exact dif_pos hk
theorem payload_a (s : Nat) (hs : s < 2) (r : ℕ) (h : 2 * r + s < 64) (d : Bool) :
    (sched m).payload (aCell c s hs) r d
      = iprop(slotHoldsA c s hs (spread (xs m c) c (2 * r + s)) ∗ xHolds m c (2 * r + s) h qR) := by
  rw [payload_tc, roleOf_a]; exact dif_pos ⟨hs, h⟩
theorem payload_b (s : Nat) (hs : s < 2) (r : ℕ) (h : 2 * r + s < 64) (d : Bool) :
    (sched m).payload (bCell c s hs) r d
      = iprop(slotHoldsB c s hs (spread (xs m (nbrY c)) c (2 * r + s)) ∗ oHolds c c (2 * r + s) h (xs m (nbrY c))) := by
  rw [payload_tc, roleOf_b]; exact dif_pos ⟨hs, h⟩
theorem payload_st (s : Nat) (hs : s < 2) (r : ℕ) (h : 2 * r + s < 64) (d : Bool) :
    (sched m).payload (stCell c s hs) r d = iprop(oHolds c c (2 * r + s) h (sumAt m c) ∗ slotSomeS c s hs qR) := by
  rw [payload_tc, roleOf_st]; exact dif_pos ⟨hs, h⟩

end Tables2

/-! ## The rest of a round, no duty taken -/

section Rest
variable (c : Dev nD)

theorem rest_bar : bigSep ((sched m).duties (barCell c) 0 \ ∅) (fun d => (sched m).payload (barCell c) 0 d)
    = iprop(barPay c (nbrY c) ∗ barPay c (nbrX c)) := by
  rw [Finset.sdiff_empty, duties_bar, bigSep_univ_eq_bigSepL [false, true] (by decide) (by decide), bigSepL_cons_cons, bigSepL_singleton,
    payload_bar_false, payload_bar_true]
  rfl
theorem rest_ys (k : Nat) (hk : k < 64) : bigSep ((sched m).duties (ysCell c k hk) 0 \ ∅) (fun d => (sched m).payload (ysCell c k hk) 0 d)
    = xHolds m c k hk qL := by
  rw [Finset.sdiff_empty, duties_ys, bigSep_singleton, payload_ys]
theorem rest_yr (k : Nat) (hk : k < 64) : bigSep ((sched m).duties (yrCell c k hk) 0 \ ∅) (fun d => (sched m).payload (yrCell c k hk) 0 d)
    = oHolds c c k hk (xs m (nbrY c)) := by
  rw [Finset.sdiff_empty, duties_yr, bigSep_singleton, payload_yr]
theorem rest_xs (k : Nat) (hk : k < 64) : bigSep ((sched m).duties (xsCell c k hk) 0 \ ∅) (fun d => (sched m).payload (xsCell c k hk) 0 d)
    = slotSomeS c (k % 2) (Nat.mod_lt _ (by decide)) qL := by
  rw [Finset.sdiff_empty, duties_xs, bigSep_singleton, payload_xs]
theorem rest_xr (k : Nat) (hk : k < 64) : bigSep ((sched m).duties (xrCell c k hk) 0 \ ∅) (fun d => (sched m).payload (xrCell c k hk) 0 d)
    = oHolds c (nbrX c) k hk (sumAt m (nbrX c)) := by
  rw [Finset.sdiff_empty, duties_xr, bigSep_singleton, payload_xr]
theorem rest_a (s : Nat) (hs : s < 2) (r : ℕ) (h : 2 * r + s < 64) :
    bigSep ((sched m).duties (aCell c s hs) r \ ∅) (fun d => (sched m).payload (aCell c s hs) r d)
      = iprop(slotHoldsA c s hs (spread (xs m c) c (2 * r + s)) ∗ xHolds m c (2 * r + s) h qR) := by
  rw [Finset.sdiff_empty, duties_a m c s hs r (by omega), bigSep_singleton, payload_a]
theorem rest_b (s : Nat) (hs : s < 2) (r : ℕ) (h : 2 * r + s < 64) :
    bigSep ((sched m).duties (bCell c s hs) r \ ∅) (fun d => (sched m).payload (bCell c s hs) r d)
      = iprop(slotHoldsB c s hs (spread (xs m (nbrY c)) c (2 * r + s)) ∗ oHolds c c (2 * r + s) h (xs m (nbrY c))) := by
  rw [Finset.sdiff_empty, duties_b m c s hs r (by omega), bigSep_singleton, payload_b]
theorem rest_st (s : Nat) (hs : s < 2) (r : ℕ) (h : 2 * r + s < 64) :
    bigSep ((sched m).duties (stCell c s hs) r \ ∅) (fun d => (sched m).payload (stCell c s hs) r d)
      = iprop(oHolds c c (2 * r + s) h (sumAt m c) ∗ slotSomeS c s hs qR) := by
  rw [Finset.sdiff_empty, duties_st m c s hs r (by omega), bigSep_singleton, payload_st]

end Rest

/-! ## The local cells' tables at a chunk: chunk k is served by slot k % 2 in round k / 2 -/

section AtChunk
variable (c : Dev nD)

theorem duties_a_k (k : Nat) (hk : k < 64) : (sched m).duties (aCell c (k % 2) (Nat.mod_lt _ (by decide))) (k / 2) = {false} := duties_a m c _ _ _ (by omega)
theorem duties_b_k (k : Nat) (hk : k < 64) : (sched m).duties (bCell c (k % 2) (Nat.mod_lt _ (by decide))) (k / 2) = {false} := duties_b m c _ _ _ (by omega)
theorem duties_st_k (k : Nat) (hk : k < 64) : (sched m).duties (stCell c (k % 2) (Nat.mod_lt _ (by decide))) (k / 2) = {false} := duties_st m c _ _ _ (by omega)
theorem expect_a_k (k : Nat) (hk : k < 64) : (sched m).expect (aCell c (k % 2) (Nat.mod_lt _ (by decide))) (k / 2) = Na := expect_a m c _ _ _ (by omega)
theorem expect_b_k (k : Nat) (hk : k < 64) : (sched m).expect (bCell c (k % 2) (Nat.mod_lt _ (by decide))) (k / 2) = Nb := expect_b m c _ _ _ (by omega)
theorem expect_st_k (k : Nat) (hk : k < 64) : (sched m).expect (stCell c (k % 2) (Nat.mod_lt _ (by decide))) (k / 2) = No := expect_st m c _ _ _ (by omega)
theorem amount_a_k (k : Nat) (hk : k < 64) (d : Bool) : (sched m).amount (aCell c (k % 2) (Nat.mod_lt _ (by decide))) (k / 2) d = Na := amount_a m c _ _ _ d
theorem amount_b_k (k : Nat) (hk : k < 64) (d : Bool) : (sched m).amount (bCell c (k % 2) (Nat.mod_lt _ (by decide))) (k / 2) d = Nb := amount_b m c _ _ _ d
theorem amount_st_k (k : Nat) (hk : k < 64) (d : Bool) : (sched m).amount (stCell c (k % 2) (Nat.mod_lt _ (by decide))) (k / 2) d = No := amount_st m c _ _ _ d

theorem payload_a_k (k : Nat) (hk : k < 64) (d : Bool) : (sched m).payload (aCell c (k % 2) (Nat.mod_lt _ (by decide))) (k / 2) d
    = iprop(slotHoldsA c (k % 2) (Nat.mod_lt _ (by decide)) (spread (xs m c) c k) ∗ xHolds m c k hk qR) := by
  have key : ∀ (s : Nat) (hs : s < 2) (r : ℕ), s = k % 2 → r = k / 2 →
      (sched m).payload (aCell c s hs) r d = iprop(slotHoldsA c s hs (spread (xs m c) c k) ∗ xHolds m c k hk qR) := by
    intro s hs r e1 e2
    have hk' : k = 2 * r + s := by omega
    subst hk'
    exact payload_a m c s hs r hk d
  exact key _ _ _ rfl rfl
theorem payload_b_k (k : Nat) (hk : k < 64) (d : Bool) : (sched m).payload (bCell c (k % 2) (Nat.mod_lt _ (by decide))) (k / 2) d
    = iprop(slotHoldsB c (k % 2) (Nat.mod_lt _ (by decide)) (spread (xs m (nbrY c)) c k) ∗ oHolds c c k hk (xs m (nbrY c))) := by
  have key : ∀ (s : Nat) (hs : s < 2) (r : ℕ), s = k % 2 → r = k / 2 →
      (sched m).payload (bCell c s hs) r d
        = iprop(slotHoldsB c s hs (spread (xs m (nbrY c)) c k) ∗ oHolds c c k hk (xs m (nbrY c))) := by
    intro s hs r e1 e2
    have hk' : k = 2 * r + s := by omega
    subst hk'
    exact payload_b m c s hs r hk d
  exact key _ _ _ rfl rfl
theorem payload_st_k (k : Nat) (hk : k < 64) (d : Bool) : (sched m).payload (stCell c (k % 2) (Nat.mod_lt _ (by decide))) (k / 2) d
    = iprop(oHolds c c k hk (sumAt m c) ∗ slotSomeS c (k % 2) (Nat.mod_lt _ (by decide)) qR) := by
  have key : ∀ (s : Nat) (hs : s < 2) (r : ℕ), s = k % 2 → r = k / 2 →
      (sched m).payload (stCell c s hs) r d = iprop(oHolds c c k hk (sumAt m c) ∗ slotSomeS c s hs qR) := by
    intro s hs r e1 e2
    have hk' : k = 2 * r + s := by omega
    subst hk'
    exact payload_st m c s hs r hk d
  exact key _ _ _ rfl rfl

theorem rest_a_k (k : Nat) (hk : k < 64) : bigSep ((sched m).duties (aCell c (k % 2) (Nat.mod_lt _ (by decide))) (k / 2) \ ∅)
      (fun d => (sched m).payload (aCell c (k % 2) (Nat.mod_lt _ (by decide))) (k / 2) d)
    = iprop(slotHoldsA c (k % 2) (Nat.mod_lt _ (by decide)) (spread (xs m c) c k) ∗ xHolds m c k hk qR) := by
  rw [Finset.sdiff_empty, duties_a_k m c k hk, bigSep_singleton, payload_a_k m c k hk]
theorem rest_b_k (k : Nat) (hk : k < 64) : bigSep ((sched m).duties (bCell c (k % 2) (Nat.mod_lt _ (by decide))) (k / 2) \ ∅)
      (fun d => (sched m).payload (bCell c (k % 2) (Nat.mod_lt _ (by decide))) (k / 2) d)
    = iprop(slotHoldsB c (k % 2) (Nat.mod_lt _ (by decide)) (spread (xs m (nbrY c)) c k) ∗ oHolds c c k hk (xs m (nbrY c))) := by
  rw [Finset.sdiff_empty, duties_b_k m c k hk, bigSep_singleton, payload_b_k m c k hk]
theorem rest_st_k (k : Nat) (hk : k < 64) : bigSep ((sched m).duties (stCell c (k % 2) (Nat.mod_lt _ (by decide))) (k / 2) \ ∅)
      (fun d => (sched m).payload (stCell c (k % 2) (Nat.mod_lt _ (by decide))) (k / 2) d)
    = iprop(oHolds c c k hk (sumAt m c) ∗ slotSomeS c (k % 2) (Nat.mod_lt _ (by decide)) qR) := by
  rw [Finset.sdiff_empty, duties_st_k m c k hk, bigSep_singleton, payload_st_k m c k hk]

end AtChunk

/-! ## Payloads can be stored in an invariant -/

instance sched_payload_storable (g : GSem nD τ sig) (r : ℕ) (d : Bool) :
    BI.Storable (upEmb : UEmb _ 𝕄) ((sched m).payload g r d) := by
  show BI.Storable upEmb (payloadOf m g.1.1 (roleOf g.2) r d)
  generalize roleOf g.2 = ro
  unfold payloadOf barPay oSome xHolds oHolds slotHoldsA slotHoldsB slotSomeS
  (repeat' split) <;> infer_instance

/-! ## The neighbours are involutions -/

theorem nbrY_nbrY (c : Dev nD) : nbrY (nbrY c) = c := by revert c; decide +kernel
theorem nbrX_nbrX (c : Dev nD) : nbrX (nbrX c) = c := by revert c; decide +kernel

/-! ## Credits -/

theorem oRows_credit (d : Dev nD) (k : Nat) (hk : k < 64) : (oRows d k hk).view.dmaCredit = No := rfl
theorem slotA_credit (s : Nat) (hs : s < 2) : (slotOf aM s hs).view.dmaCredit = Na := rfl
theorem slotB_credit (s : Nat) (hs : s < 2) : (slotOf bM s hs).view.dmaCredit = Nb := rfl
theorem slotS_credit (s : Nat) (hs : s < 2) : (slotOf sM s hs).view.dmaCredit = No := rfl
theorem Na_eq : Na = No := rfl
theorem Nb_eq : Nb = No := rfl

theorem xRows_credit (d : Dev nD) (k : Nat) (hk : k < 64) : (xRows d k hk).view.dmaCredit = No := rfl
theorem oRows_amount (d : Dev nD) (k : Nat) (hk : k < 64) (n : DmaSem sig) : (oRows d k hk).view.amount (.dma n) = No := rfl
theorem slotA_amount (s : Nat) (hs : s < 2) (n : DmaSem sig) : (slotOf aM s hs).view.amount (.dma n) = Na := rfl
theorem slotB_amount (s : Nat) (hs : s < 2) (n : DmaSem sig) : (slotOf bM s hs).view.amount (.dma n) = Nb := rfl
theorem slotS_amount (s : Nat) (hs : s < 2) (n : DmaSem sig) : (slotOf sM s hs).view.amount (.dma n) = No := rfl

/-! ## Cells of different roles, or of different devices, differ -/

theorem cell_ne_of_role {c c' : Dev nD} {sm sm' : SemLoc sig} (h : roleOf sm ≠ roleOf sm') :
    (((c : Thread nD τ), sm) : GSem nD τ sig) ≠ ((c' : Thread nD τ), sm') :=
  fun e => h (congrArg (fun g : GSem nD τ sig => roleOf g.2) e)
theorem cell_ne_of_dev {c c' : Dev nD} {sm sm' : SemLoc sig} (h : c ≠ c') :
    (((c : Thread nD τ), sm) : GSem nD τ sig) ≠ ((c' : Thread nD τ), sm') :=
  fun e => h (congrArg (fun g : GSem nD τ sig => g.1.1) e)
theorem ys_ne_yr (c c' : Dev nD) (k k' : Nat) (hk : k < 64) (hk' : k' < 64) : ysCell c k hk ≠ yrCell c' k' hk' :=
  cell_ne_of_role (by rw [roleOf_ys, roleOf_yr]; exact fun e => Role.noConfusion e)
theorem yrCell_ne (c : Dev nD) {k k' : Nat} (hk : k < 64) (hk' : k' < 64) (h : k ≠ k') : yrCell c k hk ≠ yrCell c k' hk' :=
  cell_ne_of_role (by rw [roleOf_yr, roleOf_yr]; exact fun e => h (Role.yr.inj e))
theorem xrCell_ne (c : Dev nD) {k k' : Nat} (hk : k < 64) (hk' : k' < 64) (h : k ≠ k') : xrCell c k hk ≠ xrCell c k' hk' :=
  cell_ne_of_role (by rw [roleOf_xr, roleOf_xr]; exact fun e => h (Role.xr.inj e))

/-! ## Levels -/

theorem Lset_tc (c : Dev nD) (sm : SemLoc sig) : Lset ((c : Thread nD τ), sm) = {()} := if_pos rfl
theorem Lset_of_ne (g : GSem nD τ sig) (h : g.1.2 ≠ .tc) : Lset g = ∅ := if_neg h

theorem lv_bar (c : Dev nD) : lv (barCell c) () = 1 := by simp only [lv, roleOf_bar]
theorem lv_ys (c : Dev nD) (k : Nat) (hk : k < 64) : lv (ysCell c k hk) () = 0 := by simp only [lv, roleOf_ys]
theorem lv_yr (c : Dev nD) (k : Nat) (hk : k < 64) : lv (yrCell c k hk) () = 2 := by simp only [lv, roleOf_yr]
theorem lv_xs (c : Dev nD) (k : Nat) (hk : k < 64) : lv (xsCell c k hk) () = 0 := by simp only [lv, roleOf_xs]
theorem lv_xr (c : Dev nD) (k : Nat) (hk : k < 64) : lv (xrCell c k hk) () = 3 := by simp only [lv, roleOf_xr]
theorem lv_a (c : Dev nD) (s : Nat) (hs : s < 2) : lv (aCell c s hs) () = 0 := by simp only [lv, roleOf_a]
theorem lv_b (c : Dev nD) (s : Nat) (hs : s < 2) : lv (bCell c s hs) () = 0 := by simp only [lv, roleOf_b]
theorem lv_st (c : Dev nD) (s : Nat) (hs : s < 2) : lv (stCell c s hs) () = 0 := by simp only [lv, roleOf_st]

/-- What is owed, read at one cell and index. -/
theorem owedX_apply (c : Dev nD) (j : Nat) (g : GSem nD τ sig) (u : Unit) :
    owedX c j g u = ∑ k : Fin 64, if j ≤ k.val then tallyAt (xrCell (nbrX c) k.val k.isLt) () No g u else 0 := by
  unfold owedX
  rw [Finset.sum_apply, Finsupp.finset_sum_apply]
  refine Finset.sum_congr rfl fun k _ => ?_
  split <;> rfl
theorem owedY_apply (c : Dev nD) (j : Nat) (g : GSem nD τ sig) (u : Unit) :
    owedY c j g u = ∑ k : Fin 64, if j ≤ k.val then tallyAt (yrCell (nbrY c) k.val k.isLt) () No g u else 0 := by
  unfold owedY
  rw [Finset.sum_apply, Finsupp.finset_sum_apply]
  refine Finset.sum_congr rfl fun k _ => ?_
  split <;> rfl

/-- A positive entry of what is owed along x sits at an x-receive cell of the x-neighbour; along y, at a y-receive cell of
    the y-neighbour. -/
theorem owedX_pos {c : Dev nD} {j : Nat} {g : GSem nD τ sig} {u : Unit} (h : 0 < owedX c j g u) :
    ∃ (k : Nat) (hk : k < 64), j ≤ k ∧ g = xrCell (nbrX c) k hk := by
  rw [owedX_apply] at h
  by_contra hn
  have hz : (∑ k : Fin 64, if j ≤ k.val then tallyAt (xrCell (nbrX c) k.val k.isLt) () No g u else 0) = 0 := by
    refine Finset.sum_eq_zero fun k _ => ?_
    split
    · rename_i hjk
      rw [tallyAt_apply, if_neg]
      exact fun hh => hn ⟨k.val, k.isLt, hjk, hh.1⟩
    · rfl
  rw [hz] at h; exact Nat.lt_irrefl 0 h
theorem owedY_pos {c : Dev nD} {j : Nat} {g : GSem nD τ sig} {u : Unit} (h : 0 < owedY c j g u) :
    ∃ (k : Nat) (hk : k < 64), j ≤ k ∧ g = yrCell (nbrY c) k hk := by
  rw [owedY_apply] at h
  by_contra hn
  have hz : (∑ k : Fin 64, if j ≤ k.val then tallyAt (yrCell (nbrY c) k.val k.isLt) () No g u else 0) = 0 := by
    refine Finset.sum_eq_zero fun k _ => ?_
    split
    · rename_i hjk
      rw [tallyAt_apply, if_neg]
      exact fun hh => hn ⟨k.val, k.isLt, hjk, hh.1⟩
    · rfl
  rw [hz] at h; exact Nat.lt_irrefl 0 h

theorem owedXY_pos {c : Dev nD} {i j : Nat} {g : GSem nD τ sig} {u : Unit} (h : 0 < (owedX c i + owedY c j) g u) :
    (∃ (k : Nat) (hk : k < 64), i ≤ k ∧ g = xrCell (nbrX c) k hk) ∨ (∃ (k : Nat) (hk : k < 64), j ≤ k ∧ g = yrCell (nbrY c) k hk) := by
  rw [Pi.add_apply, Finsupp.add_apply] at h
  by_cases h1 : 0 < owedX c i g u
  · exact .inl (owedX_pos h1)
  · exact .inr (owedY_pos (u := u) (by omega))

/-- At its barrier wait a device owes receive cells only: all above the barrier cell. -/
theorem mayWait_bar (c : Dev nD) :
    (levAts Lset lv : sProp 𝕄) ⊢ MayWait (c : Thread nD τ) (.reg barS) () (owedX c 0 + owedY c 0) :=
  MayOwe.of_cut (L := Lset) (lev := lv) 1
    (fun p hp => by rw [Finset.mem_singleton.mp hp, Lset_tc]; exact Finset.mem_singleton_self _)
    (fun g u hg => by
      rcases owedXY_pos hg with ⟨k, hk, -, rfl⟩ | ⟨k, hk, -, rfl⟩ <;> (rw [Lset_tc]; exact Finset.mem_singleton_self _))
    (fun p hp => by rw [Finset.mem_singleton.mp hp]; exact le_of_eq (lv_bar c))
    (fun g u hg => by
      rcases owedXY_pos hg with ⟨k, hk, -, rfl⟩ | ⟨k, hk, -, rfl⟩
      · rw [lv_xr]; decide
      · rw [lv_yr]; decide)

/-- At a y-receive wait it owes x-receive cells only: above every y-receive cell. -/
theorem mayWait_yr (c : Dev nD) (k : Nat) (hk : k < 64) (j : Nat) :
    (levAts Lset lv : sProp 𝕄) ⊢ MayWait (c : Thread nD τ) (.dma (yrS k hk)) () (owedX c j) :=
  MayOwe.of_cut (L := Lset) (lev := lv) 2
    (fun p hp => by rw [Finset.mem_singleton.mp hp, Lset_tc]; exact Finset.mem_singleton_self _)
    (fun g u hg => by obtain ⟨k', hk', -, rfl⟩ := owedX_pos hg; rw [Lset_tc]; exact Finset.mem_singleton_self _)
    (fun p hp => by rw [Finset.mem_singleton.mp hp]; exact le_of_eq (lv_yr c k hk))
    (fun g u hg => by obtain ⟨k', hk', -, rfl⟩ := owedX_pos hg; rw [lv_xr]; decide)

/-- At a wait on a cell of level 0 (an own send cell, a local cell) likewise. -/
theorem mayWait_low (c : Dev nD) (sm : SemLoc sig) (h : lv ((c : Thread nD τ), sm) () = 0) (j : Nat) :
    (levAts Lset lv : sProp 𝕄) ⊢ MayWait (c : Thread nD τ) sm () (owedX c j) :=
  MayOwe.of_cut (L := Lset) (lev := lv) 0
    (fun p hp => by rw [Finset.mem_singleton.mp hp, Lset_tc]; exact Finset.mem_singleton_self _)
    (fun g u hg => by obtain ⟨k', hk', -, rfl⟩ := owedX_pos hg; rw [Lset_tc]; exact Finset.mem_singleton_self _)
    (fun p hp => by rw [Finset.mem_singleton.mp hp]; exact le_of_eq h)
    (fun g u hg => by obtain ⟨k', hk', -, rfl⟩ := owedX_pos hg; rw [lv_xr]; decide)

/-! ## The sums the body peels -/

theorem tally_split (T : Fin 64 → CellTallies nD τ sig Unit) (j : Nat) (hj : j < 64) :
    (∑ k : Fin 64, if j ≤ k.val then T k else 0) = (∑ k : Fin 64, if j + 1 ≤ k.val then T k else 0) + T ⟨j, hj⟩ := by
  have hsplit : ∀ k : Fin 64, (if j ≤ k.val then T k else 0)
      = (if j + 1 ≤ k.val then T k else 0) + (if k = ⟨j, hj⟩ then T k else 0) := by
    intro k
    by_cases h1 : j + 1 ≤ k.val
    · rw [if_pos (by omega), if_pos h1, if_neg (fun e => by rw [e] at h1; exact absurd h1 (Nat.not_succ_le_self j)), add_zero]
    · by_cases h2 : k = ⟨j, hj⟩
      · subst h2; rw [if_pos (le_refl j), if_neg h1, if_pos rfl, zero_add]
      · have h3 : ¬ j ≤ k.val := fun h => h2 (Fin.ext (by show k.val = j; omega))
        rw [if_neg h3, if_neg h1, if_neg h2, add_zero]
  rw [Finset.sum_congr rfl fun k _ => hsplit k, Finset.sum_add_distrib, Finset.sum_ite_eq', if_pos (Finset.mem_univ _)]

theorem owedY_succ (c : Dev nD) (j : Nat) (hj : j < 64) : owedY c j = owedY c (j + 1) + tallyAt (yrCell (nbrY c) j hj) () No :=
  tally_split (fun k => tallyAt (yrCell (nbrY c) k.val k.isLt) () No) j hj
theorem owedX_succ (c : Dev nD) (j : Nat) (hj : j < 64) : owedX c j = owedX c (j + 1) + tallyAt (xrCell (nbrX c) j hj) () No :=
  tally_split (fun k => tallyAt (xrCell (nbrX c) k.val k.isLt) () No) j hj
theorem owedY_64 (c : Dev nD) : owedY c 64 = 0 := Finset.sum_eq_zero fun k _ => if_neg (by have := k.isLt; omega)
theorem owedX_64 (c : Dev nD) : owedX c 64 = 0 := Finset.sum_eq_zero fun k _ => if_neg (by have := k.isLt; omega)

/-- info: 'Cert.Kernel.Hand.mayWait_bar' depends on axioms: [propext, Classical.choice, Quot.sound] -/
#guard_msgs in #print axioms mayWait_bar
/-- info: 'Cert.Kernel.Hand.sched_payload_storable' depends on axioms: [propext, Classical.choice, Quot.sound] -/
#guard_msgs in #print axioms sched_payload_storable

end Cert.Kernel.Hand

end
-- ==== Proof.Bits.GeomSplit.lean ====
/-
  Cutting a device's two HBM arrays into the chunks the protocol moves, and joining them back.

  An array has 32768 rows of 1024. Device d works on the half numbered d / 2 (rows 16384 (d / 2) .. + 16384), in 64 chunks
  of 256 whole rows; chunk k of that half is the rows 16384 (d / 2) + 256 k .. + 256. The y-neighbour of a device has the
  same half, the x-neighbour the other one. So the 64 chunks of a device's half and the 64 chunks of its x-neighbour's
  half are 128 pairwise disjoint sets of rows that cover the array.

  * The result array, whole at contents f, is the 128 chunks each at f (`out_cut`, an equality); forgetting the contents
    gives `out_split`. The all-reduced contents are, on the own half's rows, the sum formed on the device and, on the other
    half's rows, the sum formed on the x-neighbour; a chunk's points-to sees the contents on the chunk only, so the 128
    chunks at those two sums join to the whole array at the all-reduced contents (`res_join`).
  * The argument array, whole at its launch contents, is the 64 chunks of the own half, each held as its two half shares,
    and the other half's rows whole (`x_cut`, an equality; `x_split`, `x_join`).
-/
import proofs.«900147_g7700000000000148_dist_ar_v7x_xy2x2_y_m32768_n1024_f32_1_alg».proof.Proof.Bits.State
import Idealize.ShloMosaic.Rules.PointsTo

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The chunks' rectangles -/

/-- The y-neighbour lies in the same half of the rows; the x-neighbour in the other. -/
theorem nbrY_half : ∀ c : Dev nD, (nbrY c).val / 2 = c.val / 2 := by decide +kernel
theorem nbrX_half : ∀ c : Dev nD, (nbrX c).val / 2 = 1 - c.val / 2 := by decide +kernel
theorem half_le_one : ∀ c : Dev nD, c.val / 2 ≤ 1 := by decide +kernel

/-- The first row of chunk k of device d's half. -/
theorem rows_off (d : Dev nD) (k : Nat) (hk : k < 64) :
    k0_off1 d (BitVec.ofNat 32 (256 * k)) = ![16384 * (d.val / 2) + 256 * k, 0] := k0_off1_eq d ⟨k, hk⟩

/-- A device and its y-neighbour work on the same rows. -/
theorem rows_off_nbrY (c : Dev nD) (k : Nat) (hk : k < 64) :
    k0_off1 (nbrY c) (BitVec.ofNat 32 (256 * k)) = k0_off1 c (BitVec.ofNat 32 (256 * k)) := by
  rw [rows_off _ k hk, rows_off _ k hk, nbrY_half]

theorem rowsR_nbrY (c : Dev nD) (k : Nat) (hk : k < 64) : rowsR (nbrY c) k hk = rowsR c k hk :=
  Rect.unit_congr (rows_off_nbrY c k hk) _ _

theorem oRows_nbrY (c : Dev nD) (k : Nat) (hk : k < 64) : oRows (nbrY c) k hk = oRows c k hk :=
  Memref.slice_unit_congr _ (rows_off_nbrY c k hk) _ _ _ _
theorem xRows_nbrY (c : Dev nD) (k : Nat) (hk : k < 64) : xRows (nbrY c) k hk = xRows c k hk :=
  Memref.slice_unit_congr _ (rows_off_nbrY c k hk) _ _ _ _

/-- The elements of a chunk: the 256 rows from its first. -/
theorem mem_rowsR (d : Dev nD) (k : Nat) (hk : k < 64) (i : S32768x1024.Idx) :
    i ∈ (rowsR d k hk).set ↔ 16384 * (d.val / 2) + 256 * k ≤ (i 0).val ∧ (i 0).val < 16384 * (d.val / 2) + 256 * k + 256 := by
  rw [Rect.mem_set_unit, rows_off d k hk]
  constructor
  · intro h; exact h 0
  · intro h a
    fin_cases a
    · exact h
    · exact ⟨Nat.zero_le _, by have := (i 1).isLt; simpa using this⟩

theorem oRows_set (d : Dev nD) (k : Nat) (hk : k < 64) : (oRows d k hk).view.set = (rowsR d k hk).set :=
  View.set_slice_whole _ _
theorem xRows_set (d : Dev nD) (k : Nat) (hk : k < 64) : (xRows d k hk).view.set = (rowsR d k hk).set :=
  View.set_slice_whole _ _

theorem mem_rows (d : Dev nD) (k : Nat) (hk : k < 64) (i : S32768x1024.Idx) :
    i ∈ (oRows d k hk).view.set ↔ 16384 * (d.val / 2) + 256 * k ≤ (i 0).val ∧ (i 0).val < 16384 * (d.val / 2) + 256 * k + 256 := by
  rw [oRows_set]; exact mem_rowsR d k hk i
theorem mem_xrows (d : Dev nD) (k : Nat) (hk : k < 64) (i : S32768x1024.Idx) :
    i ∈ (xRows d k hk).view.set ↔ 16384 * (d.val / 2) + 256 * k ≤ (i 0).val ∧ (i 0).val < 16384 * (d.val / 2) + 256 * k + 256 := by
  rw [xRows_set]; exact mem_rowsR d k hk i

/-! ## The chunks as points-tos over their rectangles' elements -/

theorem oHolds_eq (c d : Dev nD) (k : Nat) (hk : k < 64) (g : S32768x1024.Idx → F .f32) :
    oHolds (F := F) c d k hk g = ((c : Thread nD τ).loc main_v1 ↦[(rowsR d k hk).set]{fullShare} g : sProp 𝕄) := by
  unfold oHolds
  exact congrArg (fun I => ((c : Thread nD τ).loc main_v1 ↦[I]{fullShare} g : sProp 𝕄)) (oRows_set d k hk)

theorem xHolds_eq (c : Dev nD) (k : Nat) (hk : k < 64) (q : PosShare TreeShare) :
    xHolds m c k hk q = ((c : Thread nD τ).loc main_arg0 ↦[(rowsR c k hk).set]{q} xs m c : sProp 𝕄) := by
  unfold xHolds
  exact congrArg (fun I => ((c : Thread nD τ).loc main_arg0 ↦[I]{q} xs m c : sProp 𝕄)) (xRows_set c k hk)

theorem oSome_eq (c d : Dev nD) (k : Nat) (hk : k < 64) :
    oSome (F := F) c d k hk
      = (iprop(∃ f : S32768x1024.Idx → F .f32, (c : Thread nD τ).loc main_v1 ↦[(rowsR d k hk).set]{fullShare} f) : sProp 𝕄) := by
  unfold oSome
  exact congrArg (fun I => (iprop(∃ f : S32768x1024.Idx → F .f32, (c : Thread nD τ).loc main_v1 ↦[I]{fullShare} f) : sProp 𝕄))
    (oRows_set d k hk)

/-- A chunk's points-to depends on the contents on the chunk's rows only. -/
theorem oHolds_congr_eq (c d : Dev nD) (k : Nat) (hk : k < 64) (g g' : S32768x1024.Idx → F .f32)
    (h : ∀ i ∈ (oRows d k hk).view.set, g i = g' i) : oHolds (F := F) c d k hk g = oHolds c d k hk g' := by
  unfold oHolds; exact pointsTo_congr h

theorem oHolds_congr (c d : Dev nD) (k : Nat) (hk : k < 64) (g g' : S32768x1024.Idx → F .f32)
    (h : ∀ i ∈ (oRows d k hk).view.set, g i = g' i) : oHolds (F := F) c d k hk g ⊢ oHolds c d k hk g' :=
  Entails.of_eq (oHolds_congr_eq c d k hk g g' h)

/-- The y-neighbour's chunks are the device's own, so a chunk named through either is the same assertion. -/
theorem oHolds_nbrY (p c : Dev nD) (k : Nat) (hk : k < 64) (g : S32768x1024.Idx → F .f32) :
    oHolds (F := F) p (nbrY c) k hk g = oHolds p c k hk g := by
  rw [oHolds_eq, oHolds_eq, rowsR_nbrY]
theorem oSome_nbrY (p c : Dev nD) (k : Nat) (hk : k < 64) :
    oSome (F := F) p (nbrY c) k hk = oSome p c k hk := by
  rw [oSome_eq, oSome_eq, rowsR_nbrY]

/-! ## The two halves of the rows -/

/-- The rows of device d's half: its 64 chunks together. -/
def halfSet (d : Dev nD) : Finset S32768x1024.Idx := Finset.univ.biUnion fun k : Fin 64 => (rowsR d k.val k.isLt).set

theorem mem_halfSet (d : Dev nD) (i : S32768x1024.Idx) : i ∈ halfSet d ↔ (i 0).val / 16384 = d.val / 2 := by
  have hd := half_le_one d
  have hi : (i 0).val < 32768 := (i 0).isLt
  unfold halfSet
  rw [Finset.mem_biUnion]
  constructor
  · rintro ⟨k, -, hk⟩
    rw [mem_rowsR] at hk
    have := k.isLt
    omega
  · intro h
    have hK : ((i 0).val - 16384 * (d.val / 2)) / 256 < 64 := by omega
    exact ⟨⟨_, hK⟩, Finset.mem_univ _, (mem_rowsR d _ hK i).mpr (by omega)⟩

/-- Different chunks of one half share no row. -/
theorem rows_disjoint (d : Dev nD) (k k' : Fin 64) (h : k ≠ k') :
    Disjoint (rowsR d k.val k.isLt).set (rowsR d k'.val k'.isLt).set := by
  rw [Finset.disjoint_left]
  intro i h1 h2
  rw [mem_rowsR] at h1 h2
  have : k.val ≠ k'.val := fun e => h (Fin.ext e)
  omega

/-- The other half is the x-neighbour's. -/
theorem univ_sdiff_halfSet (c : Dev nD) : Finset.univ \ halfSet c = halfSet (nbrX c) := by
  ext i
  have hi : (i 0).val < 32768 := (i 0).isLt
  have hc := half_le_one c
  rw [Finset.mem_sdiff, mem_halfSet, mem_halfSet, nbrX_half]
  simp only [Finset.mem_univ, true_and]
  omega

/-! ## A half as its 64 chunks -/

/-- Different chunks of one half are disjoint, in the form the family lemma asks. -/
theorem rows_pairwise (d : Dev nD) :
    ∀ k ∈ (Finset.univ : Finset (Fin 64)), ∀ k' ∈ (Finset.univ : Finset (Fin 64)), k ≠ k' →
      Disjoint (rowsR d k.val k.isLt).set (rowsR d k'.val k'.isLt).set :=
  fun k _ k' _ h => rows_disjoint d k k' h

/-- A chunk's rows lie in their half. -/
theorem row_half_of_mem (d : Dev nD) (k : Nat) (hk : k < 64) (i : S32768x1024.Idx) (hi : i ∈ (rowsR d k hk).set) :
    (i 0).val / 16384 = d.val / 2 :=
  (mem_halfSet d i).mp (Finset.mem_biUnion.mpr ⟨⟨k, hk⟩, Finset.mem_univ _, hi⟩)

/-- A points-to over a half of the result array is the 64 points-tos over the half's chunks; -/
theorem out_half (c d : Dev nD) (q : PosShare TreeShare) (f : S32768x1024.Idx → F .f32) :
    ((c : Thread nD τ).loc main_v1 ↦[halfSet d]{q} f : sProp 𝕄)
      = bigSep Finset.univ fun k : Fin 64 => ((c : Thread nD τ).loc main_v1 ↦[(rowsR d k.val k.isLt).set]{q} f : sProp 𝕄) := by
  have h := pointsTo_biUnion (Ix := Unit) (Val := Elt F) (Name := ℕ) (U := UU) (Lvl := ℕ)
    (ℓ := (c : Thread nD τ).loc main_v1) (q := q) (f := f) Finset.univ
    (fun k : Fin 64 => (rowsR d k.val k.isLt).set) (rows_pairwise d)
  exact h

/-- and the same of the argument array. -/
theorem arg_half (c d : Dev nD) (q : PosShare TreeShare) (f : S32768x1024.Idx → F .f32) :
    ((c : Thread nD τ).loc main_arg0 ↦[halfSet d]{q} f : sProp 𝕄)
      = bigSep Finset.univ fun k : Fin 64 => ((c : Thread nD τ).loc main_arg0 ↦[(rowsR d k.val k.isLt).set]{q} f : sProp 𝕄) := by
  have h := pointsTo_biUnion (Ix := Unit) (Val := Elt F) (Name := ℕ) (U := UU) (Lvl := ℕ)
    (ℓ := (c : Thread nD τ).loc main_arg0) (q := q) (f := f) Finset.univ
    (fun k : Fin 64 => (rowsR d k.val k.isLt).set) (rows_pairwise d)
  exact h

/-! ## The result array: 128 chunks -/

/-- The result array is its own half and the x-neighbour's. -/
theorem out_halves (c : Dev nD) (f : S32768x1024.Idx → F .f32) :
    whole (F := F) c main_v1 f = iprop(((c : Thread nD τ).loc main_v1 ↦[halfSet c]{fullShare} f)
      ∗ ((c : Thread nD τ).loc main_v1 ↦[halfSet (nbrX c)]{fullShare} f)) := by
  have h := pointsTo_split_subset (Ix := Unit) (Val := Elt F) (Name := ℕ) (U := UU) (Lvl := ℕ)
    (ℓ := (c : Thread nD τ).loc main_v1) (q := fullShare) (f := f) (Finset.subset_univ (halfSet c))
  rw [univ_sdiff_halfSet] at h
  exact equiv_iff.mp ⟨h.1, h.2⟩

/-- The family of a half's chunks of the result array, each as a points-to over its rectangle's elements. -/
theorem oHolds_family (c d : Dev nD) (f : S32768x1024.Idx → F .f32) :
    (fun k : Fin 64 => oHolds (F := F) c d k.val k.isLt f)
      = fun k : Fin 64 => ((c : Thread nD τ).loc main_v1 ↦[(rowsR d k.val k.isLt).set]{fullShare} f : sProp 𝕄) :=
  funext fun k => oHolds_eq c d k.val k.isLt f

/-- The whole result array at contents f is the 64 chunks of the device's own half and the 64 of the other half,
    each at f. -/
theorem out_cut (c : Dev nD) (f : S32768x1024.Idx → F .f32) :
    whole (F := F) c main_v1 f
      = iprop((bigSep Finset.univ fun k : Fin 64 => oHolds c c k.val k.isLt f)
          ∗ (bigSep Finset.univ fun k : Fin 64 => oHolds c (nbrX c) k.val k.isLt f)) := by
  rw [out_halves c f, out_half (F := F) c c fullShare f, out_half (F := F) c (nbrX c) fullShare f,
    oHolds_family c c f, oHolds_family c (nbrX c) f]

/-- A chunk at some contents. -/
theorem oSome_of_oHolds (c d : Dev nD) (k : Nat) (hk : k < 64) (g : S32768x1024.Idx → F .f32) :
    oHolds (F := F) c d k hk g ⊢ oSome c d k hk := by
  unfold oHolds oSome
  iintro H
  iexists g
  iexact H

theorem out_split (c : Dev nD) (f : S32768x1024.Idx → F .f32) :
    whole (F := F) c main_v1 f
      ⊢ iprop((bigSep Finset.univ fun k : Fin 64 => oSome c c k.val k.isLt)
          ∗ (bigSep Finset.univ fun k : Fin 64 => oSome c (nbrX c) k.val k.isLt)) := by
  rw [out_cut c f]
  exact BI.sep_mono (bigSep_mono fun k _ => oSome_of_oHolds c c k.val k.isLt f)
    (bigSep_mono fun k _ => oSome_of_oHolds c (nbrX c) k.val k.isLt f)

/-- The all-reduced contents on the rows of the device's own half, and on the other half's. -/
theorem resBuf_own (c : Dev nD) (i : S32768x1024.Idx) (h : (i 0).val / 16384 = c.val / 2) :
    resBuf m c i = sumAt m c i := if_pos h
theorem resBuf_other (c : Dev nD) (i : S32768x1024.Idx) (h : (i 0).val / 16384 = (nbrX c).val / 2) :
    resBuf m c i = sumAt m (nbrX c) i :=
  if_neg (by rw [h, nbrX_half]; have := half_le_one c; omega)

theorem res_join (c : Dev nD) :
    iprop((bigSep Finset.univ fun k : Fin 64 => oHolds c c k.val k.isLt (sumAt m c))
        ∗ (bigSep Finset.univ fun k : Fin 64 => oHolds c (nbrX c) k.val k.isLt (sumAt m (nbrX c))))
      ⊢ whole c main_v1 (resBuf m c) := by
  rw [out_cut c (resBuf m c)]
  refine BI.sep_mono (bigSep_mono fun k _ => ?_) (bigSep_mono fun k _ => ?_)
  · refine oHolds_congr c c k.val k.isLt _ _ fun i hi => ?_
    rw [oRows_set] at hi
    exact (resBuf_own m c i (row_half_of_mem c k.val k.isLt i hi)).symm
  · refine oHolds_congr c (nbrX c) k.val k.isLt _ _ fun i hi => ?_
    rw [oRows_set] at hi
    exact (resBuf_other m c i (row_half_of_mem (nbrX c) k.val k.isLt i hi)).symm

/-! ## The argument array: the own half's 64 chunks, each at two half shares, and the rest -/

/-- The other half's rows of the argument array, whole, at their launch contents. -/
def xRest (c : Dev nD) : sProp 𝕄 :=
  (c : Thread nD τ).loc main_arg0 ↦[Finset.univ \ halfSet c]{fullShare} xs m c

/-- The rest is the x-neighbour's half. -/
theorem xRest_eq (c : Dev nD) :
    xRest m c = ((c : Thread nD τ).loc main_arg0 ↦[halfSet (nbrX c)]{fullShare} xs m c : sProp 𝕄) := by
  unfold xRest; rw [univ_sdiff_halfSet]

/-- A chunk of the argument array at the full share is the chunk at its two half shares. -/
theorem xHolds_halves (c : Dev nD) (k : Nat) (hk : k < 64) :
    xHolds m c k hk fullShare = iprop(xHolds m c k hk qL ∗ xHolds m c k hk qR) := by
  unfold xHolds
  have h := pointsTo_share (Ix := Unit) (Val := Elt F) (Name := ℕ) (U := UU) (Lvl := ℕ)
    (ℓ := (xRows c k hk).view.loc (c : Thread nD τ)) (I := (xRows c k hk).view.set) (f := xs m c)
    (PosShare.mem_left_op_right fullShare)
  exact equiv_iff.mp ⟨h.1, h.2⟩

theorem x_cut (c : Dev nD) :
    whole c main_arg0 (xs m c)
      = iprop((bigSep Finset.univ fun k : Fin 64 => iprop(xHolds m c k.val k.isLt qL ∗ xHolds m c k.val k.isLt qR))
          ∗ xRest m c) := by
  have h := pointsTo_split_subset (Ix := Unit) (Val := Elt F) (Name := ℕ) (U := UU) (Lvl := ℕ)
    (ℓ := (c : Thread nD τ).loc main_arg0) (q := fullShare) (f := xs m c) (Finset.subset_univ (halfSet c))
  refine (equiv_iff.mp ⟨h.1, h.2⟩).trans ?_
  unfold xRest
  rw [arg_half c c fullShare (xs m c)]
  refine congrArg (fun P : sProp 𝕄 => iprop(P ∗ ((c : Thread nD τ).loc main_arg0 ↦[Finset.univ \ halfSet c]{fullShare} xs m c)))
    (bigSep_congr fun k _ => ?_)
  rw [← xHolds_halves, xHolds_eq]

theorem x_split (c : Dev nD) :
    whole c main_arg0 (xs m c)
      ⊢ iprop((bigSep Finset.univ fun k : Fin 64 => iprop(xHolds m c k.val k.isLt qL ∗ xHolds m c k.val k.isLt qR))
          ∗ xRest m c) :=
  Entails.of_eq (x_cut m c)

theorem x_join (c : Dev nD) :
    iprop((bigSep Finset.univ fun k : Fin 64 => iprop(xHolds m c k.val k.isLt qL ∗ xHolds m c k.val k.isLt qR))
        ∗ xRest m c)
      ⊢ whole c main_arg0 (xs m c) :=
  Entails.of_eq (x_cut m c).symm

/-- info: 'Cert.Kernel.Hand.out_split' depends on axioms: [propext, Classical.choice, Quot.sound] -/
#guard_msgs in #print axioms out_split
/-- info: 'Cert.Kernel.Hand.res_join' depends on axioms: [propext, Classical.choice, Quot.sound] -/
#guard_msgs in #print axioms res_join
/-- info: 'Cert.Kernel.Hand.x_split' depends on axioms: [propext, Classical.choice, Quot.sound] -/
#guard_msgs in #print axioms x_split
/-- info: 'Cert.Kernel.Hand.x_join' depends on axioms: [propext, Classical.choice, Quot.sound] -/
#guard_msgs in #print axioms x_join

end Cert.Kernel.Hand

end
-- ==== Proof.Bits.GeomLand.lean ====
/-
  What each copy lands, what the loads read and what the store writes: the index equations.

  A copy writes, through its destination view, what its source view reads. Every view here is a rectangle of whole rows
  of a 32768 x 1024 array (a chunk: 256 rows starting at row 16384 (d / 2) + 256 k) or one of the two slots of a
  2 x 256 x 1024 scratch array, seen either as the 1 x 256 x 1024 box at (s, 0, 0) or, with the unit axis dropped, as a
  256 x 1024 array. Index (i, j) of a chunk sits at row 16384 (d / 2) + 256 k + i, column j of the big array; index
  (i, j) of a slot sits at (s, i, j) of the scratch. So a copy from a chunk into a slot leaves the big array's entry at
  (16384 (d / 2) + 256 k + i, j) at (s, i, j), and a copy from a slot into a chunk the reverse. A points-to over a set of
  elements depends only on the contents on that set, which turns each equation into an entailment.
-/
import proofs.«900147_g7700000000000148_dist_ar_v7x_xy2x2_y_m32768_n1024_f32_1_alg».proof.Proof.Bits.State
import proofs.«900147_g7700000000000148_dist_ar_v7x_xy2x2_y_m32768_n1024_f32_1_alg».proof.Proof.Bits.Fold
import Idealize.ShloMosaic.Lib.Pipeline.Value

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Where the indices of a chunk and of a slot sit -/

theorem rows_emb_row (d : Dev nD) (k : Nat) (hk : k < 64) (y : S256x1024.Idx) :
    ((rowsR d k hk).emb y 0).val = 16384 * (d.val / 2) + 256 * k + (y 0).val := by
  rw [Rect.emb_apply]
  have h := k0_off1_eq d ⟨k, hk⟩
  show (k0_off1 d (BitVec.ofNat 32 (256 * k))) 0 + 1 * (y 0).val = _
  rw [h]
  show 16384 * (d.val / 2) + 256 * k + 1 * (y 0).val = _
  omega

theorem rows_emb_col (d : Dev nD) (k : Nat) (hk : k < 64) (y : S256x1024.Idx) :
    ((rowsR d k hk).emb y 1).val = (y 1).val := by
  rw [Rect.emb_apply]
  have h := k0_off1_eq d ⟨k, hk⟩
  show (k0_off1 d (BitVec.ofNat 32 (256 * k))) 1 + 1 * (y 1).val = _
  rw [h]
  show 0 + 1 * (y 1).val = _
  omega

/-- A points-to over a window of the result array depends on the window's rectangle only. -/
theorem oWindow_congr (c : Dev nD) (g : S32768x1024.Idx → F .f32) {R R' : Rect S32768x1024} (h : R = R')
    (hR : ∀ a, R.stride a = 1) (hR' : ∀ a, R'.stride a = 1) :
    ((oM.slice R hR).view.loc (c : Thread nD τ) ↦[(oM.slice R hR).view.set]{fullShare} g : sProp 𝕄)
      = ((oM.slice R' hR').view.loc (c : Thread nD τ) ↦[(oM.slice R' hR').view.set]{fullShare} g) := by
  subst h; rfl

/-! ## L1: a copy between the same rows of two arrays of one shape -/

/-- On the rows written, the written array is the source array. -/
theorem land_y_at (p : Dev nD) (k : Nat) (hk : k < 64) (fd g : S32768x1024.Idx → F .f32) :
    ∀ i ∈ (oRows p k hk).view.set,
      (oRows p k hk).view.write (Elt F) fd ((xRows p k hk).view.read (Elt F) g) Finset.univ i = g i := by
  intro i hi
  obtain ⟨y, rfl⟩ := View.exists_emb_of_mem_set _ hi
  rw [View.write_emb_of_mem _ _ (Finset.mem_univ y), View.read_apply]
  rfl

theorem land_y (c p : Dev nD) (k : Nat) (hk : k < 64) (hp : rowsR p k hk = rowsR c k hk) (fd : S32768x1024.Idx → F .f32) :
    ((oRows p k hk).view.loc (c : Thread nD τ) ↦[(oRows p k hk).view.set]{fullShare}
        ((oRows p k hk).view.write (Elt F) fd ((xRows p k hk).view.read (Elt F) (xs m p)) Finset.univ) : sProp 𝕄)
      ⊢ oHolds c c k hk (xs m p) :=
  Entails.of_eq ((pointsTo_congr (land_y_at p k hk fd (xs m p))).trans (oWindow_congr c (xs m p) hp _ _))

/-! ## A slot of a scratch array -/

/-- Where index (i, j) of a slot sits in the 2 x 256 x 1024 scratch array: at (s, i, j). -/
def slotIdx (s : Nat) (hs : s < 2) (y : S256x1024.Idx) : S2x256x1024.Idx :=
  (slotR s hs).emb (Shape.reshapeEquiv squeezes_S1x256x1024_S256x1024.numel_eq y)

theorem slotIdx_eq (s : Nat) (hs : s < 2) (y : S256x1024.Idx) :
    slotIdx s hs y = (slotR s hs).emb (Fin.cons ⟨0, Nat.one_pos⟩ y : S1x256x1024.Idx) := by
  unfold slotIdx
  exact congrArg (slotR s hs).emb (Shape.reshapeEquiv_cons_one (n := 2) (d := ![256, 1024]) _ y)

theorem slotIdx_0 (s : Nat) (hs : s < 2) (y : S256x1024.Idx) : (slotIdx s hs y 0).val = s := by
  rw [slotIdx_eq, Rect.emb_apply]
  show s + 1 * 0 = s
  omega
theorem slotIdx_1 (s : Nat) (hs : s < 2) (y : S256x1024.Idx) : (slotIdx s hs y 1).val = (y 0).val := by
  rw [slotIdx_eq, Rect.emb_apply]
  show 0 + 1 * (y 0).val = (y 0).val
  omega
theorem slotIdx_2 (s : Nat) (hs : s < 2) (y : S256x1024.Idx) : (slotIdx s hs y 2).val = (y 1).val := by
  rw [slotIdx_eq, Rect.emb_apply]
  show 0 + 1 * (y 1).val = (y 1).val
  omega

/-- The slot as a 256 x 1024 array places its index y at `slotIdx s hs y` of the scratch array. -/
theorem slot_emb (M : Memref sig .tc .vmem S2x256x1024 .f32) (s : Nat) (hs : s < 2) (y : S256x1024.Idx) :
    (slotOf M s hs).view.emb y = M.view.emb (slotIdx s hs y) := rfl

/-- The slot as a 256 x 1024 array and as a box of the scratch array are the same elements. -/
theorem slot_set (M : Memref sig .tc .vmem S2x256x1024 .f32) (s : Nat) (hs : s < 2) :
    (slotOf M s hs).view.set = M.view.setOn (slotR s hs).toLoadRect.set := by
  exact (View.set_reshape (M.view.slice (slotR s hs)) _).trans (View.set_slice M.view (slotR s hs))

/-- The entry of the big array g that `spread g d k` puts at a slot's index y: row 16384 (d / 2) + 256 k + y 0, column y 1,
    the entry the chunk's rectangle places y at. -/
theorem spread_slotIdx {α : Type} (g : S32768x1024.Idx → α) (d : Dev nD) (k : Nat) (hk : k < 64) (s : Nat) (hs : s < 2)
    (y : S256x1024.Idx) : spread g d k (slotIdx s hs y) = g ((rowsR d k hk).emb y) := by
  unfold spread
  refine congrArg g (funext fun a => Fin.ext ?_)
  have hd : d.val < 4 := d.isLt
  have h0 := (y 0).isLt
  have h1 := (y 1).isLt
  match a with
  | ⟨0, _⟩ =>
    show (16384 * (d.val / 2) + 256 * k + (slotIdx s hs y 1).val) % 32768 = ((rowsR d k hk).emb y 0).val
    rw [slotIdx_1, rows_emb_row]
    have h0' : (y 0).val < 256 := h0
    omega
  | ⟨1, _⟩ =>
    show (slotIdx s hs y 2).val % 1024 = ((rowsR d k hk).emb y 1).val
    rw [slotIdx_2, rows_emb_col]
    have h1' : (y 1).val < 1024 := h1
    omega

/-! ## L2, L3: a chunk copied into a slot -/

theorem land_a_at (c : Dev nD) (k : Nat) (hk : k < 64) (s : Nat) (hs : s < 2) (fd : S2x256x1024.Idx → F .f32)
    (g : S32768x1024.Idx → F .f32) :
    ∀ i ∈ (slotOf aM s hs).view.set,
      (slotOf aM s hs).view.write (Elt F) fd ((xRows c k hk).view.read (Elt F) g) Finset.univ i = spread g c k i := by
  intro i hi
  obtain ⟨y, rfl⟩ := View.exists_emb_of_mem_set _ hi
  rw [View.write_emb_of_mem _ _ (Finset.mem_univ y), View.read_apply]
  exact (spread_slotIdx g c k hk s hs y).symm

theorem land_a (c : Dev nD) (k : Nat) (hk : k < 64) (s : Nat) (hs : s < 2) (fd : S2x256x1024.Idx → F .f32) :
    ((slotOf aM s hs).view.loc (c : Thread nD τ) ↦[(slotOf aM s hs).view.set]{fullShare}
        ((slotOf aM s hs).view.write (Elt F) fd ((xRows c k hk).view.read (Elt F) (xs m c)) Finset.univ) : sProp 𝕄)
      ⊢ slotHoldsA c s hs (spread (xs m c) c k) :=
  Entails.of_eq (pointsTo_congr (land_a_at c k hk s hs fd (xs m c)))

theorem land_b_at (c : Dev nD) (k : Nat) (hk : k < 64) (s : Nat) (hs : s < 2) (fd : S2x256x1024.Idx → F .f32)
    (g : S32768x1024.Idx → F .f32) :
    ∀ i ∈ (slotOf bM s hs).view.set,
      (slotOf bM s hs).view.write (Elt F) fd ((oRows c k hk).view.read (Elt F) g) Finset.univ i = spread g c k i := by
  intro i hi
  obtain ⟨y, rfl⟩ := View.exists_emb_of_mem_set _ hi
  rw [View.write_emb_of_mem _ _ (Finset.mem_univ y), View.read_apply]
  exact (spread_slotIdx g c k hk s hs y).symm

theorem land_b (c : Dev nD) (k : Nat) (hk : k < 64) (s : Nat) (hs : s < 2) (g : S32768x1024.Idx → F .f32)
    (fd : S2x256x1024.Idx → F .f32) :
    ((slotOf bM s hs).view.loc (c : Thread nD τ) ↦[(slotOf bM s hs).view.set]{fullShare}
        ((slotOf bM s hs).view.write (Elt F) fd ((oRows c k hk).view.read (Elt F) g) Finset.univ) : sProp 𝕄)
      ⊢ slotHoldsB c s hs (spread g c k) :=
  Entails.of_eq (pointsTo_congr (land_b_at c k hk s hs fd g))

/-! ## L7: a slot copied back into a chunk's rows -/

theorem land_st_at (c : Dev nD) (k : Nat) (hk : k < 64) (s : Nat) (hs : s < 2) (g : S32768x1024.Idx → F .f32)
    (fS : S2x256x1024.Idx → F .f32) (fd : S32768x1024.Idx → F .f32)
    (h : ∀ i ∈ (slotOf sM s hs).view.set, fS i = spread g c k i) :
    ∀ i ∈ (oRows c k hk).view.set,
      (oRows c k hk).view.write (Elt F) fd ((slotOf sM s hs).view.read (Elt F) fS) Finset.univ i = g i := by
  intro i hi
  obtain ⟨y, rfl⟩ := View.exists_emb_of_mem_set _ hi
  rw [View.write_emb_of_mem _ _ (Finset.mem_univ y), View.read_apply]
  have e := h _ ((slotOf sM s hs).view.emb_mem_set y)
  exact e.trans (spread_slotIdx g c k hk s hs y)

theorem land_st (c' c : Dev nD) (k : Nat) (hk : k < 64) (s : Nat) (hs : s < 2) (g : S32768x1024.Idx → F .f32)
    (fS : S2x256x1024.Idx → F .f32) (fd : S32768x1024.Idx → F .f32)
    (h : ∀ i ∈ (slotOf sM s hs).view.set, fS i = spread g c k i) :
    ((oRows c k hk).view.loc (c' : Thread nD τ) ↦[(oRows c k hk).view.set]{fullShare}
        ((oRows c k hk).view.write (Elt F) fd ((slotOf sM s hs).view.read (Elt F) fS) Finset.univ) : sProp 𝕄)
      ⊢ oHolds c' c k hk g :=
  Entails.of_eq (pointsTo_congr (land_st_at c k hk s hs g fS fd h))

/-! ## L4: a slot loaded as a 1 x 256 x 1024 box -/

/-- Chunk k of device d's half of a whole array g as the 1 x 256 x 1024 vector a load of a slot reads: entry (0, i, j) is
    g at row 16384 (d / 2) + 256 k + i, column j. (Rows and columns are taken mod the array's sizes as in `spread`.) -/
def chunkVec {α : Type} (g : S32768x1024.Idx → α) (d : Dev nD) (k : Nat) : S1x256x1024.Idx → α :=
  fun j => g (Shape.pair (⟨(16384 * (d.val / 2) + 256 * k + (j 1).val) % 32768, Nat.mod_lt _ (by decide)⟩ : Fin 32768)
    (⟨(j 2).val % 1024, Nat.mod_lt _ (by decide)⟩ : Fin 1024))

/-- `spread` at an index of the scratch array and `chunkVec` at an index of the box with the same two trailing
    coordinates are the same entry of g. -/
theorem spread_eq_chunkVec {α : Type} (g : S32768x1024.Idx → α) (d : Dev nD) (k : Nat) (j : S2x256x1024.Idx)
    (x : S1x256x1024.Idx) (h1 : (j 1).val = (x 1).val) (h2 : (j 2).val = (x 2).val) :
    spread g d k j = chunkVec g d k x := by
  unfold spread chunkVec
  simp only [h1, h2]

/-- The box places its index x at (s + x 0, x 1, x 2) of the scratch array. -/
theorem slotR_idx_1 (s : Nat) (hs : s < 2) (x : S1x256x1024.Idx) : ((slotR s hs).toLoadRect.idx x 1).val = (x 1).val := by
  rw [LoadRect.idx_apply]
  show 0 + 1 * (x 1).val = (x 1).val
  omega
theorem slotR_idx_2 (s : Nat) (hs : s < 2) (x : S1x256x1024.Idx) : ((slotR s hs).toLoadRect.idx x 2).val = (x 2).val := by
  rw [LoadRect.idx_apply]
  show 0 + 1 * (x 2).val = (x 2).val
  omega

/-- The slot as a 256 x 1024 array has the elements of the view a load or store through the box goes through. -/
theorem slot_set_access (M : Memref sig .tc .vmem S2x256x1024 .f32) (s : Nat) (hs : s < 2) :
    (slotOf M s hs).view.set = (M.access (slotR s hs)).set :=
  View.set_reshape (M.view.slice (slotR s hs)) _

/-- What a load of the box reads lies in the slot; what an unmasked store through the box writes lies in the slot. -/
theorem load_sub (M : Memref sig .tc .vmem S2x256x1024 .f32) (s : Nat) (hs : s < 2) :
    M.view.setOn (slotR s hs).toLoadRect.set ⊆ (slotOf M s hs).view.set := by
  rw [slot_set M s hs]
theorem load_sub_A (s : Nat) (hs : s < 2) : aM.view.setOn (slotR s hs).toLoadRect.set ⊆ (slotOf aM s hs).view.set := load_sub aM s hs
theorem load_sub_B (s : Nat) (hs : s < 2) : bM.view.setOn (slotR s hs).toLoadRect.set ⊆ (slotOf bM s hs).view.set := load_sub bM s hs
theorem load_sub_S (s : Nat) (hs : s < 2) : sM.view.setOn (slotR s hs).toLoadRect.set ⊆ (slotOf sM s hs).view.set := load_sub sM s hs
theorem store_sub (s : Nat) (hs : s < 2) : (sM.access (slotR s hs)).setOn Finset.univ ⊆ (slotOf sM s hs).view.set := by
  rw [slot_set_access sM s hs, View.setOn_univ]

theorem load_slotA (s : Nat) (hs : s < 2) (f : S2x256x1024.Idx → F .f32) (g : S32768x1024.Idx → F .f32) (c : Dev nD) (k : Nat)
    (h : ∀ i ∈ (slotOf aM s hs).view.set, f i = spread g c k i) :
    aM.view.readAt (Elt F) (slotR s hs).toLoadRect f = chunkVec g c k := by
  funext x
  rw [View.readAt_apply, View.read_apply]
  have hm : aM.view.emb ((slotR s hs).toLoadRect.idx x) ∈ (slotOf aM s hs).view.set := by
    rw [slot_set aM s hs]; exact aM.view.mem_setOn.mpr ((slotR s hs).toLoadRect.idx_mem x)
  exact (h _ hm).trans (spread_eq_chunkVec g c k _ x (slotR_idx_1 s hs x) (slotR_idx_2 s hs x))

theorem load_slotB (s : Nat) (hs : s < 2) (f : S2x256x1024.Idx → F .f32) (g : S32768x1024.Idx → F .f32) (c : Dev nD) (k : Nat)
    (h : ∀ i ∈ (slotOf bM s hs).view.set, f i = spread g c k i) :
    bM.view.readAt (Elt F) (slotR s hs).toLoadRect f = chunkVec g c k := by
  funext x
  rw [View.readAt_apply, View.read_apply]
  have hm : bM.view.emb ((slotR s hs).toLoadRect.idx x) ∈ (slotOf bM s hs).view.set := by
    rw [slot_set bM s hs]; exact bM.view.mem_setOn.mpr ((slotR s hs).toLoadRect.idx_mem x)
  exact (h _ hm).trans (spread_eq_chunkVec g c k _ x (slotR_idx_1 s hs x) (slotR_idx_2 s hs x))

theorem load_slotS (s : Nat) (hs : s < 2) (f : S2x256x1024.Idx → F .f32) (g : S32768x1024.Idx → F .f32) (c : Dev nD) (k : Nat)
    (h : ∀ i ∈ (slotOf sM s hs).view.set, f i = spread g c k i) :
    sM.view.readAt (Elt F) (slotR s hs).toLoadRect f = chunkVec g c k := by
  funext x
  rw [View.readAt_apply, View.read_apply]
  have hm : sM.view.emb ((slotR s hs).toLoadRect.idx x) ∈ (slotOf sM s hs).view.set := by
    rw [slot_set sM s hs]; exact sM.view.mem_setOn.mpr ((slotR s hs).toLoadRect.idx_mem x)
  exact (h _ hm).trans (spread_eq_chunkVec g c k _ x (slotR_idx_1 s hs x) (slotR_idx_2 s hs x))

/-! ## L5: the sum of two loaded chunks -/

/-- The stored vector is the two loaded ones added entry by entry: the two shape casts undo each other. -/
theorem sumPay_apply (va vb : Vec F S1x256x1024 .f32) (j : S1x256x1024.Idx) :
    sumPay va vb j = FloatOps.addf (va j) (vb j) := by
  unfold sumPay
  show FloatOps.addf (va (Shape.reshapeEquiv _ (Shape.reshapeEquiv _ j))) (vb (Shape.reshapeEquiv _ (Shape.reshapeEquiv _ j))) = _
  rw [Shape.reshapeEquiv_reshapeEquiv, Shape.reshapeEquiv_self]

theorem sumPay_chunk (c : Dev nD) (k : Nat) :
    sumPay (chunkVec (xs m c) c k) (chunkVec (xs m (nbrY c)) c k) = chunkVec (sumAt m c) c k := by
  funext j
  rw [sumPay_apply]
  rfl

/-! ## L6: the sum stored through the box -/

theorem store_slot_at (s : Nat) (hs : s < 2) (f : S2x256x1024.Idx → F .f32) (g : S32768x1024.Idx → F .f32) (c : Dev nD) (k : Nat) :
    ∀ i ∈ (slotOf sM s hs).view.set,
      (sM.access (slotR s hs)).write (Elt F) f (chunkVec g c k) Finset.univ i = spread g c k i := by
  intro i hi
  rw [slot_set_access sM s hs] at hi
  obtain ⟨x, rfl⟩ := View.exists_emb_of_mem_set _ hi
  rw [View.write_emb_of_mem _ _ (Finset.mem_univ x)]
  exact (spread_eq_chunkVec g c k _ x (slotR_idx_1 s hs x) (slotR_idx_2 s hs x)).symm

/-- The slot of the sum scratch of device c' after the store, restated at the contents `spread g c k`. -/
theorem store_slot (c' : Dev nD) (s : Nat) (hs : s < 2) (f : S2x256x1024.Idx → F .f32) (g : S32768x1024.Idx → F .f32)
    (c : Dev nD) (k : Nat) :
    ((sM.access (slotR s hs)).loc (c' : Thread nD τ) ↦[(slotOf sM s hs).view.set]{fullShare}
        ((sM.access (slotR s hs)).write (Elt F) f (chunkVec g c k) Finset.univ) : sProp 𝕄)
      ⊢ ((slotOf sM s hs).view.loc (c' : Thread nD τ) ↦[(slotOf sM s hs).view.set]{fullShare} spread g c k) :=
  Entails.of_eq (pointsTo_congr (store_slot_at s hs f g c k))

/-! ## The two half shares of a slot of the sum scratch -/

/-- Two halves held over possibly different contents agree on the slot, and join. -/
theorem halves_join {ℓ : Loc nD τ sig} {I : Finset (Idx ℓ)} (f g : Buf (Elt F) ℓ) :
    iprop((ℓ ↦[I]{qL} f) ∗ ℓ ↦[I]{qR} g) ⊢ (ℓ ↦[I]{fullShare} f : sProp 𝕄) :=
  Laws.pure_elim _ pointsTo_agree fun hag => by
    rw [pointsTo_congr (f := g) (g := f) fun i hi => ((hag i (Finset.mem_inter.mpr ⟨hi, hi⟩)).1).symm]
    exact (pointsTo_share (PosShare.mem_left_op_right fullShare)).2

theorem slotS_join (c : Dev nD) (s : Nat) (hs : s < 2) :
    iprop(slotSomeS (F := F) c s hs qL ∗ slotSomeS (F := F) c s hs qR)
      ⊢ (iprop(∃ f : S2x256x1024.Idx → F .f32,
          (slotOf sM s hs).view.loc (c : Thread nD τ) ↦[(slotOf sM s hs).view.set]{fullShare} f) : sProp 𝕄) := by
  unfold slotSomeS
  iintro ⟨⟨%f, Hf⟩, ⟨%g, Hg⟩⟩
  iexists f
  iapply (halves_join f g)
  isplitl [Hf]
  · iexact Hf
  · iexact Hg

theorem slotS_split (c : Dev nD) (s : Nat) (hs : s < 2) (f : S2x256x1024.Idx → F .f32) :
    ((slotOf sM s hs).view.loc (c : Thread nD τ) ↦[(slotOf sM s hs).view.set]{fullShare} f : sProp 𝕄)
      ⊢ iprop(((slotOf sM s hs).view.loc (c : Thread nD τ) ↦[(slotOf sM s hs).view.set]{qL} f)
          ∗ ((slotOf sM s hs).view.loc (c : Thread nD τ) ↦[(slotOf sM s hs).view.set]{qR} f)) :=
  (pointsTo_share (PosShare.mem_left_op_right fullShare)).1

/-- info: 'Cert.Kernel.Hand.land_y' depends on axioms: [propext, Classical.choice, Quot.sound] -/
#guard_msgs in #print axioms land_y

/-- info: 'Cert.Kernel.Hand.land_a' depends on axioms: [propext, Classical.choice, Quot.sound] -/
#guard_msgs in #print axioms land_a

/-- info: 'Cert.Kernel.Hand.land_b' depends on axioms: [propext, Classical.choice, Quot.sound] -/
#guard_msgs in #print axioms land_b

/-- info: 'Cert.Kernel.Hand.land_st' depends on axioms: [propext, Classical.choice, Quot.sound] -/
#guard_msgs in #print axioms land_st

/-- info: 'Cert.Kernel.Hand.load_slotA' depends on axioms: [propext, Classical.choice, Quot.sound] -/
#guard_msgs in #print axioms load_slotA

/-- info: 'Cert.Kernel.Hand.load_slotB' depends on axioms: [propext, Classical.choice, Quot.sound] -/
#guard_msgs in #print axioms load_slotB

/-- info: 'Cert.Kernel.Hand.load_slotS' depends on axioms: [propext, Classical.choice, Quot.sound] -/
#guard_msgs in #print axioms load_slotS

/-- info: 'Cert.Kernel.Hand.sumPay_chunk' depends on axioms: [propext, Classical.choice, Quot.sound] -/
#guard_msgs in #print axioms sumPay_chunk

/-- info: 'Cert.Kernel.Hand.store_slot' depends on axioms: [propext, Classical.choice, Quot.sound] -/
#guard_msgs in #print axioms store_slot

/-- info: 'Cert.Kernel.Hand.slotS_join' depends on axioms: [propext, Classical.choice, Quot.sound] -/
#guard_msgs in #print axioms slotS_join

/-- info: 'Cert.Kernel.Hand.slotS_split' depends on axioms: [propext, Classical.choice, Quot.sound] -/
#guard_msgs in #print axioms slotS_split

end Cert.Kernel.Hand

end
-- ==== Proof.Bits.Steps.lean ====
/-
  The steps of the protocol, each proved once at a symbolic device and a symbolic chunk: the y-copy of a chunk; the pair of
  waits that frees a sum slot; a chunk's own operations; the wait for the x-neighbour's copy. Each is the library's rule for
  its operations, applied in program order: a copy pays its duties with the tokens the device holds and hands over the
  buffers the schedule names; a wait takes the rest of its cell's round and receives the round's payloads.
-/
import proofs.«900147_g7700000000000148_dist_ar_v7x_xy2x2_y_m32768_n1024_f32_1_alg».proof.Proof.Bits.StepDefs
import proofs.«900147_g7700000000000148_dist_ar_v7x_xy2x2_y_m32768_n1024_f32_1_alg».proof.Proof.Bits.Tables
import proofs.«900147_g7700000000000148_dist_ar_v7x_xy2x2_y_m32768_n1024_f32_1_alg».proof.Proof.Bits.GeomSplit
import proofs.«900147_g7700000000000148_dist_ar_v7x_xy2x2_y_m32768_n1024_f32_1_alg».proof.Proof.Bits.GeomLand
import proofs.«900147_g7700000000000148_dist_ar_v7x_xy2x2_y_m32768_n1024_f32_1_alg».proof.Proof.LibChain

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
/-- The y-copy of chunk k: the chunk's rows of x (at the left half share) go to the y-neighbour's result rows, which this
    device holds since the handshake; the copy pays this device's y-send duty and the neighbour's y-receive duty. -/
theorem yStep (K : GSem nD τ sig → ℕ) (c : Dev nD) (k : Nat) (hk : k < 64) (W : Waits sig Unit) :
    iprop(records m K ∗ xHolds m c k hk qL ∗ oSome (F := F) (nbrY c) c k hk
        ∗ dutyTok ER (ysCell c k hk) 0 false ∗ dutyTok ER (yrCell (nbrY c) k hk) 0 false
        ∗ owes (c : Thread nD τ) (owedX c 0 + owedY c k) W)
      ⊢ wp frame (wpE (defs₀ (F := F)) 𝒱₀ c none) Set.univ (yEnq c k hk)
          (fun _ => iprop(cred (tallyAt (ysCell c k hk) () No) ∗ owes (c : Thread nD τ) (owedX c 0 + owedY c (k + 1)) W)) := by
  unfold oSome xHolds
  iintro ⟨#HR, Hx, ⟨%fd, Ho⟩, Hts, Htr, HO⟩
  unfold yEnq
  simp only [Prog.lift]
  ihave HIs := (inv_of_records m K (mem_allCells_dma c (ysS k hk))) $$ HR
  ihave HIr := (inv_of_records m K (mem_allCells_dma (nbrY c) (yrS k hk))) $$ HR
  ihave Hrs := (reached_of_records m K (mem_allCells_dma c (ysS k hk))) $$ HR
  ihave Hrr := (reached_of_records m K (mem_allCells_dma (nbrY c) (yrS k hk))) $$ HR
  iapply (Rounds.wp_send_pointsTo 𝒱₀ ER (sched m) (c : Thread nD τ) none (c' := (nbrY c : Thread nD τ))
      (src := xRows c k hk) (dst := oRows c k hk) (sS := .dma (ysS k hk)) (sem := .dma (yrS k hk)) (q := qL) (fs := xs m c) (fd := fd)
      (κ₁ := K (ysCell c k hk)) (κ₂ := K (yrCell (nbrY c) k hk)) (r₁ := 0) (r₂ := 0) (d₁ := false) (d₂ := false)
      (by rw [duties_ys m]; exact Finset.mem_singleton_self _) (by rw [duties_yr m]; exact Finset.mem_singleton_self _)
      () () No (oRows_credit c k hk) (amount_ys m c k hk false) (amount_yr m (nbrY c) k hk false)
      (O₀ := owedX c 0 + owedY c k) (owedX c 0 + owedY c (k + 1)) (by rw [owedY_succ c k hk, add_assoc]) (W := W)
      (by rw [payload_ys m]; exact BI.Entails.refl _)
      (by rw [payload_yr m, nbrY_nbrY]; exact land_y m (nbrY c) c k hk (rowsR_nbrY c k hk).symm fd)) $$ [Hx Ho HO Hts Htr]
  · isplitr; · iexact HIs
    isplitr; · iexact HIr
    isplitl [Hx]; · iexact Hx
    isplitl [Ho]; · iexact Ho
    isplitl [HO]; · iexact HO
    isplitl [Hts]; · iexact Hts
    isplitr; · iexact Hrs
    isplitl [Htr]; · iexact Htr
    iexact Hrr
  iintro ⟨Hc, HO⟩
  rw [wp_ret]; imodintro
  isplitl [Hc] <;> iassumption

/-- The two waits that free the sum slot of chunk j: the store-back has landed (the chunk's result rows hold the sum), the
    x-copy's source is read (the slot's other half share is back). -/
theorem waitsStep (K : GSem nD τ sig → ℕ) (c : Dev nD) (j : Nat) (hj : j < 64) (i : Nat) :
    iprop(records m K ∗ levAts Lset lv ∗ slotBusy (F := F) c (j % 2) (slot_lt j) (j / 2) j hj ∗ owesX (F := F) c i)
      ⊢ wp frame (wpE (defs₀ (F := F)) 𝒱₀ c none) Set.univ (waitsFor c j hj)
          (fun _ => iprop(slotFree (F := F) c (j % 2) (slot_lt j) (j / 2 + 1) ∗ oHolds c c j hj (sumAt m c)
            ∗ atPos ER (xsCell c j hj) 1 ∅ 0 ∗ owesX (F := F) c i)) := by
  unfold slotBusy owesX
  iintro ⟨#HR, #Hlev, ⟨Hab, Hpa, Hpb, #Hra, #Hrb, Hcst, Hpst, #Hrst, Hcxs, Hpxs⟩, ⟨%W, HO⟩⟩
  unfold waitsFor
  simp only [Prog.lift, bind_pure_comp, Prog.bind_op, Prog.bind_ret, bind, Prog.bind]
  ihave HIst := (inv_of_records m K (mem_allCells_dma c (stS (j % 2) (slot_lt j)))) $$ HR
  ihave HIxs := (inv_of_records m K (mem_allCells_dma c (xsS j hj))) $$ HR
  -- the store-back's wait
  iapply (Rounds.wp_wait_rest_token 𝒱₀ ER (sched m) (c : Thread nD τ) none (κ := K (stCell c (j % 2) (slot_lt j)))
      (wpE_waitDma2_eq 𝒱₀ (c : Thread nD τ) none Set.univ) (Set.mem_univ _) () (O := owedX c i) (W := W) (R := j / 2) (m := 0) (T := ∅)
      (by rw [Nat.zero_add, expect_st_k m c j hj, oRows_credit])) $$ [Hcst HO Hpst]
  · isplitr; · iexact HIst
    isplitl [Hcst]; · rw [oRows_credit]; iexact Hcst
    isplitl [HO]; · iexact HO
    isplitr; · iapply (mayWait_low c _ (lv_st c _ _) i); iexact Hlev
    iexact Hpst
  iintro ⟨HO, Hpst, #Hrst', Hpay⟩
  ihave Hp := (Entails.of_eq (rest_st_k m c j hj)) $$ Hpay
  icases Hp with ⟨Hout, HsR⟩
  -- the x-copy's send wait
  iapply (Rounds.wp_wait_rest_token 𝒱₀ ER (sched m) (c : Thread nD τ) none (κ := K (xsCell c j hj))
      (wpE_waitDma2_eq 𝒱₀ (c : Thread nD τ) none Set.univ) (Set.mem_univ _) () (O := owedX c i) (R := 0) (m := 0) (T := ∅)
      (by rw [Nat.zero_add, expect_xs m c j hj, slotS_credit])) $$ [Hcxs HO Hpxs]
  · isplitr; · iexact HIxs
    isplitl [Hcxs]; · rw [slotS_credit]; iexact Hcxs
    isplitl [HO]; · iexact HO
    isplitr; · iapply (mayWait_low c _ (lv_xs c j hj) i); iexact Hlev
    iexact Hpxs
  iintro ⟨HO, Hpxs, -, Hpay⟩
  ihave HsL := (Entails.of_eq (rest_xs m c j hj)) $$ Hpay
  ihave Hs := (slotS_join c (j % 2) (slot_lt j)) $$ [HsL HsR]
  · isplitl [HsL] <;> iassumption
  rw [wp_ret]; imodintro
  unfold slotFree
  isplitl [Hab Hs Hpa Hpb Hpst]
  · isplitl [Hab]; · iexact Hab
    isplitl [Hs]; · iexact Hs
    isplitl [Hpa]; · iexact Hpa
    isplitl [Hpb]; · iexact Hpb
    isplitl [Hpst]; · iexact Hpst
    isplitr; · iexact Hra
    isplitr; · iexact Hrb
    iexact Hrst'
  isplitl [Hout]; · iexact Hout
  isplitl [Hpxs]; · iexact Hpxs
  iexists _; iexact HO

/-! ## A chunk's own operations, in three parts -/

/-- What the first part leaves: both slots filled with the chunk's rows of x and of the y-neighbour's x, the rows
    themselves (x at the right half share, the result rows whole), the two local cells a round further, the y-receive cell
    consumed. -/
def midA (c : Dev nD) (k : Nat) (hk : k < 64) : sProp 𝕄 :=
  iprop(slotHoldsA c (k % 2) (slot_lt k) (spread (xs m c) c k) ∗ xHolds m c k hk qR
    ∗ slotHoldsB c (k % 2) (slot_lt k) (spread (xs m (nbrY c)) c k) ∗ oHolds c c k hk (xs m (nbrY c))
    ∗ atPos ER (aCell c (k % 2) (slot_lt k)) (k / 2 + 1) ∅ 0 ∗ atPos ER (bCell c (k % 2) (slot_lt k)) (k / 2 + 1) ∅ 0
    ∗ reached ER (aCell c (k % 2) (slot_lt k)) (k / 2 + 1) ∗ reached ER (bCell c (k % 2) (slot_lt k)) (k / 2 + 1)
    ∗ atPos ER (yrCell c k hk) 1 ∅ 0)

set_option maxHeartbeats 1600000 in
theorem coreA_ok (K : GSem nD τ sig → ℕ) (c : Dev nD) (k : Nat) (hk : k < 64) (Q : PUnit → sProp 𝕄) :
    iprop(records m K ∗ levAts Lset lv
        ∗ (cred (tallyAt (yrCell c k hk) () No) ∗ atPos ER (yrCell c k hk) 0 ∅ 0 ∗ xHolds m c k hk qR
          ∗ dutyTok ER (aCell c (k % 2) (slot_lt k)) (k / 2) false ∗ dutyTok ER (bCell c (k % 2) (slot_lt k)) (k / 2) false)
        ∗ (abSome (F := F) c (k % 2) (slot_lt k)
          ∗ atPos ER (aCell c (k % 2) (slot_lt k)) (k / 2) ∅ 0 ∗ atPos ER (bCell c (k % 2) (slot_lt k)) (k / 2) ∅ 0
          ∗ reached ER (aCell c (k % 2) (slot_lt k)) (k / 2) ∗ reached ER (bCell c (k % 2) (slot_lt k)) (k / 2))
        ∗ owesX (F := F) c k
        ∗ (iprop(midA m c k hk ∗ owesX (F := F) c k) -∗ Q ⟨⟩))
      ⊢ wp frame (wpE (defs₀ (F := F)) 𝒱₀ c none) Set.univ (coreA c k hk) Q := by
  unfold abSome owesX
  iintro ⟨#HR, #Hlev, ⟨Hcyr, Hpyr, HxR, Hta, Htb⟩, ⟨⟨⟨%fa, Ha⟩, ⟨%fb, Hb⟩⟩, Hpa, Hpb, #Hra, #Hrb⟩, ⟨%W, HO⟩, Hk⟩
  unfold coreA
  simp only [Prog.lift, bind_pure_comp, Prog.bind_op, Prog.bind_ret, bind, Prog.bind]
  ihave HIa := (inv_of_records m K (mem_allCells_dma c (aS (k % 2) (slot_lt k)))) $$ HR
  ihave HIb := (inv_of_records m K (mem_allCells_dma c (bS (k % 2) (slot_lt k)))) $$ HR
  ihave HIyr := (inv_of_records m K (mem_allCells_dma c (yrS k hk))) $$ HR
  -- x's rows into slot a
  unfold xHolds
  iapply (Rounds.wp_copy_pointsTo 𝒱₀ ER (sched m) (c : Thread nD τ) none
      (src := xRows c k hk) (dst := slotOf aM (k % 2) (slot_lt k)) (sem := .dma (aS (k % 2) (slot_lt k))) (q := qR) (fs := xs m c) (fd := fa)
      (κ := K (aCell c (k % 2) (slot_lt k))) (r := k / 2) (d := false)
      (by rw [duties_a_k m c k hk]; exact Finset.mem_singleton_self _) () Na (slotA_credit _ _) (amount_a_k m c k hk false)
      (by rw [payload_a_k m c k hk]; exact BIClass.sep_mono (land_a m c k hk _ _ fa) (BI.Entails.refl _))) $$ [HxR Ha Hta]
  · isplitr; · iexact HIa
    isplitl [HxR]; · iexact HxR
    isplitl [Ha]; · iexact Ha
    isplitl [Hta]; · iexact Hta
    iexact Hra
  iintro Hca
  -- the y-neighbour's rows have landed
  iapply (Rounds.wp_wait_rest_token 𝒱₀ ER (sched m) (c : Thread nD τ) none (κ := K (yrCell c k hk))
      (wpE_waitDma2_eq 𝒱₀ (c : Thread nD τ) none Set.univ) (Set.mem_univ _) () (O := owedX c k) (W := W) (R := 0) (m := 0) (T := ∅)
      (by rw [Nat.zero_add, expect_yr m c k hk, oRows_credit])) $$ [Hcyr HO Hpyr]
  · isplitr; · iexact HIyr
    isplitl [Hcyr]; · rw [oRows_credit]; iexact Hcyr
    isplitl [HO]; · iexact HO
    isplitr; · iapply (mayWait_yr c k hk k); iexact Hlev
    iexact Hpyr
  iintro ⟨HO, Hpyr, -, Hpay⟩
  ihave Hout := (Entails.of_eq (rest_yr m c k hk)) $$ Hpay
  -- they go into slot b
  unfold oHolds
  iapply (Rounds.wp_copy_pointsTo 𝒱₀ ER (sched m) (c : Thread nD τ) none
      (src := oRows c k hk) (dst := slotOf bM (k % 2) (slot_lt k)) (sem := .dma (bS (k % 2) (slot_lt k))) (q := fullShare) (fs := xs m (nbrY c)) (fd := fb)
      (κ := K (bCell c (k % 2) (slot_lt k))) (r := k / 2) (d := false)
      (by rw [duties_b_k m c k hk]; exact Finset.mem_singleton_self _) () Nb (slotB_credit _ _) (amount_b_k m c k hk false)
      (by rw [payload_b_k m c k hk]; exact BIClass.sep_mono (land_b c k hk _ _ (xs m (nbrY c)) fb) (BI.Entails.refl _))) $$ [Hout Hb Htb]
  · isplitr; · iexact HIb
    isplitl [Hout]; · iexact Hout
    isplitl [Hb]; · iexact Hb
    isplitl [Htb]; · iexact Htb
    iexact Hrb
  iintro Hcb
  -- both local copies awaited
  iapply (Rounds.wp_wait_rest_token 𝒱₀ ER (sched m) (c : Thread nD τ) none (κ := K (aCell c (k % 2) (slot_lt k)))
      (wpE_waitDma2_eq 𝒱₀ (c : Thread nD τ) none Set.univ) (Set.mem_univ _) () (O := owedX c k) (R := k / 2) (m := 0) (T := ∅)
      (by rw [Nat.zero_add, expect_a_k m c k hk, slotA_credit])) $$ [Hca HO Hpa]
  · isplitr; · iexact HIa
    isplitl [Hca]; · rw [slotA_credit]; iexact Hca
    isplitl [HO]; · iexact HO
    isplitr; · iapply (mayWait_low c _ (lv_a c _ _) k); iexact Hlev
    iexact Hpa
  iintro ⟨HO, Hpa, #Hra', Hpay⟩
  ihave Hp := (Entails.of_eq (rest_a_k m c k hk)) $$ Hpay
  icases Hp with ⟨Ha, HxR⟩
  iapply (Rounds.wp_wait_rest_token 𝒱₀ ER (sched m) (c : Thread nD τ) none (κ := K (bCell c (k % 2) (slot_lt k)))
      (wpE_waitDma2_eq 𝒱₀ (c : Thread nD τ) none Set.univ) (Set.mem_univ _) () (O := owedX c k) (R := k / 2) (m := 0) (T := ∅)
      (by rw [Nat.zero_add, expect_b_k m c k hk, slotB_credit])) $$ [Hcb HO Hpb]
  · isplitr; · iexact HIb
    isplitl [Hcb]; · rw [slotB_credit]; iexact Hcb
    isplitl [HO]; · iexact HO
    isplitr; · iapply (mayWait_low c _ (lv_b c _ _) k); iexact Hlev
    iexact Hpb
  iintro ⟨HO, Hpb, #Hrb', Hpay⟩
  ihave Hp := (Entails.of_eq (rest_b_k m c k hk)) $$ Hpay
  icases Hp with ⟨Hb, Hout⟩
  rw [wp_ret]; imodintro
  iapply Hk
  unfold midA
  isplitr [HO]
  · isplitl [Ha]; · iexact Ha
    isplitl [HxR]; · iexact HxR
    isplitl [Hb]; · iexact Hb
    isplitl [Hout]; · iexact Hout
    isplitl [Hpa]; · iexact Hpa
    isplitl [Hpb]; · iexact Hpb
    isplitr; · iexact Hra'
    isplitr; · iexact Hrb'
    iexact Hpyr
  iexists _; iexact HO

set_option maxHeartbeats 1600000 in
/-- The second part: the loads read the chunk's rows of x and of the y-neighbour's x, and the store leaves their sum, the
    chunk's rows of the device's sum, in the sum slot. -/
theorem coreB_ok (c : Dev nD) (k : Nat) (Q : PUnit → sProp 𝕄) :
    iprop(slotHoldsA c (k % 2) (slot_lt k) (spread (xs m c) c k) ∗ slotHoldsB c (k % 2) (slot_lt k) (spread (xs m (nbrY c)) c k)
        ∗ (∃ f : S2x256x1024.Idx → F .f32, (slotOf sM (k % 2) (slot_lt k)).view.loc (c : Thread nD τ) ↦[(slotOf sM (k % 2) (slot_lt k)).view.set]{fullShare} f)
        ∗ (iprop(abSome (F := F) c (k % 2) (slot_lt k)
            ∗ ((slotOf sM (k % 2) (slot_lt k)).view.loc (c : Thread nD τ) ↦[(slotOf sM (k % 2) (slot_lt k)).view.set]{fullShare} spread (sumAt m c) c k)) -∗ Q ⟨⟩))
      ⊢ wp frame (wpE (defs₀ (F := F)) 𝒱₀ c none) Set.univ (coreB k) Q := by
  unfold slotHoldsA slotHoldsB
  iintro ⟨Ha, Hb, ⟨%fs, Hs⟩, Hk⟩
  unfold coreB
  simp only [Prog.lift, bind_pure_comp, Prog.bind_op, Prog.bind_ret, bind, Prog.bind]
  iapply (wp_load 𝒱₀ (c : Thread nD τ) none Set.univ (m := aM) (load_sub_A _ _)) $$ Ha; iintro Ha
  rw [load_slotA (k % 2) (slot_lt k) _ (xs m c) c k (fun _ _ => rfl)]
  iapply (wp_load 𝒱₀ (c : Thread nD τ) none Set.univ (m := bM) (load_sub_B _ _)) $$ Hb; iintro Hb
  rw [load_slotB (k % 2) (slot_lt k) _ (xs m (nbrY c)) c k (fun _ _ => rfl)]
  iapply (wp_load 𝒱₀ (c : Thread nD τ) none Set.univ (m := sM) (load_sub_S _ _)) $$ Hs; iintro Hs
  iapply (wp_store 𝒱₀ (c : Thread nD τ) none Set.univ (m := sM) (r := slotR (k % 2) (slot_lt k)) (Mk := Finset.univ) (store_sub _ _)) $$ Hs; iintro Hs
  rw [sumPay_chunk m c k]
  ihave Hs' := (store_slot c (k % 2) (slot_lt k) fs (sumAt m c) c k) $$ Hs
  rw [wp_ret]; imodintro
  iapply Hk
  unfold abSome
  isplitl [Ha Hb]
  · isplitl [Ha]
    · iexists _; iexact Ha
    · iexists _; iexact Hb
  iexact Hs'

set_option maxHeartbeats 1600000 in
/-- The third part: the sum slot, at its two half shares, copied back to the chunk's result rows and to the
    x-neighbour's; then the y-copy's source released. -/
theorem coreC_ok (K : GSem nD τ sig → ℕ) (c : Dev nD) (k : Nat) (hk : k < 64) (Q : PUnit → sProp 𝕄) :
    iprop(records m K ∗ levAts Lset lv
        ∗ ((slotOf sM (k % 2) (slot_lt k)).view.loc (c : Thread nD τ) ↦[(slotOf sM (k % 2) (slot_lt k)).view.set]{fullShare} spread (sumAt m c) c k)
        ∗ oHolds c c k hk (xs m (nbrY c))
        ∗ (cred (tallyAt (ysCell c k hk) () No) ∗ atPos ER (ysCell c k hk) 0 ∅ 0
          ∗ oSome (F := F) (nbrX c) c k hk
          ∗ dutyTok ER (xsCell c k hk) 0 false ∗ dutyTok ER (xrCell (nbrX c) k hk) 0 false
          ∗ dutyTok ER (stCell c (k % 2) (slot_lt k)) (k / 2) false ∗ reached ER (stCell c (k % 2) (slot_lt k)) (k / 2))
        ∗ owesX (F := F) c k
        ∗ (iprop(xHolds m c k hk qL ∗ atPos ER (ysCell c k hk) 1 ∅ 0
            ∗ cred (tallyAt (stCell c (k % 2) (slot_lt k)) () No) ∗ cred (tallyAt (xsCell c k hk) () No)
            ∗ owesX (F := F) c (k + 1)) -∗ Q ⟨⟩))
      ⊢ wp frame (wpE (defs₀ (F := F)) 𝒱₀ c none) Set.univ (coreC c k hk) Q := by
  unfold owesX oSome oHolds
  iintro ⟨#HR, #Hlev, Hs, Hout, ⟨Hcys, Hpys, ⟨%fdx, Hox⟩, Htxs, Htxr, Htst, #Hrst⟩, ⟨%W, HO⟩, Hk⟩
  unfold coreC
  simp only [Prog.lift, bind_pure_comp, Prog.bind_op, Prog.bind_ret, bind, Prog.bind]
  ihave HIst := (inv_of_records m K (mem_allCells_dma c (stS (k % 2) (slot_lt k)))) $$ HR
  ihave HIys := (inv_of_records m K (mem_allCells_dma c (ysS k hk))) $$ HR
  ihave HIxs := (inv_of_records m K (mem_allCells_dma c (xsS k hk))) $$ HR
  ihave HIxr := (inv_of_records m K (mem_allCells_dma (nbrX c) (xrS k hk))) $$ HR
  ihave Hrxs := (reached_of_records m K (mem_allCells_dma c (xsS k hk))) $$ HR
  ihave Hrxr := (reached_of_records m K (mem_allCells_dma (nbrX c) (xrS k hk))) $$ HR
  ihave Hs2 := (slotS_split c (k % 2) (slot_lt k) _) $$ Hs
  icases Hs2 with ⟨HsL, HsR⟩
  -- the store-back
  iapply (Rounds.wp_copy_pointsTo 𝒱₀ ER (sched m) (c : Thread nD τ) none
      (src := slotOf sM (k % 2) (slot_lt k)) (dst := oRows c k hk) (sem := .dma (stS (k % 2) (slot_lt k))) (q := qR)
      (fs := spread (sumAt m c) c k) (fd := xs m (nbrY c))
      (κ := K (stCell c (k % 2) (slot_lt k))) (r := k / 2) (d := false)
      (by rw [duties_st_k m c k hk]; exact Finset.mem_singleton_self _) () No (oRows_credit _ _ _) (amount_st_k m c k hk false)
      (by
        rw [payload_st_k m c k hk]
        refine BIClass.sep_mono (land_st c c k hk _ _ (sumAt m c) _ _ (fun _ _ => rfl)) ?_
        unfold slotSomeS; iintro H; iexists _; iexact H)) $$ [HsR Hout Htst]
  · isplitr; · iexact HIst
    isplitl [HsR]; · iexact HsR
    isplitl [Hout]; · iexact Hout
    isplitl [Htst]; · iexact Htst
    iexact Hrst
  iintro Hcst
  -- the copy to the x-neighbour
  iapply (Rounds.wp_send_pointsTo 𝒱₀ ER (sched m) (c : Thread nD τ) none (c' := (nbrX c : Thread nD τ))
      (src := slotOf sM (k % 2) (slot_lt k)) (dst := oRows c k hk) (sS := .dma (xsS k hk)) (sem := .dma (xrS k hk)) (q := qL)
      (fs := spread (sumAt m c) c k) (fd := fdx)
      (κ₁ := K (xsCell c k hk)) (κ₂ := K (xrCell (nbrX c) k hk)) (r₁ := 0) (r₂ := 0) (d₁ := false) (d₂ := false)
      (by rw [duties_xs m]; exact Finset.mem_singleton_self _) (by rw [duties_xr m]; exact Finset.mem_singleton_self _)
      () () No (oRows_credit c k hk) (amount_xs m c k hk false) (amount_xr m (nbrX c) k hk false)
      (O₀ := owedX c k) (owedX c (k + 1)) (owedX_succ c k hk)
      (by rw [payload_xs m]; unfold slotSomeS; iintro H; iexists _; iexact H)
      (by rw [payload_xr m, nbrX_nbrX]; exact land_st (nbrX c) c k hk _ _ (sumAt m c) _ fdx (fun _ _ => rfl))) $$ [HsL Hox HO Htxs Htxr]
  · isplitr; · iexact HIxs
    isplitr; · iexact HIxr
    isplitl [HsL]; · iexact HsL
    isplitl [Hox]; · iexact Hox
    isplitl [HO]; · iexact HO
    isplitl [Htxs]; · iexact Htxs
    isplitr; · iexact Hrxs
    isplitl [Htxr]; · iexact Htxr
    iexact Hrxr
  iintro ⟨Hcxs, HO⟩
  -- the y-copy's source released
  iapply (Rounds.wp_wait_rest_token 𝒱₀ ER (sched m) (c : Thread nD τ) none (κ := K (ysCell c k hk))
      (wpE_waitDma2_eq 𝒱₀ (c : Thread nD τ) none Set.univ) (Set.mem_univ _) () (O := owedX c (k + 1)) (R := 0) (m := 0) (T := ∅)
      (by rw [Nat.zero_add, expect_ys m c k hk, xRows_credit])) $$ [Hcys HO Hpys]
  · isplitr; · iexact HIys
    isplitl [Hcys]; · rw [xRows_credit]; iexact Hcys
    isplitl [HO]; · iexact HO
    isplitr; · iapply (mayWait_low c _ (lv_ys c k hk) (k + 1)); iexact Hlev
    iexact Hpys
  iintro ⟨HO, Hpys, -, Hpay⟩
  ihave HxL := (Entails.of_eq (rest_ys m c k hk)) $$ Hpay
  rw [wp_ret]; imodintro
  iapply Hk
  isplitl [HxL]; · iexact HxL
  isplitl [Hpys]; · iexact Hpys
  isplitl [Hcst]; · iexact Hcst
  isplitl [Hcxs]; · iexact Hcxs
  iexists _; iexact HO

/-- Chunk k's own operations, from its slot free and what the step consumes, to its slot busy and what the step leaves;
    the device pays the x-copy of chunk k off what it owes. -/
theorem coreStep (K : GSem nD τ sig → ℕ) (c : Dev nD) (k : Nat) (hk : k < 64) :
    iprop(records m K ∗ levAts Lset lv ∗ stepPre m c k hk ∗ slotFree (F := F) c (k % 2) (slot_lt k) (k / 2) ∗ owesX (F := F) c k)
      ⊢ wp frame (wpE (defs₀ (F := F)) 𝒱₀ c none) Set.univ (core c k hk)
          (fun _ => iprop(stepPost m c k hk ∗ slotBusy (F := F) c (k % 2) (slot_lt k) (k / 2) k hk ∗ owesX (F := F) c (k + 1))) := by
  unfold stepPre slotFree
  iintro ⟨#HR, #Hlev, ⟨Hcyr, Hpyr, Hcys, Hpys, Hpxs, HxR, Hox, Htxs, Htxr, Hta, Htb, Htst⟩,
    ⟨Hab, Hs, Hpa, Hpb, Hpst, #Hra, #Hrb, #Hrst⟩, HO⟩
  unfold core
  rw [wp_bind, wp_bind]
  iapply (coreA_ok m K c k hk) $$ [Hcyr Hpyr HxR Hta Htb Hab Hpa Hpb HO Hs Hcys Hpys Hpxs Hox Htxs Htxr Htst Hpst]
  isplitr; · iexact HR
  isplitr; · iexact Hlev
  isplitl [Hcyr Hpyr HxR Hta Htb]
  · isplitl [Hcyr]; · iexact Hcyr
    isplitl [Hpyr]; · iexact Hpyr
    isplitl [HxR]; · iexact HxR
    isplitl [Hta]; · iexact Hta
    iexact Htb
  isplitl [Hab Hpa Hpb]
  · isplitl [Hab]; · iexact Hab
    isplitl [Hpa]; · iexact Hpa
    isplitl [Hpb]; · iexact Hpb
    isplitr; · iexact Hra
    iexact Hrb
  isplitl [HO]; · iexact HO
  unfold midA
  iintro ⟨⟨Ha, HxR, Hb, Hout, Hpa, Hpb, #Hra', #Hrb', Hpyr⟩, HO⟩
  iapply (coreB_ok m c k) $$ [Ha Hb Hs Hout HxR Hpa Hpb Hpyr HO Hcys Hpys Hpxs Hox Htxs Htxr Htst Hpst]
  isplitl [Ha]; · iexact Ha
  isplitl [Hb]; · iexact Hb
  isplitl [Hs]; · iexact Hs
  iintro ⟨Hab, Hs⟩
  iapply (coreC_ok m K c k hk) $$ [Hs Hout Hcys Hpys Hox Htxs Htxr Htst HO Hab HxR Hpa Hpb Hpyr Hpxs Hpst]
  isplitr; · iexact HR
  isplitr; · iexact Hlev
  isplitl [Hs]; · iexact Hs
  isplitl [Hout]; · iexact Hout
  isplitl [Hcys Hpys Hox Htxs Htxr Htst]
  · isplitl [Hcys]; · iexact Hcys
    isplitl [Hpys]; · iexact Hpys
    isplitl [Hox]; · iexact Hox
    isplitl [Htxs]; · iexact Htxs
    isplitl [Htxr]; · iexact Htxr
    isplitl [Htst]; · iexact Htst
    iexact Hrst
  isplitl [HO]; · iexact HO
  iintro ⟨HxL, Hpys, Hcst, Hcxs, HO⟩
  unfold stepPost slotBusy
  isplitl [HxL HxR Hpys Hpyr]
  · isplitl [HxL]; · iexact HxL
    isplitl [HxR]; · iexact HxR
    isplitl [Hpys]; · iexact Hpys
    iexact Hpyr
  isplitr [HO]
  · isplitl [Hab]; · iexact Hab
    isplitl [Hpa]; · iexact Hpa
    isplitl [Hpb]; · iexact Hpb
    isplitr; · iexact Hra'
    isplitr; · iexact Hrb'
    isplitl [Hcst]; · iexact Hcst
    isplitl [Hpst]; · iexact Hpst
    isplitr; · iexact Hrst
    isplitl [Hcxs]; · iexact Hcxs
    iexact Hpxs
  iexact HO

/-- The wait for the x-neighbour's copy of its chunk k: the other half's chunk k of the result array holds the
    neighbour's sum. By then the device owes nothing. -/
theorem xrStep (K : GSem nD τ sig → ℕ) (c : Dev nD) (k : Nat) (hk : k < 64) :
    iprop(records m K ∗ cred (tallyAt (xrCell c k hk) () No) ∗ atPos ER (xrCell c k hk) 0 ∅ 0
        ∗ (∃ W : Waits sig Unit, owes (c : Thread nD τ) 0 W))
      ⊢ wp frame (wpE (defs₀ (F := F)) 𝒱₀ c none) Set.univ (xrWait c k hk)
          (fun _ => iprop(oHolds c (nbrX c) k hk (sumAt m (nbrX c)) ∗ atPos ER (xrCell c k hk) 1 ∅ 0
            ∗ (∃ W : Waits sig Unit, owes (c : Thread nD τ) 0 W))) := by
  iintro ⟨#HR, Hc, Hp, ⟨%W, HO⟩⟩
  unfold xrWait
  simp only [Prog.lift]
  ihave HI := (inv_of_records m K (mem_allCells_dma c (xrS k hk))) $$ HR
  iapply (Rounds.wp_wait_rest_token 𝒱₀ ER (sched m) (c : Thread nD τ) none (κ := K (xrCell c k hk))
      (wpE_waitDma2_eq 𝒱₀ (c : Thread nD τ) none Set.univ) (Set.mem_univ _) () (O := 0) (W := W) (R := 0) (m := 0) (T := ∅)
      (by rw [Nat.zero_add, expect_xr m c k hk, oRows_credit])) $$ [Hc HO Hp]
  · isplitr; · iexact HI
    isplitl [Hc]; · rw [oRows_credit]; iexact Hc
    isplitl [HO]; · iexact HO
    isplitr; · rw [MayWait_zero]; iempintro
    iexact Hp
  iintro ⟨HO, Hp, -, Hpay⟩
  ihave Hout := (Entails.of_eq (rest_xr m c k hk)) $$ Hpay
  rw [wp_ret]; imodintro
  isplitl [Hout]; · iexact Hout
  isplitl [Hp]; · iexact Hp
  iexists _; iexact HO

/-- A step's triple carries any assertion it does not touch. -/
theorem frame_step {α : Type} (p : Prog (TpuEff nD τ sig (Elt F) Λ₀ .tc) α) (c : Dev nD) (P T Rr : sProp 𝕄) (Q T' : α → sProp 𝕄)
    (h : iprop(P ∗ T) ⊢ wp frame (wpE (defs₀ (F := F)) 𝒱₀ c none) Set.univ p (fun a => iprop(Q a ∗ T' a))) :
    iprop(P ∗ (Rr ∗ T)) ⊢ wp frame (wpE (defs₀ (F := F)) 𝒱₀ c none) Set.univ p (fun a => iprop(Q a ∗ (Rr ∗ T' a))) := by
  iintro ⟨HP, HR, HT⟩
  ihave Hw := h $$ [HP HT]
  · isplitl [HP] <;> iassumption
  ihave Hf := (wp_frame_l frame (wpE (defs₀ (F := F)) 𝒱₀ c none) Set.univ (p := p) (R := Rr)) $$ [HR Hw]
  · isplitl [HR] <;> iassumption
  iapply (wp_mono frame (wpE (defs₀ (F := F)) 𝒱₀ c none) Set.univ (p := p) (fun a => ?_)) $$ Hf
  iintro ⟨HR, HQ, HT⟩
  isplitl [HQ]; · iexact HQ
  isplitl [HR] <;> iassumption

/-- info: 'Cert.Kernel.Hand.coreStep' depends on axioms: [propext, Classical.choice, Quot.sound] -/
#guard_msgs in #print axioms coreStep

end Cert.Kernel.Hand

end
-- ==== Proof.Bits.Loops.lean ====
/-
  The two plain loops of the body: the 64 copies to the y-neighbour at the start, the 64 waits for the x-neighbour's copies
  at the end.

  Each is a chain of 64 items of one shape, and each item's rule is taken here as a hypothesis.  A step consumes resources
  of its own chunk and leaves products of its own chunk; what all steps share is threaded through them: an arbitrary
  assertion that nothing touches, the persistent records (present at every step), and what the device owes, which the
  y-copies pay off chunk by chunk and the waits leave as it is.
-/
import proofs.«900147_g7700000000000148_dist_ar_v7x_xy2x2_y_m32768_n1024_f32_1_alg».proof.Proof.Bits.StepDefs
import proofs.«900147_g7700000000000148_dist_ar_v7x_xy2x2_y_m32768_n1024_f32_1_alg».proof.Proof.LibChain

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The 64 copies to the y-neighbour -/

/-- The y-copies, then the rest of the chain.  Each copy takes the left half share of its chunk's rows of x, the
    neighbour's result rows it writes and the two tokens it pays with, and leaves the credit of its y-send cell; what the
    device owes loses one y-copy per step.  The rest runs from the 64 credits and the debt with no y-copy left, with
    the carried assertion and the records untouched. -/
theorem yLoop
    (hy : ∀ (K : GSem nD τ sig → ℕ) (c : Dev nD) (k : Nat) (hk : k < 64) (W : Waits sig Unit),
      iprop(records m K ∗ xHolds m c k hk qL ∗ oSome (F := F) (nbrY c) c k hk ∗ dutyTok ER (ysCell c k hk) 0 false
          ∗ dutyTok ER (yrCell (nbrY c) k hk) 0 false ∗ owes (c : Thread nD τ) (owedX c 0 + owedY c k) W)
        ⊢ wp frame (wpE (defs₀ (F := F)) 𝒱₀ c none) Set.univ (yEnq c k hk)
            (fun _ => iprop(cred (tallyAt (ysCell c k hk) () No) ∗ owes (c : Thread nD τ) (owedX c 0 + owedY c (k + 1)) W)))
    (K : GSem nD τ sig → ℕ) (c : Dev nD) (W : Waits sig Unit) (Fr : sProp 𝕄)
    (rest : List (KProg F)) (R : PUnit → sProp 𝕄)
    (hrest : iprop(Fr ∗ records m K ∗ (bigSep Finset.univ fun k : Fin 64 => cred (tallyAt (ysCell c k.val k.isLt) () No))
          ∗ owes (c : Thread nD τ) (owedX c 0 + owedY c 64) W)
        ⊢ wp frame (wpE (defs₀ (F := F)) 𝒱₀ c none) Set.univ (Pipeline.chain rest) R) :
    iprop(Fr ∗ records m K
        ∗ (bigSep Finset.univ fun k : Fin 64 => iprop(xHolds m c k.val k.isLt qL ∗ oSome (F := F) (nbrY c) c k.val k.isLt
            ∗ dutyTok ER (ysCell c k.val k.isLt) 0 false ∗ dutyTok ER (yrCell (nbrY c) k.val k.isLt) 0 false))
        ∗ owes (c : Thread nD τ) (owedX c 0 + owedY c 0) W)
      ⊢ wp frame (wpE (defs₀ (F := F)) 𝒱₀ c none) Set.univ
          (Pipeline.chain ((List.finRange 64).map (fun k => yEnq c k.val k.isLt) ++ rest)) R := by
  have hstep : ∀ k : Fin 64,
      iprop(iprop(xHolds m c k.val k.isLt qL ∗ oSome (F := F) (nbrY c) c k.val k.isLt
            ∗ dutyTok ER (ysCell c k.val k.isLt) 0 false ∗ dutyTok ER (yrCell (nbrY c) k.val k.isLt) 0 false)
          ∗ iprop(Fr ∗ records m K ∗ owes (c : Thread nD τ) (owedX c 0 + owedY c k.val) W))
        ⊢ wp frame (wpE (defs₀ (F := F)) 𝒱₀ c none) Set.univ (yEnq c k.val k.isLt)
            (fun _ => iprop(cred (tallyAt (ysCell c k.val k.isLt) () No)
              ∗ iprop(Fr ∗ records m K ∗ owes (c : Thread nD τ) (owedX c 0 + owedY c (k.val + 1)) W))) := by
    intro k
    iintro ⟨⟨Hx, Ho, Hd1, Hd2⟩, HFr, #Hrec, Howes⟩
    iapply (wp_wand_r frame _ Set.univ)
    isplitl [Hx Ho Hd1 Hd2 Howes]
    · iapply (hy K c k.val k.isLt W)
      isplitr; · iexact Hrec
      isplitl [Hx]; · iexact Hx
      isplitl [Ho]; · iexact Ho
      isplitl [Hd1]; · iexact Hd1
      isplitl [Hd2]; · iexact Hd2
      iexact Howes
    · iintro %_ ⟨Hc, Howes⟩
      isplitl [Hc]; · iexact Hc
      isplitl [HFr]; · iexact HFr
      isplitr; · iexact Hrec
      iexact Howes
  have hrest' : iprop((bigSep Finset.univ fun k : Fin 64 => cred (tallyAt (ysCell c k.val k.isLt) () No))
        ∗ iprop(Fr ∗ records m K ∗ owes (c : Thread nD τ) (owedX c 0 + owedY c 64) W))
      ⊢ wp frame (wpE (defs₀ (F := F)) 𝒱₀ c none) Set.univ (Pipeline.chain rest) R := by
    iintro ⟨Hc, HFr, Hrec, Howes⟩
    iapply hrest
    isplitl [HFr]; · iexact HFr
    isplitl [Hrec]; · iexact Hrec
    isplitl [Hc]; · iexact Hc
    iexact Howes
  have hmain := Pipeline.wp_chain_finRange_append frame (wpE (defs₀ (F := F)) 𝒱₀ c none) Set.univ
    (fun k : Fin 64 => yEnq (F := F) c k.val k.isLt)
    (fun k : Fin 64 => iprop(xHolds m c k.val k.isLt qL ∗ oSome (F := F) (nbrY c) c k.val k.isLt
            ∗ dutyTok ER (ysCell c k.val k.isLt) 0 false ∗ dutyTok ER (yrCell (nbrY c) k.val k.isLt) 0 false))
    (fun k : Fin 64 => cred (tallyAt (ysCell c k.val k.isLt) () No))
    (fun j : ℕ => iprop(Fr ∗ records m K ∗ owes (c : Thread nD τ) (owedX c 0 + owedY c j) W))
    hstep rest R hrest'
  iintro ⟨HFr, Hrec, HP, Howes⟩
  iapply hmain
  isplitl [HP]; · iexact HP
  isplitl [HFr]; · iexact HFr
  isplitl [Hrec]; · iexact Hrec
  iexact Howes

/-! ## The 64 waits for the x-neighbour's copies -/

/-- The waits for the x-neighbour's copies.  Each takes its x-receive cell's launch credit and the position at the cell's
    start, and leaves the chunk's rows of the result array at the x-neighbour's sum there and the position one round on;
    the carried assertion, the records and the (empty) debt pass through. -/
theorem xrLoop
    (hxr : ∀ (K : GSem nD τ sig → ℕ) (c : Dev nD) (k : Nat) (hk : k < 64),
      iprop(records m K ∗ cred (tallyAt (xrCell c k hk) () No) ∗ atPos ER (xrCell c k hk) 0 ∅ 0
          ∗ (∃ W : Waits sig Unit, owes (c : Thread nD τ) 0 W))
        ⊢ wp frame (wpE (defs₀ (F := F)) 𝒱₀ c none) Set.univ (xrWait c k hk)
            (fun _ => iprop(oHolds c (nbrX c) k hk (sumAt m (nbrX c)) ∗ atPos ER (xrCell c k hk) 1 ∅ 0
              ∗ (∃ W : Waits sig Unit, owes (c : Thread nD τ) 0 W))))
    (K : GSem nD τ sig → ℕ) (c : Dev nD) (Fr : sProp 𝕄) :
    iprop(Fr ∗ records m K
        ∗ (bigSep Finset.univ fun k : Fin 64 => iprop(cred (tallyAt (xrCell c k.val k.isLt) () No) ∗ atPos ER (xrCell c k.val k.isLt) 0 ∅ 0))
        ∗ (∃ W : Waits sig Unit, owes (c : Thread nD τ) 0 W))
      ⊢ wp frame (wpE (defs₀ (F := F)) 𝒱₀ c none) Set.univ
          (Pipeline.chain ((List.finRange 64).map (fun k => xrWait (F := F) c k.val k.isLt)))
          (fun _ => iprop(Fr ∗ records m K
            ∗ (bigSep Finset.univ fun k : Fin 64 => iprop(oHolds c (nbrX c) k.val k.isLt (sumAt m (nbrX c)) ∗ atPos ER (xrCell c k.val k.isLt) 1 ∅ 0))
            ∗ (∃ W : Waits sig Unit, owes (c : Thread nD τ) 0 W))) := by
  have hstep : ∀ k : Fin 64,
      iprop(iprop(cred (tallyAt (xrCell c k.val k.isLt) () No) ∗ atPos ER (xrCell c k.val k.isLt) 0 ∅ 0)
          ∗ iprop(Fr ∗ records m K ∗ (∃ W : Waits sig Unit, owes (c : Thread nD τ) 0 W)))
        ⊢ wp frame (wpE (defs₀ (F := F)) 𝒱₀ c none) Set.univ (xrWait c k.val k.isLt)
            (fun _ => iprop(iprop(oHolds c (nbrX c) k.val k.isLt (sumAt m (nbrX c)) ∗ atPos ER (xrCell c k.val k.isLt) 1 ∅ 0)
              ∗ iprop(Fr ∗ records m K ∗ (∃ W : Waits sig Unit, owes (c : Thread nD τ) 0 W)))) := by
    intro k
    iintro ⟨⟨Hc, Hat⟩, HFr, #Hrec, Howes⟩
    iapply (wp_wand_r frame _ Set.univ)
    isplitl [Hc Hat Howes]
    · iapply (hxr K c k.val k.isLt)
      isplitr; · iexact Hrec
      isplitl [Hc]; · iexact Hc
      isplitl [Hat]; · iexact Hat
      iexact Howes
    · iintro %_ ⟨Ho, Hat, Howes⟩
      isplitl [Ho Hat]
      · isplitl [Ho]; · iexact Ho
        iexact Hat
      isplitl [HFr]; · iexact HFr
      isplitr; · iexact Hrec
      iexact Howes
  have hmain := Pipeline.wp_chain_finRange frame (wpE (defs₀ (F := F)) 𝒱₀ c none) Set.univ
    (fun k : Fin 64 => xrWait (F := F) c k.val k.isLt)
    (fun k : Fin 64 => iprop(cred (tallyAt (xrCell c k.val k.isLt) () No) ∗ atPos ER (xrCell c k.val k.isLt) 0 ∅ 0))
    (fun k : Fin 64 => iprop(oHolds c (nbrX c) k.val k.isLt (sumAt m (nbrX c)) ∗ atPos ER (xrCell c k.val k.isLt) 1 ∅ 0))
    (fun _ : ℕ => iprop(Fr ∗ records m K ∗ (∃ W : Waits sig Unit, owes (c : Thread nD τ) 0 W)))
    hstep
  iintro ⟨HFr, Hrec, HP, Howes⟩
  iapply (wp_wand_r frame _ Set.univ)
  isplitl [HFr Hrec HP Howes]
  · iapply hmain
    isplitl [HP]; · iexact HP
    isplitl [HFr]; · iexact HFr
    isplitl [Hrec]; · iexact Hrec
    iexact Howes
  · iintro %_ ⟨HQ, HFr, Hrec, Howes⟩
    isplitl [HFr]; · iexact HFr
    isplitl [Hrec]; · iexact Hrec
    isplitl [HQ]; · iexact HQ
    iexact Howes

/-- info: 'Cert.Kernel.Hand.yLoop' depends on axioms: [propext, Classical.choice, Quot.sound] -/
#guard_msgs in #print axioms yLoop

/-- info: 'Cert.Kernel.Hand.xrLoop' depends on axioms: [propext, Classical.choice, Quot.sound] -/
#guard_msgs in #print axioms xrLoop

end Cert.Kernel.Hand

end
-- ==== Proof.Bits.Reindex.lean ====
/-
  The 262 DMA semaphores of a device by role.

  The pool is laid out as four arrays of 64 (y-send, y-receive, x-send, x-receive: numbers k, 64 + k, 128 + k, 192 + k for
  chunk k) followed by three arrays of 2 (a, b, st: numbers 256 + s, 258 + s, 260 + s for slot s).  A separating
  conjunction over the whole pool is therefore the conjunction over the chunks of the four per-chunk summands and over the
  slots of the three per-slot summands.  With it a device's positions at entry are read cell by cell, and at exit the
  closing of every cell (each at a round from which it has no duty) gives every counter of the pool at zero.
-/
import proofs.«900147_g7700000000000148_dist_ar_v7x_xy2x2_y_m32768_n1024_f32_1_alg».proof.Proof.Bits.State

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The numbers of the semaphores -/

private theorem ysS_num : ∀ k : Fin 64, (ysS k.val k.isLt).val = k.val := by decide
private theorem yrS_num : ∀ k : Fin 64, (yrS k.val k.isLt).val = 64 + k.val := by decide
private theorem xsS_num : ∀ k : Fin 64, (xsS k.val k.isLt).val = 128 + k.val := by decide
private theorem xrS_num : ∀ k : Fin 64, (xrS k.val k.isLt).val = 192 + k.val := by decide
private theorem aS_num : ∀ s : Fin 2, (aS s.val s.isLt).val = 256 + s.val := by decide
private theorem bS_num : ∀ s : Fin 2, (bS s.val s.isLt).val = 258 + s.val := by decide
private theorem stS_num : ∀ s : Fin 2, (stS s.val s.isLt).val = 260 + s.val := by decide

/-! ## Splitting a conjunction over an initial segment of the naturals -/

section Split
universe u
variable {M : Type u} [URA M]

/-- Over Fin (a + b): the first a indices, then the last b. -/
theorem bigSep_fin_add (a b : ℕ) (Φ : Fin (a + b) → sProp M) :
    bigSep Finset.univ Φ = iprop(bigSep Finset.univ (fun i : Fin a => Φ (Fin.castAdd b i))
      ∗ bigSep Finset.univ (fun j : Fin b => Φ (Fin.natAdd a j))) := by
  rw [bigSep_univ_equiv finSumFinEquiv Φ, bigSep_univ_sum]
  rfl

/-- Over Fin n with n = a + b: the indices below a, then the indices a + j. -/
theorem bigSep_fin_split (a b n : ℕ) (h : a + b = n) (Φ : Fin n → sProp M) :
    bigSep Finset.univ Φ = iprop(bigSep Finset.univ (fun i : Fin a => Φ ⟨i.val, by omega⟩)
      ∗ bigSep Finset.univ (fun j : Fin b => Φ ⟨a + j.val, by omega⟩)) := by
  subst h
  exact bigSep_fin_add a b Φ

end Split

/-! ## The pool by role -/

/-- A conjunction over the 262 DMA semaphores is the conjunction over the 64 chunks of the summands at the chunk's four
    semaphores and over the 2 slots of the summands at the slot's three. -/
theorem dma_split (Φ : DmaSem sig → sProp 𝕄) :
    bigSep Finset.univ Φ = iprop(
      (bigSep Finset.univ fun k : Fin 64 => iprop(Φ (ysS k.val k.isLt) ∗ Φ (yrS k.val k.isLt) ∗ Φ (xsS k.val k.isLt) ∗ Φ (xrS k.val k.isLt)))
      ∗ (bigSep Finset.univ fun s : Fin 2 => iprop(Φ (aS s.val s.isLt) ∗ Φ (bS s.val s.isLt) ∗ Φ (stS s.val s.isLt)))) := by
  have hys : ∀ k : Fin 64, Φ (ysS k.val k.isLt) = Φ (⟨k.val, by omega⟩ : Fin 262) := fun k => congrArg Φ (Fin.ext (ysS_num k))
  have hyr : ∀ k : Fin 64, Φ (yrS k.val k.isLt) = Φ (⟨64 + k.val, by omega⟩ : Fin 262) := fun k => congrArg Φ (Fin.ext (yrS_num k))
  have hxs : ∀ k : Fin 64, Φ (xsS k.val k.isLt) = Φ (⟨128 + k.val, by omega⟩ : Fin 262) := fun k => congrArg Φ (Fin.ext (xsS_num k))
  have hxr : ∀ k : Fin 64, Φ (xrS k.val k.isLt) = Φ (⟨192 + k.val, by omega⟩ : Fin 262) := fun k => congrArg Φ (Fin.ext (xrS_num k))
  have ha : ∀ s : Fin 2, Φ (aS s.val s.isLt) = Φ (⟨256 + s.val, by omega⟩ : Fin 262) := fun s => congrArg Φ (Fin.ext (aS_num s))
  have hb : ∀ s : Fin 2, Φ (bS s.val s.isLt) = Φ (⟨258 + s.val, by omega⟩ : Fin 262) := fun s => congrArg Φ (Fin.ext (bS_num s))
  have hst : ∀ s : Fin 2, Φ (stS s.val s.isLt) = Φ (⟨260 + s.val, by omega⟩ : Fin 262) := fun s => congrArg Φ (Fin.ext (stS_num s))
  rw [bigSep_fin_split 260 2 262 rfl Φ, bigSep_fin_split 258 2 260 rfl, bigSep_fin_split 256 2 258 rfl,
    bigSep_fin_split 192 64 256 rfl, bigSep_fin_split 128 64 192 rfl, bigSep_fin_split 64 64 128 rfl]
  have hassoc : ∀ P Q R : sProp 𝕄, iprop((P ∗ Q) ∗ R) = iprop(P ∗ Q ∗ R) :=
    fun P Q R => Idealize.SL.BI.sep_assoc.antisymm Idealize.SL.BI.sep_assoc'
  simp only [hys, hyr, hxs, hxr, ha, hb, hst, bigSep_sep', Fin.val_mk, hassoc]

/-! ## The positions at entry, cell by cell -/

/-- A device's positions at entry: at the start of its barrier cell, of the four cells of every chunk and of the three
    cells of every slot. -/
theorem positions_split (c : Dev nD) :
    positions (F := F) c = iprop(atPos ER (barCell c) 0 ∅ 0
      ∗ (bigSep Finset.univ fun k : Fin 64 => iprop(atPos ER (ysCell c k.val k.isLt) 0 ∅ 0 ∗ atPos ER (yrCell c k.val k.isLt) 0 ∅ 0
          ∗ atPos ER (xsCell c k.val k.isLt) 0 ∅ 0 ∗ atPos ER (xrCell c k.val k.isLt) 0 ∅ 0))
      ∗ (bigSep Finset.univ fun s : Fin 2 => iprop(atPos ER (aCell c s.val s.isLt) 0 ∅ 0 ∗ atPos ER (bCell c s.val s.isLt) 0 ∅ 0
          ∗ atPos ER (stCell c s.val s.isLt) 0 ∅ 0))) := by
  unfold positions
  rw [dma_split (fun n => atPos ER ((c : Thread nD τ), SemLoc.dma n) 0 ∅ 0)]

/-! ## The exit: every own cell closed -/

/-- One cell closed: from the records and the owner's position at a round from which the cell has no duty, nothing
    taken and nothing consumed, the cell's counter at zero. -/
theorem close_one (K : GSem nD τ sig → ℕ) {g : GSem nD τ sig} (hg : g ∈ allCells) {R : ℕ}
    (hR : ∀ r, R ≤ r → (sched m).duties g r = ∅) :
    iprop(records m K ∗ atPos ER g R ∅ 0) ⊢ iprop(|={Set.univ}=> semVal g 0) :=
  (sep_mono_left (inv_of_records m K hg)).trans
    (Rounds.cell_close ER (sched m) (Set.mem_univ (K g)) (fun h => h) (R := R) hR)

/-- All 262 own DMA cells closed: the per-chunk cells from round 1, the per-slot cells from round 32, given that the
    schedule has no duty on them from there on. -/
theorem close_all (K : GSem nD τ sig → ℕ) (c : Dev nD)
    (hys : ∀ (k : Nat) (hk : k < 64) (r : ℕ), 1 ≤ r → (sched m).duties (ysCell c k hk) r = ∅)
    (hyr : ∀ (k : Nat) (hk : k < 64) (r : ℕ), 1 ≤ r → (sched m).duties (yrCell c k hk) r = ∅)
    (hxs : ∀ (k : Nat) (hk : k < 64) (r : ℕ), 1 ≤ r → (sched m).duties (xsCell c k hk) r = ∅)
    (hxr : ∀ (k : Nat) (hk : k < 64) (r : ℕ), 1 ≤ r → (sched m).duties (xrCell c k hk) r = ∅)
    (ha : ∀ (s : Nat) (hs : s < 2) (r : ℕ), 32 ≤ r → (sched m).duties (aCell c s hs) r = ∅)
    (hb : ∀ (s : Nat) (hs : s < 2) (r : ℕ), 32 ≤ r → (sched m).duties (bCell c s hs) r = ∅)
    (hst : ∀ (s : Nat) (hs : s < 2) (r : ℕ), 32 ≤ r → (sched m).duties (stCell c s hs) r = ∅) :
    iprop(records m K
      ∗ (bigSep Finset.univ fun k : Fin 64 => iprop(atPos ER (ysCell c k.val k.isLt) 1 ∅ 0 ∗ atPos ER (yrCell c k.val k.isLt) 1 ∅ 0
          ∗ atPos ER (xsCell c k.val k.isLt) 1 ∅ 0 ∗ atPos ER (xrCell c k.val k.isLt) 1 ∅ 0))
      ∗ (bigSep Finset.univ fun s : Fin 2 => iprop(atPos ER (aCell c s.val s.isLt) 32 ∅ 0 ∗ atPos ER (bCell c s.val s.isLt) 32 ∅ 0
          ∗ atPos ER (stCell c s.val s.isLt) 32 ∅ 0)))
      ⊢ iprop(|={Set.univ}=> ownZeros (F := F) c) := by
  unfold ownZeros
  rw [dma_split (fun n => semVal ((c : Thread nD τ), SemLoc.dma n) 0)]
  have h64 : iprop(records m K
      ∗ (bigSep Finset.univ fun k : Fin 64 => iprop(atPos ER (ysCell c k.val k.isLt) 1 ∅ 0 ∗ atPos ER (yrCell c k.val k.isLt) 1 ∅ 0
          ∗ atPos ER (xsCell c k.val k.isLt) 1 ∅ 0 ∗ atPos ER (xrCell c k.val k.isLt) 1 ∅ 0)))
      ⊢ bigSep Finset.univ fun k : Fin 64 => iprop(|={Set.univ}=> (semVal (ysCell c k.val k.isLt) 0 ∗ semVal (yrCell c k.val k.isLt) 0
          ∗ semVal (xsCell c k.val k.isLt) 0 ∗ semVal (xrCell c k.val k.isLt) 0)) := by
    refine bigSep_with_persistent fun k _ => ?_
    iintro ⟨#Hrec, Hys, Hyr, Hxs, Hxr⟩
    imod (close_one m K (mem_allCells_dma c _) (hys k.val k.isLt)) $$ [Hys] with Hys
    · isplitr; · iexact Hrec
      iexact Hys
    imod (close_one m K (mem_allCells_dma c _) (hyr k.val k.isLt)) $$ [Hyr] with Hyr
    · isplitr; · iexact Hrec
      iexact Hyr
    imod (close_one m K (mem_allCells_dma c _) (hxs k.val k.isLt)) $$ [Hxs] with Hxs
    · isplitr; · iexact Hrec
      iexact Hxs
    imod (close_one m K (mem_allCells_dma c _) (hxr k.val k.isLt)) $$ [Hxr] with Hxr
    · isplitr; · iexact Hrec
      iexact Hxr
    imodintro
    isplitl [Hys]; · iexact Hys
    isplitl [Hyr]; · iexact Hyr
    isplitl [Hxs]; · iexact Hxs
    iexact Hxr
  have h2 : iprop(records m K
      ∗ (bigSep Finset.univ fun s : Fin 2 => iprop(atPos ER (aCell c s.val s.isLt) 32 ∅ 0 ∗ atPos ER (bCell c s.val s.isLt) 32 ∅ 0
          ∗ atPos ER (stCell c s.val s.isLt) 32 ∅ 0)))
      ⊢ bigSep Finset.univ fun s : Fin 2 => iprop(|={Set.univ}=> (semVal (aCell c s.val s.isLt) 0 ∗ semVal (bCell c s.val s.isLt) 0
          ∗ semVal (stCell c s.val s.isLt) 0)) := by
    refine bigSep_with_persistent fun s _ => ?_
    iintro ⟨#Hrec, Ha, Hb, Hst⟩
    imod (close_one m K (mem_allCells_dma c _) (ha s.val s.isLt)) $$ [Ha] with Ha
    · isplitr; · iexact Hrec
      iexact Ha
    imod (close_one m K (mem_allCells_dma c _) (hb s.val s.isLt)) $$ [Hb] with Hb
    · isplitr; · iexact Hrec
      iexact Hb
    imod (close_one m K (mem_allCells_dma c _) (hst s.val s.isLt)) $$ [Hst] with Hst
    · isplitr; · iexact Hrec
      iexact Hst
    imodintro
    isplitl [Ha]; · iexact Ha
    isplitl [Hb]; · iexact Hb
    iexact Hst
  iintro ⟨#Hrec, H64, H2⟩
  imod (h64.trans (bigSep_fupd _ _)) $$ [H64] with H64
  · isplitr; · iexact Hrec
    iexact H64
  imod (h2.trans (bigSep_fupd _ _)) $$ [H2] with H2
  · isplitr; · iexact Hrec
    iexact H2
  imodintro
  isplitl [H64]; · iexact H64
  iexact H2

/-- info: 'Cert.Kernel.Hand.dma_split' depends on axioms: [propext, Classical.choice, Quot.sound] -/
#guard_msgs in #print axioms dma_split

/-- info: 'Cert.Kernel.Hand.positions_split' depends on axioms: [propext, Classical.choice, Quot.sound] -/
#guard_msgs in #print axioms positions_split

/-- info: 'Cert.Kernel.Hand.close_all' depends on axioms: [propext, Classical.choice, Quot.sound] -/
#guard_msgs in #print axioms close_all

end Cert.Kernel.Hand

end
-- ==== Proof.Bits.Exit.lean ====
/-
  Entering and leaving the chunk steps: the scratch arrays cut into their two slots and put back, and the exit assembled.

  A 2 x 256 x 1024 scratch array is its slot 0 (the elements whose first coordinate is 0) and its slot 1, two disjoint
  sets that cover it; so the array over some contents is its two slots, each over some contents, and back (the joined
  contents are one slot's on that slot and the other's elsewhere). At entry this gives each slot free at round 0. At
  exit the argument array is put back from the chunks' half shares and the other half's rows, the result array from its
  128 chunks at the two sums, the scratch arrays from their slots, and every own cell is closed at a round from which it
  has no duty.
-/
import proofs.«900147_g7700000000000148_dist_ar_v7x_xy2x2_y_m32768_n1024_f32_1_alg».proof.Proof.Bits.StepDefs
import proofs.«900147_g7700000000000148_dist_ar_v7x_xy2x2_y_m32768_n1024_f32_1_alg».proof.Proof.Bits.Reindex
import proofs.«900147_g7700000000000148_dist_ar_v7x_xy2x2_y_m32768_n1024_f32_1_alg».proof.Proof.Bits.GeomLand
import proofs.«900147_g7700000000000148_dist_ar_v7x_xy2x2_y_m32768_n1024_f32_1_alg».proof.Proof.Bits.GeomSplit

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The two slots partition a scratch array -/

/-- Slot s of a scratch array: the elements whose first coordinate is s. -/
theorem mem_slotR (s : Nat) (hs : s < 2) (i : S2x256x1024.Idx) : i ∈ (slotR s hs).set ↔ (i 0).val = s := by
  rw [Rect.mem_set_unit]
  constructor
  · intro h
    have h0 : s ≤ (i 0).val ∧ (i 0).val < s + 1 := h 0
    omega
  · intro h a
    fin_cases a
    · show s ≤ (i 0).val ∧ (i 0).val < s + 1
      omega
    · exact ⟨Nat.zero_le _, by have := (i 1).isLt; simpa using this⟩
    · exact ⟨Nat.zero_le _, by have := (i 2).isLt; simpa using this⟩

theorem slots_disjoint : Disjoint (slotR 0 (by decide)).set (slotR 1 (by decide)).set := by
  rw [Finset.disjoint_left]
  intro i h0 h1
  rw [mem_slotR] at h0 h1
  omega

theorem slots_union : (slotR 0 (by decide)).set ∪ (slotR 1 (by decide)).set = Finset.univ := by
  ext i
  have hi : (i 0).val < 2 := (i 0).isLt
  simp only [Finset.mem_union, mem_slotR, Finset.mem_univ, iff_true]
  omega

/-- A buffer held whole is any two disjoint sets of its elements that cover it; -/
theorem cut_two {ℓ : Loc nD τ sig} {I₀ I₁ : Finset (Idx ℓ)} (hd : Disjoint I₀ I₁) (hu : I₀ ∪ I₁ = Finset.univ)
    (f : Buf (Elt F) ℓ) :
    (ℓ ↦{fullShare} f : sProp 𝕄) = iprop((ℓ ↦[I₀]{fullShare} f) ∗ ℓ ↦[I₁]{fullShare} f) := by
  have h := pointsTo_union (Ix := Unit) (Val := Elt F) (Name := ℕ) (U := UU) (Lvl := ℕ) (ℓ := ℓ) (q := fullShare) (f := f) hd
  rw [hu] at h
  exact equiv_iff.mp ⟨h.1, h.2⟩

/-- and two such sets held over different contents join to the whole, over the second's contents on the second set and
    the first's elsewhere. -/
theorem join_two {ℓ : Loc nD τ sig} {I₀ I₁ : Finset (Idx ℓ)} (hd : Disjoint I₀ I₁) (hu : I₀ ∪ I₁ = Finset.univ)
    (f₀ f₁ : Buf (Elt F) ℓ) :
    iprop((ℓ ↦[I₀]{fullShare} f₀) ∗ ℓ ↦[I₁]{fullShare} f₁) ⊢ (ℓ ↦{fullShare} (I₁.piecewise f₁ f₀) : sProp 𝕄) := by
  have h := pointsTo_join (Ix := Unit) (Val := Elt F) (Name := ℕ) (U := UU) (Lvl := ℕ) (ℓ := ℓ) (q := fullShare)
    (f := f₀) (g := f₁) hd
  rw [hu] at h
  exact h

/-- A slot of each scratch array, as a set of the array's elements. -/
theorem slotA_set (s : Nat) (hs : s < 2) : (slotOf aM s hs).view.set = (slotR s hs).set :=
  (slot_set_access aM s hs).trans (View.set_slice_whole cc0_scratch4 (slotR s hs))
theorem slotB_set (s : Nat) (hs : s < 2) : (slotOf bM s hs).view.set = (slotR s hs).set :=
  (slot_set_access bM s hs).trans (View.set_slice_whole cc0_scratch5 (slotR s hs))
theorem slotS_set (s : Nat) (hs : s < 2) : (slotOf sM s hs).view.set = (slotR s hs).set :=
  (slot_set_access sM s hs).trans (View.set_slice_whole cc0_scratch6 (slotR s hs))

/-- A slot of scratch a, b, or the sum scratch of device c, whole, at contents f. -/
abbrev pieceA (c : Dev nD) (s : Nat) (hs : s < 2) (f : S2x256x1024.Idx → F .f32) : sProp 𝕄 :=
  (slotOf aM s hs).view.loc (c : Thread nD τ) ↦[(slotOf aM s hs).view.set]{fullShare} f
abbrev pieceB (c : Dev nD) (s : Nat) (hs : s < 2) (f : S2x256x1024.Idx → F .f32) : sProp 𝕄 :=
  (slotOf bM s hs).view.loc (c : Thread nD τ) ↦[(slotOf bM s hs).view.set]{fullShare} f
abbrev pieceS (c : Dev nD) (s : Nat) (hs : s < 2) (f : S2x256x1024.Idx → F .f32) : sProp 𝕄 :=
  (slotOf sM s hs).view.loc (c : Thread nD τ) ↦[(slotOf sM s hs).view.set]{fullShare} f

theorem scratchA_cut (c : Dev nD) (f : S2x256x1024.Idx → F .f32) :
    whole (F := F) c cc0_scratch4 f = iprop(pieceA c 0 (by decide) f ∗ pieceA c 1 (by decide) f) := by
  unfold pieceA
  rw [slotA_set, slotA_set]
  exact cut_two (ℓ := (c : Thread nD τ).loc cc0_scratch4) slots_disjoint slots_union f
theorem scratchB_cut (c : Dev nD) (f : S2x256x1024.Idx → F .f32) :
    whole (F := F) c cc0_scratch5 f = iprop(pieceB c 0 (by decide) f ∗ pieceB c 1 (by decide) f) := by
  unfold pieceB
  rw [slotB_set, slotB_set]
  exact cut_two (ℓ := (c : Thread nD τ).loc cc0_scratch5) slots_disjoint slots_union f
theorem scratchS_cut (c : Dev nD) (f : S2x256x1024.Idx → F .f32) :
    whole (F := F) c cc0_scratch6 f = iprop(pieceS c 0 (by decide) f ∗ pieceS c 1 (by decide) f) := by
  unfold pieceS
  rw [slotS_set, slotS_set]
  exact cut_two (ℓ := (c : Thread nD τ).loc cc0_scratch6) slots_disjoint slots_union f

/-! ## A scratch array over some contents is its two slots over some contents -/

theorem scratchA_split (c : Dev nD) :
    (iprop(∃ f, whole (F := F) c cc0_scratch4 f) : sProp 𝕄)
      ⊢ iprop((∃ f, pieceA (F := F) c 0 (by decide) f) ∗ (∃ f, pieceA (F := F) c 1 (by decide) f)) := by
  iintro ⟨%f, H⟩
  ihave H2 := (Entails.of_eq (scratchA_cut c f)) $$ H
  icases H2 with ⟨H0, H1⟩
  isplitl [H0]
  · iexists f; iexact H0
  · iexists f; iexact H1

theorem scratchA_join (c : Dev nD) :
    (iprop((∃ f, pieceA (F := F) c 0 (by decide) f) ∗ (∃ f, pieceA (F := F) c 1 (by decide) f)) : sProp 𝕄)
      ⊢ iprop(∃ f, whole (F := F) c cc0_scratch4 f) := by
  have key : ∀ f₀ f₁ : S2x256x1024.Idx → F .f32,
      iprop(pieceA (F := F) c 0 (by decide) f₀ ∗ pieceA (F := F) c 1 (by decide) f₁)
        ⊢ whole (F := F) c cc0_scratch4 ((slotR 1 (by decide)).set.piecewise f₁ f₀) := by
    intro f₀ f₁
    unfold pieceA
    rw [slotA_set, slotA_set]
    exact join_two (ℓ := (c : Thread nD τ).loc cc0_scratch4) slots_disjoint slots_union f₀ f₁
  iintro ⟨⟨%f₀, H0⟩, ⟨%f₁, H1⟩⟩
  iexists ((slotR 1 (by decide)).set.piecewise f₁ f₀)
  iapply (key f₀ f₁)
  isplitl [H0]
  · iexact H0
  · iexact H1

theorem scratchB_split (c : Dev nD) :
    (iprop(∃ f, whole (F := F) c cc0_scratch5 f) : sProp 𝕄)
      ⊢ iprop((∃ f, pieceB (F := F) c 0 (by decide) f) ∗ (∃ f, pieceB (F := F) c 1 (by decide) f)) := by
  iintro ⟨%f, H⟩
  ihave H2 := (Entails.of_eq (scratchB_cut c f)) $$ H
  icases H2 with ⟨H0, H1⟩
  isplitl [H0]
  · iexists f; iexact H0
  · iexists f; iexact H1

theorem scratchB_join (c : Dev nD) :
    (iprop((∃ f, pieceB (F := F) c 0 (by decide) f) ∗ (∃ f, pieceB (F := F) c 1 (by decide) f)) : sProp 𝕄)
      ⊢ iprop(∃ f, whole (F := F) c cc0_scratch5 f) := by
  have key : ∀ f₀ f₁ : S2x256x1024.Idx → F .f32,
      iprop(pieceB (F := F) c 0 (by decide) f₀ ∗ pieceB (F := F) c 1 (by decide) f₁)
        ⊢ whole (F := F) c cc0_scratch5 ((slotR 1 (by decide)).set.piecewise f₁ f₀) := by
    intro f₀ f₁
    unfold pieceB
    rw [slotB_set, slotB_set]
    exact join_two (ℓ := (c : Thread nD τ).loc cc0_scratch5) slots_disjoint slots_union f₀ f₁
  iintro ⟨⟨%f₀, H0⟩, ⟨%f₁, H1⟩⟩
  iexists ((slotR 1 (by decide)).set.piecewise f₁ f₀)
  iapply (key f₀ f₁)
  isplitl [H0]
  · iexact H0
  · iexact H1

theorem scratchS_split (c : Dev nD) :
    (iprop(∃ f, whole (F := F) c cc0_scratch6 f) : sProp 𝕄)
      ⊢ iprop((∃ f, pieceS (F := F) c 0 (by decide) f) ∗ (∃ f, pieceS (F := F) c 1 (by decide) f)) := by
  iintro ⟨%f, H⟩
  ihave H2 := (Entails.of_eq (scratchS_cut c f)) $$ H
  icases H2 with ⟨H0, H1⟩
  isplitl [H0]
  · iexists f; iexact H0
  · iexists f; iexact H1

theorem scratchS_join (c : Dev nD) :
    (iprop((∃ f, pieceS (F := F) c 0 (by decide) f) ∗ (∃ f, pieceS (F := F) c 1 (by decide) f)) : sProp 𝕄)
      ⊢ iprop(∃ f, whole (F := F) c cc0_scratch6 f) := by
  have key : ∀ f₀ f₁ : S2x256x1024.Idx → F .f32,
      iprop(pieceS (F := F) c 0 (by decide) f₀ ∗ pieceS (F := F) c 1 (by decide) f₁)
        ⊢ whole (F := F) c cc0_scratch6 ((slotR 1 (by decide)).set.piecewise f₁ f₀) := by
    intro f₀ f₁
    unfold pieceS
    rw [slotS_set, slotS_set]
    exact join_two (ℓ := (c : Thread nD τ).loc cc0_scratch6) slots_disjoint slots_union f₀ f₁
  iintro ⟨⟨%f₀, H0⟩, ⟨%f₁, H1⟩⟩
  iexists ((slotR 1 (by decide)).set.piecewise f₁ f₀)
  iapply (key f₀ f₁)
  isplitl [H0]
  · iexact H0
  · iexact H1

/-- The three scratch arrays are their six slots, -/
theorem scratches_split (c : Dev nD) :
    scratches (F := F) c
      ⊢ iprop(((∃ f, pieceA (F := F) c 0 (by decide) f) ∗ (∃ f, pieceA (F := F) c 1 (by decide) f))
          ∗ ((∃ f, pieceB (F := F) c 0 (by decide) f) ∗ (∃ f, pieceB (F := F) c 1 (by decide) f))
          ∗ ((∃ f, pieceS (F := F) c 0 (by decide) f) ∗ (∃ f, pieceS (F := F) c 1 (by decide) f))) := by
  unfold scratches
  exact BI.sep_mono (scratchA_split c) (BI.sep_mono (scratchB_split c) (scratchS_split c))

/-- and back. -/
theorem scratches_join (c : Dev nD) :
    (iprop(((∃ f, pieceA (F := F) c 0 (by decide) f) ∗ (∃ f, pieceA (F := F) c 1 (by decide) f))
          ∗ ((∃ f, pieceB (F := F) c 0 (by decide) f) ∗ (∃ f, pieceB (F := F) c 1 (by decide) f))
          ∗ ((∃ f, pieceS (F := F) c 0 (by decide) f) ∗ (∃ f, pieceS (F := F) c 1 (by decide) f))) : sProp 𝕄)
      ⊢ scratches (F := F) c := by
  unfold scratches
  exact BI.sep_mono (scratchA_join c) (BI.sep_mono (scratchB_join c) (scratchS_join c))

/-! ## Entry: both slots free at round 0 -/

theorem entry_slots (K : GSem nD τ sig → ℕ) (c : Dev nD) :
    iprop(scratches (F := F) c
      ∗ (bigSep Finset.univ fun s : Fin 2 => iprop(atPos ER (aCell c s.val s.isLt) 0 ∅ 0 ∗ atPos ER (bCell c s.val s.isLt) 0 ∅ 0
          ∗ atPos ER (stCell c s.val s.isLt) 0 ∅ 0))
      ∗ records m K)
      ⊢ iprop(slotFree (F := F) c 0 (by decide) 0 ∗ slotFree (F := F) c 1 (by decide) 0) := by
  rw [bigSep_univ_two]
  unfold slotFree abSome
  iintro ⟨Hscr, ⟨⟨Pa0, Pb0, Ps0⟩, ⟨Pa1, Pb1, Ps1⟩⟩, #Hrec⟩
  ihave Hscr := (scratches_split c) $$ Hscr
  icases Hscr with ⟨⟨A0, A1⟩, ⟨B0, B1⟩, ⟨S0, S1⟩⟩
  ihave #Ra0 := (reached_of_records m K (mem_allCells_dma c (aS 0 (by decide)))) $$ Hrec
  ihave #Rb0 := (reached_of_records m K (mem_allCells_dma c (bS 0 (by decide)))) $$ Hrec
  ihave #Rs0 := (reached_of_records m K (mem_allCells_dma c (stS 0 (by decide)))) $$ Hrec
  ihave #Ra1 := (reached_of_records m K (mem_allCells_dma c (aS 1 (by decide)))) $$ Hrec
  ihave #Rb1 := (reached_of_records m K (mem_allCells_dma c (bS 1 (by decide)))) $$ Hrec
  ihave #Rs1 := (reached_of_records m K (mem_allCells_dma c (stS 1 (by decide)))) $$ Hrec
  isplitl [A0 B0 S0 Pa0 Pb0 Ps0]
  · isplitl [A0 B0]
    · isplitl [A0]
      · iexact A0
      · iexact B0
    isplitl [S0]; · iexact S0
    isplitl [Pa0]; · iexact Pa0
    isplitl [Pb0]; · iexact Pb0
    isplitl [Ps0]; · iexact Ps0
    isplitr; · iexact Ra0
    isplitr; · iexact Rb0
    iexact Rs0
  · isplitl [A1 B1]
    · isplitl [A1]
      · iexact A1
      · iexact B1
    isplitl [S1]; · iexact S1
    isplitl [Pa1]; · iexact Pa1
    isplitl [Pb1]; · iexact Pb1
    isplitl [Ps1]; · iexact Ps1
    isplitr; · iexact Ra1
    isplitr; · iexact Rb1
    iexact Rs1

/-! ## Exit -/

/-- One chunk's share of the regrouping below. -/
theorem exit_regroup_at (c : Dev nD) (k : Nat) (hk : k < 64) :
    iprop(stepPost m c k hk
      ∗ (oHolds (F := F) c c k hk (sumAt m c) ∗ atPos ER (xsCell c k hk) 1 ∅ 0)
      ∗ (oHolds (F := F) c (nbrX c) k hk (sumAt m (nbrX c)) ∗ atPos ER (xrCell c k hk) 1 ∅ 0))
      ⊢ iprop((xHolds m c k hk qL ∗ xHolds m c k hk qR)
          ∗ oHolds (F := F) c c k hk (sumAt m c)
          ∗ oHolds (F := F) c (nbrX c) k hk (sumAt m (nbrX c))
          ∗ (atPos ER (ysCell c k hk) 1 ∅ 0 ∗ atPos ER (yrCell c k hk) 1 ∅ 0
              ∗ atPos ER (xsCell c k hk) 1 ∅ 0 ∗ atPos ER (xrCell c k hk) 1 ∅ 0)) := by
  unfold stepPost
  iintro ⟨⟨XL, XR, Pys, Pyr⟩, ⟨O1, Pxs⟩, ⟨O2, Pxr⟩⟩
  isplitl [XL XR]
  · isplitl [XL]
    · iexact XL
    · iexact XR
  isplitl [O1]; · iexact O1
  isplitl [O2]; · iexact O2
  isplitl [Pys]; · iexact Pys
  isplitl [Pyr]; · iexact Pyr
  isplitl [Pxs]; · iexact Pxs
  iexact Pxr

/-- The per-chunk conjunctions the steps leave, regrouped by what each part is put back into: the argument array's
    half shares, the result array's own and other chunks, and the four per-chunk cells' positions. -/
theorem exit_regroup (c : Dev nD) :
    iprop((bigSep Finset.univ fun k : Fin 64 => stepPost m c k.val k.isLt)
      ∗ (bigSep Finset.univ fun k : Fin 64 => iprop(oHolds (F := F) c c k.val k.isLt (sumAt m c) ∗ atPos ER (xsCell c k.val k.isLt) 1 ∅ 0))
      ∗ (bigSep Finset.univ fun k : Fin 64 => iprop(oHolds (F := F) c (nbrX c) k.val k.isLt (sumAt m (nbrX c)) ∗ atPos ER (xrCell c k.val k.isLt) 1 ∅ 0)))
      ⊢ iprop((bigSep Finset.univ fun k : Fin 64 => iprop(xHolds m c k.val k.isLt qL ∗ xHolds m c k.val k.isLt qR))
          ∗ (bigSep Finset.univ fun k : Fin 64 => oHolds (F := F) c c k.val k.isLt (sumAt m c))
          ∗ (bigSep Finset.univ fun k : Fin 64 => oHolds (F := F) c (nbrX c) k.val k.isLt (sumAt m (nbrX c)))
          ∗ (bigSep Finset.univ fun k : Fin 64 => iprop(atPos ER (ysCell c k.val k.isLt) 1 ∅ 0 ∗ atPos ER (yrCell c k.val k.isLt) 1 ∅ 0
              ∗ atPos ER (xsCell c k.val k.isLt) 1 ∅ 0 ∗ atPos ER (xrCell c k.val k.isLt) 1 ∅ 0))) := by
  rw [← bigSep_sep', ← bigSep_sep', ← bigSep_sep', ← bigSep_sep', ← bigSep_sep']
  exact bigSep_mono fun k _ => exit_regroup_at m c k.val k.isLt

theorem exit_ok (K : GSem nD τ sig → ℕ) (c : Dev nD)
    (hys : ∀ (k : Nat) (hk : k < 64) (r : ℕ), 1 ≤ r → (sched m).duties (ysCell c k hk) r = ∅)
    (hyr : ∀ (k : Nat) (hk : k < 64) (r : ℕ), 1 ≤ r → (sched m).duties (yrCell c k hk) r = ∅)
    (hxs : ∀ (k : Nat) (hk : k < 64) (r : ℕ), 1 ≤ r → (sched m).duties (xsCell c k hk) r = ∅)
    (hxr : ∀ (k : Nat) (hk : k < 64) (r : ℕ), 1 ≤ r → (sched m).duties (xrCell c k hk) r = ∅)
    (ha : ∀ (s : Nat) (hs : s < 2) (r : ℕ), 32 ≤ r → (sched m).duties (aCell c s hs) r = ∅)
    (hb : ∀ (s : Nat) (hs : s < 2) (r : ℕ), 32 ≤ r → (sched m).duties (bCell c s hs) r = ∅)
    (hst : ∀ (s : Nat) (hs : s < 2) (r : ℕ), 32 ≤ r → (sched m).duties (stCell c s hs) r = ∅) :
    iprop(records m K
      ∗ (bigSep Finset.univ fun k : Fin 64 => stepPost m c k.val k.isLt)
      ∗ (bigSep Finset.univ fun k : Fin 64 => iprop(oHolds (F := F) c c k.val k.isLt (sumAt m c) ∗ atPos ER (xsCell c k.val k.isLt) 1 ∅ 0))
      ∗ (bigSep Finset.univ fun k : Fin 64 => iprop(oHolds (F := F) c (nbrX c) k.val k.isLt (sumAt m (nbrX c)) ∗ atPos ER (xrCell c k.val k.isLt) 1 ∅ 0))
      ∗ slotFree (F := F) c 0 (by decide) 32 ∗ slotFree (F := F) c 1 (by decide) 32 ∗ xRest m c)
      ⊢ iprop(|={Set.univ}=> Φ₁ m c) := by
  have hcl := close_all m K c hys hyr hxs hxr ha hb hst
  rw [bigSep_univ_two] at hcl
  unfold Φ₁ slotFree abSome
  iintro ⟨#Hrec, Hpost, Hxs, Hxr, F0, F1, Hrest⟩
  ihave H := (exit_regroup m c) $$ [Hpost Hxs Hxr]
  · isplitl [Hpost]; · iexact Hpost
    isplitl [Hxs]; · iexact Hxs
    iexact Hxr
  icases H with ⟨HX, HO1, HO2, HP⟩
  ihave HA := (x_join m c) $$ [HX Hrest]
  · isplitl [HX]; · iexact HX
    iexact Hrest
  ihave HO := (res_join m c) $$ [HO1 HO2]
  · isplitl [HO1]; · iexact HO1
    iexact HO2
  icases F0 with ⟨⟨A0, B0⟩, S0, Pa0, Pb0, Ps0, -⟩
  icases F1 with ⟨⟨A1, B1⟩, S1, Pa1, Pb1, Ps1, -⟩
  ihave Hscr := (scratches_join c) $$ [A0 A1 B0 B1 S0 S1]
  · isplitl [A0 A1]
    · isplitl [A0]
      · iexact A0
      · iexact A1
    isplitl [B0 B1]
    · isplitl [B0]
      · iexact B0
      · iexact B1
    isplitl [S0]
    · iexact S0
    · iexact S1
  imod hcl $$ [HP Pa0 Pb0 Ps0 Pa1 Pb1 Ps1] with Hz
  · isplitr; · iexact Hrec
    isplitl [HP]; · iexact HP
    isplitl [Pa0 Pb0 Ps0]
    · isplitl [Pa0]; · iexact Pa0
      isplitl [Pb0]; · iexact Pb0
      iexact Ps0
    · isplitl [Pa1]; · iexact Pa1
      isplitl [Pb1]; · iexact Pb1
      iexact Ps1
  imodintro
  isplitl [HA]; · iexact HA
  isplitl [HO]; · iexact HO
  isplitl [Hscr]; · iexact Hscr
  iexact Hz

/-- info: 'Cert.Kernel.Hand.scratchA_split' depends on axioms: [propext, Classical.choice, Quot.sound] -/
#guard_msgs in #print axioms scratchA_split

/-- info: 'Cert.Kernel.Hand.scratchA_join' depends on axioms: [propext, Classical.choice, Quot.sound] -/
#guard_msgs in #print axioms scratchA_join

/-- info: 'Cert.Kernel.Hand.scratchB_split' depends on axioms: [propext, Classical.choice, Quot.sound] -/
#guard_msgs in #print axioms scratchB_split

/-- info: 'Cert.Kernel.Hand.scratchB_join' depends on axioms: [propext, Classical.choice, Quot.sound] -/
#guard_msgs in #print axioms scratchB_join

/-- info: 'Cert.Kernel.Hand.scratchS_split' depends on axioms: [propext, Classical.choice, Quot.sound] -/
#guard_msgs in #print axioms scratchS_split

/-- info: 'Cert.Kernel.Hand.scratchS_join' depends on axioms: [propext, Classical.choice, Quot.sound] -/
#guard_msgs in #print axioms scratchS_join

/-- info: 'Cert.Kernel.Hand.scratches_split' depends on axioms: [propext, Classical.choice, Quot.sound] -/
#guard_msgs in #print axioms scratches_split

/-- info: 'Cert.Kernel.Hand.scratches_join' depends on axioms: [propext, Classical.choice, Quot.sound] -/
#guard_msgs in #print axioms scratches_join

/-- info: 'Cert.Kernel.Hand.entry_slots' depends on axioms: [propext, Classical.choice, Quot.sound] -/
#guard_msgs in #print axioms entry_slots

/-- info: 'Cert.Kernel.Hand.exit_ok' depends on axioms: [propext, Classical.choice, Quot.sound] -/
#guard_msgs in #print axioms exit_ok

end Cert.Kernel.Hand

end
-- ==== Proof.Bits.Launch.lean ====
/-
  The launch of the all-reduce: from one obligation about a single device's body to the run of the whole program
  on the four devices.

  At launch every semaphore counter is zero. The ghost state of the protocol is made once for all devices: every
  cell's round state at counter zero, every owner's position at the start of its cell, and one token per duty of
  the schedule. Each device's 262 own DMA semaphores and its barrier semaphore, at zero, are joined with the round
  states into the cells' invariants; the tokens, minted at the cell they pay, are dealt to the device that pays
  them: a barrier duty to the neighbour that signals it, a receive duty to the neighbour that copies into it.
  What every device owes at launch comes back to the owners of the owed cells as launch credit: two units on a
  device's barrier cell, one copy's credit on each of its receive cells.
  The argument and result arrays are not staged: they travel beside the ghost state into the body's entry
  assertion and back out of its exit assertion, where the final memory is read off them.
-/
import proofs.«900147_g7700000000000148_dist_ar_v7x_xy2x2_y_m32768_n1024_f32_1_alg».proof.Proof.Bits.State
import proofs.«900147_g7700000000000148_dist_ar_v7x_xy2x2_y_m32768_n1024_f32_1_alg».proof.Proof.Bits.Fold
import proofs.«900147_g7700000000000148_dist_ar_v7x_xy2x2_y_m32768_n1024_f32_1_alg».proof.Proof.Gen.Kernel.Launch
import proofs.«900147_g7700000000000148_dist_ar_v7x_xy2x2_y_m32768_n1024_f32_1_alg».proof.Proof.Gen.Kernel.Points
import proofs.«900147_g7700000000000148_dist_ar_v7x_xy2x2_y_m32768_n1024_f32_1_alg».proof.Proof.Gen.Kernel.Frame

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The proof data -/

theorem cfg0_N : cfg0.N = 1 := by decide
/-- The one grid point. -/
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- No window is staged; before the one point the entry assertion, after it the exit assertion; at entry the device
    owes everything, at exit nothing. -/
def dats (ρ : Dev nD → PrngReg) (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

variable (ρ : Dev nD → PrngReg)

/-! ## The body obligation from the body lemma -/

/-- The form the body is proved in: from the entry assertion and everything owed, the body laid out by chunk runs to the
    exit assertion and nothing owed. -/
def BodySound : Prop :=
  ∀ (c : Dev nD) (Kt : PUnit → sProp 𝕄),
    iprop(Φ₀ m c ∗ Pipeline.owesWithin c (O₀ c) Set.univ
        ∗ (iprop(Φ₁ m c ∗ Pipeline.owesWithin c (0 : CellTallies nD τ sig Unit) Set.univ) -∗ Kt ⟨⟩))
      ⊢ wp frame (wpE (defs₀ (F := F)) Variants.none c none) Set.univ (folded (F := F)) Kt

set_option maxRecDepth 65536 in
/-- The library's body obligation on device c: the printed body is the body laid out by chunk, there is no staging buffer to
    hand over, and the bound on the recorded waits is everything. -/
theorem body_obligation (hsound : BodySound (F := F) m) (c : Dev nD) :
    BodyObligation (dats (F := F) m ρ 0 c) (defs₀ (F := F)) Variants.none () Set.univ := fun t => by
  rw [fin_N t]
  show iprop(Φ₀ m c ∗ (dats m ρ 0 c).owesAt () t₀.castSucc ∗ emp)
    ⊢ wp frame (wpE (defs₀ (F := F)) Variants.none c none) Set.univ (bodyAt0 (F := F) t₀)
        (fun _ => iprop(Φ₁ m c ∗ (dats m ρ 0 c).owesAt () t₀.succ ∗ emp))
  rw [show bodyAt0 (F := F) t₀ = folded from body_fold]
  iintro ⟨HΦ, Ho, -⟩
  iapply (hsound c _)
  isplitl [HΦ]; · iexact HΦ
  isplitl [Ho]
  · iapply (Pipeline.owesWithin_mono c _ (Set.subset_univ _)); iexact Ho
  · iintro ⟨HΦ1, Ho1⟩
    isplitl [HΦ1]; · iexact HΦ1
    isplitl [Ho1]
    · iapply (Pipeline.owesWithin_mono c _ (Set.subset_union_left)); iexact Ho1
    · iempintro

/-! ## The launch -/

namespace Launch

/-- The kernel's own semaphores: all 262 of the DMA pool. -/
abbrev osem : DmaSem sig → SemLoc sig := fun n => .dma n

theorem ownSemFacts : Pipeline.OwnSemFacts cfg0.spec osem :=
  ⟨by decide +kernel, fun a b h => by injection h, fun k w => w.elim0⟩

theorem share_eq (c : Dev nD) (w : Fin cfg0.W) : (dats m ρ 0 c).share w = fullShare := w.elim0

/-! ### The neighbour maps are involutions -/

theorem Ln.nbrY_nbrY (c : Dev nD) : nbrY (nbrY c) = c := by revert c; decide +kernel
theorem Ln.nbrX_nbrX (c : Dev nD) : nbrX (nbrX c) = c := by revert c; decide +kernel

def Ln.yE : Dev nD ≃ Dev nD := ⟨nbrY, nbrY, Ln.nbrY_nbrY, Ln.nbrY_nbrY⟩
def Ln.xE : Dev nD ≃ Dev nD := ⟨nbrX, nbrX, Ln.nbrX_nbrX, Ln.nbrX_nbrX⟩

/-! ### The semaphores by number -/

namespace Ln

theorem sem64_val (b : Nat) (h : b + S64.numel ≤ 262) (k : Nat) (hk : k < 64) :
    (sem64 (SemArray.consecutive b S64 h) k hk).val = b + k := by
  show b + (S64.rowMajor _).val = b + k
  rw [Shape.rowMajor_val_one, Rect.emb_apply]
  have h0 : ∀ x : Fin 1, b + (k + 1 * x.val) = b + k := fun x => by rw [Fin.val_eq_zero]; rfl
  exact h0 _

theorem sem2_val (b : Nat) (h : b + S2.numel ≤ 262) (s : Nat) (hs : s < 2) :
    (sem2 (SemArray.consecutive b S2 h) s hs).val = b + s := by
  show b + (S2.rowMajor _).val = b + s
  rw [Shape.rowMajor_val_one, Rect.emb_apply]
  have h0 : ∀ x : Fin 1, b + (s + 1 * x.val) = b + s := fun x => by rw [Fin.val_eq_zero]; rfl
  exact h0 _

/-- The four per-chunk semaphores and the three per-slot semaphores, by number. -/
abbrev chunkSem (j : Fin 4) (k : Fin 64) : DmaSem sig :=
  match j with
  | 0 => ysS k.val k.isLt
  | 1 => yrS k.val k.isLt
  | 2 => xsS k.val k.isLt
  | 3 => xrS k.val k.isLt
abbrev slotSem (j : Fin 3) (s : Fin 2) : DmaSem sig :=
  match j with
  | 0 => aS s.val s.isLt
  | 1 => bS s.val s.isLt
  | 2 => stS s.val s.isLt

theorem chunkSem_val : ∀ (j : Fin 4) (k : Fin 64), (chunkSem j k).val = 64 * j.val + k.val
  | 0, k => (sem64_val 0 hcc0_scratch0 k.val k.isLt)
  | 1, k => (sem64_val 64 hcc0_scratch1 k.val k.isLt)
  | 2, k => (sem64_val 128 hcc0_scratch2 k.val k.isLt)
  | 3, k => (sem64_val 192 hcc0_scratch3 k.val k.isLt)
theorem slotSem_val : ∀ (j : Fin 3) (s : Fin 2), (slotSem j s).val = 256 + 2 * j.val + s.val
  | 0, s => (sem2_val 256 hcc0_scratch7 s.val s.isLt)
  | 1, s => (sem2_val 258 hcc0_scratch8 s.val s.isLt)
  | 2, s => (sem2_val 260 hcc0_scratch9 s.val s.isLt)

/-- A semaphore's number: 0 for a regular semaphore, 1 + n for DMA semaphore n. -/
def semNum : SemLoc sig → ℕ
  | .reg _ => 0
  | .dma n => 1 + n.val

end Ln

open Ln

/-! ### The duty tokens, as minted: each at the cell it pays -/

/-- A device's own cells' duties: the barrier's two, one for each per-chunk cell, 32 for each per-slot cell. -/
abbrev TokIdx : Type := Bool ⊕ (Fin 64 × Fin 4) ⊕ ((Fin 2 × Fin 32) × Fin 3)

abbrev tokSem : TokIdx → SemLoc sig
  | .inl _ => .reg barS
  | .inr (.inl (k, j)) => .dma (chunkSem j k)
  | .inr (.inr ((s, _), j)) => .dma (slotSem j s)
abbrev tokRd : TokIdx → ℕ
  | .inr (.inr ((_, r), _)) => r.val
  | _ => 0
abbrev tokDuty : TokIdx → Bool
  | .inl b => b
  | _ => false

abbrev tokOf (ci : Dev nD × TokIdx) : GSem nD τ sig × ℕ × Bool :=
  (((ci.1 : Thread nD τ), tokSem ci.2), tokRd ci.2, tokDuty ci.2)

theorem tokIdx_injective : ∀ i i' : TokIdx, semNum (tokSem i) = semNum (tokSem i') → tokRd i = tokRd i' → tokDuty i = tokDuty i' → i = i'
  | .inl b, .inl b', _, _, hd => congrArg Sum.inl hd
  | .inl b, .inr (.inl (k, j)), hn, _, _ => absurd hn (by show (0 : ℕ) ≠ 1 + _; omega)
  | .inl b, .inr (.inr ((s, r), j)), hn, _, _ => absurd hn (by show (0 : ℕ) ≠ 1 + _; omega)
  | .inr (.inl (k, j)), .inl b, hn, _, _ => absurd hn (by show 1 + _ ≠ (0 : ℕ); omega)
  | .inr (.inr ((s, r), j)), .inl b, hn, _, _ => absurd hn (by show 1 + _ ≠ (0 : ℕ); omega)
  | .inr (.inl (k, j)), .inr (.inl (k', j')), hn, _, _ => by
    have h : 1 + (chunkSem j k).val = 1 + (chunkSem j' k').val := hn
    rw [chunkSem_val, chunkSem_val] at h
    have hj : j = j' := Fin.ext (by have := k.isLt; have := k'.isLt; omega)
    have hk : k = k' := Fin.ext (by have := k.isLt; have := k'.isLt; subst hj; omega)
    rw [hj, hk]
  | .inr (.inl (k, j)), .inr (.inr ((s, r), j')), hn, _, _ => by
    have h : 1 + (chunkSem j k).val = 1 + (slotSem j' s).val := hn
    rw [chunkSem_val, slotSem_val] at h
    exact absurd h (by have := k.isLt; have := j.isLt; omega)
  | .inr (.inr ((s, r), j')), .inr (.inl (k, j)), hn, _, _ => by
    have h : 1 + (slotSem j' s).val = 1 + (chunkSem j k).val := hn
    rw [chunkSem_val, slotSem_val] at h
    exact absurd h (by have := k.isLt; have := j.isLt; omega)
  | .inr (.inr ((s, r), j)), .inr (.inr ((s', r'), j')), hn, hr, _ => by
    have h : 1 + (slotSem j s).val = 1 + (slotSem j' s').val := hn
    rw [slotSem_val, slotSem_val] at h
    have hj : j = j' := Fin.ext (by have := s.isLt; have := s'.isLt; omega)
    have hs : s = s' := Fin.ext (by have := s.isLt; have := s'.isLt; subst hj; omega)
    have hr' : r = r' := Fin.ext hr
    rw [hj, hs, hr']

theorem tokOf_injective : Function.Injective (tokOf : Dev nD × TokIdx → GSem nD τ sig × ℕ × Bool) := by
  rintro ⟨c, i⟩ ⟨c', i'⟩ h
  have h1 : c = c' := congrArg (fun x : GSem nD τ sig × ℕ × Bool => x.1.1.1) h
  subst h1
  have h2 : i = i' := tokIdx_injective i i' (congrArg (fun x : GSem nD τ sig × ℕ × Bool => semNum x.1.2) h)
    (congrArg (fun x : GSem nD τ sig × ℕ × Bool => x.2.1) h) (congrArg (fun x : GSem nD τ sig × ℕ × Bool => x.2.2) h)
  rw [h2]

def allToks : Finset (GSem nD τ sig × ℕ × Bool) := Finset.univ.map ⟨tokOf, tokOf_injective⟩

/-- The launch element: the pipeline library's (no staging cell, no token) beside the protocol's. -/
def u₀ : UU :=
  (initOf (Pipeline.cells cfgs cellOf_inj) (Pipeline.launchToks cfgs cellOf_inj), initOf allCells allToks)

/-- The duty tokens of device c's own cells, as the launch element holds them; -/
def toks (c : Dev nD) : sProp 𝕄 :=
  bigSep Finset.univ fun i : TokIdx => dutyTok ER ((c : Thread nD τ), tokSem i) (tokRd i) (tokDuty i)

/-- and cell by cell. -/
def ownToks (c : Dev nD) : sProp 𝕄 :=
  iprop((dutyTok ER (barCell c) 0 false ∗ dutyTok ER (barCell c) 0 true)
    ∗ (bigSep Finset.univ fun k : Fin 64 => iprop(
        dutyTok ER (ysCell c k.val k.isLt) 0 false ∗ dutyTok ER (yrCell c k.val k.isLt) 0 false
        ∗ dutyTok ER (xsCell c k.val k.isLt) 0 false ∗ dutyTok ER (xrCell c k.val k.isLt) 0 false))
    ∗ (bigSep Finset.univ fun sr : Fin 2 × Fin 32 => iprop(
        dutyTok ER (aCell c sr.1.val sr.1.isLt) sr.2.val false ∗ dutyTok ER (bCell c sr.1.val sr.1.isLt) sr.2.val false
        ∗ dutyTok ER (stCell c sr.1.val sr.1.isLt) sr.2.val false)))

omit [FloatOps F] in
theorem Ln.bigSep_bool (Φ : Bool → sProp 𝕄) : bigSep Finset.univ Φ = iprop(Φ false ∗ Φ true) :=
  bigSep_univ_eq_bigSepL [false, true] (by decide) (by decide) Φ
omit [FloatOps F] in
theorem Ln.bigSep_fin3' (Φ : Fin 3 → sProp 𝕄) : bigSep Finset.univ Φ = iprop(Φ 0 ∗ Φ 1 ∗ Φ 2) :=
  bigSep_univ_eq_bigSepL [0, 1, 2] (by decide) (by decide) Φ
omit [FloatOps F] in
theorem Ln.bigSep_fin4' (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
theorem toks_eq (c : Dev nD) : (toks c : sProp 𝕄) = ownToks c := by
  unfold toks ownToks
  rw [bigSep_univ_sum, bigSep_univ_sum, Ln.bigSep_bool, bigSep_univ_prod, bigSep_univ_prod]
  refine congrArg₂ _ rfl (congrArg₂ _ ?_ ?_)
  · exact bigSep_congr fun k _ => by rw [Ln.bigSep_fin4']
  · exact bigSep_congr fun sr _ => by rw [Ln.bigSep_fin3']

/-- Every payload of the schedule is made of points-to assertions: it can be put in an invariant. -/
instance Ln.payload_storable (g : GSem nD τ sig) (r : ℕ) (d : Bool) :
    BI.Storable (upEmb : UEmb _ 𝕄) ((sched (F := F) m).payload g r d) := by
  show BI.Storable upEmb (payloadOf m g.1.1 (roleOf g.2) r d)
  unfold payloadOf barPay oSome oHolds xHolds slotHoldsA slotHoldsB slotSomeS
  (repeat' split) <;> infer_instance

/-- What the launch element deals device c. -/
def G (c : Dev nD) : sProp 𝕄 :=
  iprop((bigSep Finset.univ fun j : Option (DmaSem sig) => roundState ER (sched m) (kcell (c, j)) 0)
    ∗ (bigSep Finset.univ fun j : Option (DmaSem sig) => iprop(atPos ER (kcell (c, j)) 0 ∅ 0 ∗ reached ER (kcell (c, j)) 0))
    ∗ toks c)

/-- What the global step makes of it. -/
def G' (c : Dev nD) : sProp 𝕄 := iprop((∃ K, records m K) ∗ positions c ∗ payToks c)

omit [FloatOps F] in
/-- All cells, device by device. -/
theorem cells_eq (Φ : GSem nD τ sig → sProp 𝕄) :
    bigSep allCells Φ = bigSep Finset.univ fun c : Dev nD => bigSep Finset.univ fun j : Option (DmaSem sig) => Φ (kcell (c, j)) := by
  unfold allCells; rw [bigSep_map, bigSep_univ_prod]; rfl

omit [FloatOps F] in
theorem toks_all_eq : bigSep allToks (fun x => (dutyTok ER x.1 x.2.1 x.2.2 : sProp 𝕄)) = bigSep Finset.univ fun c : Dev nD => toks c := by
  unfold allToks; rw [bigSep_map, bigSep_univ_prod]; rfl

theorem fund_all : BI.own (ER (initOf allCells allToks)) ⊢ (|==> bigSep Finset.univ (G m) : sProp 𝕄) := by
  iintro HX
  imod (Rounds.fund ER (sched m) allCells allToks) $$ HX with ⟨Hst, Hr, Hat, Htok⟩
  imodintro
  ihave Hst' := (Entails.of_eq (cells_eq fun g => roundState ER (sched m) g 0)) $$ Hst
  ihave Hat' := (Entails.of_eq (cells_eq fun g => atPos ER g 0 ∅ 0)) $$ Hat
  ihave Hr' := (Entails.of_eq (cells_eq fun g => reached ER g 0)) $$ Hr
  ihave Htok' := (Entails.of_eq toks_all_eq) $$ Htok
  unfold G; simp only [bigSep_sep']
  isplitl [Hst']; · iexact Hst'
  isplitl [Hat' Hr']
  · isplitl [Hat'] <;> iassumption
  iexact Htok'

omit [FloatOps F] in
/-- A device's cells: the barrier cell and the DMA cells. -/
theorem Ln.bigSep_univ_option {α : Type} [Fintype α] [DecidableEq α] (Φ : Option α → sProp 𝕄) :
    bigSep Finset.univ Φ = iprop(Φ none ∗ bigSep Finset.univ fun a => Φ (some a)) := by
  rw [bigSep_univ_at Φ none]
  have h : (Finset.univ.erase (none : Option α)) = Finset.univ.map Function.Embedding.some := by
    ext x; cases x <;> simp
  rw [h, bigSep_map]; rfl

omit [FloatOps F] in
/-- The barrier semaphore is the one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Option (DmaSem sig) => semVal (kcell (c, j)) 0 : sProp 𝕄) := by
  rw [unscopedSems0_eq, Ln.bigSep_univ_option]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Option (DmaSem sig) => iprop(∃ κ : ℕ, cellInv ER (sched m) κ (kcell (c, j))))
          ∗ (bigSep Finset.univ fun j : Option (DmaSem sig) => iprop(atPos ER (kcell (c, j)) 0 ∅ 0 ∗ reached ER (kcell (c, j)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun j : Option (DmaSem sig) => semVal (kcell (c, j)) 0) ∗ bigSep Finset.univ fun j : Option (DmaSem sig) => roundState ER (sched m) (kcell (c, j)) 0)
      ⊢ (|={Set.univ}=> bigSep Finset.univ fun j : Option (DmaSem sig) => iprop(∃ κ : ℕ, cellInv ER (sched m) κ (kcell (c, j))) : sProp 𝕄) from by
        rw [← bigSep_sep']
        exact (bigSep_mono fun j _ => (Rounds.body_intro ER (sched m) (kcell (c, j))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem Ln.bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- The tokens dealt to the devices that pay them: a barrier's first duty and a y-receive duty to the y-neighbour, a barrier's
    second duty and an x-receive duty to the x-neighbour; the send and local duties stay. -/
theorem toks_around : (bigSep Finset.univ fun c : Dev nD => (ownToks c : sProp 𝕄)) ⊢ bigSep Finset.univ fun c : Dev nD => payToks c := by
  unfold ownToks payToks
  simp only [bigSep_sep']
  iintro ⟨⟨H0, H1⟩, ⟨HA, HB, HC, HD⟩, HL⟩
  ihave H0' := (Entails.of_eq (bigSep_univ_equiv Ln.yE (fun c : Dev nD => (dutyTok ER (barCell c) 0 false : sProp 𝕄)))) $$ H0
  ihave H1' := (Entails.of_eq (bigSep_univ_equiv Ln.xE (fun c : Dev nD => (dutyTok ER (barCell c) 0 true : sProp 𝕄)))) $$ H1
  ihave HB' := (Entails.of_eq (bigSep_univ_equiv Ln.yE (fun c : Dev nD => bigSep Finset.univ fun k : Fin 64 => (dutyTok ER (yrCell c k.val k.isLt) 0 false : sProp 𝕄)))) $$ HB
  ihave HD' := (Entails.of_eq (bigSep_univ_equiv Ln.xE (fun c : Dev nD => bigSep Finset.univ fun k : Fin 64 => (dutyTok ER (xrCell c k.val k.isLt) 0 false : sProp 𝕄)))) $$ HD
  isplitl [H0']; · iexact H0'
  isplitl [H1']; · iexact H1'
  isplitr [HL]
  · isplitl [HA]; · iexact HA
    isplitl [HB']; · iexact HB'
    isplitl [HC]; · iexact HC
    iexact HD'
  iexact HL

omit [FloatOps F] in
theorem positions_eq (c : Dev nD) :
    (bigSep Finset.univ fun j : Option (DmaSem sig) => (atPos ER (kcell (c, j)) 0 ∅ 0 : sProp 𝕄)) = positions c := by
  unfold positions; rw [Ln.bigSep_univ_option]

theorem regroup :
    (bigSep Finset.univ fun c : Dev nD => iprop((bigSep Finset.univ fun j : Option (DmaSem sig) => iprop(∃ κ : ℕ, cellInv ER (sched m) κ (kcell (c, j))))
          ∗ (bigSep Finset.univ fun j : Option (DmaSem sig) => iprop(atPos ER (kcell (c, j)) 0 ∅ 0 ∗ reached ER (kcell (c, j)) 0)) ∗ toks c) : sProp 𝕄)
      ⊢ bigSep Finset.univ (G' m) := by
  refine (bigSep_mono (Ψ := fun c : Dev nD => iprop((bigSep Finset.univ fun j : Option (DmaSem sig) => iprop(∃ κ : ℕ, cellInv ER (sched m) κ (kcell (c, j))))
      ∗ (positions c ∗ bigSep Finset.univ fun j : Option (DmaSem sig) => reached ER (kcell (c, j)) 0) ∗ ownToks c)) fun c _ => ?_).trans (show _ ⊢ (_ : sProp 𝕄) from ?_)
  · rw [bigSep_sep', positions_eq, toks_eq]; exact BI.Entails.refl _
  simp only [bigSep_sep']
  rw [← cells_eq (fun g => iprop(∃ κ : ℕ, cellInv ER (sched m) κ g)), ← cells_eq (fun g => (reached ER g 0 : sProp 𝕄))]
  iintro ⟨HI, ⟨Hat, #HR⟩, Htok⟩
  ihave HK := (BI.bigSep_exists_pi allCells (fun (g : GSem nD τ sig) (κ : ℕ) => (cellInv ER (sched m) κ g : sProp 𝕄))) $$ HI
  icases HK with ⟨%K, #HI⟩
  ihave Htk := (toks_around (F := F)) $$ Htok
  iapply (Ln.bigSep_with_persistent (R := records m K) (Φ := fun c : Dev nD => iprop(positions c ∗ payToks c)) fun c _ => by
    unfold G'
    iintro ⟨#HRc, Hp, Ht⟩
    isplitr
    · iexists K; iexact HRc
    isplitl [Hp]; · iexact Hp
    iexact Ht)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
/-- What the devices owe the x-receive cells comes back to each as its own cells' credit; likewise the y-receive cells. -/
theorem credX (c : Dev nD) :
    (Pipeline.launchCred (fun d => owedX d 0) c : sProp 𝕄) ⊢ bigSep Finset.univ fun k : Fin 64 => cred (tallyAt (xrCell c k.val k.isLt) () No) := by
  have h : (fun d : Dev nD => owedX d 0) = fun d => ∑ k ∈ (Finset.univ : Finset (Fin 64)), tallyAt (((nbrX d).tc : Thread nD τ), SemLoc.dma (xrS k.val k.isLt)) () No :=
    funext fun d => Finset.sum_congr rfl fun k _ => if_pos (Nat.zero_le _)
  rw [h, Pipeline.launchCred_sum Finset.univ (fun (k : Fin 64) (d : Dev nD) => tallyAt (((nbrX d).tc : Thread nD τ), SemLoc.dma (xrS k.val k.isLt)) () No) c]
  exact bigSep_mono fun k _ => Pipeline.launchCred_tallyAt (SemLoc.dma (xrS k.val k.isLt)) nbrX nbrX Ln.nbrX_nbrX Ln.nbrX_nbrX () No c

omit [FloatOps F] in
theorem credY (c : Dev nD) :
    (Pipeline.launchCred (fun d => owedY d 0) c : sProp 𝕄) ⊢ bigSep Finset.univ fun k : Fin 64 => cred (tallyAt (yrCell c k.val k.isLt) () No) := by
  have h : (fun d : Dev nD => owedY d 0) = fun d => ∑ k ∈ (Finset.univ : Finset (Fin 64)), tallyAt (((nbrY d).tc : Thread nD τ), SemLoc.dma (yrS k.val k.isLt)) () No :=
    funext fun d => Finset.sum_congr rfl fun k _ => if_pos (Nat.zero_le _)
  rw [h, Pipeline.launchCred_sum Finset.univ (fun (k : Fin 64) (d : Dev nD) => tallyAt (((nbrY d).tc : Thread nD τ), SemLoc.dma (yrS k.val k.isLt)) () No) c]
  exact bigSep_mono fun k _ => Pipeline.launchCred_tallyAt (SemLoc.dma (yrS k.val k.isLt)) nbrY nbrY Ln.nbrY_nbrY Ln.nbrY_nbrY () No c

omit [FloatOps F] in
/-- A device's launch credit: two units on its barrier cell, a copy's credit on each receive cell. -/
theorem creds (c : Dev nD) : (Pipeline.launchCred O₀ c : sProp 𝕄) ⊢ launchCreds c := by
  have h : (O₀ : Dev nD → CellTallies nD τ sig Unit)
      = fun d => ((fun d => owedX d 0 + owedY d 0) d + tallyAt (barCell (nbrX d)) () 1) + tallyAt (barCell (nbrY d)) () 1 := rfl
  rw [h, Pipeline.launchCred_add (fun d => (fun d => owedX d 0 + owedY d 0) d + tallyAt (barCell (nbrX d)) () 1) (fun d => tallyAt (barCell (nbrY d)) () 1) c,
    Pipeline.launchCred_add (fun d => owedX d 0 + owedY d 0) (fun d => tallyAt (barCell (nbrX d)) () 1) c,
    Pipeline.launchCred_add (fun d => owedX d 0) (fun d => owedY d 0) c]
  unfold launchCreds
  iintro ⟨⟨⟨HX, HY⟩, HbX⟩, HbY⟩
  ihave HX' := (credX (F := F) c) $$ HX
  ihave HY' := (credY (F := F) c) $$ HY
  ihave HbX' := (Pipeline.launchCred_tallyAt (SemLoc.reg barS) nbrX nbrX Ln.nbrX_nbrX Ln.nbrX_nbrX () 1 c) $$ HbX
  ihave HbY' := (Pipeline.launchCred_tallyAt (SemLoc.reg barS) nbrY nbrY Ln.nbrY_nbrY Ln.nbrY_nbrY () 1 c) $$ HbY
  isplitl [HbX' HbY']
  · rw [← tallyAt_add (barCell c) () 1 1]
    iapply (cred_add _ _).2
    isplitl [HbX'] <;> iassumption
  · iapply (Entails.of_eq (bigSep_sep' Finset.univ (fun k : Fin 64 => (cred (tallyAt (yrCell c k.val k.isLt) () No) : sProp 𝕄))
      (fun k : Fin 64 => cred (tallyAt (xrCell c k.val k.isLt) () No))).symm)
    isplitl [HY'] <;> iassumption

/-! ### The theorem's side conditions -/

/-- What the body's entry takes from the launch: the ghost state and the two arrays as launched. -/
def X (c : Dev nD) : sProp 𝕄 :=
  iprop(start m c ∗ whole c main_arg0 (xs m c) ∗ whole c main_v1 (m ((c : Thread nD τ).loc main_v1)))
/-- What the body's exit hands back: the argument array unchanged, the result array all-reduced. -/
def Y (c : Dev nD) : sProp 𝕄 := iprop(whole c main_arg0 (xs m c) ∗ whole c main_v1 (resBuf m c))

theorem start_intro (c : Dev nD) :
    iprop(Pipeline.unscopedRestP Pipeline.Prefetch.none cfg0.spec c (fun b => m ((c : Thread nD τ).loc b)) ∗ levAts Lset lv
        ∗ Pipeline.launchCred O₀ c ∗ prngReg c (ρ c) ∗ G' m c)
      ⊢ |={Set.univ}=> iprop(X m c ∗ emp) := by
  rw [Pipeline.unscopedRestP_none, unscopedRest0_eq]
  unfold G'
  iintro ⟨⟨Hx, Ho⟩, Hlev, Hcr, -, ⟨HK, Hpos, Hpay⟩⟩
  ihave Hc := (creds (F := F) c) $$ Hcr
  imodintro
  unfold X start
  isplitl
  · isplitr [Hx Ho]
    · isplitl [HK]; · iexact HK
      isplitl [Hpos]; · iexact Hpos
      isplitl [Hpay]; · iexact Hpay
      isplitl [Hc]; · iexact Hc
      iexact Hlev
    · isplitl [Hx] <;> iassumption
  · iempintro

theorem phi0_intro (c : Dev nD) :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ X scratches
  iintro ⟨⟨Hs, Hx, Ho⟩, -, Hscr⟩
  isplitl [Hs]; · iexact Hs
  isplitl [Hx]; · iexact Hx
  isplitl [Ho]
  · iexists _; iexact Ho
  iexact Hscr

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scopedRest0_eq]
  unfold Φ₁ Y scratches
  iintro ⟨Hx, Ho, Hscr, Hz⟩
  isplitl [Hx Ho]
  · isplitl [Hx] <;> iassumption
  isplitl [Hz]
  · unfold ownZeros Pipeline.ownSems0; iexact Hz
  iexact Hscr

theorem waits (c : Dev nD) : (levAts Lset lv : sProp 𝕄) ⊢ Pipeline.cellsWaits cfgs (dats m ρ) () 0 c :=
  Pipeline.cellsWaits_intro cfgs (dats m ρ) () 0 c fun w s t => w.elim0

end Launch

open Launch Launch.Ln

/-! ### The run -/

set_option maxRecDepth 65536 in
/-- At the compiled mesh of four devices, for any float values, from any memory with zero counters: every weakly fair
    execution of @main terminates, and every final state has each device's result array at the all-reduced contents and
    its argument array unchanged. -/
theorem run_main (hbody : ∀ c, BodyObligation (dats (F := F) m ρ 0 c) (defs₀ (F := F)) Variants.none () Set.univ) :
    θ_run defs (onTc (τ := τ) (main (F := F))) ⟨m, fun _ => 0, ρ⟩
      (fun r => ∀ c : Dev nD, r.2.mem ((c.tc : Thread nD τ).loc main_v1) = resBuf m c
        ∧ r.2.mem ((c.tc : Thread nD τ).loc main_arg0) = m ((c.tc : Thread nD τ).loc main_arg0)) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ Variants.none m ρ main
    (hmain := fun _ => rfl)
    (hbody := hbody) (hne := fun w => w.elim0) (harr := arr_whole0) (hstage := stage_whole0) (hshare := share_eq m ρ)
    (hdistinct := winFacts0.arr_inj)
    (O₀ := O₀) (howed₀ := fun _ => rfl) (howedN := fun _ => rfl)
    (L := Lset) (lv := lv) (hL := fun g h => if_neg h) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ w => w.elim0) (hpf := fun _ k => k.elim0)
    (X := X m) (Y := Y m) (Z := fun _ => iprop(emp))
    (hX := start_intro m ρ) (hin := phi0_intro m ρ) (hout := phi1_exit m ρ)
    (QY := fun c s => s.mem ((c : Thread nD τ).loc main_v1) = resBuf m c
      ∧ s.mem ((c : Thread nD τ).loc main_arg0) = m ((c : Thread nD τ).loc main_arg0))
    (hY := fun c s' => by
      unfold Y
      iintro ⟨⟨Hx, Ho⟩, -, HSI⟩
      icombine HSI Hx gives %hx
      icombine HSI Ho gives %ho
      imodintro
      isplitr; · ipureintro; exact ⟨Buf.eq_of_forall_mem_univ ho, Buf.eq_of_forall_mem_univ hx⟩
      iexact HSI)
    (hQ := fun _ h c => (h c).2.2)

/-- info: 'Cert.Kernel.Hand.body_obligation' depends on axioms: [propext, Classical.choice, Quot.sound] -/
#guard_msgs in #print axioms body_obligation

/-- info: 'Cert.Kernel.Hand.run_main' depends on axioms: [propext, Classical.choice, Quot.sound] -/
#guard_msgs in #print axioms run_main

end Cert.Kernel.Hand

end
-- ==== Proof.Bits.MainLoop.lean ====
/-
  The 64 steps of the protocol and the two closing waits, from the rules of a step's two halves.

  Slot p (p = 0, 1) of the three scratch arrays serves the chunks of parity p in turn: chunk 2 r + p is its r-th.
  Before step k a slot that has not served a chunk yet is free at round 0; otherwise it is busy with the last chunk
  of its parity below k.  So the state of slot p is a function of the NUMBER n of chunks of parity p below k
  (n = (k + 1) / 2 for p = 0, n = k / 2 for p = 1): free at round 0 for n = 0, busy with chunk 2 (n - 1) + p, its
  (n - 1)-th, for n > 0.  Step k works on the slot of its own parity, which has served k / 2 chunks, and serves it
  one more; the number of the other slot's chunks below k and below k + 1 is the same, so that slot is carried
  around the step unchanged.

  From the third step on, a step first waits for the store-back and the copy to the x-neighbour of the chunk two
  before it (which frees its slot, a round further, and hands over that chunk's result rows at the sum and its x-send
  cell consumed), then runs the chunk's own operations.  The result rows of chunks 0 .. 61 are thus handed over by
  steps 2 .. 63, those of chunks 62 and 63 by the two closing waits: all 64 in the end.
-/
import proofs.«900147_g7700000000000148_dist_ar_v7x_xy2x2_y_m32768_n1024_f32_1_alg».proof.Proof.Bits.StepDefs
import proofs.«900147_g7700000000000148_dist_ar_v7x_xy2x2_y_m32768_n1024_f32_1_alg».proof.Proof.LibChain

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The rules of a step's two halves, as statements -/

/-- The two waits for chunk j: its busy slot comes back free, a round further, with the chunk's result rows at the sum
    and its x-send cell consumed. -/
abbrev WaitsRule : Prop :=
  ∀ (K : GSem nD τ sig → ℕ) (c : Dev nD) (j : Nat) (hj : j < 64) (i : Nat),
    iprop(records m K ∗ levAts Lset lv ∗ slotBusy (F := F) c (j % 2) (slot_lt j) (j / 2) j hj ∗ owesX (F := F) c i)
      ⊢ wp frame (wpE (defs₀ (F := F)) 𝒱₀ c none) Set.univ (waitsFor c j hj)
          (fun _ => iprop(slotFree (F := F) c (j % 2) (slot_lt j) (j / 2 + 1) ∗ oHolds c c j hj (sumAt m c)
            ∗ atPos ER (xsCell c j hj) 1 ∅ 0 ∗ owesX (F := F) c i))

/-- Chunk k's own operations: its free slot becomes busy with it, one x-copy fewer is owed. -/
abbrev CoreRule : Prop :=
  ∀ (K : GSem nD τ sig → ℕ) (c : Dev nD) (k : Nat) (hk : k < 64),
    iprop(records m K ∗ levAts Lset lv ∗ stepPre m c k hk ∗ slotFree (F := F) c (k % 2) (slot_lt k) (k / 2) ∗ owesX (F := F) c k)
      ⊢ wp frame (wpE (defs₀ (F := F)) 𝒱₀ c none) Set.univ (core c k hk)
          (fun _ => iprop(stepPost m c k hk ∗ slotBusy (F := F) c (k % 2) (slot_lt k) (k / 2) k hk ∗ owesX (F := F) c (k + 1)))

/-! ## Equal indices give equal assertions -/

theorem slotFree_congr (c : Dev nD) {s s' : Nat} {hs : s < 2} {hs' : s' < 2} {r r' : ℕ} (h1 : s = s') (h2 : r = r') :
    slotFree (F := F) c s hs r = slotFree (F := F) c s' hs' r' := by subst h1; subst h2; rfl

theorem slotBusy_congr (c : Dev nD) {s s' : Nat} {hs : s < 2} {hs' : s' < 2} {r r' : ℕ} {j j' : Nat} {hj : j < 64} {hj' : j' < 64}
    (h1 : s = s') (h2 : r = r') (h3 : j = j') :
    slotBusy (F := F) c s hs r j hj = slotBusy (F := F) c s' hs' r' j' hj' := by subst h1; subst h2; subst h3; rfl

/-- What the two waits for chunk j hand over beside the slot: the chunk's result rows at the sum formed here, and the
    chunk's x-send cell consumed. -/
def chunkDone (c : Dev nD) (j : Nat) (hj : j < 64) : sProp 𝕄 :=
  iprop(oHolds c c j hj (sumAt m c) ∗ atPos ER (xsCell c j hj) 1 ∅ 0)

theorem chunkDone_congr (c : Dev nD) {j j' : Nat} {hj : j < 64} {hj' : j' < 64} (h : j = j') :
    chunkDone m c j hj = chunkDone m c j' hj' := by subst h; rfl

/-! ## The state of a slot that has served n chunks -/

/-- Slot p after n of its chunks: free at round 0 if none, else busy with chunk 2 (n - 1) + p, its (n - 1)-th. -/
def slotAt (c : Dev nD) (p : Nat) (hp : p < 2) (n : ℕ) : sProp 𝕄 :=
  if n = 0 then slotFree (F := F) c p hp 0
  else if h : 2 * (n - 1) + p < 64 then slotBusy (F := F) c p hp (n - 1) (2 * (n - 1) + p) h else iprop(emp)

theorem slotAt_congr (c : Dev nD) {s s' : Nat} {hs : s < 2} {hs' : s' < 2} {n n' : ℕ} (h1 : s = s') (h2 : n = n') :
    slotAt (F := F) c s hs n = slotAt (F := F) c s' hs' n' := by subst h1; subst h2; rfl

theorem slotAt_zero (c : Dev nD) (p : Nat) (hp : p < 2) : slotAt (F := F) c p hp 0 = slotFree (F := F) c p hp 0 := if_pos rfl

/-- Before its first chunk (k < 2) the slot of chunk k is free, at the round the chunk's operations expect. -/
theorem slotAt_free (c : Dev nD) (k : Nat) (hk2 : k < 2) :
    slotAt (F := F) c (k % 2) (slot_lt k) (k / 2) = slotFree (F := F) c (k % 2) (slot_lt k) (k / 2) := by
  have h0 : k / 2 = 0 := by omega
  calc slotAt (F := F) c (k % 2) (slot_lt k) (k / 2)
      = slotAt (F := F) c (k % 2) (slot_lt k) 0 := slotAt_congr c rfl h0
    _ = slotFree (F := F) c (k % 2) (slot_lt k) 0 := slotAt_zero c _ _
    _ = slotFree (F := F) c (k % 2) (slot_lt k) (k / 2) := slotFree_congr c rfl h0.symm

/-- After chunk k's operations its slot, having served one chunk more, is busy with k. -/
theorem slotAt_busy (c : Dev nD) (k : Nat) (hk : k < 64) :
    slotAt (F := F) c (k % 2) (slot_lt k) (k / 2 + 1) = slotBusy (F := F) c (k % 2) (slot_lt k) (k / 2) k hk := by
  unfold slotAt
  rw [if_neg (Nat.succ_ne_zero _), dif_pos (show 2 * (k / 2 + 1 - 1) + k % 2 < 64 by omega)]
  exact slotBusy_congr c rfl (by omega) (by omega)

/-- What step k hands over beside its own products: chunk k - 2's result rows, from the third step on. -/
def emitted (c : Dev nD) (k : Nat) (hk : k < 64) : sProp 𝕄 :=
  if h : 2 ≤ k then chunkDone m c (k - 2) (by omega) else iprop(emp)

/-! ## One step -/

/-- Step k on the slot of its own parity: the slot has served k / 2 chunks and serves one more. -/
theorem step_rule (hwaits : WaitsRule (F := F) m) (hcore : CoreRule (F := F) m)
    (K : GSem nD τ sig → ℕ) (c : Dev nD) (k : Nat) (hk : k < 64) :
    iprop(records m K ∗ levAts Lset lv ∗ stepPre m c k hk ∗ slotAt (F := F) c (k % 2) (slot_lt k) (k / 2) ∗ owesX (F := F) c k)
      ⊢ wp frame (wpE (defs₀ (F := F)) 𝒱₀ c none) Set.univ (step c k hk)
          (fun _ => iprop(stepPost m c k hk ∗ emitted m c k hk ∗ slotAt (F := F) c (k % 2) (slot_lt k) (k / 2 + 1)
            ∗ owesX (F := F) c (k + 1))) := by
  rw [slotAt_busy c k hk]
  by_cases h : 2 ≤ k
  · -- the slot is busy with chunk k - 2: its two waits first, then the chunk's own operations
    have hj : k - 2 < 64 := by omega
    have e1 : slotAt (F := F) c (k % 2) (slot_lt k) (k / 2)
        = slotBusy (F := F) c ((k - 2) % 2) (slot_lt (k - 2)) ((k - 2) / 2) (k - 2) hj := by
      rw [← slotAt_busy c (k - 2) hj]; exact slotAt_congr c (by omega) (by omega)
    have e2 : slotFree (F := F) c ((k - 2) % 2) (slot_lt (k - 2)) ((k - 2) / 2 + 1)
        = slotFree (F := F) c (k % 2) (slot_lt k) (k / 2) := slotFree_congr c (by omega) (by omega)
    have e3 : emitted m c k hk = chunkDone m c (k - 2) hj := dif_pos h
    have e4 : step (F := F) c k hk = (waitsFor c (k - 2) hj >>= fun _ => core c k hk) := dif_pos h
    have hw := hwaits K c (k - 2) hj k
    rw [e2] at hw
    rw [e1, e3, e4, wp_bind]
    unfold chunkDone
    iintro ⟨#HR, #HL, HP, HB, HO⟩
    iapply (wp_wand_r frame _ Set.univ)
    isplitl [HB HO]
    · iapply hw
      isplitr; · iexact HR
      isplitr; · iexact HL
      isplitl [HB]; · iexact HB
      iexact HO
    · iintro %_ ⟨HF, HD1, HD2, HO⟩
      iapply (wp_wand_r frame _ Set.univ)
      isplitl [HP HF HO]
      · iapply (hcore K c k hk)
        isplitr; · iexact HR
        isplitr; · iexact HL
        isplitl [HP]; · iexact HP
        isplitl [HF]; · iexact HF
        iexact HO
      · iintro %_ ⟨HQ, HB, HO⟩
        isplitl [HQ]; · iexact HQ
        isplitl [HD1 HD2]
        · isplitl [HD1]; · iexact HD1
          iexact HD2
        isplitl [HB]; · iexact HB
        iexact HO
  · -- the first chunk of its parity: the slot is free
    have hk2 : k < 2 := by omega
    have e3 : emitted m c k hk = iprop(emp) := dif_neg h
    have e4 : step (F := F) c k hk = core c k hk := dif_neg h
    rw [slotAt_free c k hk2, e3, e4]
    iintro ⟨#HR, #HL, HP, HF, HO⟩
    iapply (wp_wand_r frame _ Set.univ)
    isplitl [HP HF HO]
    · iapply (hcore K c k hk)
      isplitr; · iexact HR
      isplitr; · iexact HL
      isplitl [HP]; · iexact HP
      isplitl [HF]; · iexact HF
      iexact HO
    · iintro %_ ⟨HQ, HB, HO⟩
      isplitl [HQ]; · iexact HQ
      isplitr; · iempintro
      isplitl [HB]; · iexact HB
      iexact HO

/-! ## The state threaded through the steps -/

/-- Before step k: slot 0 has served (k + 1) / 2 chunks, slot 1 has served k / 2; the x-copies from chunk k on are owed. -/
def loopSt (K : GSem nD τ sig → ℕ) (c : Dev nD) (k : ℕ) : sProp 𝕄 :=
  iprop(records m K ∗ levAts Lset lv ∗ slotAt (F := F) c 0 (by decide) ((k + 1) / 2) ∗ slotAt (F := F) c 1 (by decide) (k / 2)
    ∗ owesX (F := F) c k)

/-- Step k takes the state before it to the state after it: the slot of k's parity serves one chunk more, the other
    slot's count is the same before and after. -/
theorem loop_step (hwaits : WaitsRule (F := F) m) (hcore : CoreRule (F := F) m)
    (K : GSem nD τ sig → ℕ) (c : Dev nD) (k : Fin 64) :
    iprop(stepPre m c k.val k.isLt ∗ loopSt m K c k.val)
      ⊢ wp frame (wpE (defs₀ (F := F)) 𝒱₀ c none) Set.univ (step c k.val k.isLt)
          (fun _ => iprop((stepPost m c k.val k.isLt ∗ emitted m c k.val k.isLt) ∗ loopSt m K c (k.val + 1))) := by
  obtain ⟨k, hk⟩ := k
  show iprop(stepPre m c k hk ∗ loopSt m K c k)
      ⊢ wp frame (wpE (defs₀ (F := F)) 𝒱₀ c none) Set.univ (step c k hk)
          (fun _ => iprop((stepPost m c k hk ∗ emitted m c k hk) ∗ loopSt m K c (k + 1)))
  have hs := step_rule m hwaits hcore K c k hk
  unfold loopSt
  rcases Nat.mod_two_eq_zero_or_one k with h | h
  · -- k even: slot 0 is its own
    have a1 : slotAt (F := F) c 0 (by decide) ((k + 1) / 2) = slotAt (F := F) c (k % 2) (slot_lt k) (k / 2) :=
      slotAt_congr c h.symm (by omega)
    have a2 : slotAt (F := F) c 0 (by decide) ((k + 1 + 1) / 2) = slotAt (F := F) c (k % 2) (slot_lt k) (k / 2 + 1) :=
      slotAt_congr c h.symm (by omega)
    have a3 : slotAt (F := F) c 1 (by decide) ((k + 1) / 2) = slotAt (F := F) c 1 (by decide) (k / 2) :=
      slotAt_congr c rfl (by omega)
    rw [a1, a2, a3]
    iintro ⟨HP, #HR, #HL, H0, H1, HO⟩
    iapply (wp_wand_r frame _ Set.univ)
    isplitl [HP H0 HO]
    · iapply hs
      isplitr; · iexact HR
      isplitr; · iexact HL
      isplitl [HP]; · iexact HP
      isplitl [H0]; · iexact H0
      iexact HO
    · iintro %_ ⟨HQ, HE, H0, HO⟩
      isplitl [HQ HE]
      · isplitl [HQ]; · iexact HQ
        iexact HE
      isplitr; · iexact HR
      isplitr; · iexact HL
      isplitl [H0]; · iexact H0
      isplitl [H1]; · iexact H1
      iexact HO
  · -- k odd: slot 1 is its own
    have a1 : slotAt (F := F) c 1 (by decide) (k / 2) = slotAt (F := F) c (k % 2) (slot_lt k) (k / 2) :=
      slotAt_congr c h.symm rfl
    have a2 : slotAt (F := F) c 1 (by decide) ((k + 1) / 2) = slotAt (F := F) c (k % 2) (slot_lt k) (k / 2 + 1) :=
      slotAt_congr c h.symm (by omega)
    have a3 : slotAt (F := F) c 0 (by decide) ((k + 1 + 1) / 2) = slotAt (F := F) c 0 (by decide) ((k + 1) / 2) :=
      slotAt_congr c rfl (by omega)
    rw [a1, a2, a3]
    iintro ⟨HP, #HR, #HL, H0, H1, HO⟩
    iapply (wp_wand_r frame _ Set.univ)
    isplitl [HP H1 HO]
    · iapply hs
      isplitr; · iexact HR
      isplitr; · iexact HL
      isplitl [HP]; · iexact HP
      isplitl [H1]; · iexact H1
      iexact HO
    · iintro %_ ⟨HQ, HE, H1, HO⟩
      isplitl [HQ HE]
      · isplitl [HQ]; · iexact HQ
        iexact HE
      isplitr; · iexact HR
      isplitr; · iexact HL
      isplitl [H0]; · iexact H0
      isplitl [H1]; · iexact H1
      iexact HO

/-! ## The result rows handed over: all 64 chunks' in the end -/

/-- The unit law and the distribution of a big separating conjunction over a binary one, in the spelling the
    assertions below are written in. -/
theorem emp_sep_eq (P : sProp 𝕄) : iprop(emp ∗ P) = P := equiv_iff.mp emp_sep

theorem bigSep_sep_eq {I : Type} (s : Finset I) (Φ Ψ : I → sProp 𝕄) :
    (bigSep s fun i => iprop(Φ i ∗ Ψ i)) = iprop(bigSep s Φ ∗ bigSep s Ψ) := bigSep_sep s Φ Ψ

theorem lt64_of_fin62 (i : Fin 62) : i.val < 64 := Nat.lt_trans i.isLt (by decide)

/-- Steps 2 .. 63 hand over the rows of chunks 0 .. 61, the two closing waits those of chunks 62 and 63. -/
theorem emitted_all (c : Dev nD) :
    iprop((bigSep Finset.univ fun k : Fin 64 => emitted m c k.val k.isLt)
        ∗ (oHolds c c 62 (by decide) (sumAt m c) ∗ atPos ER (xsCell c 62 (by decide)) 1 ∅ 0)
        ∗ (oHolds c c 63 (by decide) (sumAt m c) ∗ atPos ER (xsCell c 63 (by decide)) 1 ∅ 0))
      ⊢ bigSep Finset.univ fun k : Fin 64 =>
          iprop(oHolds c c k.val k.isLt (sumAt m c) ∗ atPos ER (xsCell c k.val k.isLt) 1 ∅ 0) := by
  show iprop((bigSep Finset.univ fun k : Fin 64 => emitted m c k.val k.isLt)
        ∗ chunkDone m c 62 (by decide) ∗ chunkDone m c 63 (by decide))
      ⊢ bigSep Finset.univ fun k : Fin 64 => chunkDone m c k.val k.isLt
  have hL : (bigSep Finset.univ fun k : Fin 64 => emitted m c k.val k.isLt)
      = bigSep Finset.univ fun i : Fin 62 => chunkDone m c i.val (lt64_of_fin62 i) := by
    rw [Pipeline.bigSep_fin_succ, Pipeline.bigSep_fin_succ]
    have a0 : emitted m c (0 : Fin 64).val (0 : Fin 64).isLt = iprop(emp) := dif_neg (by decide)
    have a1 : emitted m c (Fin.succ (0 : Fin 63)).val (Fin.succ (0 : Fin 63)).isLt = iprop(emp) := dif_neg (by decide)
    rw [a0, a1, emp_sep_eq, emp_sep_eq]
    refine bigSep_congr fun i _ => ?_
    have h2 : 2 ≤ i.succ.succ.val := by simp only [Fin.val_succ]; omega
    exact (dif_pos h2).trans (chunkDone_congr m c (by simp only [Fin.val_succ]; omega))
  have hR : (bigSep Finset.univ fun k : Fin 64 => chunkDone m c k.val k.isLt)
      = iprop(chunkDone m c 63 (by decide) ∗ chunkDone m c 62 (by decide)
          ∗ bigSep Finset.univ fun i : Fin 62 => chunkDone m c i.val (lt64_of_fin62 i)) := by
    rw [Pipeline.bigSep_fin_castSucc, Pipeline.bigSep_fin_castSucc]
    rfl
  rw [hL, hR]
  iintro ⟨H, H62, H63⟩
  isplitl [H63]; · iexact H63
  isplitl [H62]; · iexact H62
  iexact H

/-! ## The 64 steps and the two closing waits -/

theorem mainLoop (hwaits : WaitsRule (F := F) m) (hcore : CoreRule (F := F) m)
    (K : GSem nD τ sig → ℕ) (c : Dev nD) (rest : List (KProg F)) (R : PUnit → sProp 𝕄)
    (hrest : iprop(records m K ∗ levAts Lset lv
                ∗ (bigSep Finset.univ fun k : Fin 64 => stepPost m c k.val k.isLt)
                ∗ (bigSep Finset.univ fun k : Fin 64 =>
                    iprop(oHolds c c k.val k.isLt (sumAt m c) ∗ atPos ER (xsCell c k.val k.isLt) 1 ∅ 0))
                ∗ slotFree (F := F) c 0 (by decide) 32 ∗ slotFree (F := F) c 1 (by decide) 32 ∗ owesX (F := F) c 64)
              ⊢ wp frame (wpE (defs₀ (F := F)) 𝒱₀ c none) Set.univ (Pipeline.chain rest) R) :
    iprop(records m K ∗ levAts Lset lv ∗ (bigSep Finset.univ fun k : Fin 64 => stepPre m c k.val k.isLt)
        ∗ slotFree (F := F) c 0 (by decide) 0 ∗ slotFree (F := F) c 1 (by decide) 0 ∗ owesX (F := F) c 0)
      ⊢ wp frame (wpE (defs₀ (F := F)) 𝒱₀ c none) Set.univ
          (Pipeline.chain ((List.finRange 64).map (fun k => step c k.val k.isLt)
            ++ ([waitsFor c 62 (by decide), waitsFor c 63 (by decide)] ++ rest))) R := by
  -- after step 63 slot 0 is busy with chunk 62 and slot 1 with chunk 63: the two closing waits free them at round 32
  have hend : iprop((bigSep Finset.univ fun k : Fin 64 => iprop(stepPost m c k.val k.isLt ∗ emitted m c k.val k.isLt))
        ∗ loopSt m K c 64)
      ⊢ wp frame (wpE (defs₀ (F := F)) 𝒱₀ c none) Set.univ
          (Pipeline.chain ([waitsFor c 62 (by decide), waitsFor c 63 (by decide)] ++ rest)) R := by
    have b0 : slotAt (F := F) c 0 (by decide) ((64 + 1) / 2)
        = slotBusy (F := F) c (62 % 2) (slot_lt 62) (62 / 2) 62 (by decide) := by
      rw [← slotAt_busy c 62 (by decide)]
    have b1 : slotAt (F := F) c 1 (by decide) (64 / 2)
        = slotBusy (F := F) c (63 % 2) (slot_lt 63) (63 / 2) 63 (by decide) := by
      rw [← slotAt_busy c 63 (by decide)]
    have f0 : slotFree (F := F) c (62 % 2) (slot_lt 62) (62 / 2 + 1) = slotFree (F := F) c 0 (by decide) 32 :=
      slotFree_congr c (by decide) (by decide)
    have f1 : slotFree (F := F) c (63 % 2) (slot_lt 63) (63 / 2 + 1) = slotFree (F := F) c 1 (by decide) 32 :=
      slotFree_congr c (by decide) (by decide)
    have w62 := hwaits K c 62 (by decide) 64
    have w63 := hwaits K c 63 (by decide) 64
    rw [f0] at w62
    rw [f1] at w63
    unfold loopSt
    rw [b0, b1, bigSep_sep_eq, List.cons_append, List.cons_append, List.nil_append,
      Pipeline.wp_chain_cons_eq, Pipeline.wp_chain_cons_eq]
    iintro ⟨⟨HQ, HE⟩, #HR, #HL, HB0, HB1, HO⟩
    iapply (wp_wand_r frame _ Set.univ)
    isplitl [HB0 HO]
    · iapply w62
      isplitr; · iexact HR
      isplitr; · iexact HL
      isplitl [HB0]; · iexact HB0
      iexact HO
    · iintro %_ ⟨HF0, HDa, HDb, HO⟩
      iapply (wp_wand_r frame _ Set.univ)
      isplitl [HB1 HO]
      · iapply w63
        isplitr; · iexact HR
        isplitr; · iexact HL
        isplitl [HB1]; · iexact HB1
        iexact HO
      · iintro %_ ⟨HF1, HDc, HDd, HO⟩
        iapply hrest
        isplitr; · iexact HR
        isplitr; · iexact HL
        isplitl [HQ]; · iexact HQ
        isplitl [HE HDa HDb HDc HDd]
        · iapply (emitted_all m c)
          isplitl [HE]; · iexact HE
          isplitl [HDa HDb]
          · isplitl [HDa]; · iexact HDa
            iexact HDb
          · isplitl [HDc]; · iexact HDc
            iexact HDd
        isplitl [HF0]; · iexact HF0
        isplitl [HF1]; · iexact HF1
        iexact HO
  -- before step 0 neither slot has served a chunk
  have hstart : iprop(records m K ∗ levAts Lset lv ∗ (bigSep Finset.univ fun k : Fin 64 => stepPre m c k.val k.isLt)
        ∗ slotFree (F := F) c 0 (by decide) 0 ∗ slotFree (F := F) c 1 (by decide) 0 ∗ owesX (F := F) c 0)
      ⊢ iprop((bigSep Finset.univ fun k : Fin 64 => stepPre m c k.val k.isLt) ∗ loopSt m K c 0) := by
    unfold loopSt
    rw [show slotAt (F := F) c 0 (by decide) ((0 + 1) / 2) = slotFree (F := F) c 0 (by decide) 0 from slotAt_zero c 0 _,
      show slotAt (F := F) c 1 (by decide) (0 / 2) = slotFree (F := F) c 1 (by decide) 0 from slotAt_zero c 1 _]
    iintro ⟨#HR, #HL, HP, H0, H1, HO⟩
    isplitl [HP]; · iexact HP
    isplitr; · iexact HR
    isplitr; · iexact HL
    isplitl [H0]; · iexact H0
    isplitl [H1]; · iexact H1
    iexact HO
  have hmain := Pipeline.wp_chain_finRange_append frame (wpE (defs₀ (F := F)) 𝒱₀ c none) Set.univ (n := 64)
    (fun k : Fin 64 => step (F := F) c k.val k.isLt)
    (fun k => stepPre m c k.val k.isLt) (fun k => iprop(stepPost m c k.val k.isLt ∗ emitted m c k.val k.isLt))
    (loopSt m K c) (loop_step m hwaits hcore K c)
    ([waitsFor c 62 (by decide), waitsFor c 63 (by decide)] ++ rest) R hend
  refine hstart.trans ?_
  -- the two sides are the same assertion; compared without unfolding the 64-step program
  with_reducible exact hmain

/-- info: 'Cert.Kernel.Hand.mainLoop' depends on axioms: [propext, Classical.choice, Quot.sound] -/
#guard_msgs in #print axioms mainLoop

end Cert.Kernel.Hand

end
-- ==== Proof.Bits.Regroup.lean ====
/-
  Regrouping the conjunctions over the 64 chunks between the phases of the body.

  At entry a device holds, per kind of resource, one conjunction over all chunks (positions, tokens, launch credits, the
  two half shares of its argument's rows, and — from the barrier — the neighbours' result rows).  The phases take them
  per chunk: the y-copy of chunk k takes one bundle, the step of chunk k another, the final wait on chunk k's x-receive
  cell a third.  Separating conjunction being associative and commutative, the two groupings hold the same summands;
  the local cells' tokens, indexed at entry by slot and round, are re-indexed by chunk along k ↦ (k % 2, k / 2).
-/
import proofs.«900147_g7700000000000148_dist_ar_v7x_xy2x2_y_m32768_n1024_f32_1_alg».proof.Proof.Bits.StepDefs
import proofs.«900147_g7700000000000148_dist_ar_v7x_xy2x2_y_m32768_n1024_f32_1_alg».proof.Proof.Bits.Reindex
import proofs.«900147_g7700000000000148_dist_ar_v7x_xy2x2_y_m32768_n1024_f32_1_alg».proof.Proof.Bits.Tables

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What each phase takes of a chunk -/

/-- What the y-copy of chunk k consumes: the left half share of x's rows, the y-neighbour's result rows, the two tokens. -/
def pY (c : Dev nD) (k : Nat) (hk : k < 64) : sProp 𝕄 :=
  iprop(xHolds m c k hk qL ∗ oSome (F := F) (nbrY c) c k hk ∗ dutyTok ER (ysCell c k hk) 0 false ∗ dutyTok ER (yrCell (nbrY c) k hk) 0 false)

/-- What chunk k's step consumes, but for the y-send cell's credit (which the y-copy produces). -/
def preMain (c : Dev nD) (k : Nat) (hk : k < 64) : sProp 𝕄 :=
  iprop(cred (tallyAt (yrCell c k hk) () No) ∗ atPos ER (yrCell c k hk) 0 ∅ 0
    ∗ atPos ER (ysCell c k hk) 0 ∅ 0
    ∗ atPos ER (xsCell c k hk) 0 ∅ 0
    ∗ xHolds m c k hk qR ∗ oSome (F := F) (nbrX c) c k hk
    ∗ dutyTok ER (xsCell c k hk) 0 false ∗ dutyTok ER (xrCell (nbrX c) k hk) 0 false
    ∗ dutyTok ER (aCell c (k % 2) (slot_lt k)) (k / 2) false ∗ dutyTok ER (bCell c (k % 2) (slot_lt k)) (k / 2) false
    ∗ dutyTok ER (stCell c (k % 2) (slot_lt k)) (k / 2) false)

/-- What the final wait on chunk k's x-receive cell consumes. -/
def preXr (c : Dev nD) (k : Nat) (hk : k < 64) : sProp 𝕄 :=
  iprop(cred (tallyAt (xrCell c k hk) () No) ∗ atPos ER (xrCell c k hk) 0 ∅ 0)

/-! ## Chunks against slots and rounds -/

/-- Chunk k is the (k / 2)-th chunk of slot k % 2. -/
def chunkEquiv : Fin 64 ≃ Fin 2 × Fin 32 where
  toFun k := (⟨k.val % 2, slot_lt k.val⟩, ⟨k.val / 2, by have := k.isLt; omega⟩)
  invFun sr := ⟨2 * sr.2.val + sr.1.val, by have := sr.1.isLt; have := sr.2.isLt; omega⟩
  left_inv k := Fin.ext (by show 2 * (k.val / 2) + k.val % 2 = k.val; omega)
  right_inv sr := by
    obtain ⟨⟨s, hs⟩, ⟨r, hr⟩⟩ := sr
    refine Prod.ext (Fin.ext ?_) (Fin.ext ?_)
    · show (2 * r + s) % 2 = s; omega
    · show (2 * r + s) / 2 = r; omega

theorem local_toks_reindex_eq (c : Dev nD) :
    (bigSep Finset.univ fun sr : Fin 2 × Fin 32 => (iprop(dutyTok ER (aCell c sr.1.val sr.1.isLt) sr.2.val false ∗ dutyTok ER (bCell c sr.1.val sr.1.isLt) sr.2.val false ∗ dutyTok ER (stCell c sr.1.val sr.1.isLt) sr.2.val false) : sProp 𝕄))
      = bigSep Finset.univ fun k : Fin 64 => iprop(dutyTok ER (aCell c (k.val % 2) (slot_lt k.val)) (k.val / 2) false ∗ dutyTok ER (bCell c (k.val % 2) (slot_lt k.val)) (k.val / 2) false ∗ dutyTok ER (stCell c (k.val % 2) (slot_lt k.val)) (k.val / 2) false) :=
  bigSep_univ_equiv chunkEquiv _

theorem local_toks_reindex (c : Dev nD) :
    (bigSep Finset.univ fun sr : Fin 2 × Fin 32 => (iprop(dutyTok ER (aCell c sr.1.val sr.1.isLt) sr.2.val false ∗ dutyTok ER (bCell c sr.1.val sr.1.isLt) sr.2.val false ∗ dutyTok ER (stCell c sr.1.val sr.1.isLt) sr.2.val false) : sProp 𝕄))
      ⊢ bigSep Finset.univ fun k : Fin 64 => iprop(dutyTok ER (aCell c (k.val % 2) (slot_lt k.val)) (k.val / 2) false ∗ dutyTok ER (bCell c (k.val % 2) (slot_lt k.val)) (k.val / 2) false ∗ dutyTok ER (stCell c (k.val % 2) (slot_lt k.val)) (k.val / 2) false) :=
  Entails.of_eq (local_toks_reindex_eq c)

theorem pY_unfold (c : Dev nD) : (bigSep Finset.univ fun k : Fin 64 => pY m c k.val k.isLt)
    = (bigSep Finset.univ fun k : Fin 64 => iprop(xHolds m c k.val k.isLt qL ∗ oSome (F := F) (nbrY c) c k.val k.isLt
        ∗ dutyTok ER (ysCell c k.val k.isLt) 0 false ∗ dutyTok ER (yrCell (nbrY c) k.val k.isLt) 0 false)) := rfl

theorem entry_regroup (c : Dev nD) : iprop(
      (bigSep Finset.univ fun k : Fin 64 => iprop(atPos ER (ysCell c k.val k.isLt) 0 ∅ 0 ∗ atPos ER (yrCell c k.val k.isLt) 0 ∅ 0
          ∗ atPos ER (xsCell c k.val k.isLt) 0 ∅ 0 ∗ atPos ER (xrCell c k.val k.isLt) 0 ∅ 0))
      ∗ (bigSep Finset.univ fun k : Fin 64 => iprop(dutyTok ER (ysCell c k.val k.isLt) 0 false ∗ dutyTok ER (yrCell (nbrY c) k.val k.isLt) 0 false
          ∗ dutyTok ER (xsCell c k.val k.isLt) 0 false ∗ dutyTok ER (xrCell (nbrX c) k.val k.isLt) 0 false))
      ∗ (bigSep Finset.univ fun sr : Fin 2 × Fin 32 => iprop(dutyTok ER (aCell c sr.1.val sr.1.isLt) sr.2.val false ∗ dutyTok ER (bCell c sr.1.val sr.1.isLt) sr.2.val false ∗ dutyTok ER (stCell c sr.1.val sr.1.isLt) sr.2.val false))
      ∗ (bigSep Finset.univ fun k : Fin 64 => iprop(cred (tallyAt (yrCell c k.val k.isLt) () No) ∗ cred (tallyAt (xrCell c k.val k.isLt) () No)))
      ∗ (bigSep Finset.univ fun k : Fin 64 => iprop(xHolds m c k.val k.isLt qL ∗ xHolds m c k.val k.isLt qR))
      ∗ barPay (F := F) c (nbrY c) ∗ barPay (F := F) c (nbrX c))
    ⊢ iprop((bigSep Finset.univ fun k : Fin 64 => pY m c k.val k.isLt) ∗ (bigSep Finset.univ fun k : Fin 64 => preMain m c k.val k.isLt)
        ∗ (bigSep Finset.univ fun k : Fin 64 => preXr (F := F) c k.val k.isLt)) := by
  rw [local_toks_reindex_eq c]
  unfold barPay pY preMain preXr
  simp only [bigSep_sep']
  iintro ⟨⟨Pys, Pyr, Pxs, Pxr⟩, ⟨Tys, Tyr, Txs, Txr⟩, ⟨Ta, Tb, Tst⟩, ⟨Cyr, Cxr⟩, ⟨XL, XR⟩, OY, OX⟩
  iframe

theorem stepPre_intro (c : Dev nD) :
    iprop((bigSep Finset.univ fun k : Fin 64 => preMain m c k.val k.isLt)
      ∗ (bigSep Finset.univ fun k : Fin 64 => cred (tallyAt (ysCell c k.val k.isLt) () No)))
    ⊢ bigSep Finset.univ fun k : Fin 64 => stepPre m c k.val k.isLt := by
  unfold preMain stepPre
  simp only [bigSep_sep']
  iintro ⟨⟨Cyr, Pyr, Pys, Pxs, XR, OX, Txs, Txr, Ta, Tb, Tst⟩, Cys⟩
  iframe

/-- info: 'Cert.Kernel.Hand.entry_regroup' depends on axioms: [propext, Classical.choice, Quot.sound] -/
#guard_msgs in #print axioms entry_regroup
/-- info: 'Cert.Kernel.Hand.stepPre_intro' depends on axioms: [propext, Classical.choice, Quot.sound] -/
#guard_msgs in #print axioms stepPre_intro

end Cert.Kernel.Hand

end
-- ==== Proof.Bits.Body.lean ====
/-
  The body of one device, from what it holds at entry to what it holds at exit: the entry handshake (the device gives
  each neighbour the half of its result array that neighbour will write, and receives the halves it will write), the 64
  y-copies, the 64 steps, the two tail waits, the 64 x-receive waits, then the arrays rejoined and the cells closed.
-/
import proofs.«900147_g7700000000000148_dist_ar_v7x_xy2x2_y_m32768_n1024_f32_1_alg».proof.Proof.Bits.Steps
import proofs.«900147_g7700000000000148_dist_ar_v7x_xy2x2_y_m32768_n1024_f32_1_alg».proof.Proof.Bits.Loops
import proofs.«900147_g7700000000000148_dist_ar_v7x_xy2x2_y_m32768_n1024_f32_1_alg».proof.Proof.Bits.Exit
import proofs.«900147_g7700000000000148_dist_ar_v7x_xy2x2_y_m32768_n1024_f32_1_alg».proof.Proof.Bits.Launch
import proofs.«900147_g7700000000000148_dist_ar_v7x_xy2x2_y_m32768_n1024_f32_1_alg».proof.Proof.Bits.MainLoop
import proofs.«900147_g7700000000000148_dist_ar_v7x_xy2x2_y_m32768_n1024_f32_1_alg».proof.Proof.Bits.Regroup

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What is carried past the steps to the end: the x-receive cells' credits and positions, the other half's rows of x,
    and the continuation that takes the exit state. -/
def carried (c : Dev nD) (Kt : PUnit → sProp 𝕄) : sProp 𝕄 :=
  iprop((bigSep Finset.univ fun k : Fin 64 => preXr (F := F) c k.val k.isLt) ∗ xRest m c
    ∗ (iprop(Φ₁ m c ∗ Pipeline.owesWithin c (0 : CellTallies nD τ sig Unit) Set.univ) -∗ Kt ⟨⟩))

/-- What the steps and the two tail waits leave. -/
def afterSteps (c : Dev nD) : sProp 𝕄 :=
  iprop((bigSep Finset.univ fun k : Fin 64 => stepPost m c k.val k.isLt)
    ∗ (bigSep Finset.univ fun k : Fin 64 => iprop(oHolds c c k.val k.isLt (sumAt m c) ∗ atPos ER (xsCell c k.val k.isLt) 1 ∅ 0))
    ∗ slotFree (F := F) c 0 (by decide) 32 ∗ slotFree (F := F) c 1 (by decide) 32 ∗ owesX (F := F) c 64)

set_option maxRecDepth 100000 in
/-- The body's first four operations, exposed: the device id, the two barrier signals, the barrier wait; then the chunks. -/
theorem folded_eq :
    (folded (F := F)) = Prog.op (TpuEff.deviceId) (fun d : Dev nD =>
      Prog.op (TpuEff.semSignal ((nbrY d : Dev nD), Proc.tc) barS (1#32).toNat) fun _ =>
      Prog.op (TpuEff.semSignal ((nbrX d : Dev nD), Proc.tc) barS (1#32).toNat) fun _ =>
      Prog.op (TpuEff.semWait barS (2#32).toNat) fun _ => Pipeline.chain (items d)) := by
  chain_rfl

/-- The items, associated to the right: the y-copies, then the steps, then the two tail waits, then the x-receive waits. -/
theorem items_eq (c : Dev nD) :
    items (F := F) c = (List.finRange 64).map (fun k => yEnq c k.val k.isLt)
      ++ (((List.finRange 64).map (fun k => step c k.val k.isLt) ++ ([waitsFor c 62 (by decide), waitsFor c 63 (by decide)] ++ []))
        ++ (List.finRange 64).map (fun k => xrWait c k.val k.isLt)) := by
  simp only [items, List.append_assoc, List.append_nil]

/-- The entry handshake, over any continuation program: the device gives the y-neighbour the rows of its own half of its
    result array and the x-neighbour the rows of the other half, and after the wait holds the rows of both neighbours'
    result arrays that its own copies write. -/
theorem entry_ok (K : GSem nD τ sig → ℕ) (c : Dev nD) (W : Waits sig Unit) (Kt : PUnit → sProp 𝕄) (prog : KProg F) :
    iprop(records m K ∗ levAts Lset lv ∗ atPos ER (barCell c) 0 ∅ 0
        ∗ dutyTok ER (barCell (nbrY c)) 0 false ∗ dutyTok ER (barCell (nbrX c)) 0 true
        ∗ cred (tallyAt (barCell c) () 2)
        ∗ (bigSep Finset.univ fun k : Fin 64 => oSome (F := F) c c k.val k.isLt)
        ∗ (bigSep Finset.univ fun k : Fin 64 => oSome (F := F) c (nbrX c) k.val k.isLt)
        ∗ owes (c : Thread nD τ) (O₀ c) W
        ∗ (iprop(barPay (F := F) c (nbrY c) ∗ barPay (F := F) c (nbrX c)
              ∗ (∃ W' : Waits sig Unit, owes (c : Thread nD τ) (owedX c 0 + owedY c 0) W'))
            -∗ wp frame (wpE (defs₀ (F := F)) 𝒱₀ c none) Set.univ prog Kt))
      ⊢ wp frame (wpE (defs₀ (F := F)) 𝒱₀ c none) Set.univ
          (Prog.op (TpuEff.semSignal ((nbrY c : Dev nD), Proc.tc) barS (1#32).toNat) fun _ =>
           Prog.op (TpuEff.semSignal ((nbrX c : Dev nD), Proc.tc) barS (1#32).toNat) fun _ =>
           Prog.op (TpuEff.semWait barS (2#32).toNat) fun _ => prog) Kt := by
  iintro ⟨#HR, #Hlev, HpB, HtBY, HtBX, HcB, HoOwn, HoOth, HO, Hk⟩
  ihave HIb := (inv_of_records m K (mem_allCells_bar c)) $$ HR
  ihave HIbY := (inv_of_records m K (mem_allCells_bar (nbrY c))) $$ HR
  ihave HIbX := (inv_of_records m K (mem_allCells_bar (nbrX c))) $$ HR
  ihave HrbY := (reached_of_records m K (mem_allCells_bar (nbrY c))) $$ HR
  ihave HrbX := (reached_of_records m K (mem_allCells_bar (nbrX c))) $$ HR
  unfold O₀
  -- to the y-neighbour: the rows of this device's own half
  iapply (Rounds.wp_signal 𝒱₀ ER (sched m) (c : Thread nD τ) none (dst := ((nbrY c : Dev nD) : Thread nD τ)) (sem := barS)
      (κ := K (barCell (nbrY c))) (r := 0) (d := false)
      (by rw [duties_bar m]; exact Finset.mem_univ _) ((amount_bar m (nbrY c) false).trans (by decide)) ()
      (owedX c 0 + owedY c 0 + tallyAt (barCell (nbrX c)) () 1) rfl) $$ [HO HtBY HoOwn]
  · isplitr; · iexact HIbY
    isplitl [HO]; · iexact HO
    isplitl [HtBY]; · iexact HtBY
    isplitl [HoOwn]
    · rw [payload_bar_false m, nbrY_nbrY]
      unfold barPay
      have h : (bigSep Finset.univ (fun k : Fin 64 => oSome (F := F) c c k.val k.isLt) : sProp 𝕄)
          ⊢ bigSep Finset.univ (fun k : Fin 64 => oSome (F := F) c (nbrY c) k.val k.isLt) :=
        bigSep_mono (fun k _ => Entails.of_eq (oSome_nbrY c c k.val k.isLt).symm)
      iapply h $$ HoOwn
    iexact HrbY
  iintro HO
  -- to the x-neighbour: the rows of the other half
  iapply (Rounds.wp_signal 𝒱₀ ER (sched m) (c : Thread nD τ) none (dst := ((nbrX c : Dev nD) : Thread nD τ)) (sem := barS)
      (κ := K (barCell (nbrX c))) (r := 0) (d := true)
      (by rw [duties_bar m]; exact Finset.mem_univ _) ((amount_bar m (nbrX c) true).trans (by decide)) ()
      (owedX c 0 + owedY c 0) rfl) $$ [HO HtBX HoOth]
  · isplitr; · iexact HIbX
    isplitl [HO]; · iexact HO
    isplitl [HtBX]; · iexact HtBX
    isplitl [HoOth]
    · rw [payload_bar_true m, nbrX_nbrX]
      unfold barPay
      iexact HoOth
    iexact HrbX
  iintro HO
  -- the wait for both neighbours
  iapply (Rounds.wp_wait_rest_token 𝒱₀ ER (sched m) (c : Thread nD τ) none (κ := K (barCell c))
      (wpE_semWait_eq 𝒱₀ (c : Thread nD τ) none Set.univ) (Set.mem_univ _) () (O := owedX c 0 + owedY c 0) (W := W) (R := 0) (m := 0) (T := ∅)
      (by rw [expect_bar m]; decide)) $$ [HcB HO HpB]
  · isplitr; · iexact HIb
    isplitl [HcB]; · iexact HcB
    isplitl [HO]; · iexact HO
    isplitr; · iapply (mayWait_bar c); iexact Hlev
    iexact HpB
  iintro ⟨HO, -, -, Hpay⟩
  ihave Hp := (Entails.of_eq (rest_bar m c)) $$ Hpay
  icases Hp with ⟨HbY, HbX⟩
  iapply Hk
  isplitl [HbY]; · iexact HbY
  isplitl [HbX]; · iexact HbX
  iexists _; iexact HO

/-- The x-receive waits and the exit: with nothing owed any more, each wait brings a chunk of the other half; then the
    arrays are whole again and every own cell is closed. -/
theorem tail_ok (K : GSem nD τ sig → ℕ) (c : Dev nD) (Kt : PUnit → sProp 𝕄) :
    iprop(records m K ∗ carried m c Kt ∗ afterSteps m c)
      ⊢ wp frame (wpE (defs₀ (F := F)) 𝒱₀ c none) Set.univ
          (Pipeline.chain ((List.finRange 64).map (fun k => xrWait (F := F) c k.val k.isLt))) Kt := by
  unfold carried afterSteps owesX preXr
  rw [owedX_64]
  iintro ⟨#HR, ⟨Hxr, Hxrest, Hk⟩, ⟨Hpost, Hdone, Hs0, Hs1, HO⟩⟩
  iapply (wp_fupd frame (wpE (defs₀ (F := F)) 𝒱₀ c none) Set.univ)
  ihave Hw := (xrLoop m (xrStep m) K c
      iprop(xRest m c ∗ (iprop(Φ₁ m c ∗ Pipeline.owesWithin c (0 : CellTallies nD τ sig Unit) Set.univ) -∗ Kt ⟨⟩)
        ∗ (bigSep Finset.univ fun k : Fin 64 => stepPost m c k.val k.isLt)
        ∗ (bigSep Finset.univ fun k : Fin 64 => iprop(oHolds c c k.val k.isLt (sumAt m c) ∗ atPos ER (xsCell c k.val k.isLt) 1 ∅ 0))
        ∗ slotFree (F := F) c 0 (by decide) 32 ∗ slotFree (F := F) c 1 (by decide) 32)) $$ [Hxr Hxrest Hk Hpost Hdone Hs0 Hs1 HO]
  · isplitl [Hxrest Hk Hpost Hdone Hs0 Hs1]
    · isplitl [Hxrest]; · iexact Hxrest
      isplitl [Hk]; · iexact Hk
      isplitl [Hpost]; · iexact Hpost
      isplitl [Hdone]; · iexact Hdone
      isplitl [Hs0]; · iexact Hs0
      iexact Hs1
    isplitr; · iexact HR
    isplitl [Hxr]; · iexact Hxr
    iexact HO
  iapply (wp_mono frame (wpE (defs₀ (F := F)) 𝒱₀ c none) Set.univ (fun _ => ?_)) $$ Hw
  iintro ⟨⟨Hxrest, Hk, Hpost, Hdone, Hs0, Hs1⟩, #HR, Hxdone, ⟨%W, HO⟩⟩
  imod (exit_ok m K c (duties_later_ys m c) (duties_later_yr m c) (duties_later_xs m c) (duties_later_xr m c)
      (fun s hs => duties_later_32 m _) (fun s hs => duties_later_32 m _) (fun s hs => duties_later_32 m _)) $$ [Hpost Hdone Hxdone Hs0 Hs1 Hxrest] with HΦ
  · isplitr; · iexact HR
    isplitl [Hpost]; · iexact Hpost
    isplitl [Hdone]; · iexact Hdone
    isplitl [Hxdone]; · iexact Hxdone
    isplitl [Hs0]; · iexact Hs0
    isplitl [Hs1]; · iexact Hs1
    iexact Hxrest
  imodintro
  iapply Hk
  isplitl [HΦ]; · iexact HΦ
  iexists W
  isplitr; · ipureintro; exact Set.subset_univ _
  iexact HO

/-- The steps and the two tail waits, carrying what the end needs; then the end. -/
theorem main_ok (K : GSem nD τ sig → ℕ) (c : Dev nD) (Kt : PUnit → sProp 𝕄) :
    iprop(records m K ∗ levAts Lset lv ∗ carried m c Kt
        ∗ (bigSep Finset.univ fun k : Fin 64 => stepPre m c k.val k.isLt)
        ∗ slotFree (F := F) c 0 (by decide) 0 ∗ slotFree (F := F) c 1 (by decide) 0 ∗ owesX (F := F) c 0)
      ⊢ wp frame (wpE (defs₀ (F := F)) 𝒱₀ c none) Set.univ
          (Pipeline.chain (((List.finRange 64).map (fun k => step (F := F) c k.val k.isLt) ++ ([waitsFor c 62 (by decide), waitsFor c 63 (by decide)] ++ []))
            ++ (List.finRange 64).map (fun k => xrWait (F := F) c k.val k.isLt))) Kt := by
  iintro ⟨#HR, #Hlev, Hcar, Hpre, Hs0, Hs1, HO⟩
  iapply (Pipeline.wp_chain_append frame (wpE (defs₀ (F := F)) 𝒱₀ c none) Set.univ)
  have hloop := mainLoop m (waitsStep m) (coreStep m) K c [] (fun _ => iprop(records m K ∗ afterSteps m c))
    (by
      unfold afterSteps
      iintro ⟨#HR', -, Hpost, Hdone, Hs0, Hs1, HO⟩
      iapply (Pipeline.wp_chain_nil frame (wpE (defs₀ (F := F)) 𝒱₀ c none) Set.univ)
      isplitr; · iexact HR'
      isplitl [Hpost]; · iexact Hpost
      isplitl [Hdone]; · iexact Hdone
      isplitl [Hs0]; · iexact Hs0
      isplitl [Hs1]; · iexact Hs1
      iexact HO)
  ihave Hw := hloop $$ [Hpre Hs0 Hs1 HO]
  · isplitr; · iexact HR
    isplitr; · iexact Hlev
    isplitl [Hpre]; · iexact Hpre
    isplitl [Hs0]; · iexact Hs0
    isplitl [Hs1]; · iexact Hs1
    iexact HO
  ihave Hf := (wp_frame_l frame (wpE (defs₀ (F := F)) 𝒱₀ c none) Set.univ (R := carried m c Kt)) $$ [Hcar Hw]
  · isplitl [Hcar] <;> iassumption
  iapply (wp_mono frame (wpE (defs₀ (F := F)) 𝒱₀ c none) Set.univ (fun _ => ?_)) $$ Hf
  iintro ⟨Hcar, #HR', Haft⟩
  iapply (tail_ok m K c Kt)
  isplitr; · iexact HR'
  isplitl [Hcar] <;> iassumption

set_option maxHeartbeats 1600000 in
/-- One device's body: from what it holds at entry, through the handshake, the y-copies, the steps and the waits, to what
    it holds at exit. -/
theorem body_sound : BodySound (F := F) m := by
  intro c Kt
  rw [folded_eq, wp_deviceId]
  unfold Φ₀ start payToks launchCreds
  rw [positions_split]
  iintro ⟨⟨⟨⟨%K, #HR⟩, ⟨HpB, Hpk, Hps⟩, ⟨HtBY, HtBX, Htk, Htl⟩, ⟨HcB, Hck⟩, #Hlev⟩, Hx, ⟨%f0, Hout⟩, Hscr⟩, ⟨%W, %hW, HO⟩, Hk⟩
  ihave Hos := (out_split c f0) $$ Hout
  icases Hos with ⟨HoOwn, HoOth⟩
  iapply (entry_ok m K c W Kt (Pipeline.chain (items (F := F) c))) $$ [HpB HtBY HtBX HcB HoOwn HoOth HO Hpk Hps Htk Htl Hck Hx Hscr Hk]
  isplitr; · iexact HR
  isplitr; · iexact Hlev
  isplitl [HpB]; · iexact HpB
  isplitl [HtBY]; · iexact HtBY
  isplitl [HtBX]; · iexact HtBX
  isplitl [HcB]; · iexact HcB
  isplitl [HoOwn]; · iexact HoOwn
  isplitl [HoOth]; · iexact HoOth
  isplitl [HO]; · iexact HO
  iintro ⟨HbY, HbX, ⟨%W', HO⟩⟩
  ihave Hxs := (x_split m c) $$ Hx
  icases Hxs with ⟨Hxk, Hxrest⟩
  ihave Hsl := (entry_slots m K c) $$ [Hscr Hps]
  · isplitl [Hscr]; · iexact Hscr
    isplitl [Hps]; · iexact Hps
    iexact HR
  icases Hsl with ⟨Hs0, Hs1⟩
  ihave Hrg := (entry_regroup m c) $$ [Hpk Htk Htl Hck Hxk HbY HbX]
  · isplitl [Hpk]; · iexact Hpk
    isplitl [Htk]; · iexact Htk
    isplitl [Htl]; · iexact Htl
    isplitl [Hck]; · iexact Hck
    isplitl [Hxk]; · iexact Hxk
    isplitl [HbY]; · iexact HbY
    iexact HbX
  icases Hrg with ⟨HpY, HpM, HpX⟩
  rw [items_eq]
  have hy := yLoop m (yStep m) K c W'
    iprop(levAts Lset lv ∗ carried m c Kt ∗ (bigSep Finset.univ fun k : Fin 64 => preMain m c k.val k.isLt)
      ∗ slotFree (F := F) c 0 (by decide) 0 ∗ slotFree (F := F) c 1 (by decide) 0)
    (((List.finRange 64).map (fun k => step (F := F) c k.val k.isLt) ++ ([waitsFor c 62 (by decide), waitsFor c 63 (by decide)] ++ []))
      ++ (List.finRange 64).map (fun k => xrWait (F := F) c k.val k.isLt)) Kt
    (by
      rw [owedY_64, add_zero]
      iintro ⟨⟨#Hlev', Hcar, HpM, Hs0, Hs1⟩, #HR', Hcys, HO⟩
      ihave Hpre := (stepPre_intro m c) $$ [HpM Hcys]
      · isplitl [HpM] <;> iassumption
      iapply (main_ok m K c Kt)
      isplitr; · iexact HR'
      isplitr; · iexact Hlev'
      isplitl [Hcar]; · iexact Hcar
      isplitl [Hpre]; · iexact Hpre
      isplitl [Hs0]; · iexact Hs0
      isplitl [Hs1]; · iexact Hs1
      unfold owesX; iexists _; iexact HO)
  iapply hy
  isplitl [HpM Hs0 Hs1 HpX Hxrest Hk]
  · isplitr; · iexact Hlev
    isplitl [HpX Hxrest Hk]
    · unfold carried
      isplitl [HpX]; · iexact HpX
      isplitl [Hxrest] <;> iassumption
    isplitl [HpM]; · iexact HpM
    isplitl [Hs0] <;> iassumption
  isplitr; · iexact HR
  isplitl [HpY]; · rw [← pY_unfold m c]; iexact HpY
  iexact HO

/-- info: 'Cert.Kernel.Hand.body_sound' depends on axioms: [propext, Classical.choice, Quot.sound] -/
#guard_msgs in #print axioms body_sound

end Cert.Kernel.Hand

end
-- ==== Proof.RefValue.lean ====
/-
  The reference side at the ideal instance.

  The reference reads its argument X (65536 rows of 1024) as two stacked blocks of 32768 rows and adds them,
  starting from the constant 0:  result (r, l) = 0 + (X (r, l) + X (32768 + r, l)).  On the extended reals
  0 + y = y for every y, so the result is the sum of the two blocks, index by index: `refVal`.
-/
import proofs.«900147_g7700000000000148_dist_ar_v7x_xy2x2_y_m32768_n1024_f32_1_alg».proof.Defs
import proofs.«900147_g7700000000000148_dist_ar_v7x_xy2x2_y_m32768_n1024_f32_1_alg».proof.Proof.Gen.ReferenceIdeal
import proofs.«900147_g7700000000000148_dist_ar_v7x_xy2x2_y_m32768_n1024_f32_1_alg».proof.Proof.Gen.ReferenceIdeal.Run
import proofs.«900147_g7700000000000148_dist_ar_v7x_xy2x2_y_m32768_n1024_f32_1_alg».proof.Proof.Gen.ReferenceIdeal.Read
import proofs.«900147_g7700000000000148_dist_ar_v7x_xy2x2_y_m32768_n1024_f32_1_alg».proof.Proof.Gen.Pre_finite_inputs_ReferenceIdeal
import Idealize.ShloMosaic.PureOps.Ideal.Laws
import Mathlib.Algebra.BigOperators.Fin

noncomputable section

namespace Cert.ReferenceIdeal.Hand

open Idealize.ShloMosaic Idealize.SL.Sem
open Cert.ReferenceIdeal Cert.ReferenceIdeal.Gen

/-- The reference runs and leaves its argument as it was: its run, with the statement about the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Row r of block b (b = 0, 1) of the whole argument, column l: the index (b * 32768 + r, l). -/
def blkIdx (b : Fin 2) (i : S32768x1024.Idx) : S65536x1024.Idx := fun a => match a with
  | ⟨0, _⟩ => ⟨b.val * 32768 + (i 0).val, by
      have hb : b.val < 2 := b.isLt; have h0 : (i 0).val < 32768 := (i 0).isLt
      show b.val * 32768 + (i 0).val < 65536; omega⟩
  | ⟨1, _⟩ => ⟨(i 1).val, (i 1).isLt⟩

theorem blkIdx_row (b : Fin 2) (i : S32768x1024.Idx) : (blkIdx b i 0).val = b.val * 32768 + (i 0).val := rfl
theorem blkIdx_col (b : Fin 2) (i : S32768x1024.Idx) : (blkIdx b i 1).val = (i 1).val := rfl

/-- The reference's result as one function of its argument: the two blocks added, index by index. -/
def refVal (X : S65536x1024.Idx → EReal) : S32768x1024.Idx → EReal :=
  fun i => X (blkIdx 0 i) + X (blkIdx 1 i)

/-- Entry (k, r, l) of the reshaped argument is entry (k * 32768 + r, l) of the argument. -/
theorem idx_comp (i : S32768x1024.Idx) (k : Fin 2) : Read.idx_main_v0 (Read.idx_main_v1 i k) = blkIdx k i := by
  funext a
  have h0 : (i 0).val < 32768 := (i 0).isLt
  have h1 : (i 1).val < 1024 := (i 1).isLt
  have hk : k.val < 2 := k.isLt
  refine Fin.ext ?_
  match a with
  | ⟨0, _⟩ =>
    show ((k.val * 32768 + (i 0).val) * 1024 + (i 1).val) / 1024 = k.val * 32768 + (i 0).val
    omega
  | ⟨1, _⟩ =>
    show ((k.val * 32768 + (i 0).val) * 1024 + (i 1).val) % 1024 = (i 1).val
    omega

/-- The term the reference's run leaves in its result array is `refVal` of the argument. -/
theorem ref_is_refVal (X : (⟨S65536x1024, .f32⟩ : BufTy).Contents (Elt Ideal)) :
    Host.reduceAdd (F := Ideal) (shapeCast _ X shapeCasts_S65536x1024_S2x32768x1024) (constant S_ .f32 0x00000000#32)
        reducesTo_S2x32768x1024_S32768x1024_d0 h_S_
      = refVal X := by
  rw [Read.val_main_v1_eq]
  funext i
  rw [Read.val_main_v1_apply, Read.val_main_cst_apply, Fin.sum_univ_two, Read.val_main_v0_apply, Read.val_main_v0_apply,
    idx_comp, idx_comp, Ideal.ofBits_def, Ideal.ofBits_zero_f32, zero_add]
  rfl

end Cert.ReferenceIdeal.Hand

/-- info: 'Cert.ReferenceIdeal.Hand.ref_is_refVal' depends on axioms: [propext, Classical.choice, Quot.sound] -/
#guard_msgs in #print axioms Cert.ReferenceIdeal.Hand.ref_is_refVal

end
-- ==== Proof.Bridge.lean ====
/-
  The value bridge: what the all-reduce leaves on every device is the reference's result.

  Device c holds block c % 2 of the whole argument X (the array is cut in two along its rows, along the y axis of
  the mesh, and replicated along x).  The y-neighbour of c has the same c / 2 and the other c % 2, so the sum formed
  on any device d is  X[block d % 2] + X[block 1 - d % 2], which is  X[block 0] + X[block 1]  (addition on the
  extended reals is commutative, everywhere): the same function on every device, and the reference's result.
  A device's result array is made of rows summed on itself and rows summed on its x-neighbour; both are that function.
-/
import proofs.«900147_g7700000000000148_dist_ar_v7x_xy2x2_y_m32768_n1024_f32_1_alg».proof.Proof.Result
import proofs.«900147_g7700000000000148_dist_ar_v7x_xy2x2_y_m32768_n1024_f32_1_alg».proof.Proof.RefValue
import proofs.«900147_g7700000000000148_dist_ar_v7x_xy2x2_y_m32768_n1024_f32_1_alg».proof.Proof.Gen.Pre_finite_inputs_Kernel
import Idealize.ShloMosaic.Lib.Layout

noncomputable section

namespace Cert.KernelIdeal.Hand

open Idealize.ShloMosaic Idealize.SL.Sem
open Cert.KernelIdeal Cert.KernelIdeal.Gen
open Cert.ReferenceIdeal.Hand (blkIdx refVal ref_is_refVal)

/-- The block of the whole argument a device holds: its coordinate on the y axis, device % 2. -/
def par (d : Dev nD) : Fin 2 := ⟨d.val % 2, Nat.mod_lt _ (by decide)⟩

/-- The y-neighbour holds the other block. -/
theorem par_nbrY (d : Dev nD) : (par d = 0 ∧ par (nbrY d) = 1) ∨ (par d = 1 ∧ par (nbrY d) = 0) := by
  have hd : d.val < 4 := d.isLt
  have e : (nbrY d).val = (2 * (d.val / 2) + 1) - (d.val % 2) := k0_dev1_eq d
  rcases Nat.mod_two_eq_zero_or_one d.val with h | h
  · refine Or.inl ⟨Fin.ext h, Fin.ext ?_⟩
    show (nbrY d).val % 2 = 1
    omega
  · refine Or.inr ⟨Fin.ext h, Fin.ext ?_⟩
    show (nbrY d).val % 2 = 0
    omega

/-- The block coordinate the claim names for device d along the rows is d % 2. -/
theorem meshBlock_row (d : Dev nD) (h : ∀ b, ∀ i ∈ (![[1], []] : Fin 2 → List Nat) b, 0 < ([2, 2] : List Nat).getD i 0) :
    (Layout.meshBlock [2, 2] ![[1], []] d h 0).val = d.val % 2 := by
  rw [Layout.meshBlock_val]
  show Layout.meshCoord [2, 2] d.val 1 * Layout.cutSize [2, 2] [] + Layout.meshLin [2, 2] d.val [] = d.val % 2
  simp [Layout.meshCoord, Layout.cutSize, Layout.meshLin]

theorem meshBlock_col (d : Dev nD) (h : ∀ b, ∀ i ∈ (![[1], []] : Fin 2 → List Nat) b, 0 < ([2, 2] : List Nat).getD i 0) :
    (Layout.meshBlock [2, 2] ![[1], []] d h 1).val = 0 := rfl

section
variable (m : (ℓ : Loc Cert.KernelIdeal.nD Cert.KernelIdeal.τ Cert.KernelIdeal.sig) → Buf (Elt Ideal) ℓ)
variable (X : (⟨2, ![65536, 1024]⟩ : Shape).Idx → EReal)

/-- A device's argument array, read at an index, is the whole argument at that row of its block. -/
theorem xs_eq_blk
    (hagree : ∀ c : Dev Cert.KernelIdeal.nD,
      m ((c.tc : Thread Cert.KernelIdeal.nD Cert.KernelIdeal.τ).loc Cert.KernelIdeal.main_arg0)
        = Layout.blockN ⟨2, ![32768, 1024]⟩ ⟨2, ![65536, 1024]⟩ (Layout.meshBlock [2, 2] ![[1], []] c) X)
    (d : Dev nD) (i : S32768x1024.Idx) : (xs m d i : EReal) = X (blkIdx (par d) i) := by
  show m ((d.tc : Thread nD τ).loc main_arg0) i = _
  rw [hagree d, Layout.blockN_apply]
  refine congrArg X (funext fun a => Fin.ext ?_)
  rw [Layout.TilesN.idx_val]
  match a with
  | ⟨0, _⟩ =>
    show (Layout.meshBlock [2, 2] ![[1], []] d _ 0).val * 32768 + (i 0).val = (par d).val * 32768 + (i 0).val
    rw [meshBlock_row]; rfl
  | ⟨1, _⟩ =>
    show (Layout.meshBlock [2, 2] ![[1], []] d _ 1).val * 1024 + (i 1).val = (i 1).val
    rw [meshBlock_col]; omega

/-- The sum formed on any device is the sum of the two blocks of the whole argument. -/
theorem sumAt_eq_ref
    (hagree : ∀ c : Dev Cert.KernelIdeal.nD,
      m ((c.tc : Thread Cert.KernelIdeal.nD Cert.KernelIdeal.τ).loc Cert.KernelIdeal.main_arg0)
        = Layout.blockN ⟨2, ![32768, 1024]⟩ ⟨2, ![65536, 1024]⟩ (Layout.meshBlock [2, 2] ![[1], []] c) X)
    (d : Dev nD) : sumAt m d = refVal X := by
  funext i
  show (xs m d i : EReal) + (xs m (nbrY d) i : EReal) = X (blkIdx 0 i) + X (blkIdx 1 i)
  rw [xs_eq_blk m X hagree d i, xs_eq_blk m X hagree (nbrY d) i]
  rcases par_nbrY d with ⟨h0, h1⟩ | ⟨h0, h1⟩
  · rw [h0, h1]
  · rw [h0, h1]; exact add_comm (G := EReal) _ _

/-- Every device's result array ends holding the reference's result. -/
theorem res_eq_ref
    (hagree : ∀ c : Dev Cert.KernelIdeal.nD,
      m ((c.tc : Thread Cert.KernelIdeal.nD Cert.KernelIdeal.τ).loc Cert.KernelIdeal.main_arg0)
        = Layout.blockN ⟨2, ![32768, 1024]⟩ ⟨2, ![65536, 1024]⟩ (Layout.meshBlock [2, 2] ![[1], []] c) X)
    (c : Dev nD) : resBuf m c = refVal X := by
  funext i
  show (if (i 0).val / 16384 = c.val / 2 then sumAt m c i else sumAt m (nbrX c) i) = refVal X i
  rw [sumAt_eq_ref m X hagree c, sumAt_eq_ref m X hagree (nbrX c), ite_self]

end

/-- The last conjunct of the claim, from a run of the kernel that leaves `resBuf` in every device's result array
    and the arguments unchanged: the common value is `refVal` of the reference's argument; the kernel's run ends
    there by `res_eq_ref`, the reference's by `ref_is_refVal`. -/
theorem algebraic_of_run
    (run : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (fun r => ∀ c : Dev Cert.KernelIdeal.nD,
          r.2.mem ((c.tc : Thread Cert.KernelIdeal.nD Cert.KernelIdeal.τ).loc Cert.KernelIdeal.main_v1) = resBuf m c
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0))) :
    Cert.algebraic_KernelIdeal_ReferenceIdeal := by
  intro m ρ m' ρ' _ hagree
  refine ⟨refVal (m' (((0 : Dev Cert.ReferenceIdeal.nD).tc : Thread Cert.ReferenceIdeal.nD Cert.ReferenceIdeal.τ).loc
    Cert.ReferenceIdeal.main_arg0)), ?_, ?_⟩
  · exact (θ_run (Cert.KernelIdeal.defs (F := Ideal)) _ _).mono
      (fun r h c => ⟨(h c).1.trans (res_eq_ref m _ hagree c), (h c).2⟩) (run m ρ)
  · exact (θ_run (Cert.ReferenceIdeal.defs (F := Ideal)) _ _).mono
      (fun r h => ⟨(h 0).1.trans (ref_is_refVal _), (h 0).2⟩) (Cert.ReferenceIdeal.Value.run (F := Ideal) m' ρ')

end Cert.KernelIdeal.Hand

/-- info: 'Cert.KernelIdeal.Hand.algebraic_of_run' depends on axioms: [propext, Classical.choice, Quot.sound] -/
#guard_msgs in #print axioms Cert.KernelIdeal.Hand.algebraic_of_run

end
-- ==== Proof.lean ====
/-
  An all-reduce along the y axis of a 2 x 2 mesh, against the sum of the two blocks of the whole array.

  Four devices; device d sits at (d / 2, d % 2) = (x, y).  The whole argument X has 65536 rows of 1024; it is cut in two
  blocks of 32768 rows along the y axis and replicated along x, so device d holds block d % 2 of X.  The reference, on one
  device over the whole X, reads X as its two stacked blocks and adds them, starting from 0:  0 + (X[0] + X[1]).  The
  kernel must leave X[0] + X[1] in the result array of every device.

  What the kernel does.  A device's y-neighbour has the same x and the other y: it holds the OTHER block.  Its
  x-neighbour has the other x and the same y: it holds the SAME block.  Each device works on one half of the 32768
  rows, the half numbered by its x coordinate, in 64 chunks of 256 rows.  After a handshake on the barrier semaphore
  with both neighbours it sends every chunk of its half of its own block into the y-neighbour's result array.  Then,
  chunk by chunk, it waits for the y-neighbour's chunk to land in its own result array, brings that chunk and its own
  into two scratch slots, adds them, stores the sum back over the chunk, and sends the sum into the x-neighbour's result
  array; two scratch slots alternate, a slot being reused only after its store-back and its copy to the x-neighbour
  have been read out.  At the end it waits for the 64 chunks the x-neighbour sends.

  Why every device ends with X[0] + X[1].  On its own half, device d's result rows hold  x_d + x_{y-neighbour}  = block
  d % 2 plus block 1 - d % 2.  The other half was summed the same way on the x-neighbour, whose block is again d % 2 and
  whose y-neighbour's is 1 - d % 2, and copied over.  So at every row the result is  X[d % 2] + X[1 - d % 2], which is
  X[0] + X[1] because addition of extended reals is commutative everywhere, infinities included; and 0 + a = a for every
  extended real a gives the reference's value.  No finiteness is used: the precondition is never opened.

  The run.  Every copy and signal is a duty of a schedule of rounds on the semaphore it credits; a wait takes a round's
  payloads, which name the contents the copies landed.  A device waits only at a level below everything it still owes
  (barrier, then the y-receives, then the x-receives), so no fair execution of the four devices gets stuck.  One body
  lemma, at a symbolic device and with the 64 chunk steps folded into loops over a symbolic chunk, takes a device from
  its entry assertion (its argument array at the launch contents, result and scratch arrays over anything, everything
  owed) to its exit assertion (argument unchanged, the result array at the contents above, nothing owed); the launch
  theorem turns the four bodies into the run of the program, every final state having each result array at those
  contents and each argument array as it was.

  The five conjuncts.  The kernel's text is proved once, for any float type: read at machine words it gives the word-level
  frame, read at extended reals the idealized frame, in both cases the run with the statement about the result dropped.
  The reference's frame is its run likewise.  The idealization rewrote no operation, so there is nothing to preserve.
  For the last conjunct the common value is the sum of the two blocks of the reference's argument: the kernel's run ends
  there by the bridge above, the reference's by reading its reshape and its sum over the leading axis index by index.
-/
import proofs.«900147_g7700000000000148_dist_ar_v7x_xy2x2_y_m32768_n1024_f32_1_alg».proof.Defs
import proofs.«900147_g7700000000000148_dist_ar_v7x_xy2x2_y_m32768_n1024_f32_1_alg».proof.Proof.Gen.Kernel
import proofs.«900147_g7700000000000148_dist_ar_v7x_xy2x2_y_m32768_n1024_f32_1_alg».proof.Proof.Gen.Kernel.Skeleton
import proofs.«900147_g7700000000000148_dist_ar_v7x_xy2x2_y_m32768_n1024_f32_1_alg».proof.Proof.Gen.Kernel.Launch
import proofs.«900147_g7700000000000148_dist_ar_v7x_xy2x2_y_m32768_n1024_f32_1_alg».proof.Proof.Gen.Kernel.Points
import proofs.«900147_g7700000000000148_dist_ar_v7x_xy2x2_y_m32768_n1024_f32_1_alg».proof.Proof.Gen.Kernel.Frame
import proofs.«900147_g7700000000000148_dist_ar_v7x_xy2x2_y_m32768_n1024_f32_1_alg».proof.Proof.Gen.KernelIdeal
import proofs.«900147_g7700000000000148_dist_ar_v7x_xy2x2_y_m32768_n1024_f32_1_alg».proof.Proof.Gen.KernelIdeal.Skeleton
import proofs.«900147_g7700000000000148_dist_ar_v7x_xy2x2_y_m32768_n1024_f32_1_alg».proof.Proof.Gen.KernelIdeal.Launch
import proofs.«900147_g7700000000000148_dist_ar_v7x_xy2x2_y_m32768_n1024_f32_1_alg».proof.Proof.Gen.KernelIdeal.Points
import proofs.«900147_g7700000000000148_dist_ar_v7x_xy2x2_y_m32768_n1024_f32_1_alg».proof.Proof.Gen.KernelIdeal.Frame
import proofs.«900147_g7700000000000148_dist_ar_v7x_xy2x2_y_m32768_n1024_f32_1_alg».proof.Proof.Gen.ReferenceIdeal
import proofs.«900147_g7700000000000148_dist_ar_v7x_xy2x2_y_m32768_n1024_f32_1_alg».proof.Proof.Gen.Pre_finite_inputs_Kernel
import proofs.«900147_g7700000000000148_dist_ar_v7x_xy2x2_y_m32768_n1024_f32_1_alg».proof.Proof.Gen.Pre_finite_inputs_ReferenceIdeal
import proofs.«900147_g7700000000000148_dist_ar_v7x_xy2x2_y_m32768_n1024_f32_1_alg».proof.Proof.Body
import proofs.«900147_g7700000000000148_dist_ar_v7x_xy2x2_y_m32768_n1024_f32_1_alg».proof.Proof.Bits.Body
import proofs.«900147_g7700000000000148_dist_ar_v7x_xy2x2_y_m32768_n1024_f32_1_alg».proof.Proof.Bridge
import Idealize.ShloMosaic.Adequacy
import Idealize.ShloMosaic.Init

noncomputable section

namespace Cert.Proof

open Idealize.ShloMosaic Idealize.SL.Sem

/-- The word-level kernel runs on the four devices and leaves every argument array as it was. -/
theorem frame_Kernel : Cert.frame_Kernel := fun m ρ _ =>
  (θ_run (Cert.Kernel.defs (F := Bits)) _ _).mono (fun _ h c => (h c).2)
    (Cert.Kernel.Hand.run_main (F := Bits) m ρ (Cert.Kernel.Hand.body_obligation m ρ (Cert.Kernel.Hand.body_sound m)))

/-- The run of the kernel's text read over the extended reals: each result array at the all-reduced contents, each
    argument array as it was. -/
theorem run_KernelIdeal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal)))
      ⟨m, fun _ => 0, ρ⟩ (fun r => ∀ c : Dev Cert.KernelIdeal.nD,
        r.2.mem ((c.tc : Thread Cert.KernelIdeal.nD Cert.KernelIdeal.τ).loc Cert.KernelIdeal.main_v1)
            = Cert.KernelIdeal.Hand.resBuf m c
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)) :=
  Cert.KernelIdeal.Hand.run_main (F := Ideal) m ρ
    (Cert.KernelIdeal.Hand.body_obligation m ρ (Cert.KernelIdeal.Hand.body_sound m))

/-- The idealized kernel's frame: that run, the statement about the result dropped. -/
theorem frame_KernelIdeal : Cert.frame_KernelIdeal := fun m ρ _ =>
  (θ_run (Cert.KernelIdeal.defs (F := Ideal)) _ _).mono (fun _ h c => (h c).2) (run_KernelIdeal m ρ)

/-- The reference's frame: its run, the statement about the result dropped. -/
theorem frame_ReferenceIdeal : Cert.frame_ReferenceIdeal := Cert.ReferenceIdeal.Hand.frame_ri

/-- No operation was rewritten by the idealization. -/
theorem preserves : Cert.preserves_Kernel_KernelIdeal := trivial

/-- Both programs end at the sum of the two blocks of the reference's argument. -/
theorem algebraic : Cert.algebraic_KernelIdeal_ReferenceIdeal :=
  Cert.KernelIdeal.Hand.algebraic_of_run run_KernelIdeal

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    frame_Kernel, frame_KernelIdeal, frame_ReferenceIdeal, preserves, algebraic⟩

end Cert.Proof

/-- info: 'Cert.Proof.claim' depends on axioms: [propext, Classical.choice, Quot.sound] -/
#guard_msgs in #print axioms Cert.Proof.claim

end
